-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S500000x256 : Shape := ⟨2, ![500000, 256]⟩
abbrev S1000x256 : Shape := ⟨2, ![1000, 256]⟩
abbrev S_ : Shape := ⟨0, ![]⟩
abbrev S16384x1 : Shape := ⟨2, ![16384, 1]⟩
abbrev S16384 : Shape := ⟨1, ![16384]⟩

class Facts : Prop where
  bcast_S_S500000x256 : S_.BroadcastsInDim S500000x256 (![] : Fin 0 → Fin S500000x256.rank)
  reducesTo_S500000x256_S_d0_1 : S500000x256.ReducesTo [0, 1] S_
  h_S_ : 0 < S_.numel
  bcast_S_S1000x256 : S_.BroadcastsInDim S1000x256 (![] : Fin 0 → Fin S1000x256.rank)
  reducesTo_S1000x256_S_d0_1 : S1000x256.ReducesTo [0, 1] S_
  slices_S16384x3_S16384x1_0_0 : S16384x3.Slices ![0, 0] S16384x1
  shapeCasts_S16384x1_S16384 : S16384x1.ShapeCasts S16384
  bcast_S_S16384 : S_.BroadcastsInDim S16384 (![] : Fin 0 → Fin S16384.rank)
  reducesTo_S16384_S_d0 : S16384.ReducesTo [0] S_
  slices_S16384x3_S16384x1_0_1 : S16384x3.Slices ![0, 1] S16384x1
  slices_S16384x3_S16384x1_0_2 : S16384x3.Slices ![0, 2] S16384x1

variable [Facts]

def fn_part4 {F : FTy → Type} [FloatOps F] (main_v63 : IVec S_ 1) (main_v70 : IVec S16384 1) : IVec S_ 1 :=
  let main_c_23 : IVec S_ 1 := constantI S_ 1 1#1
  let main_v71 : IVec S_ 1 := (fun x v => Host.reduce IntOp.andi x v reducesTo_S16384_S_d0 h_S_) main_v70 main_c_23
  let main_v72 : IVec S_ 1 := andi main_v63 main_v71
  main_v72

def fn_part3 {F : FTy → Type} [FloatOps F] (main_arg1 : IVec S16384x3 32) (main_v45 : IVec S_ 1) (main_v52 : IVec S16384 1) : IVec S_ 1 :=
  let main_c_17 : IVec S_ 1 := constantI S_ 1 1#1
  let main_v53 : IVec S_ 1 := (fun x v => Host.reduce IntOp.andi x v reducesTo_S16384_S_d0 h_S_) main_v52 main_c_17
  let main_v54 : IVec S_ 1 := andi main_v45 main_v53
  let main_v55 : IVec S16384x1 32 := (extractStridedSlice S16384x1 ![0, 1] · slices_S16384x3_S16384x1_0_1) main_arg1
  let main_v56 : IVec S16384 32 := shapeCast S16384 main_v55 shapeCasts_S16384x1_S16384
  let main_c_18 : IVec S_ 32 := constantI S_ 32 0#32
  let main_v57 : IVec S16384 32 := broadcastInDim S16384 ![] bcast_S_S16384 main_c_18
  let main_v58 : IVec S16384 1 := cmpi .sge main_v56 main_v57
  let main_c_19 : IVec S_ 32 := constantI S_ 32 1000#32
  let main_v59 : IVec S16384 32 := broadcastInDim S16384 ![] bcast_S_S16384 main_c_19
  let main_v60 : IVec S16384 1 := cmpi .slt main_v56 main_v59
  let main_v61 : IVec S16384 1 := andi main_v58 main_v60
  let main_c_20 : IVec S_ 1 := constantI S_ 1 1#1
  let main_v62 : IVec S_ 1 := (fun x v => Host.reduce IntOp.andi x v reducesTo_S16384_S_d0 h_S_) main_v61 main_c_20
  let main_v63 : IVec S_ 1 := andi main_v54 main_v62
  let main_v64 : IVec S16384x1 32 := (extractStridedSlice S16384x1 ![0, 2] · slices_S16384x3_S16384x1_0_2) main_arg1
  let main_v65 : IVec S16384 32 := shapeCast S16384 main_v64 shapeCasts_S16384x1_S16384
  let main_c_21 : IVec S_ 32 := constantI S_ 32 0#32
  let main_v66 : IVec S16384 32 := broadcastInDim S16384 ![] bcast_S_S16384 main_c_21
  let main_v67 : IVec S16384 1 := cmpi .sge main_v65 main_v66
  let main_c_22 : IVec S_ 32 := constantI S_ 32 500000#32
  let main_v68 : IVec S16384 32 := broadcastInDim S16384 ![] bcast_S_S16384 main_c_22
  let main_v69 : IVec S16384 1 := cmpi .slt main_v65 main_v68
  let main_v70 : IVec S16384 1 := andi main_v67 main_v69
  fn_part4 (F := F) main_v63 main_v70

def fn_part2 {F : FTy → Type} [FloatOps F] (main_arg0 : IVec S16384x3 32) (main_arg1 : IVec S16384x3 32) (main_v27 : IVec S_ 1) (main_v34 : IVec S16384 1) : IVec S_ 1 :=
  let main_c_11 : IVec S_ 1 := constantI S_ 1 1#1
  let main_v35 : IVec S_ 1 := (fun x v => Host.reduce IntOp.andi x v reducesTo_S16384_S_d0 h_S_) main_v34 main_c_11
  let main_v36 : IVec S_ 1 := andi main_v27 main_v35
  let main_v37 : IVec S16384x1 32 := (extractStridedSlice S16384x1 ![0, 2] · slices_S16384x3_S16384x1_0_2) main_arg0
  let main_v38 : IVec S16384 32 := shapeCast S16384 main_v37 shapeCasts_S16384x1_S16384
  let main_c_12 : IVec S_ 32 := constantI S_ 32 0#32
  let main_v39 : IVec S16384 32 := broadcastInDim S16384 ![] bcast_S_S16384 main_c_12
  let main_v40 : IVec S16384 1 := cmpi .sge main_v38 main_v39
  let main_c_13 : IVec S_ 32 := constantI S_ 32 500000#32
  let main_v41 : IVec S16384 32 := broadcastInDim S16384 ![] bcast_S_S16384 main_c_13
  let main_v42 : IVec S16384 1 := cmpi .slt main_v38 main_v41
  let main_v43 : IVec S16384 1 := andi main_v40 main_v42
  let main_c_14 : IVec S_ 1 := constantI S_ 1 1#1
  let main_v44 : IVec S_ 1 := (fun x v => Host.reduce IntOp.andi x v reducesTo_S16384_S_d0 h_S_) main_v43 main_c_14
  let main_v45 : IVec S_ 1 := andi main_v36 main_v44
  let main_v46 : IVec S16384x1 32 := (extractStridedSlice S16384x1 ![0, 0] · slices_S16384x3_S16384x1_0_0) main_arg1
  let main_v47 : IVec S16384 32 := shapeCast S16384 main_v46 shapeCasts_S16384x1_S16384
  let main_c_15 : IVec S_ 32 := constantI S_ 32 0#32
  let main_v48 : IVec S16384 32 := broadcastInDim S16384 ![] bcast_S_S16384 main_c_15
  let main_v49 : IVec S16384 1 := cmpi .sge main_v47 main_v48
  let main_c_16 : IVec S_ 32 := constantI S_ 32 500000#32
  let main_v50 : IVec S16384 32 := broadcastInDim S16384 ![] bcast_S_S16384 main_c_16
  let main_v51 : IVec S16384 1 := cmpi .slt main_v47 main_v50
  let main_v52 : IVec S16384 1 := andi main_v49 main_v51
  fn_part3 (F := F) main_arg1 main_v45 main_v52

def fn_part1 {F : FTy → Type} [FloatOps F] (main_arg0 : IVec S16384x3 32) (main_arg1 : IVec S16384x3 32) (main_v13 : IVec S_ 1) (main_v16 : IVec S1000x256 1) : IVec S_ 1 :=
  let main_c_5 : IVec S_ 1 := constantI S_ 1 1#1
  let main_v17 : IVec S_ 1 := (fun x v => Host.reduce IntOp.andi x v reducesTo_S1000x256_S_d0_1 h_S_) main_v16 main_c_5
  let main_v18 : IVec S_ 1 := andi main_v13 main_v17
  let main_v19 : IVec S16384x1 32 := (extractStridedSlice S16384x1 ![0, 0] · slices_S16384x3_S16384x1_0_0) main_arg0
  let main_v20 : IVec S16384 32 := shapeCast S16384 main_v19 shapeCasts_S16384x1_S16384
  let main_c_6 : IVec S_ 32 := constantI S_ 32 0#32
  let main_v21 : IVec S16384 32 := broadcastInDim S16384 ![] bcast_S_S16384 main_c_6
  let main_v22 : IVec S16384 1 := cmpi .sge main_v20 main_v21
  let main_c_7 : IVec S_ 32 := constantI S_ 32 500000#32
  let main_v23 : IVec S16384 32 := broadcastInDim S16384 ![] bcast_S_S16384 main_c_7
  let main_v24 : IVec S16384 1 := cmpi .slt main_v20 main_v23
  let main_v25 : IVec S16384 1 := andi main_v22 main_v24
  let main_c_8 : IVec S_ 1 := constantI S_ 1 1#1
  let main_v26 : IVec S_ 1 := (fun x v => Host.reduce IntOp.andi x v reducesTo_S16384_S_d0 h_S_) main_v25 main_c_8
  let main_v27 : IVec S_ 1 := andi main_v18 main_v26
  let main_v28 : IVec S16384x1 32 := (extractStridedSlice S16384x1 ![0, 1] · slices_S16384x3_S16384x1_0_1) main_arg0
  let main_v29 : IVec S16384 32 := shapeCast S16384 main_v28 shapeCasts_S16384x1_S16384
  let main_c_9 : IVec S_ 32 := constantI S_ 32 0#32
  let main_v30 : IVec S16384 32 := broadcastInDim S16384 ![] bcast_S_S16384 main_c_9
  let main_v31 : IVec S16384 1 := cmpi .sge main_v29 main_v30
  let main_c_10 : IVec S_ 32 := constantI S_ 32 1000#32
  let main_v32 : IVec S16384 32 := broadcastInDim S16384 ![] bcast_S_S16384 main_c_10
  let main_v33 : IVec S16384 1 := cmpi .slt main_v29 main_v32
  let main_v34 : IVec S16384 1 := andi main_v31 main_v33
  fn_part2 (F := F) main_arg0 main_arg1 main_v27 main_v34

def fn {F : FTy → Type} [FloatOps F] (main_arg0 : IVec S16384x3 32) (main_arg1 : IVec S16384x3 32) (main_arg2 : FVec F S500000x256 .f32) (main_arg3 : FVec F S500000x256 .f32) (main_arg4 : FVec F S1000x256 .f32) (main_arg5 : FVec F S1000x256 .f32) : IVec S_ 1 :=
  let main_v0 : FVec F S500000x256 .f32 := Host.absf main_arg2
  let main_cst : FVec F S_ .f32 := constant S_ .f32 0x7F800000#32
  let main_v1 : FVec F S500000x256 .f32 := broadcastInDim S500000x256 ![] bcast_S_S500000x256 main_cst
  let main_v2 : IVec S500000x256 1 := cmpf .olt main_v0 main_v1
  let main_c : IVec S_ 1 := constantI S_ 1 1#1
  let main_v3 : IVec S_ 1 := (fun x v => Host.reduce IntOp.andi x v reducesTo_S500000x256_S_d0_1 h_S_) main_v2 main_c
  let main_v4 : FVec F S500000x256 .f32 := Host.absf main_arg3
  let main_cst_0 : FVec F S_ .f32 := constant S_ .f32 0x7F800000#32
  let main_v5 : FVec F S500000x256 .f32 := broadcastInDim S500000x256 ![] bcast_S_S500000x256 main_cst_0
  let main_v6 : IVec S500000x256 1 := cmpf .olt main_v4 main_v5
  let main_c_1 : IVec S_ 1 := constantI S_ 1 1#1
  let main_v7 : IVec S_ 1 := (fun x v => Host.reduce IntOp.andi x v reducesTo_S500000x256_S_d0_1 h_S_) main_v6 main_c_1
  let main_v8 : IVec S_ 1 := andi main_v3 main_v7
  let main_v9 : FVec F S1000x256 .f32 := Host.absf main_arg4
  let main_cst_2 : FVec F S_ .f32 := constant S_ .f32 0x7F800000#32
  let main_v10 : FVec F S1000x256 .f32 := broadcastInDim S1000x256 ![] bcast_S_S1000x256 main_cst_2
  let main_v11 : IVec S1000x256 1 := cmpf .olt main_v9 main_v10
  let main_c_3 : IVec S_ 1 := constantI S_ 1 1#1
  let main_v12 : IVec S_ 1 := (fun x v => Host.reduce IntOp.andi x v reducesTo_S1000x256_S_d0_1 h_S_) main_v11 main_c_3
  let main_v13 : IVec S_ 1 := andi main_v8 main_v12
  let main_v14 : FVec F S1000x256 .f32 := Host.absf main_arg5
  let main_cst_4 : FVec F S_ .f32 := constant S_ .f32 0x7F800000#32
  let main_v15 : FVec F S1000x256 .f32 := broadcastInDim S1000x256 ![] bcast_S_S1000x256 main_cst_4
  let main_v16 : IVec S1000x256 1 := cmpf .olt main_v14 main_v15
  fn_part1 (F := F) main_arg0 main_arg1 main_v13 main_v16
-- ==== Kernel.lean ====
abbrev S16384x3 : Shape := ⟨2, ![16384, 3]⟩
abbrev S500000x256 : Shape := ⟨2, ![500000, 256]⟩
abbrev S1000x256 : Shape := ⟨2, ![1000, 256]⟩
abbrev S16384x1 : Shape := ⟨2, ![16384, 1]⟩
abbrev S16384 : Shape := ⟨1, ![16384]⟩
abbrev S500000x2x128 : Shape := ⟨3, ![500000, 2, 128]⟩
abbrev S1000x2x128 : Shape := ⟨3, ![1000, 2, 128]⟩
abbrev S2x1x1 : Shape := ⟨3, ![2, 1, 1]⟩
abbrev S1x2x128 : Shape := ⟨3, ![1, 2, 128]⟩
abbrev S1 : Shape := ⟨1, ![1]⟩
abbrev S1x1x1 : Shape := ⟨3, ![1, 1, 1]⟩
abbrev S1x2 : Shape := ⟨2, ![1, 2]⟩
abbrev S1x2x1 : Shape := ⟨3, ![1, 2, 1]⟩
abbrev S1x1 : Shape := ⟨2, ![1, 1]⟩
abbrev S_ : Shape := ⟨0, ![]⟩

abbrev nBuf : Space → Nat
  | .hbm => 24
  | .vmem => 26
  | .smem => 6
  | _ => 0

abbrev bufTy : (tb : Table) → Fin (tcTables nBuf tb) → BufTy
  | .hbm, ⟨0, _⟩ => ⟨S16384x3, .i32⟩
  | .hbm, ⟨1, _⟩ => ⟨S16384x3, .i32⟩
  | .hbm, ⟨2, _⟩ => ⟨S500000x256, .f32⟩
  | .hbm, ⟨3, _⟩ => ⟨S500000x256, .f32⟩
  | .hbm, ⟨4, _⟩ => ⟨S1000x256, .f32⟩
  | .hbm, ⟨5, _⟩ => ⟨S1000x256, .f32⟩
  | .hbm, ⟨6, _⟩ => ⟨S16384x1, .i32⟩
  | .hbm, ⟨7, _⟩ => ⟨S16384x1, .i32⟩
  | .hbm, ⟨8, _⟩ => ⟨S16384x1, .i32⟩
  | .hbm, ⟨9, _⟩ => ⟨S16384x1, .i32⟩
  | .hbm, ⟨10, _⟩ => ⟨S16384x1, .i32⟩
  | .hbm, ⟨11, _⟩ => ⟨S16384x1, .i32⟩
  | .hbm, ⟨12, _⟩ => ⟨S500000x2x128, .f32⟩
  | .hbm, ⟨13, _⟩ => ⟨S500000x2x128, .f32⟩
  | .hbm, ⟨14, _⟩ => ⟨S1000x2x128, .f32⟩
  | .hbm, ⟨15, _⟩ => ⟨S1000x2x128, .f32⟩
  | .hbm, ⟨16, _⟩ => ⟨S2x1x1, .f32⟩
  | .hbm, ⟨17, _⟩ => ⟨S1x1x1, .f32⟩
  | .hbm, ⟨18, _⟩ => ⟨S_, .f32⟩
  | .hbm, ⟨19, _⟩ => ⟨S1x1x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S1x2x128, .f32⟩
  | .local _ .vmem, ⟨1, _⟩ => ⟨S1x2x128, .f32⟩
  | .local _ .vmem, ⟨2, _⟩ => ⟨S1x2x128, .f32⟩
  | .local _ .vmem, ⟨3, _⟩ => ⟨S1x2x128, .f32⟩
  | .local _ .vmem, ⟨4, _⟩ => ⟨S1x2x128, .f32⟩
  | .local _ .vmem, ⟨5, _⟩ => ⟨S1x2x128, .f32⟩
  | .local _ .vmem, ⟨6, _⟩ => ⟨S1x2x128, .f32⟩
  | .local _ .vmem, ⟨7, _⟩ => ⟨S1x2x128, .f32⟩
  | .local _ .vmem, ⟨8, _⟩ => ⟨S1x2x128, .f32⟩
  | .local _ .vmem, ⟨9, _⟩ => ⟨S1x2x128, .f32⟩
  | .local _ .vmem, ⟨10, _⟩ => ⟨S1x2x128, .f32⟩
  | .local _ .vmem, ⟨11, _⟩ => ⟨S1x2x128, .f32⟩
  | .local _ .vmem, ⟨12, _⟩ => ⟨S1x2x128, .f32⟩
  | .local _ .vmem, ⟨13, _⟩ => ⟨S1x2x128, .f32⟩
  | .local _ .vmem, ⟨14, _⟩ => ⟨S1x2x128, .f32⟩
  | .local _ .vmem, ⟨15, _⟩ => ⟨S1x2x128, .f32⟩
  | .local _ .vmem, ⟨16, _⟩ => ⟨S1x2x128, .f32⟩
  | .local _ .vmem, ⟨17, _⟩ => ⟨S1x2x128, .f32⟩
  | .local _ .vmem, ⟨18, _⟩ => ⟨S1x2x128, .f32⟩
  | .local _ .vmem, ⟨19, _⟩ => ⟨S1x2x128, .f32⟩
  | .local _ .vmem, ⟨20, _⟩ => ⟨S1x2x128, .f32⟩
  | .local _ .vmem, ⟨21, _⟩ => ⟨S1x2x128, .f32⟩
  | .local _ .vmem, ⟨22, _⟩ => ⟨S1x2x128, .f32⟩
  | .local _ .vmem, ⟨23, _⟩ => ⟨S1x2x128, .f32⟩
  | .local _ .vmem, ⟨24, _⟩ => ⟨S1x1x1, .f32⟩
  | .local _ .vmem, ⟨25, _⟩ => ⟨S1x1x1, .f32⟩
  | .local _ .smem, ⟨0, _⟩ => ⟨S16384, .i32⟩
  | .local _ .smem, ⟨1, _⟩ => ⟨S16384, .i32⟩
  | .local _ .smem, ⟨2, _⟩ => ⟨S16384, .i32⟩
  | .local _ .smem, ⟨3, _⟩ => ⟨S16384, .i32⟩
  | .local _ .smem, ⟨4, _⟩ => ⟨S16384, .i32⟩
  | .local _ .smem, ⟨5, _⟩ => ⟨S16384, .i32⟩
  | _, _ => ⟨S16384x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v2 : Ref sig .tc := ⟨.hbm, 7, rfl⟩
abbrev main_v4 : Ref sig .tc := ⟨.hbm, 8, rfl⟩
abbrev main_v6 : Ref sig .tc := ⟨.hbm, 9, rfl⟩
abbrev main_v8 : Ref sig .tc := ⟨.hbm, 10, rfl⟩
abbrev main_v10 : Ref sig .tc := ⟨.hbm, 11, rfl⟩
abbrev main_v12 : Ref sig .tc := ⟨.hbm, 12, rfl⟩
abbrev main_v13 : Ref sig .tc := ⟨.hbm, 13, rfl⟩
abbrev main_v14 : Ref sig .tc := ⟨.hbm, 14, rfl⟩
abbrev main_v15 : Ref sig .tc := ⟨.hbm, 15, rfl⟩
abbrev main_v16 : Ref sig .tc := ⟨.hbm, 16, rfl⟩
abbrev main_v17 : Ref sig .tc := ⟨.hbm, 17, rfl⟩
abbrev main_v18 : Ref sig .tc := ⟨.hbm, 18, rfl⟩
abbrev main_v19 : Ref sig .tc := ⟨.hbm, 19, rfl⟩
abbrev main_v20 : Ref sig .tc := ⟨.hbm, 20, rfl⟩
abbrev main_v21 : Ref sig .tc := ⟨.hbm, 21, rfl⟩
abbrev main_cst : Ref sig .tc := ⟨.hbm, 22, rfl⟩
abbrev main_v22 : Ref sig .tc := ⟨.hbm, 23, rfl⟩
abbrev main_v1 : Ref sig .tc := ⟨.smem, 0, rfl⟩
abbrev main_v5 : Ref sig .tc := ⟨.smem, 1, rfl⟩
abbrev main_v3 : Ref sig .tc := ⟨.smem, 2, rfl⟩
abbrev main_v7 : Ref sig .tc := ⟨.smem, 3, rfl⟩
abbrev main_v11 : Ref sig .tc := ⟨.smem, 4, rfl⟩
abbrev main_v9 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 8192], ![false, false]⟩

abbrev pre0 : Pipeline.Prefetch sig := ⟨6, ![main_v1.idx, main_v5.idx, main_v3.idx, main_v7.idx, main_v11.idx, main_v9.idx], fun | 0 => main_v1.names | 1 => main_v5.names | 2 => main_v3.names | 3 => main_v7.names | 4 => main_v11.names | 5 => main_v9.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let c8192_i32 : BitVec 32 := 8192#32
  let v0 : BitVec 32 := Scalar.muli arg0 c8192_i32
  let arg1 : BitVec 32 := BitVec.ofNat 32 (i 1).val
  let v1 : BitVec 32 := Scalar.addi v0 arg1
  let v2 : Index := Scalar.indexCast v1
  ![v2.toNat]
def cc0_transform_0 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8192_i32 : BitVec 32 := 8192#32
  let v0 : BitVec 32 := Scalar.muli arg0 c8192_i32
  let v1 : BitVec 32 := Scalar.addi v0 arg1
  let v2 : Index := Scalar.indexCast v1
  let v3 : BitVec 32 := pf.at 0 (Rect.unit (s := S16384) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_1 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8192_i32 : BitVec 32 := 8192#32
  let v0 : BitVec 32 := Scalar.muli arg0 c8192_i32
  let v1 : BitVec 32 := Scalar.addi v0 arg1
  let v2 : Index := Scalar.indexCast v1
  let v3 : BitVec 32 := pf.at 0 (Rect.unit (s := S16384) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_2 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8192_i32 : BitVec 32 := 8192#32
  let v0 : BitVec 32 := Scalar.muli arg0 c8192_i32
  let v1 : BitVec 32 := Scalar.addi v0 arg1
  let v2 : Index := Scalar.indexCast v1
  let v3 : BitVec 32 := pf.at 1 (Rect.unit (s := S16384) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_3 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8192_i32 : BitVec 32 := 8192#32
  let v0 : BitVec 32 := Scalar.muli arg0 c8192_i32
  let v1 : BitVec 32 := Scalar.addi v0 arg1
  let v2 : Index := Scalar.indexCast v1
  let v3 : BitVec 32 := pf.at 1 (Rect.unit (s := S16384) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_4 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8192_i32 : BitVec 32 := 8192#32
  let v0 : BitVec 32 := Scalar.muli arg0 c8192_i32
  let v1 : BitVec 32 := Scalar.addi v0 arg1
  let v2 : Index := Scalar.indexCast v1
  let v3 : BitVec 32 := pf.at 2 (Rect.unit (s := S16384) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_5 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8192_i32 : BitVec 32 := 8192#32
  let v0 : BitVec 32 := Scalar.muli arg0 c8192_i32
  let v1 : BitVec 32 := Scalar.addi v0 arg1
  let v2 : Index := Scalar.indexCast v1
  let v3 : BitVec 32 := pf.at 2 (Rect.unit (s := S16384) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_6 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8192_i32 : BitVec 32 := 8192#32
  let v0 : BitVec 32 := Scalar.muli arg0 c8192_i32
  let v1 : BitVec 32 := Scalar.addi v0 arg1
  let v2 : Index := Scalar.indexCast v1
  let v3 : BitVec 32 := pf.at 3 (Rect.unit (s := S16384) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_7 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8192_i32 : BitVec 32 := 8192#32
  let v0 : BitVec 32 := Scalar.muli arg0 c8192_i32
  let v1 : BitVec 32 := Scalar.addi v0 arg1
  let v2 : Index := Scalar.indexCast v1
  let v3 : BitVec 32 := pf.at 3 (Rect.unit (s := S16384) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_8 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8192_i32 : BitVec 32 := 8192#32
  let v0 : BitVec 32 := Scalar.muli arg0 c8192_i32
  let v1 : BitVec 32 := Scalar.addi v0 arg1
  let v2 : Index := Scalar.indexCast v1
  let v3 : BitVec 32 := pf.at 4 (Rect.unit (s := S16384) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_9 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8192_i32 : BitVec 32 := 8192#32
  let v0 : BitVec 32 := Scalar.muli arg0 c8192_i32
  let v1 : BitVec 32 := Scalar.addi v0 arg1
  let v2 : Index := Scalar.indexCast v1
  let v3 : BitVec 32 := pf.at 4 (Rect.unit (s := S16384) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_10 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8192_i32 : BitVec 32 := 8192#32
  let v0 : BitVec 32 := Scalar.muli arg0 c8192_i32
  let v1 : BitVec 32 := Scalar.addi v0 arg1
  let v2 : Index := Scalar.indexCast v1
  let v3 : BitVec 32 := pf.at 5 (Rect.unit (s := S16384) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_11 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8192_i32 : BitVec 32 := 8192#32
  let v0 : BitVec 32 := Scalar.muli arg0 c8192_i32
  let v1 : BitVec 32 := Scalar.addi v0 arg1
  let v2 : Index := Scalar.indexCast v1
  let v3 : BitVec 32 := pf.at 5 (Rect.unit (s := S16384) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

class Facts₀ : Prop where
  slices_S16384x3_S16384x1_0_0 : S16384x3.Slices ![0, 0] S16384x1
  shapeCasts_S16384x1_S16384 : S16384x1.ShapeCasts S16384
  slices_S16384x3_S16384x1_0_1 : S16384x3.Slices ![0, 1] S16384x1
  slices_S16384x3_S16384x1_0_2 : S16384x3.Slices ![0, 2] S16384x1
  shapeCasts_S500000x256_S500000x2x128 : S500000x256.ShapeCasts S500000x2x128
  shapeCasts_S1000x256_S1000x2x128 : S1000x256.ShapeCasts S1000x2x128
  numel1_S1 : S1.numel = 1
  inb_S1x1x1_S1x1x1_0_0_0 : ∀ a, (![0, 0, 0] : Fin 3 → Nat) a + S1x1x1.size a ≤ S1x1x1.size a
  h_S1x1x1 : 0 < S1x1x1.numel
  inb_S1x2x128_S1x2x128_0_0_0 : ∀ a, (![0, 0, 0] : Fin 3 → Nat) a + S1x2x128.size a ≤ S1x2x128.size a
  h_S1x2x128 : 0 < S1x2x128.numel
  shapeCasts_S1x2x128_S1x2x128 : S1x2x128.ShapeCasts S1x2x128
  reduces_S1x2x128_S1x2 : S1x2x128.Reduces [2] S1x2
  shapeCasts_S1x2_S1x2x1 : S1x2.ShapeCasts S1x2x1
  reduces_S1x2x1_S1x1 : S1x2x1.Reduces [1] S1x1
  shapeCasts_S1x1_S1x1x1 : S1x1.ShapeCasts S1x1x1
  broadcasts_S1x1x1_S1x2x128 : S1x1x1.Broadcasts S1x2x128
  shapeCasts_S1x1x1_S1x1x1 : S1x1x1.ShapeCasts S1x1x1
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  hrank0 : 0 < grid0.rank
  k0_off1_inb : ∀ i : grid0.Coords, ∀ a, (k0_off1 i) a + S1.size a ≤ S16384.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ {F : FTy → Type} [FloatOps F] (pf : pre0.Contents (Elt F)) (i i' : grid0.Coords), (∀ a, reads0_5 a = true → i a = i' a) → cc0_transform_5 k0_off1_inb numel1_S1 pf i = cc0_transform_5 k0_off1_inb numel1_S1 pf i'
  hstage0_6 : ∀ j, (stage0_6 j).IsWhole
  nbuf0_6 : grid0.bufCount reads0_6 false = 2
  hreads0_6 : ∀ {F : FTy → Type} [FloatOps F] (pf : pre0.Contents (Elt F)) (i i' : grid0.Coords), (∀ a, reads0_6 a = true → i a = i' a) → cc0_transform_6 k0_off1_inb numel1_S1 pf i = cc0_transform_6 k0_off1_inb numel1_S1 pf i'
  hstage0_7 : ∀ j, (stage0_7 j).IsWhole
  nbuf0_7 : grid0.bufCount reads0_7 false = 2
  hreads0_7 : ∀ {F : FTy → Type} [FloatOps F] (pf : pre0.Contents (Elt F)) (i i' : grid0.Coords), (∀ a, reads0_7 a = true → i a = i' a) → cc0_transform_7 k0_off1_inb numel1_S1 pf i = cc0_transform_7 k0_off1_inb numel1_S1 pf i'
  hstage0_8 : ∀ j, (stage0_8 j).IsWhole
  nbuf0_8 : grid0.bufCount reads0_8 false = 2
  hreads0_8 : ∀ {F : FTy → Type} [FloatOps F] (pf : pre0.Contents (Elt F)) (i i' : grid0.Coords), (∀ a, reads0_8 a = true → i a = i' a) → cc0_transform_8 k0_off1_inb numel1_S1 pf i = cc0_transform_8 k0_off1_inb numel1_S1 pf i'
  hstage0_9 : ∀ j, (stage0_9 j).IsWhole
  nbuf0_9 : grid0.bufCount reads0_9 false = 2
  hreads0_9 : ∀ {F : FTy → Type} [FloatOps F] (pf : pre0.Contents (Elt F)) (i i' : grid0.Coords), (∀ a, reads0_9 a = true → i a = i' a) → cc0_transform_9 k0_off1_inb numel1_S1 pf i = cc0_transform_9 k0_off1_inb numel1_S1 pf i'
  hstage0_10 : ∀ j, (stage0_10 j).IsWhole
  nbuf0_10 : grid0.bufCount reads0_10 false = 2
  hreads0_10 : ∀ {F : FTy → Type} [FloatOps F] (pf : pre0.Contents (Elt F)) (i i' : grid0.Coords), (∀ a, reads0_10 a = true → i a = i' a) → cc0_transform_10 k0_off1_inb numel1_S1 pf i = cc0_transform_10 k0_off1_inb numel1_S1 pf i'
  hstage0_11 : ∀ j, (stage0_11 j).IsWhole
  nbuf0_11 : grid0.bufCount reads0_11 false = 2
  hreads0_11 : ∀ {F : FTy → Type} [FloatOps F] (pf : pre0.Contents (Elt F)) (i i' : grid0.Coords), (∀ a, reads0_11 a = true → i a = i' a) → cc0_transform_11 k0_off1_inb numel1_S1 pf i = cc0_transform_11 k0_off1_inb numel1_S1 pf i'
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x1.size a ≤ S2x1x1.size a
  hwx0_12 : ∀ i : grid0.Coords, EltTy.bits .f32 = 32 ∨ (Rect.block (s := S2x1x1) S1x1x1.size (cc0_transform_12 i) (hinb0_12 i)).WholeWords (EltTy.packing .f32)

variable [Facts₀]

abbrev spec0_0 : Pipeline.WinSpec sig grid0.rank :=
  Pipeline.WinSpec.ofSpec (Memref.whole main_v12) S1x2x128.size reads0_0 false false 2 stage0_0 sem0_0 nbuf0_0 hstage0_0

abbrev spec0_1 : Pipeline.WinSpec sig grid0.rank :=
  Pipeline.WinSpec.ofSpec (Memref.whole main_v13) S1x2x128.size reads0_1 false false 2 stage0_1 sem0_1 nbuf0_1 hstage0_1

abbrev spec0_2 : Pipeline.WinSpec sig grid0.rank :=
  Pipeline.WinSpec.ofSpec (Memref.whole main_v12) S1x2x128.size reads0_2 false false 2 stage0_2 sem0_2 nbuf0_2 hstage0_2

abbrev spec0_3 : Pipeline.WinSpec sig grid0.rank :=
  Pipeline.WinSpec.ofSpec (Memref.whole main_v13) S1x2x128.size reads0_3 false false 2 stage0_3 sem0_3 nbuf0_3 hstage0_3

abbrev spec0_4 : Pipeline.WinSpec sig grid0.rank :=
  Pipeline.WinSpec.ofSpec (Memref.whole main_v14) S1x2x128.size reads0_4 false false 2 stage0_4 sem0_4 nbuf0_4 hstage0_4

abbrev spec0_5 : Pipeline.WinSpec sig grid0.rank :=
  Pipeline.WinSpec.ofSpec (Memref.whole main_v15) S1x2x128.size reads0_5 false false 2 stage0_5 sem0_5 nbuf0_5 hstage0_5

abbrev spec0_6 : Pipeline.WinSpec sig grid0.rank :=
  Pipeline.WinSpec.ofSpec (Memref.whole main_v12) S1x2x128.size reads0_6 false false 2 stage0_6 sem0_6 nbuf0_6 hstage0_6

abbrev spec0_7 : Pipeline.WinSpec sig grid0.rank :=
  Pipeline.WinSpec.ofSpec (Memref.whole main_v13) S1x2x128.size reads0_7 false false 2 stage0_7 sem0_7 nbuf0_7 hstage0_7

abbrev spec0_8 : Pipeline.WinSpec sig grid0.rank :=
  Pipeline.WinSpec.ofSpec (Memref.whole main_v12) S1x2x128.size reads0_8 false false 2 stage0_8 sem0_8 nbuf0_8 hstage0_8

abbrev spec0_9 : Pipeline.WinSpec sig grid0.rank :=
  Pipeline.WinSpec.ofSpec (Memref.whole main_v13) S1x2x128.size reads0_9 false false 2 stage0_9 sem0_9 nbuf0_9 hstage0_9

abbrev spec0_10 : Pipeline.WinSpec sig grid0.rank :=
  Pipeline.WinSpec.ofSpec (Memref.whole main_v14) S1x2x128.size reads0_10 false false 2 stage0_10 sem0_10 nbuf0_10 hstage0_10

abbrev spec0_11 : Pipeline.WinSpec sig grid0.rank :=
  Pipeline.WinSpec.ofSpec (Memref.whole main_v15) S1x2x128.size reads0_11 false false 2 stage0_11 sem0_11 nbuf0_11 hstage0_11

abbrev spec0_12 : Pipeline.WinSpec sig grid0.rank :=
  Pipeline.WinSpec.ofSpec (Memref.whole main_v16) S1x1x1.size reads0_12 true false 2 stage0_12 sem0_12 nbuf0_12 hstage0_12

abbrev spec0 : Fin 13 → Pipeline.WinSpec sig grid0.rank := fun | 0 => spec0_0 | 1 => spec0_1 | 2 => spec0_2 | 3 => spec0_3 | 4 => spec0_4 | 5 => spec0_5 | 6 => spec0_6 | 7 => spec0_7 | 8 => spec0_8 | 9 => spec0_9 | 10 => spec0_10 | 11 => spec0_11 | 12 => spec0_12 | ⟨_ + 13, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | 9 => nbuf0_9 | 10 => nbuf0_10 | 11 => nbuf0_11 | 12 => nbuf0_12 | ⟨_ + 13, h⟩ => absurd h (Nat.not_lt.2 (Nat.le_add_left _ _))
abbrev ix0 (pf : pre0.Contents (Elt F)) : (w : Fin 13) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | 4 => cc0_transform_4 k0_off1_inb numel1_S1 pf | 5 => cc0_transform_5 k0_off1_inb numel1_S1 pf | 6 => cc0_transform_6 k0_off1_inb numel1_S1 pf | 7 => cc0_transform_7 k0_off1_inb numel1_S1 pf | 8 => cc0_transform_8 k0_off1_inb numel1_S1 pf | 9 => cc0_transform_9 k0_off1_inb numel1_S1 pf | 10 => cc0_transform_10 k0_off1_inb numel1_S1 pf | 11 => cc0_transform_11 k0_off1_inb numel1_S1 pf | 12 => cc0_transform_12 | ⟨_ + 13, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | 4 => hreads0_4 pf | 5 => hreads0_5 pf | 6 => hreads0_6 pf | 7 => hreads0_7 pf | 8 => hreads0_8 pf | 9 => hreads0_9 pf | 10 => hreads0_10 pf | 11 => hreads0_11 pf | 12 => hreads0_12 | ⟨_ + 13, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x2x128.size a ≤ S500000x2x128.size a), EltTy.bits .f32 = 32 ∨ (Rect.block (s := S500000x2x128) S1x2x128.size (cc0_transform_0 k0_off1_inb numel1_S1 pf i) h).WholeWords (EltTy.packing .f32)) ∧
  (∀ i : grid0.Coords, ∃ h : (∀ a, (cc0_transform_1 k0_off1_inb numel1_S1 pf i a + 1) * S1x2x128.size a ≤ S500000x2x128.size a), EltTy.bits .f32 = 32 ∨ (Rect.block (s := S500000x2x128) S1x2x128.size (cc0_transform_1 k0_off1_inb numel1_S1 pf i) h).WholeWords (EltTy.packing .f32)) ∧
  (∀ i : grid0.Coords, ∃ h : (∀ a, (cc0_transform_2 k0_off1_inb numel1_S1 pf i a + 1) * S1x2x128.size a ≤ S500000x2x128.size a), EltTy.bits .f32 = 32 ∨ (Rect.block (s := S500000x2x128) S1x2x128.size (cc0_transform_2 k0_off1_inb numel1_S1 pf i) h).WholeWords (EltTy.packing .f32)) ∧
  (∀ i : grid0.Coords, ∃ h : (∀ a, (cc0_transform_3 k0_off1_inb numel1_S1 pf i a + 1) * S1x2x128.size a ≤ S500000x2x128.size a), EltTy.bits .f32 = 32 ∨ (Rect.block (s := S500000x2x128) S1x2x128.size (cc0_transform_3 k0_off1_inb numel1_S1 pf i) h).WholeWords (EltTy.packing .f32)) ∧
  (∀ i : grid0.Coords, ∃ h : (∀ a, (cc0_transform_4 k0_off1_inb numel1_S1 pf i a + 1) * S1x2x128.size a ≤ S1000x2x128.size a), EltTy.bits .f32 = 32 ∨ (Rect.block (s := S1000x2x128) S1x2x128.size (cc0_transform_4 k0_off1_inb numel1_S1 pf i) h).WholeWords (EltTy.packing .f32)) ∧
  (∀ i : grid0.Coords, ∃ h : (∀ a, (cc0_transform_5 k0_off1_inb numel1_S1 pf i a + 1) * S1x2x128.size a ≤ S1000x2x128.size a), EltTy.bits .f32 = 32 ∨ (Rect.block (s := S1000x2x128) S1x2x128.size (cc0_transform_5 k0_off1_inb numel1_S1 pf i) h).WholeWords (EltTy.packing .f32)) ∧
  (∀ i : grid0.Coords, ∃ h : (∀ a, (cc0_transform_6 k0_off1_inb numel1_S1 pf i a + 1) * S1x2x128.size a ≤ S500000x2x128.size a), EltTy.bits .f32 = 32 ∨ (Rect.block (s := S500000x2x128) S1x2x128.size (cc0_transform_6 k0_off1_inb numel1_S1 pf i) h).WholeWords (EltTy.packing .f32)) ∧
  (∀ i : grid0.Coords, ∃ h : (∀ a, (cc0_transform_7 k0_off1_inb numel1_S1 pf i a + 1) * S1x2x128.size a ≤ S500000x2x128.size a), EltTy.bits .f32 = 32 ∨ (Rect.block (s := S500000x2x128) S1x2x128.size (cc0_transform_7 k0_off1_inb numel1_S1 pf i) h).WholeWords (EltTy.packing .f32)) ∧
  (∀ i : grid0.Coords, ∃ h : (∀ a, (cc0_transform_8 k0_off1_inb numel1_S1 pf i a + 1) * S1x2x128.size a ≤ S500000x2x128.size a), EltTy.bits .f32 = 32 ∨ (Rect.block (s := S500000x2x128) S1x2x128.size (cc0_transform_8 k0_off1_inb numel1_S1 pf i) h).WholeWords (EltTy.packing .f32)) ∧
  (∀ i : grid0.Coords, ∃ h : (∀ a, (cc0_transform_9 k0_off1_inb numel1_S1 pf i a + 1) * S1x2x128.size a ≤ S500000x2x128.size a), EltTy.bits .f32 = 32 ∨ (Rect.block (s := S500000x2x128) S1x2x128.size (cc0_transform_9 k0_off1_inb numel1_S1 pf i) h).WholeWords (EltTy.packing .f32)) ∧
  (∀ i : grid0.Coords, ∃ h : (∀ a, (cc0_transform_10 k0_off1_inb numel1_S1 pf i a + 1) * S1x2x128.size a ≤ S1000x2x128.size a), EltTy.bits .f32 = 32 ∨ (Rect.block (s := S1000x2x128) S1x2x128.size (cc0_transform_10 k0_off1_inb numel1_S1 pf i) h).WholeWords (EltTy.packing .f32)) ∧
  (∀ i : grid0.Coords, ∃ h : (∀ a, (cc0_transform_11 k0_off1_inb numel1_S1 pf i a + 1) * S1x2x128.size a ≤ S1000x2x128.size a), EltTy.bits .f32 = 32 ∨ (Rect.block (s := S1000x2x128) S1x2x128.size (cc0_transform_11 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2.1 i).elim fun h _ => h a | 4 => fun i a => (hok.2.2.2.2.1 i).elim fun h _ => h a | 5 => fun i a => (hok.2.2.2.2.2.1 i).elim fun h _ => h a | 6 => fun i a => (hok.2.2.2.2.2.2.1 i).elim fun h _ => h a | 7 => fun i a => (hok.2.2.2.2.2.2.2.1 i).elim fun h _ => h a | 8 => fun i a => (hok.2.2.2.2.2.2.2.2.1 i).elim fun h _ => h a | 9 => fun i a => (hok.2.2.2.2.2.2.2.2.2.1 i).elim fun h _ => h a | 10 => fun i a => (hok.2.2.2.2.2.2.2.2.2.2.1 i).elim fun h _ => h a | 11 => fun i a => (hok.2.2.2.2.2.2.2.2.2.2.2 i).elim fun h _ => h a | 12 => hinb0_12 | ⟨_ + 13, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2.1 i).elim fun _ h => h | 4 => fun i => (hok.2.2.2.2.1 i).elim fun _ h => h | 5 => fun i => (hok.2.2.2.2.2.1 i).elim fun _ h => h | 6 => fun i => (hok.2.2.2.2.2.2.1 i).elim fun _ h => h | 7 => fun i => (hok.2.2.2.2.2.2.2.1 i).elim fun _ h => h | 8 => fun i => (hok.2.2.2.2.2.2.2.2.1 i).elim fun _ h => h | 9 => fun i => (hok.2.2.2.2.2.2.2.2.2.1 i).elim fun _ h => h | 10 => fun i => (hok.2.2.2.2.2.2.2.2.2.2.1 i).elim fun _ h => h | 11 => fun i => (hok.2.2.2.2.2.2.2.2.2.2.2 i).elim fun _ h => h | 12 => hwx0_12 | ⟨_ + 13, h⟩ => absurd h (Nat.not_lt.2 (Nat.le_add_left _ _))

class Facts : Prop extends Facts₀ where
  harr0 : ∀ w, (spec0 w).arr.IsWhole

variable [Facts]
-- ==== ReferenceIdeal.lean ====
abbrev S16384x3 : Shape := ⟨2, ![16384, 3]⟩
abbrev S500000x256 : Shape := ⟨2, ![500000, 256]⟩
abbrev S1000x256 : Shape := ⟨2, ![1000, 256]⟩
abbrev S16384x1 : Shape := ⟨2, ![16384, 1]⟩
abbrev S16384 : Shape := ⟨1, ![16384]⟩
abbrev S_ : Shape := ⟨0, ![]⟩
abbrev S16384x256 : Shape := ⟨2, ![16384, 256]⟩

abbrev nBuf : Space → Nat
  | .hbm => 183
  | .vmem => 0
  | .smem => 0
  | _ => 0

abbrev hbmTy0_0 (i : Nat) : BufTy := match i % 128 with
  | 0 => ⟨S16384x3, .i32⟩
  | 1 => ⟨S16384x3, .i32⟩
  | 2 => ⟨S500000x256, .f32⟩
  | 3 => ⟨S500000x256, .f32⟩
  | 4 => ⟨S1000x256, .f32⟩
  | 5 => ⟨S1000x256, .f32⟩
  | 6 => ⟨S16384x1, .i32⟩
  | 7 => ⟨S16384, .i32⟩
  | 8 => ⟨S16384x1, .i32⟩
  | 9 => ⟨S16384, .i32⟩
  | 10 => ⟨S16384x1, .i32⟩
  | 11 => ⟨S16384, .i32⟩
  | 12 => ⟨S_, .i32⟩
  | 13 => ⟨S16384, .i32⟩
  | 14 => ⟨S16384, .i1⟩
  | 15 => ⟨S_, .i32⟩
  | 16 => ⟨S16384, .i32⟩
  | 17 => ⟨S16384, .i32⟩
  | 18 => ⟨S16384, .i32⟩
  | 19 => ⟨S16384x1, .i32⟩
  | 20 => ⟨S16384x256, .f32⟩
  | 21 => ⟨S_, .i32⟩
  | 22 => ⟨S16384, .i32⟩
  | 23 => ⟨S16384, .i1⟩
  | 24 => ⟨S_, .i32⟩
  | 25 => ⟨S16384, .i32⟩
  | 26 => ⟨S16384, .i32⟩
  | 27 => ⟨S16384, .i32⟩
  | 28 => ⟨S16384x1, .i32⟩
  | 29 => ⟨S16384x256, .f32⟩
  | 30 => ⟨S_, .i32⟩
  | 31 => ⟨S16384, .i32⟩
  | 32 => ⟨S16384, .i1⟩
  | 33 => ⟨S_, .i32⟩
  | 34 => ⟨S16384, .i32⟩
  | 35 => ⟨S16384, .i32⟩
  | 36 => ⟨S16384, .i32⟩
  | 37 => ⟨S16384x1, .i32⟩
  | 38 => ⟨S16384x256, .f32⟩
  | 39 => ⟨S_, .i32⟩
  | 40 => ⟨S16384, .i32⟩
  | 41 => ⟨S16384, .i1⟩
  | 42 => ⟨S_, .i32⟩
  | 43 => ⟨S16384, .i32⟩
  | 44 => ⟨S16384, .i32⟩
  | 45 => ⟨S16384, .i32⟩
  | 46 => ⟨S16384x1, .i32⟩
  | 47 => ⟨S16384x256, .f32⟩
  | 48 => ⟨S_, .i32⟩
  | 49 => ⟨S16384, .i32⟩
  | 50 => ⟨S16384, .i1⟩
  | 51 => ⟨S_, .i32⟩
  | 52 => ⟨S16384, .i32⟩
  | 53 => ⟨S16384, .i32⟩
  | 54 => ⟨S16384, .i32⟩
  | 55 => ⟨S16384x1, .i32⟩
  | 56 => ⟨S16384x256, .f32⟩
  | 57 => ⟨S_, .i32⟩
  | 58 => ⟨S16384, .i32⟩
  | 59 => ⟨S16384, .i1⟩
  | 60 => ⟨S_, .i32⟩
  | 61 => ⟨S16384, .i32⟩
  | 62 => ⟨S16384, .i32⟩
  | 63 => ⟨S16384, .i32⟩
  | 64 => ⟨S16384x1, .i32⟩
  | 65 => ⟨S16384x256, .f32⟩
  | 66 => ⟨S16384x256, .f32⟩
  | 67 => ⟨S_, .f32⟩
  | 68 => ⟨S16384, .f32⟩
  | 69 => ⟨S16384x1, .f32⟩
  | 70 => ⟨S16384x256, .f32⟩
  | 71 => ⟨S16384x256, .f32⟩
  | 72 => ⟨S16384x256, .f32⟩
  | 73 => ⟨S16384x256, .f32⟩
  | 74 => ⟨S_, .f32⟩
  | 75 => ⟨S16384, .f32⟩
  | 76 => ⟨S16384x1, .f32⟩
  | 77 => ⟨S16384x256, .f32⟩
  | 78 => ⟨S16384x256, .f32⟩
  | 79 => ⟨S16384x256, .f32⟩
  | 80 => ⟨S16384x256, .f32⟩
  | 81 => ⟨S16384x256, .f32⟩
  | 82 => ⟨S_, .f32⟩
  | 83 => ⟨S16384x256, .f32⟩
  | 84 => ⟨S16384x256, .f32⟩
  | 85 => ⟨S16384x256, .f32⟩
  | 86 => ⟨S_, .f32⟩
  | 87 => ⟨S16384, .f32⟩
  | 88 => ⟨S16384, .f32⟩
  | 89 => ⟨S16384x1, .i32⟩
  | 90 => ⟨S16384, .i32⟩
  | 91 => ⟨S16384x1, .i32⟩
  | 92 => ⟨S16384, .i32⟩
  | 93 => ⟨S16384x1, .i32⟩
  | 94 => ⟨S16384, .i32⟩
  | 95 => ⟨S_, .i32⟩
  | 96 => ⟨S16384, .i32⟩
  | 97 => ⟨S16384, .i1⟩
  | 98 => ⟨S_, .i32⟩
  | 99 => ⟨S16384, .i32⟩
  | 100 => ⟨S16384, .i32⟩
  | 101 => ⟨S16384, .i32⟩
  | 102 => ⟨S16384x1, .i32⟩
  | 103 => ⟨S16384x256, .f32⟩
  | 104 => ⟨S_, .i32⟩
  | 105 => ⟨S16384, .i32⟩
  | 106 => ⟨S16384, .i1⟩
  | 107 => ⟨S_, .i32⟩
  | 108 => ⟨S16384, .i32⟩
  | 109 => ⟨S16384, .i32⟩
  | 110 => ⟨S16384, .i32⟩
  | 111 => ⟨S16384x1, .i32⟩
  | 112 => ⟨S16384x256, .f32⟩
  | 113 => ⟨S_, .i32⟩
  | 114 => ⟨S16384, .i32⟩
  | 115 => ⟨S16384, .i1⟩
  | 116 => ⟨S_, .i32⟩
  | 117 => ⟨S16384, .i32⟩
  | 118 => ⟨S16384, .i32⟩
  | 119 => ⟨S16384, .i32⟩
  | 120 => ⟨S16384x1, .i32⟩
  | 121 => ⟨S16384x256, .f32⟩
  | 122 => ⟨S_, .i32⟩
  | 123 => ⟨S16384, .i32⟩
  | 124 => ⟨S16384, .i1⟩
  | 125 => ⟨S_, .i32⟩
  | 126 => ⟨S16384, .i32⟩
  | 127 => ⟨S16384, .i32⟩
  | _ => ⟨S16384x3, .i32⟩

abbrev hbmTy0_1 (i : Nat) : BufTy := match i % 128 with
  | 0 => ⟨S16384, .i32⟩
  | 1 => ⟨S16384x1, .i32⟩
  | 2 => ⟨S16384x256, .f32⟩
  | 3 => ⟨S_, .i32⟩
  | 4 => ⟨S16384, .i32⟩
  | 5 => ⟨S16384, .i1⟩
  | 6 => ⟨S_, .i32⟩
  | 7 => ⟨S16384, .i32⟩
  | 8 => ⟨S16384, .i32⟩
  | 9 => ⟨S16384, .i32⟩
  | 10 => ⟨S16384x1, .i32⟩
  | 11 => ⟨S16384x256, .f32⟩
  | 12 => ⟨S_, .i32⟩
  | 13 => ⟨S16384, .i32⟩
  | 14 => ⟨S16384, .i1⟩
  | 15 => ⟨S_, .i32⟩
  | 16 => ⟨S16384, .i32⟩
  | 17 => ⟨S16384, .i32⟩
  | 18 => ⟨S16384, .i32⟩
  | 19 => ⟨S16384x1, .i32⟩
  | 20 => ⟨S16384x256, .f32⟩
  | 21 => ⟨S16384x256, .f32⟩
  | 22 => ⟨S_, .f32⟩
  | 23 => ⟨S16384, .f32⟩
  | 24 => ⟨S16384x1, .f32⟩
  | 25 => ⟨S16384x256, .f32⟩
  | 26 => ⟨S16384x256, .f32⟩
  | 27 => ⟨S16384x256, .f32⟩
  | 28 => ⟨S16384x256, .f32⟩
  | 29 => ⟨S_, .f32⟩
  | 30 => ⟨S16384, .f32⟩
  | 31 => ⟨S16384x1, .f32⟩
  | 32 => ⟨S16384x256, .f32⟩
  | 33 => ⟨S16384x256, .f32⟩
  | 34 => ⟨S16384x256, .f32⟩
  | 35 => ⟨S16384x256, .f32⟩
  | 36 => ⟨S16384x256, .f32⟩
  | 37 => ⟨S_, .f32⟩
  | 38 => ⟨S16384x256, .f32⟩
  | 39 => ⟨S16384x256, .f32⟩
  | 40 => ⟨S16384x256, .f32⟩
  | 41 => ⟨S_, .f32⟩
  | 42 => ⟨S16384, .f32⟩
  | 43 => ⟨S16384, .f32⟩
  | 44 => ⟨S16384, .f32⟩
  | 45 => ⟨S_, .f32⟩
  | 46 => ⟨S16384, .f32⟩
  | 47 => ⟨S16384, .f32⟩
  | 48 => ⟨S_, .f32⟩
  | 49 => ⟨S16384, .f32⟩
  | 50 => ⟨S16384, .f32⟩
  | 51 => ⟨S_, .f32⟩
  | 52 => ⟨S_, .f32⟩
  | 53 => ⟨S_, .f32⟩
  | 54 => ⟨S_, .f32⟩
  | _ => ⟨S16384x3, .i32⟩

abbrev hbmTy (i : Nat) : BufTy := match i / 128 with
  | 0 => hbmTy0_0 i
  | 1 => hbmTy0_1 i
  | _ => ⟨S16384x3, .i32⟩

abbrev bufTy : (tb : Table) → Fin (tcTables nBuf tb) → BufTy
  | .hbm, ⟨i, _⟩ => hbmTy i
  | _, _ => ⟨S16384x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_7 : Ref sig .tc := ⟨.hbm, 48, rfl⟩
abbrev main_v34 : Ref sig .tc := ⟨.hbm, 49, rfl⟩
abbrev main_v35 : Ref sig .tc := ⟨.hbm, 50, rfl⟩
abbrev main_c_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_9 : Ref sig .tc := ⟨.hbm, 57, rfl⟩
abbrev main_v41 : Ref sig .tc := ⟨.hbm, 58, rfl⟩
abbrev main_v42 : Ref sig .tc := ⟨.hbm, 59, rfl⟩
abbrev main_c_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_12 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_c_14 : Ref sig .tc := ⟨.hbm, 95, rfl⟩
abbrev main_v73 : Ref sig .tc := ⟨.hbm, 96, rfl⟩
abbrev main_v74 : Ref sig .tc := ⟨.hbm, 97, rfl⟩
abbrev main_c_15 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_c_16 : Ref sig .tc := ⟨.hbm, 104, rfl⟩
abbrev main_v80 : Ref sig .tc := ⟨.hbm, 105, rfl⟩
abbrev main_v81 : Ref sig .tc := ⟨.hbm, 106, rfl⟩
abbrev main_c_17 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_c_18 : Ref sig .tc := ⟨.hbm, 113, rfl⟩
abbrev main_v87 : Ref sig .tc := ⟨.hbm, 114, rfl⟩
abbrev main_v88 : Ref sig .tc := ⟨.hbm, 115, rfl⟩
abbrev main_c_19 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_c_20 : Ref sig .tc := ⟨.hbm, 122, rfl⟩
abbrev main_v94 : Ref sig .tc := ⟨.hbm, 123, rfl⟩
abbrev main_v95 : Ref sig .tc := ⟨.hbm, 124, rfl⟩
abbrev main_c_21 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_c_22 : Ref sig .tc := ⟨.hbm, 131, rfl⟩
abbrev main_v101 : Ref sig .tc := ⟨.hbm, 132, rfl⟩
abbrev main_v102 : Ref sig .tc := ⟨.hbm, 133, rfl⟩
abbrev main_c_23 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_c_24 : Ref sig .tc := ⟨.hbm, 140, rfl⟩
abbrev main_v108 : Ref sig .tc := ⟨.hbm, 141, rfl⟩
abbrev main_v109 : Ref sig .tc := ⟨.hbm, 142, rfl⟩
abbrev main_c_25 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_cst_26 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_27 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_cst_28 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_cst_29 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_30 : Ref sig .tc := ⟨.hbm, 173, rfl⟩
abbrev main_v135 : Ref sig .tc := ⟨.hbm, 174, rfl⟩
abbrev main_v136 : Ref sig .tc := ⟨.hbm, 175, rfl⟩
abbrev main_call0_cst : Ref sig .tc := ⟨.hbm, 176, rfl⟩
abbrev main_call0_v0 : Ref sig .tc := ⟨.hbm, 177, rfl⟩
abbrev main_v137 : Ref sig .tc := ⟨.hbm, 178, rfl⟩
abbrev main_cst_31 : Ref sig .tc := ⟨.hbm, 179, rfl⟩
abbrev main_v138 : Ref sig .tc := ⟨.hbm, 180, rfl⟩
abbrev main_cst_32 : Ref sig .tc := ⟨.hbm, 181, rfl⟩
abbrev main_v139 : Ref sig .tc := ⟨.hbm, 182, rfl⟩

abbrev nD : Nat := 1
abbrev τ : Topo := Topo.v7x

variable {F : FTy → Type} [FloatOps F]

class Facts₀ : Prop where
  slices_S16384x3_S16384x1_0_0 : S16384x3.Slices ![0, 0] S16384x1
  shapeCasts_S16384x1_S16384 : S16384x1.ShapeCasts S16384
  slices_S16384x3_S16384x1_0_1 : S16384x3.Slices ![0, 1] S16384x1
  slices_S16384x3_S16384x1_0_2 : S16384x3.Slices ![0, 2] S16384x1
  bcast_S_S16384 : S_.BroadcastsInDim S16384 (![] : Fin 0 → Fin S16384.rank)
  bcast_S16384_S16384x1_0 : S16384.BroadcastsInDim S16384x1 (![0] : Fin 1 → Fin S16384x1.rank)
  reducesTo_S16384x256_S16384_d1 : S16384x256.ReducesTo [1] S16384
  h_S_ : 0 < S_.numel
  bcast_S16384x1_S16384x256_0_1 : S16384x1.BroadcastsInDim S16384x256 (![0, 1] : Fin 2 → Fin S16384x256.rank)
  bcast_S_S16384x256 : S_.BroadcastsInDim S16384x256 (![] : Fin 0 → Fin S16384x256.rank)
  reducesTo_S16384_S_d0 : S16384.ReducesTo [0] S_
  gather_S500000x256_S16384x1_S16384x256_1_0_n_n_0_1_1256_wf : GatherDims.WF S500000x256 S16384x1 S16384x256 [1] [0] [] [0] [] 1 ![1, 256]
  gather_S1000x256_S16384x1_S16384x256_1_0_n_n_0_1_1256_wf : GatherDims.WF S1000x256 S16384x1 S16384x256 [1] [0] [] [0] [] 1 ![1, 256]

variable [Facts₀]

def gather_S500000x256_S16384x1_S16384x256_1_0_n_n_0_1_1256 : GatherDims S500000x256 S16384x1 S16384x256 where
  offsetDims := [1]
  collapsedSliceDims := [0]
  operandBatchingDims := []
  startIndicesBatchingDims := []
  startIndexMap := [0]
  indexVectorDim := 1
  sliceSizes := ![1, 256]
  wf := gather_S500000x256_S16384x1_S16384x256_1_0_n_n_0_1_1256_wf
def gather_S1000x256_S16384x1_S16384x256_1_0_n_n_0_1_1256 : GatherDims S1000x256 S16384x1 S16384x256 where
  offsetDims := [1]
  collapsedSliceDims := [0]
  operandBatchingDims := []
  startIndicesBatchingDims := []
  startIndexMap := [0]
  indexVectorDim := 1
  sliceSizes := ![1, 256]
  wf := gather_S1000x256_S16384x1_S16384x256_1_0_n_n_0_1_1256_wf

class Facts : Prop extends Facts₀ where

variable [Facts]
-- ==== Proof.K.Tables.lean ====
/-
  The kernel region's entry: what the sixteen host operations before it leave in the core's buffers, the six index
  tables among them, and the side condition the region asks of the tables.

  @main slices each of the two triple arrays into its three columns (heads, relations, tails) and hands the six columns
  to the region as prefetched tables; sample `i`'s block of each gathered window is row `table[i]` of its embedding
  table, so the region runs only where every word of a table names a row of the table it indexes: heads and tails
  below 500000, relations below 1000.
-/
import proofs.«412037_j48361331753003_2_alg».proof.Proof.Gen.Kernel.Launch
import proofs.«412037_j48361331753003_2_alg».proof.Proof.Gen.Kernel.Skeleton
import Idealize.ShloMosaic.Lib.Pipeline.FrameSuffix
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch, as the host operations' valuation, -/
abbrev V₀ (c : Dev nD) : Valuation τ sig (Elt F) := fun b => m (c, b)
/-- and when the region is entered: the sixteen operations have run. -/
abbrev V (c : Dev nD) (b : Ref sig .tc) : Buf (Elt F) ((c : Thread nD τ).loc b) :=
  StableHlo.after ([hostOps0] : List (List (HloOp τ sig (Elt F)))).flatten (V₀ m c) b

/-- The six tables' contents when the region is entered (the program runs on one device). -/
def tbl : pre0.Contents (Elt F) := fun j => V m (0 : Dev nD) (pre0.ref j)

theorem V_pre (c : Dev nD) (j : Fin 6) : V m c (pre0.ref j) = tbl m j := by
  obtain rfl : c = 0 := Subsingleton.elim _ _; rfl

/-- Every word of each table names a row of the table it indexes: the heads and tails of the positive and of the
    negative triples rows of the entity tables, the relations rows of the relation tables. -/
structure TblRange : Prop where
  hpos : ∀ x, (tbl m 0 x).toNat < 500000
  tpos : ∀ x, (tbl m 1 x).toNat < 500000
  rpos : ∀ x, (tbl m 2 x).toNat < 1000
  hneg : ∀ x, (tbl m 3 x).toNat < 500000
  tneg : ∀ x, (tbl m 4 x).toNat < 500000
  rneg : ∀ x, (tbl m 5 x).toNat < 1000

/-- The region's side condition of the tables: every gathered window's block inside its array, at every point. -/
abbrev Ok : Prop := ok0 (F := F) (tbl m)

/-- A block one row high at row `w` of an entity table lies inside it when `w` names a row, -/
theorem blockE (w : BitVec 32) (hw : w.toNat < 500000) :
    ∀ a, ((![w.toNat, (0#32).toNat, (0#32).toNat] : Fin 3 → Nat) a + 1) * S1x2x128.size a ≤ S500000x2x128.size a := by
  intro a; fin_cases a <;> simp [S1x2x128, S500000x2x128] <;> omega
/-- and likewise of a relation table. -/
theorem blockR (w : BitVec 32) (hw : w.toNat < 1000) :
    ∀ a, ((![w.toNat, (0#32).toNat, (0#32).toNat] : Fin 3 → Nat) a + 1) * S1x2x128.size a ≤ S1000x2x128.size a := by
  intro a; fin_cases a <;> simp [S1x2x128, S1000x2x128] <;> omega

/-- Tables in range meet the region's side condition: each window's block index is its table's word at the sample. -/
theorem ok_of_range (h : TblRange m) : Ok m := by
  refine ⟨fun i => ?_, fun i => ?_, fun i => ?_, fun i => ?_, fun i => ?_, fun i => ?_, fun i => ?_, fun i => ?_,
    fun i => ?_, fun i => ?_, fun i => ?_, fun i => ?_⟩
  · obtain ⟨w, hw, e⟩ : ∃ w : BitVec 32, w.toNat < 500000 ∧ cc0_transform_0 k0_off1_inb numel1_S1 (tbl m) i = ![w.toNat, (0#32).toNat, (0#32).toNat] := ⟨_, h.hpos _, rfl⟩
    exact ⟨fun a => by rw [e]; exact blockE w hw a, Or.inl rfl⟩
  · obtain ⟨w, hw, e⟩ : ∃ w : BitVec 32, w.toNat < 500000 ∧ cc0_transform_1 k0_off1_inb numel1_S1 (tbl m) i = ![w.toNat, (0#32).toNat, (0#32).toNat] := ⟨_, h.hpos _, rfl⟩
    exact ⟨fun a => by rw [e]; exact blockE w hw a, Or.inl rfl⟩
  · obtain ⟨w, hw, e⟩ : ∃ w : BitVec 32, w.toNat < 500000 ∧ cc0_transform_2 k0_off1_inb numel1_S1 (tbl m) i = ![w.toNat, (0#32).toNat, (0#32).toNat] := ⟨_, h.tpos _, rfl⟩
    exact ⟨fun a => by rw [e]; exact blockE w hw a, Or.inl rfl⟩
  · obtain ⟨w, hw, e⟩ : ∃ w : BitVec 32, w.toNat < 500000 ∧ cc0_transform_3 k0_off1_inb numel1_S1 (tbl m) i = ![w.toNat, (0#32).toNat, (0#32).toNat] := ⟨_, h.tpos _, rfl⟩
    exact ⟨fun a => by rw [e]; exact blockE w hw a, Or.inl rfl⟩
  · obtain ⟨w, hw, e⟩ : ∃ w : BitVec 32, w.toNat < 1000 ∧ cc0_transform_4 k0_off1_inb numel1_S1 (tbl m) i = ![w.toNat, (0#32).toNat, (0#32).toNat] := ⟨_, h.rpos _, rfl⟩
    exact ⟨fun a => by rw [e]; exact blockR w hw a, Or.inl rfl⟩
  · obtain ⟨w, hw, e⟩ : ∃ w : BitVec 32, w.toNat < 1000 ∧ cc0_transform_5 k0_off1_inb numel1_S1 (tbl m) i = ![w.toNat, (0#32).toNat, (0#32).toNat] := ⟨_, h.rpos _, rfl⟩
    exact ⟨fun a => by rw [e]; exact blockR w hw a, Or.inl rfl⟩
  · obtain ⟨w, hw, e⟩ : ∃ w : BitVec 32, w.toNat < 500000 ∧ cc0_transform_6 k0_off1_inb numel1_S1 (tbl m) i = ![w.toNat, (0#32).toNat, (0#32).toNat] := ⟨_, h.hneg _, rfl⟩
    exact ⟨fun a => by rw [e]; exact blockE w hw a, Or.inl rfl⟩
  · obtain ⟨w, hw, e⟩ : ∃ w : BitVec 32, w.toNat < 500000 ∧ cc0_transform_7 k0_off1_inb numel1_S1 (tbl m) i = ![w.toNat, (0#32).toNat, (0#32).toNat] := ⟨_, h.hneg _, rfl⟩
    exact ⟨fun a => by rw [e]; exact blockE w hw a, Or.inl rfl⟩
  · obtain ⟨w, hw, e⟩ : ∃ w : BitVec 32, w.toNat < 500000 ∧ cc0_transform_8 k0_off1_inb numel1_S1 (tbl m) i = ![w.toNat, (0#32).toNat, (0#32).toNat] := ⟨_, h.tneg _, rfl⟩
    exact ⟨fun a => by rw [e]; exact blockE w hw a, Or.inl rfl⟩
  · obtain ⟨w, hw, e⟩ : ∃ w : BitVec 32, w.toNat < 500000 ∧ cc0_transform_9 k0_off1_inb numel1_S1 (tbl m) i = ![w.toNat, (0#32).toNat, (0#32).toNat] := ⟨_, h.tneg _, rfl⟩
    exact ⟨fun a => by rw [e]; exact blockE w hw a, Or.inl rfl⟩
  · obtain ⟨w, hw, e⟩ : ∃ w : BitVec 32, w.toNat < 1000 ∧ cc0_transform_10 k0_off1_inb numel1_S1 (tbl m) i = ![w.toNat, (0#32).toNat, (0#32).toNat] := ⟨_, h.rneg _, rfl⟩
    exact ⟨fun a => by rw [e]; exact blockR w hw a, Or.inl rfl⟩
  · obtain ⟨w, hw, e⟩ : ∃ w : BitVec 32, w.toNat < 1000 ∧ cc0_transform_11 k0_off1_inb numel1_S1 (tbl m) i = ![w.toNat, (0#32).toNat, (0#32).toNat] := ⟨_, h.rneg _, rfl⟩
    exact ⟨fun a => by rw [e]; exact blockR w hw a, Or.inl rfl⟩

/-- The tables' contents as admissible contents, and the pipeline at them. -/
abbrev adm (hO : Ok m) : (pcfg0 (F := F)).Adm := ⟨tbl m, hO⟩
abbrev cfgM (hO : Ok m) : Pipeline.Cfg sig Λ₀ := cfg0 (adm m hO)

end Cert.Kernel.Hand

end
-- ==== Proof.K.Body.lean ====
/-
  The kernel body at one grid point, run on whole staging buffers.

  The body reads the twelve gathered rows (the positive triple's head, head projection, tail, tail projection,
  relation, relation projection, then the negative triple's), and adds the sample's hinge to the core's cell of the
  output. At the first sample of a core's half of the batch (second grid coordinate 0) it first resets the cell to
  zero, so the cell's earlier contents do not matter there; at every later sample the cell holds the running sum.
  Each case is run once, for any staging buffers and any contents; what the cell ends with is the list of pieces the
  run stores into it.
-/
import proofs.«412037_j48361331753003_2_alg».proof.Proof.Gen.Kernel.Launch
import proofs.«412037_j48361331753003_2_alg».proof.Proof.Gen.Kernel.Skeleton
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch: the second grid coordinate is zero (the first sample of a core's half). -/
abbrev condReset (i : grid0.Coords) : Prop :=
  (Scalar.cmpi .ne (Scalar.extui (Scalar.cmpi .eq (BitVec.ofNat 32 (i 1).val) 0#32)) 0#32) = 1#1

set_option maxHeartbeats 4000000 in
/-- The body where the cell is reset first: the rows' buffers come back as they were; the cell, handed over at
    anything, ends with the run's pieces. -/
noncomputable def runReset (c : Dev nD) (i : grid0.Coords) (arg2 : Memref sig .tc .smem S16384 .i32) (harg2 : arg2.IsWhole) (arg3 : Memref sig .tc .smem S16384 .i32) (harg3 : arg3.IsWhole) (arg4 : Memref sig .tc .smem S16384 .i32) (harg4 : arg4.IsWhole) (arg5 : Memref sig .tc .smem S16384 .i32) (harg5 : arg5.IsWhole) (arg6 : Memref sig .tc .smem S16384 .i32) (harg6 : arg6.IsWhole) (arg7 : Memref sig .tc .smem S16384 .i32) (harg7 : arg7.IsWhole) (arg8 : Memref sig .tc .vmem S1x2x128 .f32) (harg8 : arg8.IsWhole) (arg9 : Memref sig .tc .vmem S1x2x128 .f32) (harg9 : arg9.IsWhole) (arg10 : Memref sig .tc .vmem S1x2x128 .f32) (harg10 : arg10.IsWhole) (arg11 : Memref sig .tc .vmem S1x2x128 .f32) (harg11 : arg11.IsWhole) (arg12 : Memref sig .tc .vmem S1x2x128 .f32) (harg12 : arg12.IsWhole) (arg13 : Memref sig .tc .vmem S1x2x128 .f32) (harg13 : arg13.IsWhole) (arg14 : Memref sig .tc .vmem S1x2x128 .f32) (harg14 : arg14.IsWhole) (arg15 : Memref sig .tc .vmem S1x2x128 .f32) (harg15 : arg15.IsWhole) (arg16 : Memref sig .tc .vmem S1x2x128 .f32) (harg16 : arg16.IsWhole) (arg17 : Memref sig .tc .vmem S1x2x128 .f32) (harg17 : arg17.IsWhole) (arg18 : Memref sig .tc .vmem S1x2x128 .f32) (harg18 : arg18.IsWhole) (arg19 : Memref sig .tc .vmem S1x2x128 .f32) (harg19 : arg19.IsWhole) (arg20 : Memref sig .tc .vmem S1x1x1 .f32) (harg20 : arg20.IsWhole) (hc0 : condReset i)
    (x0 x1 x2 x3 x4 x5 x6 x7 x8 x9 x10 x11 : Vec F S1x2x128 .f32) :
    { L : List (View.Piece (Elt F) S1x1x1 .f32) //
      ∀ (E : Set ℕ) (K : PUnit → sProp 𝕄),
        iprop(owns (c : Thread nD τ) arg8 fullShare x0 ∗ owns (c : Thread nD τ) arg9 fullShare x1 ∗ owns (c : Thread nD τ) arg10 fullShare x2 ∗ owns (c : Thread nD τ) arg11 fullShare x3 ∗ owns (c : Thread nD τ) arg12 fullShare x4 ∗ owns (c : Thread nD τ) arg13 fullShare x5 ∗ owns (c : Thread nD τ) arg14 fullShare x6 ∗ owns (c : Thread nD τ) arg15 fullShare x7 ∗ owns (c : Thread nD τ) arg16 fullShare x8 ∗ owns (c : Thread nD τ) arg17 fullShare x9 ∗ owns (c : Thread nD τ) arg18 fullShare x10 ∗ owns (c : Thread nD τ) arg19 fullShare x11 ∗ (∃ d, owns (c : Thread nD τ) arg20 fullShare d)
            ∗ (iprop(owns (c : Thread nD τ) arg8 fullShare x0 ∗ owns (c : Thread nD τ) arg9 fullShare x1 ∗ owns (c : Thread nD τ) arg10 fullShare x2 ∗ owns (c : Thread nD τ) arg11 fullShare x3 ∗ owns (c : Thread nD τ) arg12 fullShare x4 ∗ owns (c : Thread nD τ) arg13 fullShare x5 ∗ owns (c : Thread nD τ) arg14 fullShare x6 ∗ owns (c : Thread nD τ) arg15 fullShare x7 ∗ owns (c : Thread nD τ) arg16 fullShare x8 ∗ owns (c : Thread nD τ) arg17 fullShare x9 ∗ owns (c : Thread nD τ) arg18 fullShare x10 ∗ owns (c : Thread nD τ) arg19 fullShare x11 ∗ (∃ f, arg20.view.loc (c : Thread nD τ) ↦[arg20.view.set]{fullShare} arg20.view.writes (Elt F) f L)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
    obtain rfl := harg8.eq_unread hf0; obtain rfl := harg9.eq_unread hf1; obtain rfl := harg10.eq_unread hf2; obtain rfl := harg11.eq_unread hf3; obtain rfl := harg12.eq_unread hf4; obtain rfl := harg13.eq_unread hf5; obtain rfl := harg14.eq_unread hf6; obtain rfl := harg15.eq_unread hf7; obtain rfl := harg16.eq_unread hf8; obtain rfl := harg17.eq_unread hf9; obtain rfl := harg18.eq_unread hf10; obtain rfl := harg19.eq_unread hf11
    sl_exec (disch := first | exact hc0)
    sl_step
    iapply Hk
    isplitl [H0]
    · iexists _; isplitr; · ipureintro; exact harg8.read_unread _
      iexact H0
    isplitl [H1]
    · iexists _; isplitr; · ipureintro; exact harg9.read_unread _
      iexact H1
    isplitl [H2]
    · iexists _; isplitr; · ipureintro; exact harg10.read_unread _
      iexact H2
    isplitl [H3]
    · iexists _; isplitr; · ipureintro; exact harg11.read_unread _
      iexact H3
    isplitl [H4]
    · iexists _; isplitr; · ipureintro; exact harg12.read_unread _
      iexact H4
    isplitl [H5]
    · iexists _; isplitr; · ipureintro; exact harg13.read_unread _
      iexact H5
    isplitl [H6]
    · iexists _; isplitr; · ipureintro; exact harg14.read_unread _
      iexact H6
    isplitl [H7]
    · iexists _; isplitr; · ipureintro; exact harg15.read_unread _
      iexact H7
    isplitl [H8]
    · iexists _; isplitr; · ipureintro; exact harg16.read_unread _
      iexact H8
    isplitl [H9]
    · iexists _; isplitr; · ipureintro; exact harg17.read_unread _
      iexact H9
    isplitl [H10]
    · iexists _; isplitr; · ipureintro; exact harg18.read_unread _
      iexact H10
    isplitl [H11]
    · iexists _; isplitr; · ipureintro; exact harg19.read_unread _
      iexact H11
    iexists _; iexact H12

set_option maxHeartbeats 4000000 in
/-- The body where the cell is not reset: the cell, at its running contents `xo`, ends with the run's pieces. -/
noncomputable def runAdd (c : Dev nD) (i : grid0.Coords) (arg2 : Memref sig .tc .smem S16384 .i32) (harg2 : arg2.IsWhole) (arg3 : Memref sig .tc .smem S16384 .i32) (harg3 : arg3.IsWhole) (arg4 : Memref sig .tc .smem S16384 .i32) (harg4 : arg4.IsWhole) (arg5 : Memref sig .tc .smem S16384 .i32) (harg5 : arg5.IsWhole) (arg6 : Memref sig .tc .smem S16384 .i32) (harg6 : arg6.IsWhole) (arg7 : Memref sig .tc .smem S16384 .i32) (harg7 : arg7.IsWhole) (arg8 : Memref sig .tc .vmem S1x2x128 .f32) (harg8 : arg8.IsWhole) (arg9 : Memref sig .tc .vmem S1x2x128 .f32) (harg9 : arg9.IsWhole) (arg10 : Memref sig .tc .vmem S1x2x128 .f32) (harg10 : arg10.IsWhole) (arg11 : Memref sig .tc .vmem S1x2x128 .f32) (harg11 : arg11.IsWhole) (arg12 : Memref sig .tc .vmem S1x2x128 .f32) (harg12 : arg12.IsWhole) (arg13 : Memref sig .tc .vmem S1x2x128 .f32) (harg13 : arg13.IsWhole) (arg14 : Memref sig .tc .vmem S1x2x128 .f32) (harg14 : arg14.IsWhole) (arg15 : Memref sig .tc .vmem S1x2x128 .f32) (harg15 : arg15.IsWhole) (arg16 : Memref sig .tc .vmem S1x2x128 .f32) (harg16 : arg16.IsWhole) (arg17 : Memref sig .tc .vmem S1x2x128 .f32) (harg17 : arg17.IsWhole) (arg18 : Memref sig .tc .vmem S1x2x128 .f32) (harg18 : arg18.IsWhole) (arg19 : Memref sig .tc .vmem S1x2x128 .f32) (harg19 : arg19.IsWhole) (arg20 : Memref sig .tc .vmem S1x1x1 .f32) (harg20 : arg20.IsWhole) (hc0 : ¬condReset i)
    (x0 x1 x2 x3 x4 x5 x6 x7 x8 x9 x10 x11 : Vec F S1x2x128 .f32) (xo : Vec F S1x1x1 .f32) :
    { L : List (View.Piece (Elt F) S1x1x1 .f32) //
      ∀ (E : Set ℕ) (K : PUnit → sProp 𝕄),
        iprop(owns (c : Thread nD τ) arg8 fullShare x0 ∗ owns (c : Thread nD τ) arg9 fullShare x1 ∗ owns (c : Thread nD τ) arg10 fullShare x2 ∗ owns (c : Thread nD τ) arg11 fullShare x3 ∗ owns (c : Thread nD τ) arg12 fullShare x4 ∗ owns (c : Thread nD τ) arg13 fullShare x5 ∗ owns (c : Thread nD τ) arg14 fullShare x6 ∗ owns (c : Thread nD τ) arg15 fullShare x7 ∗ owns (c : Thread nD τ) arg16 fullShare x8 ∗ owns (c : Thread nD τ) arg17 fullShare x9 ∗ owns (c : Thread nD τ) arg18 fullShare x10 ∗ owns (c : Thread nD τ) arg19 fullShare x11 ∗ owns (c : Thread nD τ) arg20 fullShare xo
            ∗ (iprop(owns (c : Thread nD τ) arg8 fullShare x0 ∗ owns (c : Thread nD τ) arg9 fullShare x1 ∗ owns (c : Thread nD τ) arg10 fullShare x2 ∗ owns (c : Thread nD τ) arg11 fullShare x3 ∗ owns (c : Thread nD τ) arg12 fullShare x4 ∗ owns (c : Thread nD τ) arg13 fullShare x5 ∗ owns (c : Thread nD τ) arg14 fullShare x6 ∗ owns (c : Thread nD τ) arg15 fullShare x7 ∗ owns (c : Thread nD τ) arg16 fullShare x8 ∗ owns (c : Thread nD τ) arg17 fullShare x9 ∗ owns (c : Thread nD τ) arg18 fullShare x10 ∗ owns (c : Thread nD τ) arg19 fullShare x11 ∗ (∃ f, arg20.view.loc (c : Thread nD τ) ↦[arg20.view.set]{fullShare} arg20.view.writes (Elt F) f L)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg8.eq_unread hf0; obtain rfl := harg9.eq_unread hf1; obtain rfl := harg10.eq_unread hf2; obtain rfl := harg11.eq_unread hf3; obtain rfl := harg12.eq_unread hf4; obtain rfl := harg13.eq_unread hf5; obtain rfl := harg14.eq_unread hf6; obtain rfl := harg15.eq_unread hf7; obtain rfl := harg16.eq_unread hf8; obtain rfl := harg17.eq_unread hf9; obtain rfl := harg18.eq_unread hf10; obtain rfl := harg19.eq_unread hf11; obtain rfl := harg20.eq_unread hf12
    sl_exec (disch := first | exact hc0)
    sl_step
    iapply Hk
    isplitl [H0]
    · iexists _; isplitr; · ipureintro; exact harg8.read_unread _
      iexact H0
    isplitl [H1]
    · iexists _; isplitr; · ipureintro; exact harg9.read_unread _
      iexact H1
    isplitl [H2]
    · iexists _; isplitr; · ipureintro; exact harg10.read_unread _
      iexact H2
    isplitl [H3]
    · iexists _; isplitr; · ipureintro; exact harg11.read_unread _
      iexact H3
    isplitl [H4]
    · iexists _; isplitr; · ipureintro; exact harg12.read_unread _
      iexact H4
    isplitl [H5]
    · iexists _; isplitr; · ipureintro; exact harg13.read_unread _
      iexact H5
    isplitl [H6]
    · iexists _; isplitr; · ipureintro; exact harg14.read_unread _
      iexact H6
    isplitl [H7]
    · iexists _; isplitr; · ipureintro; exact harg15.read_unread _
      iexact H7
    isplitl [H8]
    · iexists _; isplitr; · ipureintro; exact harg16.read_unread _
      iexact H8
    isplitl [H9]
    · iexists _; isplitr; · ipureintro; exact harg17.read_unread _
      iexact H9
    isplitl [H10]
    · iexists _; isplitr; · ipureintro; exact harg18.read_unread _
      iexact H10
    isplitl [H11]
    · iexists _; isplitr; · ipureintro; exact harg19.read_unread _
      iexact H11
    iexists _; iexact H12

end Cert.Kernel.Hand

end
-- ==== Proof.K.Sched.lean ====
/-
  Where, over the 16384 grid points, the body resets its cell and where the pipeline writes the cell back.

  The grid is two halves of 8192 samples. The body's one branch is taken at the first sample of each half; the output
  window's block index is the half's number, so the pipeline writes the cell back after the last sample of each half.
  Both are decided over the grid.
-/
import proofs.«412037_j48361331753003_2_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch is taken at the first sample of each half of the batch. -/
theorem hcond : ∀ t : Fin grid0.N, condReset (grid0.coords t) ↔ t.val % 8192 = 0 := by decide +kernel

/-- The output window is written back after the last sample of each half, whatever the tables hold (its index map reads
    none). -/
theorem flush12 (a : (pcfg0 (F := F)).Adm) : ∀ t : Fin (cfg0 a).N, ((cfg0 a).win 12).flush t = true ↔ t.val % 8192 = 8191 :=
  (by decide +kernel : ∀ t : Fin grid0.N, Pipeline.Window.flushOf grid0 true cc0_transform_12 t = true ↔ t.val % 8192 = 8191)

end Cert.Kernel.Hand

end
-- ==== Proof.K.Data.lean ====
/-
  The pipeline's proof data: what every staging buffer holds at every grid point.

  Each of the twelve gathered windows holds, at sample `t`, its table's row named by the sample's index word — whether
  the pipeline fetched it at `t` or found it in place because the word did not change —, and the body leaves it there.
  The output window is one cell per core's half of the batch: at the first sample of a half the body resets it, at every
  later sample it finds what the sample before left (the cell is written back only after a half's last sample) and adds
  the sample's hinge. So the cell after sample `t` is a recursion on `t`, and the body's run at `t` is one of two cases.
-/
import proofs.«412037_j48361331753003_2_alg».proof.Proof.K.Tables
import proofs.«412037_j48361331753003_2_alg».proof.Proof.K.Body
import proofs.«412037_j48361331753003_2_alg».proof.Proof.K.Sched
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The cell after one sample -/

/-- The cell after one sample: the cell before it plus the sample's hinge, as the body's payloads compute it from the
    twelve rows (the positive triple's six, then the negative triple's). -/
def cellAfter (x0 x1 x2 x3 x4 x5 x6 x7 x8 x9 x10 x11 : Vec F S1x2x128 .f32) (acc : Vec F S1x1x1 .f32) : Vec F S1x1x1 .f32 :=
  k0_pay1 (k0_pay4 (k0_pay3 x0 x1 x2 x3 x4 x5)) (k0_pay5 x8) (k0_pay6 x10) (k0_pay8 x6 x7 x11) (k0_pay9 x8 x9 x11) acc

theorem hz3 : (![0, 0, 0] : Fin S1x1x1.rank → Nat) = fun _ => 0 := by funext a; fin_cases a <;> rfl
theorem hz3b : (![0, 0, 0] : Fin S1x2x128.rank → Nat) = fun _ => 0 := by funext a; fin_cases a <;> rfl

/-- Where the cell is reset first, the run's pieces read back as the sample's hinge added to the zero it was reset to. -/
theorem runReset_read (c : Dev nD) (i : grid0.Coords) (arg2 : Memref sig .tc .smem S16384 .i32) (harg2 : arg2.IsWhole) (arg3 : Memref sig .tc .smem S16384 .i32) (harg3 : arg3.IsWhole) (arg4 : Memref sig .tc .smem S16384 .i32) (harg4 : arg4.IsWhole) (arg5 : Memref sig .tc .smem S16384 .i32) (harg5 : arg5.IsWhole) (arg6 : Memref sig .tc .smem S16384 .i32) (harg6 : arg6.IsWhole) (arg7 : Memref sig .tc .smem S16384 .i32) (harg7 : arg7.IsWhole) (arg8 : Memref sig .tc .vmem S1x2x128 .f32) (harg8 : arg8.IsWhole) (arg9 : Memref sig .tc .vmem S1x2x128 .f32) (harg9 : arg9.IsWhole) (arg10 : Memref sig .tc .vmem S1x2x128 .f32) (harg10 : arg10.IsWhole) (arg11 : Memref sig .tc .vmem S1x2x128 .f32) (harg11 : arg11.IsWhole) (arg12 : Memref sig .tc .vmem S1x2x128 .f32) (harg12 : arg12.IsWhole) (arg13 : Memref sig .tc .vmem S1x2x128 .f32) (harg13 : arg13.IsWhole) (arg14 : Memref sig .tc .vmem S1x2x128 .f32) (harg14 : arg14.IsWhole) (arg15 : Memref sig .tc .vmem S1x2x128 .f32) (harg15 : arg15.IsWhole) (arg16 : Memref sig .tc .vmem S1x2x128 .f32) (harg16 : arg16.IsWhole) (arg17 : Memref sig .tc .vmem S1x2x128 .f32) (harg17 : arg17.IsWhole) (arg18 : Memref sig .tc .vmem S1x2x128 .f32) (harg18 : arg18.IsWhole) (arg19 : Memref sig .tc .vmem S1x2x128 .f32) (harg19 : arg19.IsWhole) (arg20 : Memref sig .tc .vmem S1x1x1 .f32) (harg20 : arg20.IsWhole) (hc0 : condReset i) (x0 x1 x2 x3 x4 x5 x6 x7 x8 x9 x10 x11 : Vec F S1x2x128 .f32) (v : View sig .tc .vmem S1x1x1 .f32) (f : v.ty.Contents (Elt F)) :
    v.read (Elt F) (v.writes (Elt F) f (runReset c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11).1) = cellAfter x0 x1 x2 x3 x4 x5 x6 x7 x8 x9 x10 x11 (k0_pay2 (F := F)) := by
  unfold runReset
  dsimp only
  sl_unfold_words
  rw [View.read_writes_eq_canon _ _ _ (fun y => ⟨_, List.mem_cons_self, View.mem_set_unit_zero hz3 inb_S1x1x1_S1x1x1_0_0_0 y⟩),
    View.canon_cons_unit_zero (S := S1x1x1) hz3]
  simp only [View.readAt_eq_ld, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1x2x128) hz3b,
    View.ld_unit_zero (S := S1x1x1) hz3, View.readCov_unit_zero (S := S1x1x1) _ hz3]
  rfl

/-- Where it is not, they read back as the hinge added to the cell's running contents. -/
theorem runAdd_read (c : Dev nD) (i : grid0.Coords) (arg2 : Memref sig .tc .smem S16384 .i32) (harg2 : arg2.IsWhole) (arg3 : Memref sig .tc .smem S16384 .i32) (harg3 : arg3.IsWhole) (arg4 : Memref sig .tc .smem S16384 .i32) (harg4 : arg4.IsWhole) (arg5 : Memref sig .tc .smem S16384 .i32) (harg5 : arg5.IsWhole) (arg6 : Memref sig .tc .smem S16384 .i32) (harg6 : arg6.IsWhole) (arg7 : Memref sig .tc .smem S16384 .i32) (harg7 : arg7.IsWhole) (arg8 : Memref sig .tc .vmem S1x2x128 .f32) (harg8 : arg8.IsWhole) (arg9 : Memref sig .tc .vmem S1x2x128 .f32) (harg9 : arg9.IsWhole) (arg10 : Memref sig .tc .vmem S1x2x128 .f32) (harg10 : arg10.IsWhole) (arg11 : Memref sig .tc .vmem S1x2x128 .f32) (harg11 : arg11.IsWhole) (arg12 : Memref sig .tc .vmem S1x2x128 .f32) (harg12 : arg12.IsWhole) (arg13 : Memref sig .tc .vmem S1x2x128 .f32) (harg13 : arg13.IsWhole) (arg14 : Memref sig .tc .vmem S1x2x128 .f32) (harg14 : arg14.IsWhole) (arg15 : Memref sig .tc .vmem S1x2x128 .f32) (harg15 : arg15.IsWhole) (arg16 : Memref sig .tc .vmem S1x2x128 .f32) (harg16 : arg16.IsWhole) (arg17 : Memref sig .tc .vmem S1x2x128 .f32) (harg17 : arg17.IsWhole) (arg18 : Memref sig .tc .vmem S1x2x128 .f32) (harg18 : arg18.IsWhole) (arg19 : Memref sig .tc .vmem S1x2x128 .f32) (harg19 : arg19.IsWhole) (arg20 : Memref sig .tc .vmem S1x1x1 .f32) (harg20 : arg20.IsWhole) (hc0 : ¬condReset i) (x0 x1 x2 x3 x4 x5 x6 x7 x8 x9 x10 x11 : Vec F S1x2x128 .f32) (xo : Vec F S1x1x1 .f32) (v : View sig .tc .vmem S1x1x1 .f32) (f : v.ty.Contents (Elt F)) :
    v.read (Elt F) (v.writes (Elt F) f (runAdd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 xo).1) = cellAfter x0 x1 x2 x3 x4 x5 x6 x7 x8 x9 x10 x11 xo := by
  unfold runAdd
  dsimp only
  sl_unfold_words
  rw [View.read_writes_eq_canon _ _ _ (fun y => ⟨_, List.mem_cons_self, View.mem_set_unit_zero hz3 inb_S1x1x1_S1x1x1_0_0_0 y⟩),
    View.canon_cons_unit_zero (S := S1x1x1) hz3]
  simp only [View.readAt_eq_ld, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1x2x128) hz3b,
    View.ld_unit_zero (S := S1x1x1) hz3, View.readCov_unit_zero (S := S1x1x1) _ hz3]
  rfl

/-- The body at point `t`, on what the pipeline calls it with. -/
abbrev bodyAt (a : (pcfg0 (F := F)).Adm) (t : Fin (cfg0 a).N) : Prog (TpuEff nD τ sig (Elt F) Λ₀ .tc) PUnit :=
  cc0__kernel (grid0.coords t) (Memref.whole main_v1) (Memref.isWhole_whole _) (Memref.whole main_v5) (Memref.isWhole_whole _) (Memref.whole main_v3) (Memref.isWhole_whole _) (Memref.whole main_v7) (Memref.isWhole_whole _) (Memref.whole main_v11) (Memref.isWhole_whole _) (Memref.whole main_v9) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12))

/-! ## The windows' blocks and staging buffers -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

abbrev ms0 (hO : Ok m) (t : Fin (cfgM m hO).N) : Memref sig .tc .vmem S1x2x128 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x2x128 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x2x128 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x2x128 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x2x128 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S1x2x128 .f32 := spec0_5.stage ((cfgM m hO).slots t 5)
abbrev hs5 (hO : Ok m) (t : Fin (cfgM m hO).N) : (ms5 m hO t).IsWhole := hstage0_5 (((cfgM m hO).slots t 5).cast nbuf0_5)
abbrev ms6 (hO : Ok m) (t : Fin (cfgM m hO).N) : Memref sig .tc .vmem S1x2x128 .f32 := spec0_6.stage ((cfgM m hO).slots t 6)
abbrev hs6 (hO : Ok m) (t : Fin (cfgM m hO).N) : (ms6 m hO t).IsWhole := hstage0_6 (((cfgM m hO).slots t 6).cast nbuf0_6)
abbrev ms7 (hO : Ok m) (t : Fin (cfgM m hO).N) : Memref sig .tc .vmem S1x2x128 .f32 := spec0_7.stage ((cfgM m hO).slots t 7)
abbrev hs7 (hO : Ok m) (t : Fin (cfgM m hO).N) : (ms7 m hO t).IsWhole := hstage0_7 (((cfgM m hO).slots t 7).cast nbuf0_7)
abbrev ms8 (hO : Ok m) (t : Fin (cfgM m hO).N) : Memref sig .tc .vmem S1x2x128 .f32 := spec0_8.stage ((cfgM m hO).slots t 8)
abbrev hs8 (hO : Ok m) (t : Fin (cfgM m hO).N) : (ms8 m hO t).IsWhole := hstage0_8 (((cfgM m hO).slots t 8).cast nbuf0_8)
abbrev ms9 (hO : Ok m) (t : Fin (cfgM m hO).N) : Memref sig .tc .vmem S1x2x128 .f32 := spec0_9.stage ((cfgM m hO).slots t 9)
abbrev hs9 (hO : Ok m) (t : Fin (cfgM m hO).N) : (ms9 m hO t).IsWhole := hstage0_9 (((cfgM m hO).slots t 9).cast nbuf0_9)
abbrev ms10 (hO : Ok m) (t : Fin (cfgM m hO).N) : Memref sig .tc .vmem S1x2x128 .f32 := spec0_10.stage ((cfgM m hO).slots t 10)
abbrev hs10 (hO : Ok m) (t : Fin (cfgM m hO).N) : (ms10 m hO t).IsWhole := hstage0_10 (((cfgM m hO).slots t 10).cast nbuf0_10)
abbrev ms11 (hO : Ok m) (t : Fin (cfgM m hO).N) : Memref sig .tc .vmem S1x2x128 .f32 := spec0_11.stage ((cfgM m hO).slots t 11)
abbrev hs11 (hO : Ok m) (t : Fin (cfgM m hO).N) : (ms11 m hO t).IsWhole := hstage0_11 (((cfgM m hO).slots t 11).cast nbuf0_11)
abbrev ms12 (hO : Ok m) (t : Fin (cfgM m hO).N) : Memref sig .tc .vmem S1x1x1 .f32 := spec0_12.stage ((cfgM m hO).slots t 12)
abbrev hs12 (hO : Ok m) (t : Fin (cfgM m hO).N) : (ms12 m hO t).IsWhole := hstage0_12 (((cfgM m hO).slots t 12).cast nbuf0_12)

theorem before0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before11_of (hO : Ok m) {c : Dev nD} (dat : Dat τ (Elt F) Unit ℕ (UR sig nD τ) ℕ (cfgM m hO) c) (hA : dat.A 11 = V m c (Pipeline.arrRef spec0 11))
    (hafter : ∀ t, dat.after 11 t = iblk m hO c 11 t) (t : Fin (cfgM m hO).N) (d) : dat.before 11 t d = iblk m hO c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The cell, point by point -/

/-- The cell after sample `n`: the sample's hinge added to zero at the first sample of a half, to the cell after the
    sample before otherwise. -/
def cellAt (hO : Ok m) (c : Dev nD) : (n : ℕ) → n < (cfgM m hO).N → Vec F S1x1x1 .f32
  | 0, hn => cellAfter (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (iblk m hO c 8 ⟨0, hn⟩) (iblk m hO c 9 ⟨0, hn⟩) (iblk m hO c 10 ⟨0, hn⟩) (iblk m hO c 11 ⟨0, hn⟩) (k0_pay2 (F := F))
  | n + 1, hn => cellAfter (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩)
      (if (n + 1) % 8192 = 0 then k0_pay2 (F := F) else cellAt hO c n (Nat.lt_of_succ_lt hn))

theorem cellAt_reset (hO : Ok m) (c : Dev nD) (t : Fin (cfgM m hO).N) (h0 : t.val % 8192 = 0) :
    cellAt m hO c t.val t.isLt = cellAfter (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (k0_pay2 (F := F)) := by
  obtain ⟨n, hn⟩ := t
  cases n with
  | zero => rfl
  | succ n =>
    dsimp only at h0
    conv_lhs => unfold cellAt
    rw [if_pos h0]

theorem cellAt_add (hO : Ok m) (c : Dev nD) (t : Fin (cfgM m hO).N) (h0 : ¬t.val % 8192 = 0) :
    cellAt m hO c t.val t.isLt = cellAfter (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (cellAt m hO c (t.val - 1) (Nat.lt_of_le_of_lt (Nat.sub_le _ _) t.isLt)) := by
  obtain ⟨n, hn⟩ := t
  cases n with
  | zero => exact absurd (Nat.zero_mod _) h0
  | succ n =>
    dsimp only at h0
    conv_lhs => unfold cellAt
    rw [if_neg h0]
    rfl

/-! ## The proof data -/

/-- Each window's share of its array: the entity table and its projection table are each read through four windows,
    the relation table and its projection table through two, and the output is the kernel's alone. -/
def qOf : Fin 13 → PosShare TreeShare := fun
  | 0 => fullShare.left.left | 2 => fullShare.left.right | 6 => fullShare.right.left | 8 => fullShare.right.right
  | 1 => fullShare.left.left | 3 => fullShare.left.right | 7 => fullShare.right.left | 9 => fullShare.right.right
  | 4 => fullShare.left | 10 => fullShare.right
  | 5 => fullShare.left | 11 => fullShare.right
  | 12 => fullShare
  | ⟨_ + 13, h⟩ => absurd h (Nat.not_lt.2 (Nat.le_add_left _ _))

/-- The proof data on core `c`: the arrays as the region finds them; after the body each gathered window at its block
    and the cell at `cellAt`; the invariant the scoped rest, the generator register and the tables' halves; nothing owed. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => cellAt m hO c t.val t.isLt
  Φ _ := iprop(Pipeline.ΦA spec0 c ∗ Pipeline.ΦT pre0 (tbl m) c)
  q := qOf
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = iblk m hO c 4 t := by dsimp only [dats]; try rfl
theorem after5 (hO : Ok m) (c : Dev nD) (t : Fin (cfgM m hO).N) : (dats m hO 0 c).after 5 t = iblk m hO c 5 t := by dsimp only [dats]; try rfl
theorem after6 (hO : Ok m) (c : Dev nD) (t : Fin (cfgM m hO).N) : (dats m hO 0 c).after 6 t = iblk m hO c 6 t := by dsimp only [dats]; try rfl
theorem after7 (hO : Ok m) (c : Dev nD) (t : Fin (cfgM m hO).N) : (dats m hO 0 c).after 7 t = iblk m hO c 7 t := by dsimp only [dats]; try rfl
theorem after8 (hO : Ok m) (c : Dev nD) (t : Fin (cfgM m hO).N) : (dats m hO 0 c).after 8 t = iblk m hO c 8 t := by dsimp only [dats]; try rfl
theorem after9 (hO : Ok m) (c : Dev nD) (t : Fin (cfgM m hO).N) : (dats m hO 0 c).after 9 t = iblk m hO c 9 t := by dsimp only [dats]; try rfl
theorem after10 (hO : Ok m) (c : Dev nD) (t : Fin (cfgM m hO).N) : (dats m hO 0 c).after 10 t = iblk m hO c 10 t := by dsimp only [dats]; try rfl
theorem after11 (hO : Ok m) (c : Dev nD) (t : Fin (cfgM m hO).N) : (dats m hO 0 c).after 11 t = iblk m hO c 11 t := by dsimp only [dats]; try rfl
theorem after12 (hO : Ok m) (c : Dev nD) (t : Fin (cfgM m hO).N) : (dats m hO 0 c).after 12 t = cellAt m hO c t.val t.isLt := by dsimp only [dats]; try rfl

theorem before0 (hO : Ok m) (c : Dev nD) (t : Fin (cfgM m hO).N) (d) : (dats m hO 0 c).before 0 t d = iblk m hO c 0 t :=
  before0_of m hO (dats m hO 0 c) (A_eq m hO c 0) (after0 m hO c) t d
theorem before1 (hO : Ok m) (c : Dev nD) (t : Fin (cfgM m hO).N) (d) : (dats m hO 0 c).before 1 t d = iblk m hO c 1 t :=
  before1_of m hO (dats m hO 0 c) (A_eq m hO c 1) (after1 m hO c) t d
theorem before2 (hO : Ok m) (c : Dev nD) (t : Fin (cfgM m hO).N) (d) : (dats m hO 0 c).before 2 t d = iblk m hO c 2 t :=
  before2_of m hO (dats m hO 0 c) (A_eq m hO c 2) (after2 m hO c) t d
theorem before3 (hO : Ok m) (c : Dev nD) (t : Fin (cfgM m hO).N) (d) : (dats m hO 0 c).before 3 t d = iblk m hO c 3 t :=
  before3_of m hO (dats m hO 0 c) (A_eq m hO c 3) (after3 m hO c) t d
theorem before4 (hO : Ok m) (c : Dev nD) (t : Fin (cfgM m hO).N) (d) : (dats m hO 0 c).before 4 t d = iblk m hO c 4 t :=
  before4_of m hO (dats m hO 0 c) (A_eq m hO c 4) (after4 m hO c) t d
theorem before5 (hO : Ok m) (c : Dev nD) (t : Fin (cfgM m hO).N) (d) : (dats m hO 0 c).before 5 t d = iblk m hO c 5 t :=
  before5_of m hO (dats m hO 0 c) (A_eq m hO c 5) (after5 m hO c) t d
theorem before6 (hO : Ok m) (c : Dev nD) (t : Fin (cfgM m hO).N) (d) : (dats m hO 0 c).before 6 t d = iblk m hO c 6 t :=
  before6_of m hO (dats m hO 0 c) (A_eq m hO c 6) (after6 m hO c) t d
theorem before7 (hO : Ok m) (c : Dev nD) (t : Fin (cfgM m hO).N) (d) : (dats m hO 0 c).before 7 t d = iblk m hO c 7 t :=
  before7_of m hO (dats m hO 0 c) (A_eq m hO c 7) (after7 m hO c) t d
theorem before8 (hO : Ok m) (c : Dev nD) (t : Fin (cfgM m hO).N) (d) : (dats m hO 0 c).before 8 t d = iblk m hO c 8 t :=
  before8_of m hO (dats m hO 0 c) (A_eq m hO c 8) (after8 m hO c) t d
theorem before9 (hO : Ok m) (c : Dev nD) (t : Fin (cfgM m hO).N) (d) : (dats m hO 0 c).before 9 t d = iblk m hO c 9 t :=
  before9_of m hO (dats m hO 0 c) (A_eq m hO c 9) (after9 m hO c) t d
theorem before10 (hO : Ok m) (c : Dev nD) (t : Fin (cfgM m hO).N) (d) : (dats m hO 0 c).before 10 t d = iblk m hO c 10 t :=
  before10_of m hO (dats m hO 0 c) (A_eq m hO c 10) (after10 m hO c) t d
theorem before11 (hO : Ok m) (c : Dev nD) (t : Fin (cfgM m hO).N) (d) : (dats m hO 0 c).before 11 t d = iblk m hO c 11 t :=
  before11_of m hO (dats m hO 0 c) (A_eq m hO c 11) (after11 m hO c) t d

/-- At a sample that is not the first of its half the cell's buffer holds what the sample before left: the buffer was not
    written back between. -/
theorem before12_add (hO : Ok m) (c : Dev nD) (t : Fin (cfgM m hO).N) (h0 : ¬t.val % 8192 = 0) (d) :
    (dats m hO 0 c).before 12 t d = cellAt m hO c (t.val - 1) (Nat.lt_of_le_of_lt (Nat.sub_le _ _) t.isLt) := by
  have hN : t.val < 16384 := lt_of_lt_of_eq t.isLt (show (cfgM m hO).N = 16384 from N_0)
  rw [Dat.before_out_kept _ 12 rfl t (by omega) (Bool.eq_false_iff.mpr fun h => by have := (flush12 _ _).mp h; dsimp only at this; omega)
    (fun _ => rfl) (fun _ _ => rfl)]
  dsimp only [dats]
  rfl

/-! ## The body obligation -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d))
    ∗ (∃ d, owns (c : Thread nD τ) (ms6 m hO t) fullShare ((dats m hO 0 c).before 6 t d))
    ∗ (∃ d, owns (c : Thread nD τ) (ms7 m hO t) fullShare ((dats m hO 0 c).before 7 t d))
    ∗ (∃ d, owns (c : Thread nD τ) (ms8 m hO t) fullShare ((dats m hO 0 c).before 8 t d))
    ∗ (∃ d, owns (c : Thread nD τ) (ms9 m hO t) fullShare ((dats m hO 0 c).before 9 t d))
    ∗ (∃ d, owns (c : Thread nD τ) (ms10 m hO t) fullShare ((dats m hO 0 c).before 10 t d))
    ∗ (∃ d, owns (c : Thread nD τ) (ms11 m hO t) fullShare ((dats m hO 0 c).before 11 t d))
    ∗ (∃ d, owns (c : Thread nD τ) (ms12 m hO t) fullShare ((dats m hO 0 c).before 12 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t)
    ∗ owns (c : Thread nD τ) (ms6 m hO t) fullShare ((dats m hO 0 c).after 6 t)
    ∗ owns (c : Thread nD τ) (ms7 m hO t) fullShare ((dats m hO 0 c).after 7 t)
    ∗ owns (c : Thread nD τ) (ms8 m hO t) fullShare ((dats m hO 0 c).after 8 t)
    ∗ owns (c : Thread nD τ) (ms9 m hO t) fullShare ((dats m hO 0 c).after 9 t)
    ∗ owns (c : Thread nD τ) (ms10 m hO t) fullShare ((dats m hO 0 c).after 10 t)
    ∗ owns (c : Thread nD τ) (ms11 m hO t) fullShare ((dats m hO 0 c).after 11 t)
    ∗ owns (c : Thread nD τ) (ms12 m hO t) fullShare ((dats m hO 0 c).after 12 t))

set_option maxHeartbeats 4000000 in
/-- The body at any sample: the gathered windows hold their blocks; the sample is the first of its half or not; the run
    of that case applies, the tables and the scoped rest passing through unread. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0, before1, before2, before3, before4, before5, before6, before7, before8, before9, before10, before11]
  rw [show (dats m hO 0 c).Φ t.succ = (dats m hO 0 c).Φ t.castSucc from rfl,
    show (dats m hO 0 c).owesAt () t.succ = (dats m hO 0 c).owesAt () t.castSucc from rfl,
    after0, after1, after2, after3, after4, after5, after6, after7, after8, after9, after10, after11, after12]
  rw [show (dats m hO 0 c).Φ t.castSucc = iprop(Pipeline.ΦA spec0 c ∗ Pipeline.ΦT pre0 (tbl m) c) from rfl]
  by_cases h0 : t.val % 8192 = 0
  · rw [cellAt_reset m hO c t h0]
    iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runReset c (grid0.coords t) _ _ _ _ _ _ _ _ _ _ _ _ _ _ _ _ _ _ _ _ _ _ _ _ _ _ _ _ _ _ _ _ _ _ _ _ _ _ ((hcond t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    iintro ⟨H0, H1, H2, H3, H4, H5, H6, H7, H8, H9, H10, H11, ⟨%e12, H12⟩⟩
    isplitl [HΦ HT]
    · isplitl [HΦ]; · iexact HΦ
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr
    swap; · iexact H12
    ipureintro; exact runReset_read _ _ _ _ _ _ _ _ _ _ _ _ _ _ _ _ _ _ _ _ _ _ _ _ _ _ _ _ _ _ _ _ _ _ _ _ _ _ _ _ _ _ _ _ _ _ _ _ _ _ _ _ _ _ _
  · rw [cellAt_add m hO c t h0]
    simp only [before12_add m hO c t h0]
    iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runAdd c (grid0.coords t) _ _ _ _ _ _ _ _ _ _ _ _ _ _ _ _ _ _ _ _ _ _ _ _ _ _ _ _ _ _ _ _ _ _ _ _ _ _ (fun h => h0 ((hcond t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H0, H1, H2, H3, H4, H5, H6, H7, H8, H9, H10, H11, ⟨%e12, H12⟩⟩
    isplitl [HΦ HT]
    · isplitl [HΦ]; · iexact HΦ
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr
    swap; · iexact H12
    ipureintro; exact runAdd_read _ _ _ _ _ _ _ _ _ _ _ _ _ _ _ _ _ _ _ _ _ _ _ _ _ _ _ _ _ _ _ _ _ _ _ _ _ _ _ _ _ _ _ _ _ _ _ _ _ _ _ _ _ _ _ _

/-- The library's body obligation, at every point. -/
theorem body_obligation (hO : Ok m) (c : Dev nD) : BodyObligation (dats (F := F) m hO 0 c) (defs₀ (F := F)) Variants.none () Set.univ := fun t => by
  rw [bigSep_W0, bigSep_W0]
  exact sound_body m hO c t

end Cert.Kernel.Hand

end
-- ==== Proof.K.EndVal.lean ====
/-
  What the core's buffers hold when the region is left and at the end of @main.

  The region writes one array, the output's two cells; every other unscoped buffer is as the region found it. The seven
  operations after the region then compute the result from the two cells.
-/
import proofs.«412037_j48361331753003_2_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The output array after the region: its two cells as the proof data's write-backs leave them. -/
abbrev outArr (hO : Ok m) (c : Dev nD) : Buf (Elt F) ((c : Thread nD τ).loc main_v16) := (dats m hO 0 c).arrAt 12 (cfgM m hO).N

/-- The core's buffers when the region is left: the output array at `outArr`, every other buffer as the region found it. -/
def exitVal (hO : Ok m) (c : Dev nD) : Valuation τ sig (Elt F) := fun b =>
  if h : b = Proc.devRef .tc main_v16 then cast (congrArg (fun b' : DevRef τ sig => b'.ty.Contents (Elt F)) h.symm) (outArr m hO c)
  else StableHlo.after ([hostOps0] : List (List (HloOp τ sig (Elt F)))).flatten (V₀ m c) b

/-- And at the end: the seven operations have run. -/
abbrev endVal (hO : Ok m) (c : Dev nD) (b : Ref sig .tc) : Buf (Elt F) ((c : Thread nD τ).loc b) :=
  StableHlo.after hostOps1 (exitVal m hO c) b

/-- When the region is left the output array's buffer holds `outArr`, -/
theorem exitVal_out (hO : Ok m) (c : Dev nD) : exitVal m hO c (Proc.devRef .tc main_v16) = outArr m hO c := by
  unfold exitVal; rw [dif_pos rfl]; exact cast_eq _ _

/-- and any other buffer what the region found in it. -/
theorem exitVal_of_ne (hO : Ok m) (c : Dev nD) (b : Ref sig .tc) (hb : b ≠ main_v16) :
    exitVal m hO c (Proc.devRef .tc b) = V m c b := by
  unfold exitVal; rw [dif_neg fun h => hb (Proc.devRef_injective _ h)]

end Cert.Kernel.Hand

end
-- ==== Proof.K.Launch.lean ====
/-
  The launch: @main is sixteen host operations, the kernel region, seven host operations.

  The region is entered with the core's unscoped buffers at what the first sixteen operations left. The four reshaped
  tables are each handed to several gathered windows, which only read them: each window takes its share of its table
  (quarters of the entity tables, halves of the relation tables), the output array is the kernel's alone, the six index
  tables go to the pipeline and the body at half shares, and every other buffer bypasses the region. After the region the
  seven operations read the output array's two cells, add them and divide by the batch size; the arguments are as they
  were at launch throughout.
-/
import proofs.«412037_j48361331753003_2_alg».proof.Proof.K.EndVal

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
variable (ρ : Dev nD → PrngReg)

/-! ## @main around the region -/

theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl⟩
theorem hostOps1_fresh : (hostOps1 : List (HloOp τ sig (Elt F))).Forall fun op => op.fresh = ∅ :=
  ⟨rfl, rfl, rfl, rfl, rfl, rfl, rfl⟩

/-- @main reduces to the region continued by the seven later operations, at the contents after the first sixteen. -/
theorem hmain : Pipeline.HMainPK (Ix := Unit) (Name := ℕ) (U := UR sig nD τ) (Lvl := ℕ) pcfgs 0 defs₀ Variants.none m (main (F := F)) (V m)
      (fun _ => Pipeline.chain ([hostOps1].map StableHlo.seq)) :=
  Pipeline.hmainP_around pcfgs 0 defs₀ Variants.none m main [hostOps0] [hostOps1] (by simp only [List.Forall]; exact hostOps0_sub)
    (by simp only [List.Forall]; exact hostOps0_fresh) (fun c => (main_chain c).trans rfl)

/-! ## The region's entry and exit -/

/-! ## Shares of a table several windows read -/

/-- A buffer held whole splits into its two halves, -/
theorem split2 {ℓ : Loc nD τ sig} (f : Buf (Elt F) ℓ) :
    (ℓ ↦{fullShare} f : sProp 𝕄) ⊢ iprop((ℓ ↦{fullShare.left} f) ∗ (ℓ ↦{fullShare.right} f)) :=
  (pointsTo_share (PosShare.mem_left_op_right fullShare)).1

/-- and into its four quarters. -/
theorem split4 {ℓ : Loc nD τ sig} (f : Buf (Elt F) ℓ) :
    (ℓ ↦{fullShare} f : sProp 𝕄) ⊢ iprop((ℓ ↦{fullShare.left.left} f) ∗ (ℓ ↦{fullShare.left.right} f)
      ∗ (ℓ ↦{fullShare.right.left} f) ∗ (ℓ ↦{fullShare.right.right} f)) := by
  iintro H
  ihave H := (split2 f) $$ H
  icases H with ⟨HL, HR⟩
  ihave HL := ((pointsTo_share (PosShare.mem_left_op_right fullShare.left)).1) $$ HL
  ihave HR := ((pointsTo_share (PosShare.mem_left_op_right fullShare.right)).1) $$ HR
  icases HL with ⟨H1, H2⟩
  icases HR with ⟨H3, H4⟩
  isplitl [H1]; · iexact H1
  isplitl [H2]; · iexact H2
  isplitl [H3]; · iexact H3
  iexact H4

/-- The distinct buffers behind the thirteen windows' arrays: the four reshaped tables and the output. -/
theorem arrBufs_list (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v12) ↦{fullShare} W main_v12) ∗ (((c : Thread nD τ).loc main_v13) ↦{fullShare} W main_v13)
          ∗ (((c : Thread nD τ).loc main_v14) ↦{fullShare} W main_v14) ∗ (((c : Thread nD τ).loc main_v15) ↦{fullShare} W main_v15)
          ∗ (((c : Thread nD τ).loc main_v16) ↦{fullShare} W main_v16)) := by
  unfold Pipeline.arrBufs
  exact bigSep_eq_bigSepL_of_eq [main_v12, main_v13, main_v14, main_v15, main_v16] (by decide) (by decide) _

/-- Each window's array at its share and at its entry contents, spelt by the buffer it is. -/
theorem arrPt0 (hO : Ok m) (c : Dev nD) :
    ((View.whole main_v12).loc (c : Thread nD τ) ↦[(View.whole main_v12).set]{(dats m hO 0 c).share 0} (dats m hO 0 c).arrAt 0 0 : sProp 𝕄)
      = (((c : Thread nD τ).loc main_v12) ↦{fullShare.left.left} V m c main_v12) := by
  have hs : (dats m hO 0 c).share 0 = fullShare.left.left := by
    unfold Dat.share
    rw [if_neg (show ¬ ((cfgM m hO).win 0).isOut = true from Bool.false_ne_true)]
    rfl
  rw [hs, show (dats m hO 0 c).arrAt 0 0 = V m c main_v12 from A_eq m hO c 0, (Memref.isWhole_whole main_v12).set_eq_univ]
theorem arrPt1 (hO : Ok m) (c : Dev nD) :
    ((View.whole main_v13).loc (c : Thread nD τ) ↦[(View.whole main_v13).set]{(dats m hO 0 c).share 1} (dats m hO 0 c).arrAt 1 0 : sProp 𝕄)
      = (((c : Thread nD τ).loc main_v13) ↦{fullShare.left.left} V m c main_v13) := by
  have hs : (dats m hO 0 c).share 1 = fullShare.left.left := by
    unfold Dat.share
    rw [if_neg (show ¬ ((cfgM m hO).win 1).isOut = true from Bool.false_ne_true)]
    rfl
  rw [hs, show (dats m hO 0 c).arrAt 1 0 = V m c main_v13 from A_eq m hO c 1, (Memref.isWhole_whole main_v13).set_eq_univ]
theorem arrPt2 (hO : Ok m) (c : Dev nD) :
    ((View.whole main_v12).loc (c : Thread nD τ) ↦[(View.whole main_v12).set]{(dats m hO 0 c).share 2} (dats m hO 0 c).arrAt 2 0 : sProp 𝕄)
      = (((c : Thread nD τ).loc main_v12) ↦{fullShare.left.right} V m c main_v12) := by
  have hs : (dats m hO 0 c).share 2 = fullShare.left.right := by
    unfold Dat.share
    rw [if_neg (show ¬ ((cfgM m hO).win 2).isOut = true from Bool.false_ne_true)]
    rfl
  rw [hs, show (dats m hO 0 c).arrAt 2 0 = V m c main_v12 from A_eq m hO c 2, (Memref.isWhole_whole main_v12).set_eq_univ]
theorem arrPt3 (hO : Ok m) (c : Dev nD) :
    ((View.whole main_v13).loc (c : Thread nD τ) ↦[(View.whole main_v13).set]{(dats m hO 0 c).share 3} (dats m hO 0 c).arrAt 3 0 : sProp 𝕄)
      = (((c : Thread nD τ).loc main_v13) ↦{fullShare.left.right} V m c main_v13) := by
  have hs : (dats m hO 0 c).share 3 = fullShare.left.right := by
    unfold Dat.share
    rw [if_neg (show ¬ ((cfgM m hO).win 3).isOut = true from Bool.false_ne_true)]
    rfl
  rw [hs, show (dats m hO 0 c).arrAt 3 0 = V m c main_v13 from A_eq m hO c 3, (Memref.isWhole_whole main_v13).set_eq_univ]
theorem arrPt4 (hO : Ok m) (c : Dev nD) :
    ((View.whole main_v14).loc (c : Thread nD τ) ↦[(View.whole main_v14).set]{(dats m hO 0 c).share 4} (dats m hO 0 c).arrAt 4 0 : sProp 𝕄)
      = (((c : Thread nD τ).loc main_v14) ↦{fullShare.left} V m c main_v14) := by
  have hs : (dats m hO 0 c).share 4 = fullShare.left := by
    unfold Dat.share
    rw [if_neg (show ¬ ((cfgM m hO).win 4).isOut = true from Bool.false_ne_true)]
    rfl
  rw [hs, show (dats m hO 0 c).arrAt 4 0 = V m c main_v14 from A_eq m hO c 4, (Memref.isWhole_whole main_v14).set_eq_univ]
theorem arrPt5 (hO : Ok m) (c : Dev nD) :
    ((View.whole main_v15).loc (c : Thread nD τ) ↦[(View.whole main_v15).set]{(dats m hO 0 c).share 5} (dats m hO 0 c).arrAt 5 0 : sProp 𝕄)
      = (((c : Thread nD τ).loc main_v15) ↦{fullShare.left} V m c main_v15) := by
  have hs : (dats m hO 0 c).share 5 = fullShare.left := by
    unfold Dat.share
    rw [if_neg (show ¬ ((cfgM m hO).win 5).isOut = true from Bool.false_ne_true)]
    rfl
  rw [hs, show (dats m hO 0 c).arrAt 5 0 = V m c main_v15 from A_eq m hO c 5, (Memref.isWhole_whole main_v15).set_eq_univ]
theorem arrPt6 (hO : Ok m) (c : Dev nD) :
    ((View.whole main_v12).loc (c : Thread nD τ) ↦[(View.whole main_v12).set]{(dats m hO 0 c).share 6} (dats m hO 0 c).arrAt 6 0 : sProp 𝕄)
      = (((c : Thread nD τ).loc main_v12) ↦{fullShare.right.left} V m c main_v12) := by
  have hs : (dats m hO 0 c).share 6 = fullShare.right.left := by
    unfold Dat.share
    rw [if_neg (show ¬ ((cfgM m hO).win 6).isOut = true from Bool.false_ne_true)]
    rfl
  rw [hs, show (dats m hO 0 c).arrAt 6 0 = V m c main_v12 from A_eq m hO c 6, (Memref.isWhole_whole main_v12).set_eq_univ]
theorem arrPt7 (hO : Ok m) (c : Dev nD) :
    ((View.whole main_v13).loc (c : Thread nD τ) ↦[(View.whole main_v13).set]{(dats m hO 0 c).share 7} (dats m hO 0 c).arrAt 7 0 : sProp 𝕄)
      = (((c : Thread nD τ).loc main_v13) ↦{fullShare.right.left} V m c main_v13) := by
  have hs : (dats m hO 0 c).share 7 = fullShare.right.left := by
    unfold Dat.share
    rw [if_neg (show ¬ ((cfgM m hO).win 7).isOut = true from Bool.false_ne_true)]
    rfl
  rw [hs, show (dats m hO 0 c).arrAt 7 0 = V m c main_v13 from A_eq m hO c 7, (Memref.isWhole_whole main_v13).set_eq_univ]
theorem arrPt8 (hO : Ok m) (c : Dev nD) :
    ((View.whole main_v12).loc (c : Thread nD τ) ↦[(View.whole main_v12).set]{(dats m hO 0 c).share 8} (dats m hO 0 c).arrAt 8 0 : sProp 𝕄)
      = (((c : Thread nD τ).loc main_v12) ↦{fullShare.right.right} V m c main_v12) := by
  have hs : (dats m hO 0 c).share 8 = fullShare.right.right := by
    unfold Dat.share
    rw [if_neg (show ¬ ((cfgM m hO).win 8).isOut = true from Bool.false_ne_true)]
    rfl
  rw [hs, show (dats m hO 0 c).arrAt 8 0 = V m c main_v12 from A_eq m hO c 8, (Memref.isWhole_whole main_v12).set_eq_univ]
theorem arrPt9 (hO : Ok m) (c : Dev nD) :
    ((View.whole main_v13).loc (c : Thread nD τ) ↦[(View.whole main_v13).set]{(dats m hO 0 c).share 9} (dats m hO 0 c).arrAt 9 0 : sProp 𝕄)
      = (((c : Thread nD τ).loc main_v13) ↦{fullShare.right.right} V m c main_v13) := by
  have hs : (dats m hO 0 c).share 9 = fullShare.right.right := by
    unfold Dat.share
    rw [if_neg (show ¬ ((cfgM m hO).win 9).isOut = true from Bool.false_ne_true)]
    rfl
  rw [hs, show (dats m hO 0 c).arrAt 9 0 = V m c main_v13 from A_eq m hO c 9, (Memref.isWhole_whole main_v13).set_eq_univ]
theorem arrPt10 (hO : Ok m) (c : Dev nD) :
    ((View.whole main_v14).loc (c : Thread nD τ) ↦[(View.whole main_v14).set]{(dats m hO 0 c).share 10} (dats m hO 0 c).arrAt 10 0 : sProp 𝕄)
      = (((c : Thread nD τ).loc main_v14) ↦{fullShare.right} V m c main_v14) := by
  have hs : (dats m hO 0 c).share 10 = fullShare.right := by
    unfold Dat.share
    rw [if_neg (show ¬ ((cfgM m hO).win 10).isOut = true from Bool.false_ne_true)]
    rfl
  rw [hs, show (dats m hO 0 c).arrAt 10 0 = V m c main_v14 from A_eq m hO c 10, (Memref.isWhole_whole main_v14).set_eq_univ]
theorem arrPt11 (hO : Ok m) (c : Dev nD) :
    ((View.whole main_v15).loc (c : Thread nD τ) ↦[(View.whole main_v15).set]{(dats m hO 0 c).share 11} (dats m hO 0 c).arrAt 11 0 : sProp 𝕄)
      = (((c : Thread nD τ).loc main_v15) ↦{fullShare.right} V m c main_v15) := by
  have hs : (dats m hO 0 c).share 11 = fullShare.right := by
    unfold Dat.share
    rw [if_neg (show ¬ ((cfgM m hO).win 11).isOut = true from Bool.false_ne_true)]
    rfl
  rw [hs, show (dats m hO 0 c).arrAt 11 0 = V m c main_v15 from A_eq m hO c 11, (Memref.isWhole_whole main_v15).set_eq_univ]
theorem arrPt12 (hO : Ok m) (c : Dev nD) :
    ((View.whole main_v16).loc (c : Thread nD τ) ↦[(View.whole main_v16).set]{(dats m hO 0 c).share 12} (dats m hO 0 c).arrAt 12 0 : sProp 𝕄)
      = (((c : Thread nD τ).loc main_v16) ↦{fullShare} V m c main_v16) := by
  have hs : (dats m hO 0 c).share 12 = fullShare := by
    unfold Dat.share
    rw [if_pos (show ((cfgM m hO).win 12).isOut = true from rfl)]
  rw [hs, show (dats m hO 0 c).arrAt 12 0 = V m c main_v16 from A_eq m hO c 12, (Memref.isWhole_whole main_v16).set_eq_univ]

/-- ENTRY: the buffers behind the windows' arrays, whole at the full share, make the windows' arrays at their shares. -/
theorem hsplit (hO : Ok m) (c : Dev nD) :
    (Pipeline.arrBufs (Ix := Unit) (Name := ℕ) (U := UR sig nD τ) (Lvl := ℕ) (cfgM m hO).spec c (V m c) : sProp 𝕄)
      ⊢ (dats m hO 0 c).arrays ((dats m hO 0 c).arrAt · 0) := by
  show (Pipeline.arrBufs (Ix := Unit) (Name := ℕ) (U := UR sig nD τ) (Lvl := ℕ) spec0 c (V m c) : sProp 𝕄) ⊢ _
  rw [arrBufs_list c (V m c)]
  unfold Dat.arrays
  rw [bigSep_W0]
  simp only [arrPt0 m hO c, arrPt1 m hO c, arrPt2 m hO c, arrPt3 m hO c, arrPt4 m hO c, arrPt5 m hO c, arrPt6 m hO c, arrPt7 m hO c, arrPt8 m hO c, arrPt9 m hO c, arrPt10 m hO c, arrPt11 m hO c, arrPt12 m hO c]
  iintro ⟨H12, H13, H14, H15, H16⟩
  ihave H12 := (split4 _) $$ H12
  ihave H13 := (split4 _) $$ H13
  ihave H14 := (split2 _) $$ H14
  ihave H15 := (split2 _) $$ H15
  icases H12 with ⟨Ha0, Ha2, Ha6, Ha8⟩
  icases H13 with ⟨Ha1, Ha3, Ha7, Ha9⟩
  icases H14 with ⟨Ha4, Ha10⟩
  icases H15 with ⟨Ha5, Ha11⟩
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitl [Ha7]; · iexact Ha7
  isplitl [Ha8]; · iexact Ha8
  isplitl [Ha9]; · iexact Ha9
  isplitl [Ha10]; · iexact Ha10
  isplitl [Ha11]; · iexact Ha11
  iexact H16

/-! ## The seven operations after the region -/

/-- The buffers the later operations run within: the output array's and the ones that bypass the region. -/
def tailS : Finset (DevRef τ sig) :=
  (insert main_v16 (Pipeline.restRefsP sig pre0 spec0)).map ⟨Proc.devRef (sig := sig) .tc, Proc.devRef_injective _⟩

theorem v16_not_rest : main_v16 ∉ Pipeline.restRefsP sig pre0 spec0 := by decide

/-- Held at a valuation, they are the output array's buffer and the bypassing buffers at it. -/
theorem held_tailS (c : Dev nD) (Wv : Valuation τ sig (Elt F)) :
    (StableHlo.held (c : Thread nD τ) tailS Wv : sProp 𝕄)
      = iprop((((c : Thread nD τ).loc main_v16) ↦{fullShare} Wv (Proc.devRef .tc main_v16))
          ∗ Pipeline.unscopedRestP (Ix := Unit) (Name := ℕ) (U := UR sig nD τ) (Lvl := ℕ) pre0 spec0 c (fun b => Wv (Proc.devRef .tc b))) := by
  classical
  unfold StableHlo.held tailS Pipeline.unscopedRestP
  rw [bigSep_map, bigSep_insert v16_not_rest]
  rfl

/-- Each later operation touches only such buffers, -/
theorem hostOps1_tailS : ∀ ops ∈ ([hostOps1] : List (List (HloOp τ sig (Elt F)))), ∀ op ∈ ops, op.bufs ⊆ tailS := by
  intro ops hops op hop
  simp only [List.mem_cons, List.mem_nil_iff, or_false] at hops
  subst hops
  simp only [hostOps1, List.mem_cons, List.mem_nil_iff, or_false] at hop
  rcases hop with rfl | rfl | rfl | rfl | rfl | rfl | rfl <;>
    simp only [StableHlo.unary_bufs, StableHlo.reshape_bufs, StableHlo.binary_bufs, StableHlo.nullary_bufs] <;> decide

/-- allocates nothing, -/
theorem hostOps1_nofresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- and leaves the output array as the region left it. -/
theorem tail_keeps_out : ∀ op ∈ (hostOps1 : List (HloOp τ sig (Elt F))), Proc.devRef .tc main_v16 ∉ op.writes := by
  intro op hop
  simp only [hostOps1, List.mem_cons, List.mem_nil_iff, or_false] at hop
  rcases hop with rfl | rfl | rfl | rfl | rfl | rfl | rfl <;>
    simp only [StableHlo.unary_writes, StableHlo.reshape_writes, StableHlo.binary_writes, StableHlo.nullary_writes, Finset.mem_singleton] <;>
    exact StableHlo.devRef_ne_of_ne (by decide)

/-- The bypassing buffers at the exit contents are those at the entry contents: the region writes none of them. -/
theorem rest_exit (hO : Ok m) (c : Dev nD) :
    (Pipeline.unscopedRestP (Ix := Unit) (Name := ℕ) (U := UR sig nD τ) (Lvl := ℕ) pre0 spec0 c (fun b => exitVal m hO c (Proc.devRef .tc b)) : sProp 𝕄)
      = Pipeline.unscopedRestP pre0 spec0 c (V m c) := by
  unfold Pipeline.unscopedRestP
  exact bigSep_congr fun b hb => by
    show (((c : Thread nD τ).loc b) ↦{fullShare} exitVal m hO c (Proc.devRef .tc b) : sProp 𝕄) = _
    rw [exitVal_of_ne m hO c b fun h => v16_not_rest (h ▸ hb)]

set_option backward.isDefEq.respectTransparency.types false in
/-- EXIT: from the arrays as the region left them and the bypassing buffers as it found them, the seven operations run
    and hand back the arrays and the bypassing buffers at the end contents. -/
theorem htail (hO : Ok m) (c : Dev nD) (Q' : PUnit → sProp 𝕄) :
    iprop((iprop((dats m hO 0 c).arrays ((dats m hO 0 c).arrAt · (cfgM m hO).N)
              ∗ Pipeline.unscopedRestP (Ix := Unit) (Name := ℕ) (U := UR sig nD τ) (Lvl := ℕ) pre0 (cfgM m hO).spec c (endVal m hO c)) -∗ Q' ⟨⟩)
        ∗ boundary (c : Thread nD τ) ∗ (dats m hO 0 c).arrays ((dats m hO 0 c).arrAt · (cfgM m hO).N)
        ∗ Pipeline.unscopedRestP (Ix := Unit) (Name := ℕ) (U := UR sig nD τ) (Lvl := ℕ) pre0 (cfgM m hO).spec c (V m c))
      ⊢ wp frame (wpE (Pipeline.defs pcfgs (defs₀ (F := F))) (Variants.lift Variants.none) (c : Thread nD τ) none) Set.univ
          (Pipeline.chain ([hostOps1].map StableHlo.seq)) Q' := by
  classical
  have hw : ∀ w : Fin 13, ((cfgM m hO).win w).arr.view.set = Finset.univ := fun w => (arr_whole0 w).set_eq_univ
  have hfl : ([hostOps1] : List (List (HloOp τ sig (Elt F)))).flatten = hostOps1 := by
    simp only [List.flatten_cons, List.flatten_nil, List.append_nil]
  have hpre : (StableHlo.held (c : Thread nD τ) tailS (exitVal m hO c) : sProp 𝕄)
      = iprop((((c : Thread nD τ).loc main_v16) ↦{fullShare} outArr m hO c) ∗ Pipeline.unscopedRestP pre0 spec0 c (V m c)) := by
    rw [held_tailS, exitVal_out, rest_exit]
  have hpost : (StableHlo.held (c : Thread nD τ) tailS (StableHlo.after ([hostOps1] : List (List (HloOp τ sig (Elt F)))).flatten (exitVal m hO c)) : sProp 𝕄)
      = iprop((((c : Thread nD τ).loc main_v16) ↦{fullShare} outArr m hO c) ∗ Pipeline.unscopedRestP pre0 spec0 c (endVal m hO c)) := by
    rw [held_tailS, hfl, StableHlo.after_of_forall_not_mem _ _ tail_keeps_out, exitVal_out]
  unfold Dat.arrays
  rw [bigSep_W0]
  simp only [hw]
  iintro ⟨Hk, Hbd, ⟨Ha0, Ha1, Ha2, Ha3, Ha4, Ha5, Ha6, Ha7, Ha8, Ha9, Ha10, Ha11, Ha12⟩, HZ⟩
  rw [← List.append_nil (([hostOps1] : List (List (HloOp τ sig (Elt F)))).map StableHlo.seq)]
  iapply (Pipeline.wp_seqs_then pcfgs defs₀ Variants.none c tailS [] [hostOps1] hostOps1_tailS hostOps1_nofresh (exitVal m hO c)) $$ [Hbd Ha12 HZ]
  · rw [hpre]
    isplitl [Hbd]; · iexact Hbd
    isplitl [Ha12]; · iexact Ha12
    iexact HZ
  iintro Hb
  rw [Pipeline.chain_nil, wp_pure, hpost]
  imodintro
  iapply Hk
  icases Hb with ⟨-, Hb12, HZ⟩
  isplitr [HZ]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [Ha10]; · iexact Ha10
    isplitl [Ha11]; · iexact Ha11
    iexact Hb12
  · iexact HZ

/-! ## The run -/

set_option backward.isDefEq.respectTransparency.types false in
/-- At the compiled mesh, from any memory with zero counters whose tables are in range: every weakly fair execution of
    @main terminates, nothing faulting, and every buffer that bypasses the region — the arguments and the result among
    them — ends at the end contents. -/
theorem run_main (hO : Ok m) : θ_run defs (onTc (τ := τ) (main (F := F))) ⟨m, fun _ => 0, ρ⟩ (fun r => ∀ c : Dev nD,
      ∀ b ∈ Pipeline.restRefsP sig pre0 spec0, r.2.mem ((c : Thread nD τ).loc b) = endVal m hO c b) := by
  classical
  exact Pipeline.θ_run_region_pf_tail pcfgs (fun _ => adm m hO) (dats m hO) () (cellOf_inj fun _ => adm m hO) (0 : Fin 1) winFacts₀0
    (Pipeline.OwnSemFacts.none spec0) preFacts0 emb₁ defs₀ Variants.none m ρ main
    (fun _ => Pipeline.chain ([hostOps1].map StableHlo.seq)) (fun c => (body_obligation m hO c).loose)
    block_pos0 arr_whole0 stage_whole0 (fun _ _ => rfl)
    (G := fun _ => iprop(emp)) (u₀ := initOf (Pipeline.cells (Pipeline.pin pcfgs fun _ => adm m hO) (cellOf_inj fun _ => adm m hO)) (Pipeline.launchToks (Pipeline.pin pcfgs fun _ => adm m hO) (cellOf_inj fun _ => adm m hO)))
    (hu₀ := by
      iintro Hu; imodintro
      isplitl [Hu]; · iapply (show (ownU _ : sProp 𝕄) ⊢ BI.own (emb₁ (initOf (Pipeline.cells (Pipeline.pin pcfgs fun _ => adm m hO) (cellOf_inj fun _ => adm m hO)) (Pipeline.launchToks (Pipeline.pin pcfgs fun _ => adm m hO) (cellOf_inj fun _ => adm m hO)))) from .rfl); iexact Hu
      iapply (show (BI.emp : sProp 𝕄) ⊢ bigSep Finset.univ (fun _ : Dev nD => (BI.emp : sProp 𝕄)) from by rw [BI.bigSep_emp_const])
      iempintro)
    (V := V m) (hmain := hmain m)
    (hsplit := hsplit m hO)
    (hpf := V_pre m)
    (X := fun c => iprop(∃ r, prngReg c r)) (Y := fun c => iprop(∃ r, prngReg c r))
    (Z := fun c => Pipeline.unscopedRestP (Ix := Unit) (Name := ℕ) (U := UR sig nD τ) (Lvl := ℕ) pre0 (cfgM m hO).spec c (V m c))
    (Z' := fun c => Pipeline.unscopedRestP (Ix := Unit) (Name := ℕ) (U := UR sig nD τ) (Lvl := ℕ) pre0 (cfgM m hO).spec c (endVal m hO c))
    (hX := fun c => by
      iintro ⟨HU, -, -, -, Hp, -⟩; imodintro
      isplitl [Hp]; · iexists _; iexact Hp
      iexact HU)
    (hin := fun c => by
      rw [show (dats m hO 0 c).Φ 0 = iprop(Pipeline.ΦA spec0 c ∗ Pipeline.ΦT pre0 (tbl m) c) from rfl]
      unfold Pipeline.ΦA Pipeline.ΦT; iintro ⟨Hp, Ht, Hr⟩
      isplitr [Ht]
      · isplitl [Hr] <;> iassumption
      · iexact Ht)
    (hout := fun c => by
      rw [show (dats m hO 0 c).Φ (Fin.last (cfgM m hO).N) = iprop(Pipeline.ΦA spec0 c ∗ Pipeline.ΦT pre0 (tbl m) c) from rfl]
      rw [Pipeline.ownSems0_none]; unfold Pipeline.ΦA
      iintro ⟨⟨Hr, Hp⟩, -⟩
      isplitl [Hp]; · iexact Hp
      isplitr; · iempintro
      iexact Hr)
    (htail := fun c Q' => htail m hO c Q')
    (QY := fun c s => ∀ b ∈ Pipeline.restRefsP sig pre0 spec0, s.mem ((c : Thread nD τ).loc b) = endVal m hO c b)
    (hY := fun c s' => by
      iintro ⟨-, HU, HSI⟩
      unfold Pipeline.unscopedRestP
      imodintro
      iapply (pointsTo_read_all (Pipeline.restRefsP sig pre0 spec0) (fun b => (c : Thread nD τ).loc b) (endVal m hO c) s')
      isplitl [HU] <;> iassumption)
    (hQ := fun s h c => (h c).2.2)

end Cert.Kernel.Hand

end
-- ==== Proof.Spec.lean ====
/-
  The loss both programs compute, as one function of the six argument arrays, on the extended reals.

  A triple (head, relation, tail) names rows h, t of the entity table E and of the entity projection table EM, and
  rows r of the relation table R and of the relation projection table RM. With x · y the sum over the 256 columns,
      d = ((rp * (hp · h) + h) + r) - (rp * (tp · t) + t) + eps        (column by column)
      score = sqrt (d · d)
  and the loss is the mean over the 16384 samples of max ((score of the positive triple - score of the negative
  triple) + 1, 0). A row index past the table's end is read at the last row, so that the function is total; both
  programs are compared with it only where every index is in range.
-/
import Idealize.ShloMosaic.PureOps.Ideal
import Idealize.ShloMosaic.PureOps.Ideal.Laws
import Idealize.ShloMosaic.Lib.ValueIdx

noncomputable section

open scoped BigOperators

namespace Cert.Loss

open Idealize.ShloMosaic Idealize.ShloMosaic.ValueIdx

/-- One row of a table: 256 extended reals. -/
abbrev Row : Type := Fin 256 → EReal

/-- Row `n` of a table of `N` rows (the last row past the end). -/
def rowAt {N : Nat} (hN : 0 < N) (X : (⟨2, ![N, 256]⟩ : Shape).Idx → EReal) (n : Nat) : Row :=
  fun d => X (ix2 (⟨min n (N - 1), by omega⟩ : Fin N) d)

/-- The inner product of two rows. -/
def dot (x y : Row) : EReal := ∑ d, x d * y d

/-- The distance's offset, 1e-6 as the f32 both programs carry, -/
def eps : EReal := Ideal.ofBits .f32 0x358637BD#32
/-- the margin, 1, -/
def margin : EReal := Ideal.ofBits .f32 0x3F800000#32
/-- and the batch size, 16384. -/
def batch : EReal := Ideal.ofBits .f32 0x46800000#32

/-- The projected difference of a triple, at one column. -/
def diff (h hp t tp r rp : Row) (d : Fin 256) : EReal :=
  (((rp d * dot hp h + h d) + r d) - (rp d * dot tp t + t d)) + eps

/-- A triple's score: the norm of its projected difference. -/
def score (h hp t tp r rp : Row) : EReal :=
  Ideal.sqrt (∑ d, diff h hp t tp r rp d * diff h hp t tp r rp d)

/-- The score of the triple with head `hI`, relation `rI`, tail `tI`. -/
def tripleScore (E EM : (⟨2, ![500000, 256]⟩ : Shape).Idx → EReal) (R RM : (⟨2, ![1000, 256]⟩ : Shape).Idx → EReal)
    (hI rI tI : Nat) : EReal :=
  score (rowAt (by norm_num) E hI) (rowAt (by norm_num) EM hI) (rowAt (by norm_num) E tI) (rowAt (by norm_num) EM tI)
    (rowAt (by norm_num) R rI) (rowAt (by norm_num) RM rI)

/-- The hinge of a positive against a negative score. -/
def hinge (p n : EReal) : EReal := max ((p - n) + margin) 0

/-- Word `k` of sample `i`'s triple, as a row number. -/
def word (tri : IVec (⟨2, ![16384, 3]⟩ : Shape) 32) (i : Fin 16384) (k : Fin 3) : Nat := (tri (ix2 i k)).toNat

/-- Sample `i`'s loss. -/
def sampleLoss (pos neg : IVec (⟨2, ![16384, 3]⟩ : Shape) 32)
    (E EM : (⟨2, ![500000, 256]⟩ : Shape).Idx → EReal) (R RM : (⟨2, ![1000, 256]⟩ : Shape).Idx → EReal) (i : Fin 16384) : EReal :=
  hinge (tripleScore E EM R RM (word pos i 0) (word pos i 1) (word pos i 2))
    (tripleScore E EM R RM (word neg i 0) (word neg i 1) (word neg i 2))

/-- The loss: the samples' mean. -/
def total (pos neg : IVec (⟨2, ![16384, 3]⟩ : Shape) 32)
    (E EM : (⟨2, ![500000, 256]⟩ : Shape).Idx → EReal) (R RM : (⟨2, ![1000, 256]⟩ : Shape).Idx → EReal) : EReal :=
  Ideal.div (∑ i : Fin 16384, sampleLoss pos neg E EM R RM i) batch

/-- Every index of a triple array names a row of its table. -/
def InRange (tri : IVec (⟨2, ![16384, 3]⟩ : Shape) 32) : Prop :=
  ∀ i : Fin 16384, (tri (ix2 i 0)).toNat < 500000 ∧ (tri (ix2 i 1)).toNat < 1000 ∧ (tri (ix2 i 2)).toNat < 500000

end Cert.Loss

end
-- ==== Proof.PreRange.lean ====
/-
  The precondition's index conjuncts, read back.

  The printed predicate is a conjunction of ten one-bit scalars: four say the float tables are finite, and six say, for
  column k = 0, 1, 2 of each of the two [16384 × 3] triple arrays, that every entry c of the column satisfies
  0 ≤ c < N as signed 32-bit words (N = 500000 for the head and tail columns, 1000 for the relation column). Each of the
  six is an "all" over the column: a reduction by "and", from 1, of the entrywise conjunction of the two comparisons.
  When the whole conjunction is 1, each of the six is 1, so each entry of each column passes both comparisons; a word
  that is at least 0 signed has a clear top bit, so its signed and unsigned readings agree, and being below N signed
  it is below N unsigned. The column is taken as a [16384 × 1] slice at column k reshaped to a vector: its entry i is the
  array's entry (i, k), because both lie at row-major position i of the slice.
-/
import proofs.«412037_j48361331753003_2_alg».proof.Pre_finite_inputs
import proofs.«412037_j48361331753003_2_alg».proof.Proof.Spec
import Idealize.ShloMosaic.Lib.ReduceAll
import Idealize.ShloMosaic.Lib.Affine
import Idealize.ShloMosaic.Lib.ValueIdx
import Idealize.ShloMosaic.Lib.ValueLayout
import Idealize.ShloMosaic.Lib.Pipeline.Value

namespace Cert.Pre_finite_inputs.Range

open Idealize.ShloMosaic Idealize.ShloMosaic.ValueIdx

/-- The scalar shape has one index. -/
instance : Subsingleton S_.Idx := ⟨fun a b => funext fun d => d.elim0⟩

/-- A word that is at least 0 and below n as signed words (n below 2³¹) is below n as a natural number: the first
    comparison clears the top bit, so the signed reading is the unsigned one. -/
theorem toNat_lt_of_signed (w : BitVec 32) (n : Nat) (hn : n < 2 ^ 31) (h0 : IntOp.cmpi .sge w 0#32 = 1#1)
    (h1 : IntOp.cmpi .slt w (BitVec.ofNat 32 n) = 1#1) : w.toNat < n := by
  have e0 : (0 : Int) ≤ w.toInt := by simpa using IntOp.cmpi_sge.1 h0
  have e1 : w.toInt < (n : Int) := by
    have h := IntOp.cmpi_slt.1 h1
    have hn' : (BitVec.ofNat 32 n).toInt = (n : Int) := by
      rw [BitVec.toInt_eq_toNat_cond, BitVec.toNat_ofNat]
      have : n % 2 ^ 32 = n := Nat.mod_eq_of_lt (by omega)
      rw [this, if_pos (by omega)]
    rwa [hn'] at h
  rw [BitVec.toInt_eq_toNat_cond] at e0 e1
  have hw := w.isLt
  split at e0 <;> omega

/-- Column k of a [16384 × 3] array, cut as a [16384 × 1] slice and reshaped to a vector, reads at i the array's entry (i, k). -/
theorem column_apply {α : Type} (o : Nat) (X : S16384x3.Idx → α) (hs : S16384x3.Slices ![0, o] S16384x1)
    (hc : S16384x1.ShapeCasts S16384) (i : Fin 16384) (k : Fin 3) (hk : k.val = o) :
    shapeCast S16384 (extractStridedSlice S16384x1 ![0, o] X hs) hc (ix1 i) = X (ix2 i k) := by
  refine (shapeCast_apply _ hc (ix1 i) (ix2 i (0 : Fin 1)) ?_).trans ?_
  · rw [Shape.rowMajor_val_two, Shape.rowMajor_val_one]
    show i.val * 1 + 0 = i.val
    omega
  · exact slice2_axis1_apply o X hs i 0 k (by rw [hk]; rfl)

/-- One "all" of a column's range test that came out 1: every entry of the column is below the bound. -/
theorem column_lt (a : IVec S16384x3 32) (o : Nat) (hs : S16384x3.Slices ![0, o] S16384x1)
    (hc : S16384x1.ShapeCasts S16384) (hb : S_.BroadcastsInDim S16384 (![] : Fin 0 → Fin S16384.rank))
    (hr : S16384.ReducesTo [0] S_) (h0 : 0 < S_.numel) (n : Nat) (hn : n < 2 ^ 31) (k : Fin 3) (hk : k.val = o)
    (h : Host.reduce IntOp.andi
        (andi (cmpi .sge (shapeCast S16384 (extractStridedSlice S16384x1 ![0, o] a hs) hc)
                (broadcastInDim S16384 ![] hb (constantI S_ 32 0#32)))
              (cmpi .slt (shapeCast S16384 (extractStridedSlice S16384x1 ![0, o] a hs) hc)
                (broadcastInDim S16384 ![] hb (constantI S_ 32 (BitVec.ofNat 32 n)))))
        (constantI S_ 1 1#1) hr h0 ix0 = 1#1) (i : Fin 16384) : (a (ix2 i k)).toNat < n := by
  have e := Host.reduce_andi_all _ _ hr h0 ix0 h (ix1 i)
  obtain ⟨e0, e1⟩ := IntOp.andi_eq_one.1 e
  have e0' : IntOp.cmpi .sge (a (ix2 i k)) 0#32 = 1#1 := by
    rw [← column_apply o a hs hc i k hk]; exact e0
  have e1' : IntOp.cmpi .slt (a (ix2 i k)) (BitVec.ofNat 32 n) = 1#1 := by
    rw [← column_apply o a hs hc i k hk]; exact e1
  exact toNat_lt_of_signed _ n hn e0' e1'

/-- A vector "and" read at an index is 1 exactly when both operands are 1 there. -/
theorem andi_apply_eq_one {s : Shape} (x y : IVec s 1) (j : s.Idx) : andi x y j = 1#1 ↔ x j = 1#1 ∧ y j = 1#1 :=
  IntOp.andi_eq_one

/-- THE PRECONDITION DECODED: where the printed predicate is 1, every index of both triple arrays names a row of its table. -/
theorem inRange_of_pre [Cert.Pre_finite_inputs.Facts] {F : FTy → Type} [FloatOps F]
    (a0 a1 : IVec Cert.Pre_finite_inputs.S16384x3 32) (a2 a3 : FVec F Cert.Pre_finite_inputs.S500000x256 .f32) (a4 a5 : FVec F Cert.Pre_finite_inputs.S1000x256 .f32)
    (h : Cert.Pre_finite_inputs.fn (F := F) a0 a1 a2 a3 a4 a5 = fun _ => 1#1) :
    Cert.Loss.InRange a0 ∧ Cert.Loss.InRange a1 := by
  have e := congrFun h ix0
  dsimp only [fn, fn_part1, fn_part2, fn_part3, fn_part4] at e
  simp only [andi_apply_eq_one] at e
  obtain ⟨⟨⟨⟨⟨⟨-, c00⟩, c01⟩, c02⟩, c10⟩, c11⟩, c12⟩ := e
  exact ⟨fun i => ⟨column_lt a0 0 _ _ _ _ _ 500000 (by norm_num) 0 rfl c00 i,
      column_lt a0 1 _ _ _ _ _ 1000 (by norm_num) 1 rfl c01 i,
      column_lt a0 2 _ _ _ _ _ 500000 (by norm_num) 2 rfl c02 i⟩,
    fun i => ⟨column_lt a1 0 _ _ _ _ _ 500000 (by norm_num) 0 rfl c10 i,
      column_lt a1 1 _ _ _ _ _ 1000 (by norm_num) 1 rfl c11 i,
      column_lt a1 2 _ _ _ _ _ 500000 (by norm_num) 2 rfl c12 i⟩⟩

end Cert.Pre_finite_inputs.Range
-- ==== Proof.K.Rows.lean ====
/-
  The region's entry in terms of the argument arrays.

  Before the region @main runs sixteen layout operations. Twelve of them cut each of the two [16384 × 3] triple arrays
  into its three columns — a [16384 × 1] slice at column k reshaped to a vector — and hand the six columns to the region
  as its tables: entry i of a table is entry (i, k) of its triple array. So where every index of the two triple arrays
  names a row of its embedding table, every word of every table does. The other four reshape each [N × 256] embedding
  table to [N × 2 × 128]: row n keeps its 256 entries as two halves of 128, and entry (n, a, l) is the table's entry
  (n, 128 a + l), the two having the same row-major position 256 n + 128 a + l.
-/
import proofs.«412037_j48361331753003_2_alg».proof.Proof.K.Tables
import proofs.«412037_j48361331753003_2_alg».proof.Proof.PreRange
import proofs.«412037_j48361331753003_2_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 eq_ix1)
open Idealize.ShloMosaic.StableHlo

variable {F : FTy → Type} [FloatOps F]
variable (m : (ℓ : Loc nD τ sig) → Buf (Elt F) ℓ)

/-! ## The host operations' results before the region -/

/-- A table is a column of a triple array: the [16384 × 1] slice at that column, reshaped to a vector. -/
theorem V_v1 (c : Dev nD) : (V m c main_v1 : S16384.Idx → BitVec 32)
    = shapeCast S16384 (extractStridedSlice S16384x1 ![0, 0] (m ((c : Thread nD τ).loc main_arg0) : S16384x3.Idx → BitVec 32) slices_S16384x3_S16384x1_0_0) shapeCasts_S16384x1_S16384 := by
  show StableHlo.after hostOps0 (V₀ m c) (Proc.devRef .tc main_v1) = _
  dsimp only [hostOps0]; after_results; rfl
theorem V_v5 (c : Dev nD) : (V m c main_v5 : S16384.Idx → BitVec 32)
    = shapeCast S16384 (extractStridedSlice S16384x1 ![0, 2] (m ((c : Thread nD τ).loc main_arg0) : S16384x3.Idx → BitVec 32) slices_S16384x3_S16384x1_0_2) shapeCasts_S16384x1_S16384 := by
  show StableHlo.after hostOps0 (V₀ m c) (Proc.devRef .tc main_v5) = _
  dsimp only [hostOps0]; after_results; rfl
theorem V_v3 (c : Dev nD) : (V m c main_v3 : S16384.Idx → BitVec 32)
    = shapeCast S16384 (extractStridedSlice S16384x1 ![0, 1] (m ((c : Thread nD τ).loc main_arg0) : S16384x3.Idx → BitVec 32) slices_S16384x3_S16384x1_0_1) shapeCasts_S16384x1_S16384 := by
  show StableHlo.after hostOps0 (V₀ m c) (Proc.devRef .tc main_v3) = _
  dsimp only [hostOps0]; after_results; rfl
theorem V_v7 (c : Dev nD) : (V m c main_v7 : S16384.Idx → BitVec 32)
    = shapeCast S16384 (extractStridedSlice S16384x1 ![0, 0] (m ((c : Thread nD τ).loc main_arg1) : S16384x3.Idx → BitVec 32) slices_S16384x3_S16384x1_0_0) shapeCasts_S16384x1_S16384 := by
  show StableHlo.after hostOps0 (V₀ m c) (Proc.devRef .tc main_v7) = _
  dsimp only [hostOps0]; after_results; rfl
theorem V_v11 (c : Dev nD) : (V m c main_v11 : S16384.Idx → BitVec 32)
    = shapeCast S16384 (extractStridedSlice S16384x1 ![0, 2] (m ((c : Thread nD τ).loc main_arg1) : S16384x3.Idx → BitVec 32) slices_S16384x3_S16384x1_0_2) shapeCasts_S16384x1_S16384 := by
  show StableHlo.after hostOps0 (V₀ m c) (Proc.devRef .tc main_v11) = _
  dsimp only [hostOps0]; after_results; rfl
theorem V_v9 (c : Dev nD) : (V m c main_v9 : S16384.Idx → BitVec 32)
    = shapeCast S16384 (extractStridedSlice S16384x1 ![0, 1] (m ((c : Thread nD τ).loc main_arg1) : S16384x3.Idx → BitVec 32) slices_S16384x3_S16384x1_0_1) shapeCasts_S16384x1_S16384 := by
  show StableHlo.after hostOps0 (V₀ m c) (Proc.devRef .tc main_v9) = _
  dsimp only [hostOps0]; after_results; rfl

/-! ## The tables as columns of the triple arrays -/

theorem tbl0_ix1 (i : Fin 16384) : tbl m 0 (ix1 i) = m (((0 : Dev nD) : Thread nD τ).loc main_arg0) (ix2 i 0) := by
  show (V m 0 main_v1 : S16384.Idx → BitVec 32) (ix1 i) = _
  rw [V_v1]
  exact Cert.Pre_finite_inputs.Range.column_apply 0 _ _ _ i 0 rfl

theorem tbl0_apply (x : S16384.Idx) : tbl m 0 x = m (((0 : Dev nD) : Thread nD τ).loc main_arg0) (ix2 (x 0) 0) :=
  (congrArg (tbl m 0) (eq_ix1 x)).trans (tbl0_ix1 m (x 0))

theorem tbl1_ix1 (i : Fin 16384) : tbl m 1 (ix1 i) = m (((0 : Dev nD) : Thread nD τ).loc main_arg0) (ix2 i 2) := by
  show (V m 0 main_v5 : S16384.Idx → BitVec 32) (ix1 i) = _
  rw [V_v5]
  exact Cert.Pre_finite_inputs.Range.column_apply 2 _ _ _ i 2 rfl
theorem tbl2_ix1 (i : Fin 16384) : tbl m 2 (ix1 i) = m (((0 : Dev nD) : Thread nD τ).loc main_arg0) (ix2 i 1) := by
  show (V m 0 main_v3 : S16384.Idx → BitVec 32) (ix1 i) = _
  rw [V_v3]
  exact Cert.Pre_finite_inputs.Range.column_apply 1 _ _ _ i 1 rfl
theorem tbl3_ix1 (i : Fin 16384) : tbl m 3 (ix1 i) = m (((0 : Dev nD) : Thread nD τ).loc main_arg1) (ix2 i 0) := by
  show (V m 0 main_v7 : S16384.Idx → BitVec 32) (ix1 i) = _
  rw [V_v7]
  exact Cert.Pre_finite_inputs.Range.column_apply 0 _ _ _ i 0 rfl
theorem tbl4_ix1 (i : Fin 16384) : tbl m 4 (ix1 i) = m (((0 : Dev nD) : Thread nD τ).loc main_arg1) (ix2 i 2) := by
  show (V m 0 main_v11 : S16384.Idx → BitVec 32) (ix1 i) = _
  rw [V_v11]
  exact Cert.Pre_finite_inputs.Range.column_apply 2 _ _ _ i 2 rfl
theorem tbl5_ix1 (i : Fin 16384) : tbl m 5 (ix1 i) = m (((0 : Dev nD) : Thread nD τ).loc main_arg1) (ix2 i 1) := by
  show (V m 0 main_v9 : S16384.Idx → BitVec 32) (ix1 i) = _
  rw [V_v9]
  exact Cert.Pre_finite_inputs.Range.column_apply 1 _ _ _ i 1 rfl

/-- Positive tails: column 2 of the positive triples. -/
theorem tbl1_apply (x : S16384.Idx) : tbl m 1 x = m (((0 : Dev nD) : Thread nD τ).loc main_arg0) (ix2 (x 0) 2) :=
  (congrArg (tbl m 1) (eq_ix1 x)).trans (tbl1_ix1 m (x 0))
/-- Positive relations: column 1 of the positive triples. -/
theorem tbl2_apply (x : S16384.Idx) : tbl m 2 x = m (((0 : Dev nD) : Thread nD τ).loc main_arg0) (ix2 (x 0) 1) :=
  (congrArg (tbl m 2) (eq_ix1 x)).trans (tbl2_ix1 m (x 0))
/-- Negative heads: column 0 of the negative triples. -/
theorem tbl3_apply (x : S16384.Idx) : tbl m 3 x = m (((0 : Dev nD) : Thread nD τ).loc main_arg1) (ix2 (x 0) 0) :=
  (congrArg (tbl m 3) (eq_ix1 x)).trans (tbl3_ix1 m (x 0))
/-- Negative tails: column 2 of the negative triples. -/
theorem tbl4_apply (x : S16384.Idx) : tbl m 4 x = m (((0 : Dev nD) : Thread nD τ).loc main_arg1) (ix2 (x 0) 2) :=
  (congrArg (tbl m 4) (eq_ix1 x)).trans (tbl4_ix1 m (x 0))
/-- Negative relations: column 1 of the negative triples. -/
theorem tbl5_apply (x : S16384.Idx) : tbl m 5 x = m (((0 : Dev nD) : Thread nD τ).loc main_arg1) (ix2 (x 0) 1) :=
  (congrArg (tbl m 5) (eq_ix1 x)).trans (tbl5_ix1 m (x 0))

/-- Triple arrays whose every index names a row of its table give tables in range. -/
theorem tblRange_of_inRange (h0 : Cert.Loss.InRange (m (((0 : Dev nD) : Thread nD τ).loc main_arg0)))
    (h1 : Cert.Loss.InRange (m (((0 : Dev nD) : Thread nD τ).loc main_arg1))) : TblRange m where
  hpos := fun (x : S16384.Idx) => lt_of_eq_of_lt (congrArg BitVec.toNat (tbl0_apply m x)) (h0 (x 0)).1
  tpos := fun (x : S16384.Idx) => lt_of_eq_of_lt (congrArg BitVec.toNat (tbl1_apply m x)) (h0 (x 0)).2.2
  rpos := fun (x : S16384.Idx) => lt_of_eq_of_lt (congrArg BitVec.toNat (tbl2_apply m x)) (h0 (x 0)).2.1
  hneg := fun (x : S16384.Idx) => lt_of_eq_of_lt (congrArg BitVec.toNat (tbl3_apply m x)) (h1 (x 0)).1
  tneg := fun (x : S16384.Idx) => lt_of_eq_of_lt (congrArg BitVec.toNat (tbl4_apply m x)) (h1 (x 0)).2.2
  rneg := fun (x : S16384.Idx) => lt_of_eq_of_lt (congrArg BitVec.toNat (tbl5_apply m x)) (h1 (x 0)).2.1

/-! ## The embedding tables as the region sees them: each 256-wide row as two 128-wide halves -/

/-- An [N × 256] array reshaped to [N × 2 × 128] reads, at (n, a, l), the array's entry (n, 128 a + l): both lie at row-major
    position 256 n + 128 a + l. -/
theorem halves_apply {α : Type} {N : Nat} (X : (⟨2, ![N, 256]⟩ : Shape).Idx → α)
    (h : (⟨2, ![N, 256]⟩ : Shape).ShapeCasts ⟨3, ![N, 2, 128]⟩) (n : Fin N) (a : Fin 2) (l : Fin 128) :
    shapeCast ⟨3, ![N, 2, 128]⟩ X h (ix3 n a l) = X (ix2 n (⟨128 * a.val + l.val, by omega⟩ : Fin 256)) :=
  shapeCast_apply X h _ _ (by
    rw [Shape.rowMajor_val_two, Shape.rowMajor_val_three]
    show n.val * 256 + (128 * a.val + l.val) = (n.val * 2 + a.val) * 128 + l.val
    omega)

theorem V_v12 (c : Dev nD) : (V m c main_v12 : S500000x2x128.Idx → F .f32)
    = shapeCast S500000x2x128 (m ((c : Thread nD τ).loc main_arg2) : S500000x256.Idx → F .f32) shapeCasts_S500000x256_S500000x2x128 := by
  show StableHlo.after hostOps0 (V₀ m c) (Proc.devRef .tc main_v12) = _
  dsimp only [hostOps0]; after_results; rfl
theorem V_v13 (c : Dev nD) : (V m c main_v13 : S500000x2x128.Idx → F .f32)
    = shapeCast S500000x2x128 (m ((c : Thread nD τ).loc main_arg3) : S500000x256.Idx → F .f32) shapeCasts_S500000x256_S500000x2x128 := by
  show StableHlo.after hostOps0 (V₀ m c) (Proc.devRef .tc main_v13) = _
  dsimp only [hostOps0]; after_results; rfl
theorem V_v14 (c : Dev nD) : (V m c main_v14 : S1000x2x128.Idx → F .f32)
    = shapeCast S1000x2x128 (m ((c : Thread nD τ).loc main_arg4) : S1000x256.Idx → F .f32) shapeCasts_S1000x256_S1000x2x128 := by
  show StableHlo.after hostOps0 (V₀ m c) (Proc.devRef .tc main_v14) = _
  dsimp only [hostOps0]; after_results; rfl
theorem V_v15 (c : Dev nD) : (V m c main_v15 : S1000x2x128.Idx → F .f32)
    = shapeCast S1000x2x128 (m ((c : Thread nD τ).loc main_arg5) : S1000x256.Idx → F .f32) shapeCasts_S1000x256_S1000x2x128 := by
  show StableHlo.after hostOps0 (V₀ m c) (Proc.devRef .tc main_v15) = _
  dsimp only [hostOps0]; after_results; rfl

/-- The entity table as the region sees it. -/
theorem V_v12_apply (c : Dev nD) (n : Fin 500000) (a : Fin 2) (l : Fin 128) :
    V m c main_v12 (ix3 n a l) = m ((c : Thread nD τ).loc main_arg2) (ix2 n (⟨128 * a.val + l.val, by omega⟩ : Fin 256)) := by
  show (V m c main_v12 : S500000x2x128.Idx → F .f32) (ix3 n a l) = _
  rw [V_v12]
  exact halves_apply _ _ n a l
/-- The entity projection table as the region sees it. -/
theorem V_v13_apply (c : Dev nD) (n : Fin 500000) (a : Fin 2) (l : Fin 128) :
    V m c main_v13 (ix3 n a l) = m ((c : Thread nD τ).loc main_arg3) (ix2 n (⟨128 * a.val + l.val, by omega⟩ : Fin 256)) := by
  show (V m c main_v13 : S500000x2x128.Idx → F .f32) (ix3 n a l) = _
  rw [V_v13]
  exact halves_apply _ _ n a l
/-- The relation table as the region sees it. -/
theorem V_v14_apply (c : Dev nD) (n : Fin 1000) (a : Fin 2) (l : Fin 128) :
    V m c main_v14 (ix3 n a l) = m ((c : Thread nD τ).loc main_arg4) (ix2 n (⟨128 * a.val + l.val, by omega⟩ : Fin 256)) := by
  show (V m c main_v14 : S1000x2x128.Idx → F .f32) (ix3 n a l) = _
  rw [V_v14]
  exact halves_apply _ _ n a l
/-- The relation projection table as the region sees it. -/
theorem V_v15_apply (c : Dev nD) (n : Fin 1000) (a : Fin 2) (l : Fin 128) :
    V m c main_v15 (ix3 n a l) = m ((c : Thread nD τ).loc main_arg5) (ix2 n (⟨128 * a.val + l.val, by omega⟩ : Fin 256)) := by
  show (V m c main_v15 : S1000x2x128.Idx → F .f32) (ix3 n a l) = _
  rw [V_v15]
  exact halves_apply _ _ n a l

end Cert.Kernel.Hand

end
-- ==== Proof.K.EndRead.lean ====
/-
  What the core's buffers hold at the end of @main, read at the result and at the six arguments.

  No host operation writes an argument and the region writes none, so each argument ends as launched. The result is the
  quotient by the batch size of the sum of the output array's two cells: each cell is sliced out of the array and
  reshaped to a scalar, the two scalars are added, and the sum is divided by the constant 16384.
-/
import proofs.«412037_j48361331753003_2_alg».proof.Proof.K.EndVal
import proofs.«412037_j48361331753003_2_alg».proof.Proof.Spec
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.Kernel.Hand

open Cert.Kernel Cert.Kernel.Gen
open Idealize.ShloMosaic Idealize.ShloMosaic.TcCoe
open Idealize.SL.Sem
open Idealize.ShloMosaic.ValueIdx (ix1 ix2 ix3 eq_ix3)

variable {F : FTy → Type} [FloatOps F]

variable (m : (ℓ : Loc nD τ sig) → Buf (Elt F) ℓ)

/-! ## The arguments -/

/-- The buffers the sixteen operations before the region write, -/
abbrev written0 : List (Ref sig .tc) :=
  [main_v0, main_v1, main_v2, main_v3, main_v4, main_v5, main_v6, main_v7, main_v8, main_v9, main_v10, main_v11, main_v12,
    main_v13, main_v14, main_v15]
/-- and those the seven after it write. -/
abbrev written1 : List (Ref sig .tc) := [main_v17, main_v18, main_v19, main_v20, main_v21, main_cst, main_v22]

/-- A reference of a list is, as a device buffer, in the list's set of device buffers. -/
theorem single_sub {W : List (Ref sig .tc)} {y : Ref sig .tc} (hy : y ∈ W) :
    ({Proc.devRef .tc y} : Finset (DevRef τ sig)) ⊆ (W.map (Proc.devRef (τ := τ) .tc)).toFinset :=
  Finset.singleton_subset_iff.mpr (List.mem_toFinset.mpr (List.mem_map_of_mem hy))

/-- Each operation before the region writes one buffer of the first list, -/
theorem writes0_sub :
    (hostOps0 (F := F)).Forall fun op => op.writes ⊆ (written0.map (Proc.devRef (τ := τ) .tc)).toFinset :=
  ⟨single_sub (by decide), single_sub (by decide), single_sub (by decide), single_sub (by decide), single_sub (by decide),
    single_sub (by decide), single_sub (by decide), single_sub (by decide), single_sub (by decide), single_sub (by decide),
    single_sub (by decide), single_sub (by decide), single_sub (by decide), single_sub (by decide), single_sub (by decide),
    single_sub (by decide)⟩
/-- and each operation after it one of the second. -/
theorem writes1_sub :
    (hostOps1 (F := F)).Forall fun op => op.writes ⊆ (written1.map (Proc.devRef (τ := τ) .tc)).toFinset :=
  ⟨single_sub (by decide), single_sub (by decide), single_sub (by decide), single_sub (by decide), single_sub (by decide),
    single_sub (by decide), single_sub (by decide)⟩

/-- A buffer that neither stretch of operations writes, and that is not the region's output array, ends as launched. -/
theorem endVal_of_not_written (hO : Ok m) (c : Dev nD) (b : Ref sig .tc) (h0 : b ∉ written0) (h1 : b ∉ written1)
    (hb : b ≠ main_v16) : endVal m hO c b = m ((c : Thread nD τ).loc b) :=
  (StableHlo.after_of_writes_sub (r := b) hostOps1 (exitVal m hO c) writes1_sub h1).trans
    ((exitVal_of_ne m hO c b hb).trans
      (StableHlo.after_of_writes_sub (r := b) hostOps0 (V₀ m c) writes0_sub h0))

theorem endVal_arg0 (hO : Ok m) (c : Dev nD) : endVal m hO c main_arg0 = m ((c : Thread nD τ).loc main_arg0) :=
  endVal_of_not_written m hO c main_arg0 (by decide) (by decide) (by decide)
theorem endVal_arg1 (hO : Ok m) (c : Dev nD) : endVal m hO c main_arg1 = m ((c : Thread nD τ).loc main_arg1) :=
  endVal_of_not_written m hO c main_arg1 (by decide) (by decide) (by decide)
theorem endVal_arg2 (hO : Ok m) (c : Dev nD) : endVal m hO c main_arg2 = m ((c : Thread nD τ).loc main_arg2) :=
  endVal_of_not_written m hO c main_arg2 (by decide) (by decide) (by decide)
theorem endVal_arg3 (hO : Ok m) (c : Dev nD) : endVal m hO c main_arg3 = m ((c : Thread nD τ).loc main_arg3) :=
  endVal_of_not_written m hO c main_arg3 (by decide) (by decide) (by decide)
theorem endVal_arg4 (hO : Ok m) (c : Dev nD) : endVal m hO c main_arg4 = m ((c : Thread nD τ).loc main_arg4) :=
  endVal_of_not_written m hO c main_arg4 (by decide) (by decide) (by decide)
theorem endVal_arg5 (hO : Ok m) (c : Dev nD) : endVal m hO c main_arg5 = m ((c : Thread nD τ).loc main_arg5) :=
  endVal_of_not_written m hO c main_arg5 (by decide) (by decide) (by decide)

/-! ## The buffers that bypass the region -/

/-- The result's buffer and the six arguments are unscoped, no window's array and no prefetched table. -/
theorem mem_rest : main_v22 ∈ Pipeline.restRefsP sig pre0 spec0 ∧ main_arg0 ∈ Pipeline.restRefsP sig pre0 spec0
    ∧ main_arg1 ∈ Pipeline.restRefsP sig pre0 spec0 ∧ main_arg2 ∈ Pipeline.restRefsP sig pre0 spec0
    ∧ main_arg3 ∈ Pipeline.restRefsP sig pre0 spec0 ∧ main_arg4 ∈ Pipeline.restRefsP sig pre0 spec0
    ∧ main_arg5 ∈ Pipeline.restRefsP sig pre0 spec0 :=
  ⟨Finset.mem_sdiff.mpr ⟨Pipeline.mem_restRefs_of _ rfl (by decide), by decide⟩,
    Finset.mem_sdiff.mpr ⟨Pipeline.mem_restRefs_of _ rfl (by decide), by decide⟩,
    Finset.mem_sdiff.mpr ⟨Pipeline.mem_restRefs_of _ rfl (by decide), by decide⟩,
    Finset.mem_sdiff.mpr ⟨Pipeline.mem_restRefs_of _ rfl (by decide), by decide⟩,
    Finset.mem_sdiff.mpr ⟨Pipeline.mem_restRefs_of _ rfl (by decide), by decide⟩,
    Finset.mem_sdiff.mpr ⟨Pipeline.mem_restRefs_of _ rfl (by decide), by decide⟩,
    Finset.mem_sdiff.mpr ⟨Pipeline.mem_restRefs_of _ rfl (by decide), by decide⟩⟩

/-! ## The result -/

/-- The result at the end: the two cells of the output array, each sliced out and reshaped to a scalar, added, and the
    sum divided by the constant 16384. -/
theorem endVal_result (hO : Ok m) (c : Dev nD) :
    (endVal m hO c main_v22 : S_.Idx → F .f32)
      = Host.divf (addf (shapeCast S_ (extractStridedSlice S1x1x1 ![0, 0, 0] (outArr m hO c : S2x1x1.Idx → F .f32) slices_S2x1x1_S1x1x1_0_0_0) shapeCasts_S1x1x1_S_)
          (shapeCast S_ (extractStridedSlice S1x1x1 ![1, 0, 0] (outArr m hO c : S2x1x1.Idx → F .f32) slices_S2x1x1_S1x1x1_1_0_0) shapeCasts_S1x1x1_S_))
        (constant S_ .f32 0x46800000#32) := by
  show StableHlo.after hostOps1 (exitVal m hO c) (Proc.devRef .tc main_v22) = _
  dsimp only [hostOps1]
  after_results
  rw [exitVal_out]
  generalize outArr m hO c = A
  rfl

/-! ## The result on the extended reals -/

/-- The scalar shape and the one-cell shape have one index each: any two of them are at the same place in row-major
    order. -/
theorem rowMajor_cell (k : S1x1x1.Idx) (j : S_.Idx) : (S1x1x1.rowMajor k).val = (S_.rowMajor j).val := by
  have h1 : (S1x1x1.rowMajor k).val < 1 := (S1x1x1.rowMajor k).isLt
  have h2 : (S_.rowMajor j).val < 1 := (S_.rowMajor j).isLt
  omega

/-- Cell 0 of a two-cell array, sliced out and reshaped to a scalar, is the array at cell 0, -/
theorem cell0_apply {α : Type} (A : S2x1x1.Idx → α) (j : S_.Idx) :
    shapeCast S_ (extractStridedSlice S1x1x1 ![0, 0, 0] A slices_S2x1x1_S1x1x1_0_0_0) shapeCasts_S1x1x1_S_ j
      = A (ix3 (0 : Fin 2) (0 : Fin 1) (0 : Fin 1)) := by
  rw [shapeCast_apply _ shapeCasts_S1x1x1_S_ j (ix3 (0 : Fin 1) (0 : Fin 1) (0 : Fin 1)) (rowMajor_cell _ j)]
  exact extractStridedSlice_apply _ A _ _ _ (fun a => by match a with | ⟨0, _⟩ => rfl | ⟨1, _⟩ => rfl | ⟨2, _⟩ => rfl)
/-- and cell 1 likewise the array at cell 1. -/
theorem cell1_apply {α : Type} (A : S2x1x1.Idx → α) (j : S_.Idx) :
    shapeCast S_ (extractStridedSlice S1x1x1 ![1, 0, 0] A slices_S2x1x1_S1x1x1_1_0_0) shapeCasts_S1x1x1_S_ j
      = A (ix3 (1 : Fin 2) (0 : Fin 1) (0 : Fin 1)) := by
  rw [shapeCast_apply _ shapeCasts_S1x1x1_S_ j (ix3 (0 : Fin 1) (0 : Fin 1) (0 : Fin 1)) (rowMajor_cell _ j)]
  exact extractStridedSlice_apply _ A _ _ _ (fun a => by match a with | ⟨0, _⟩ => rfl | ⟨1, _⟩ => rfl | ⟨2, _⟩ => rfl)

/-- On the extended reals a host quotient of a sum of two scalars by a constant scalar is the quotient of the sum. -/
theorem div_add_const_apply (x y : FVec Ideal S_ .f32) (w : BitVec 32) (j : S_.Idx) :
    Host.divf (addf x y) (constant S_ .f32 w) j = Ideal.div (x j + y j) (Ideal.ofBits .f32 w) := rfl

/-- On the extended reals the result is the sum of the output array's two cells divided by the batch size. -/
theorem endVal_result_ideal (m : (ℓ : Loc nD τ sig) → Buf (Elt Ideal) ℓ) (hO : Ok m) (c : Dev nD) (j : S_.Idx) :
    (endVal m hO c main_v22 : S_.Idx → EReal) j
      = Ideal.div (HAdd.hAdd (α := EReal) (β := EReal) (γ := EReal)
          ((outArr m hO c : S2x1x1.Idx → EReal) (ix3 (0 : Fin 2) (0 : Fin 1) (0 : Fin 1)))
          ((outArr m hO c : S2x1x1.Idx → EReal) (ix3 (1 : Fin 2) (0 : Fin 1) (0 : Fin 1)))) Cert.Loss.batch := by
  rw [endVal_result]
  generalize outArr m hO c = A
  rw [div_add_const_apply, cell0_apply, cell1_apply]
  unfold Cert.Loss.batch
  exact Eq.refl _

end Cert.Kernel.Hand

end
-- ==== Proof.KI.Tables.lean ====
/-
  The kernel region's entry: what the sixteen host operations before it leave in the core's buffers, the six index
  tables among them, and the side condition the region asks of the tables.

  @main slices each of the two triple arrays into its three columns (heads, relations, tails) and hands the six columns
  to the region as prefetched tables; sample `i`'s block of each gathered window is row `table[i]` of its embedding
  table, so the region runs only where every word of a table names a row of the table it indexes: heads and tails
  below 500000, relations below 1000.
-/
import proofs.«412037_j48361331753003_2_alg».proof.Proof.Gen.KernelIdeal.Launch
import proofs.«412037_j48361331753003_2_alg».proof.Proof.Gen.KernelIdeal.Skeleton
import Idealize.ShloMosaic.Lib.Pipeline.FrameSuffix
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch, as the host operations' valuation, -/
abbrev V₀ (c : Dev nD) : Valuation τ sig (Elt F) := fun b => m (c, b)
/-- and when the region is entered: the sixteen operations have run. -/
abbrev V (c : Dev nD) (b : Ref sig .tc) : Buf (Elt F) ((c : Thread nD τ).loc b) :=
  StableHlo.after ([hostOps0] : List (List (HloOp τ sig (Elt F)))).flatten (V₀ m c) b

/-- The six tables' contents when the region is entered (the program runs on one device). -/
def tbl : pre0.Contents (Elt F) := fun j => V m (0 : Dev nD) (pre0.ref j)

theorem V_pre (c : Dev nD) (j : Fin 6) : V m c (pre0.ref j) = tbl m j := by
  obtain rfl : c = 0 := Subsingleton.elim _ _; rfl

/-- Every word of each table names a row of the table it indexes: the heads and tails of the positive and of the
    negative triples rows of the entity tables, the relations rows of the relation tables. -/
structure TblRange : Prop where
  hpos : ∀ x, (tbl m 0 x).toNat < 500000
  tpos : ∀ x, (tbl m 1 x).toNat < 500000
  rpos : ∀ x, (tbl m 2 x).toNat < 1000
  hneg : ∀ x, (tbl m 3 x).toNat < 500000
  tneg : ∀ x, (tbl m 4 x).toNat < 500000
  rneg : ∀ x, (tbl m 5 x).toNat < 1000

/-- The region's side condition of the tables: every gathered window's block inside its array, at every point. -/
abbrev Ok : Prop := ok0 (F := F) (tbl m)

/-- A block one row high at row `w` of an entity table lies inside it when `w` names a row, -/
theorem blockE (w : BitVec 32) (hw : w.toNat < 500000) :
    ∀ a, ((![w.toNat, (0#32).toNat, (0#32).toNat] : Fin 3 → Nat) a + 1) * S1x2x128.size a ≤ S500000x2x128.size a := by
  intro a; fin_cases a <;> simp [S1x2x128, S500000x2x128] <;> omega
/-- and likewise of a relation table. -/
theorem blockR (w : BitVec 32) (hw : w.toNat < 1000) :
    ∀ a, ((![w.toNat, (0#32).toNat, (0#32).toNat] : Fin 3 → Nat) a + 1) * S1x2x128.size a ≤ S1000x2x128.size a := by
  intro a; fin_cases a <;> simp [S1x2x128, S1000x2x128] <;> omega

/-- Tables in range meet the region's side condition: each window's block index is its table's word at the sample. -/
theorem ok_of_range (h : TblRange m) : Ok m := by
  refine ⟨fun i => ?_, fun i => ?_, fun i => ?_, fun i => ?_, fun i => ?_, fun i => ?_, fun i => ?_, fun i => ?_,
    fun i => ?_, fun i => ?_, fun i => ?_, fun i => ?_⟩
  · obtain ⟨w, hw, e⟩ : ∃ w : BitVec 32, w.toNat < 500000 ∧ cc0_transform_0 k0_off1_inb numel1_S1 (tbl m) i = ![w.toNat, (0#32).toNat, (0#32).toNat] := ⟨_, h.hpos _, rfl⟩
    exact ⟨fun a => by rw [e]; exact blockE w hw a, Or.inl rfl⟩
  · obtain ⟨w, hw, e⟩ : ∃ w : BitVec 32, w.toNat < 500000 ∧ cc0_transform_1 k0_off1_inb numel1_S1 (tbl m) i = ![w.toNat, (0#32).toNat, (0#32).toNat] := ⟨_, h.hpos _, rfl⟩
    exact ⟨fun a => by rw [e]; exact blockE w hw a, Or.inl rfl⟩
  · obtain ⟨w, hw, e⟩ : ∃ w : BitVec 32, w.toNat < 500000 ∧ cc0_transform_2 k0_off1_inb numel1_S1 (tbl m) i = ![w.toNat, (0#32).toNat, (0#32).toNat] := ⟨_, h.tpos _, rfl⟩
    exact ⟨fun a => by rw [e]; exact blockE w hw a, Or.inl rfl⟩
  · obtain ⟨w, hw, e⟩ : ∃ w : BitVec 32, w.toNat < 500000 ∧ cc0_transform_3 k0_off1_inb numel1_S1 (tbl m) i = ![w.toNat, (0#32).toNat, (0#32).toNat] := ⟨_, h.tpos _, rfl⟩
    exact ⟨fun a => by rw [e]; exact blockE w hw a, Or.inl rfl⟩
  · obtain ⟨w, hw, e⟩ : ∃ w : BitVec 32, w.toNat < 1000 ∧ cc0_transform_4 k0_off1_inb numel1_S1 (tbl m) i = ![w.toNat, (0#32).toNat, (0#32).toNat] := ⟨_, h.rpos _, rfl⟩
    exact ⟨fun a => by rw [e]; exact blockR w hw a, Or.inl rfl⟩
  · obtain ⟨w, hw, e⟩ : ∃ w : BitVec 32, w.toNat < 1000 ∧ cc0_transform_5 k0_off1_inb numel1_S1 (tbl m) i = ![w.toNat, (0#32).toNat, (0#32).toNat] := ⟨_, h.rpos _, rfl⟩
    exact ⟨fun a => by rw [e]; exact blockR w hw a, Or.inl rfl⟩
  · obtain ⟨w, hw, e⟩ : ∃ w : BitVec 32, w.toNat < 500000 ∧ cc0_transform_6 k0_off1_inb numel1_S1 (tbl m) i = ![w.toNat, (0#32).toNat, (0#32).toNat] := ⟨_, h.hneg _, rfl⟩
    exact ⟨fun a => by rw [e]; exact blockE w hw a, Or.inl rfl⟩
  · obtain ⟨w, hw, e⟩ : ∃ w : BitVec 32, w.toNat < 500000 ∧ cc0_transform_7 k0_off1_inb numel1_S1 (tbl m) i = ![w.toNat, (0#32).toNat, (0#32).toNat] := ⟨_, h.hneg _, rfl⟩
    exact ⟨fun a => by rw [e]; exact blockE w hw a, Or.inl rfl⟩
  · obtain ⟨w, hw, e⟩ : ∃ w : BitVec 32, w.toNat < 500000 ∧ cc0_transform_8 k0_off1_inb numel1_S1 (tbl m) i = ![w.toNat, (0#32).toNat, (0#32).toNat] := ⟨_, h.tneg _, rfl⟩
    exact ⟨fun a => by rw [e]; exact blockE w hw a, Or.inl rfl⟩
  · obtain ⟨w, hw, e⟩ : ∃ w : BitVec 32, w.toNat < 500000 ∧ cc0_transform_9 k0_off1_inb numel1_S1 (tbl m) i = ![w.toNat, (0#32).toNat, (0#32).toNat] := ⟨_, h.tneg _, rfl⟩
    exact ⟨fun a => by rw [e]; exact blockE w hw a, Or.inl rfl⟩
  · obtain ⟨w, hw, e⟩ : ∃ w : BitVec 32, w.toNat < 1000 ∧ cc0_transform_10 k0_off1_inb numel1_S1 (tbl m) i = ![w.toNat, (0#32).toNat, (0#32).toNat] := ⟨_, h.rneg _, rfl⟩
    exact ⟨fun a => by rw [e]; exact blockR w hw a, Or.inl rfl⟩
  · obtain ⟨w, hw, e⟩ : ∃ w : BitVec 32, w.toNat < 1000 ∧ cc0_transform_11 k0_off1_inb numel1_S1 (tbl m) i = ![w.toNat, (0#32).toNat, (0#32).toNat] := ⟨_, h.rneg _, rfl⟩
    exact ⟨fun a => by rw [e]; exact blockR w hw a, Or.inl rfl⟩

/-- The tables' contents as admissible contents, and the pipeline at them. -/
abbrev adm (hO : Ok m) : (pcfg0 (F := F)).Adm := ⟨tbl m, hO⟩
abbrev cfgM (hO : Ok m) : Pipeline.Cfg sig Λ₀ := cfg0 (adm m hO)

end Cert.KernelIdeal.Hand

end
-- ==== Proof.KI.Body.lean ====
/-
  The kernel body at one grid point, run on whole staging buffers.

  The body reads the twelve gathered rows (the positive triple's head, head projection, tail, tail projection,
  relation, relation projection, then the negative triple's), and adds the sample's hinge to the core's cell of the
  output. At the first sample of a core's half of the batch (second grid coordinate 0) it first resets the cell to
  zero, so the cell's earlier contents do not matter there; at every later sample the cell holds the running sum.
  Each case is run once, for any staging buffers and any contents; what the cell ends with is the list of pieces the
  run stores into it.
-/
import proofs.«412037_j48361331753003_2_alg».proof.Proof.Gen.KernelIdeal.Launch
import proofs.«412037_j48361331753003_2_alg».proof.Proof.Gen.KernelIdeal.Skeleton
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch: the second grid coordinate is zero (the first sample of a core's half). -/
abbrev condReset (i : grid0.Coords) : Prop :=
  (Scalar.cmpi .ne (Scalar.extui (Scalar.cmpi .eq (BitVec.ofNat 32 (i 1).val) 0#32)) 0#32) = 1#1

set_option maxHeartbeats 4000000 in
/-- The body where the cell is reset first: the rows' buffers come back as they were; the cell, handed over at
    anything, ends with the run's pieces. -/
noncomputable def runReset (c : Dev nD) (i : grid0.Coords) (arg2 : Memref sig .tc .smem S16384 .i32) (harg2 : arg2.IsWhole) (arg3 : Memref sig .tc .smem S16384 .i32) (harg3 : arg3.IsWhole) (arg4 : Memref sig .tc .smem S16384 .i32) (harg4 : arg4.IsWhole) (arg5 : Memref sig .tc .smem S16384 .i32) (harg5 : arg5.IsWhole) (arg6 : Memref sig .tc .smem S16384 .i32) (harg6 : arg6.IsWhole) (arg7 : Memref sig .tc .smem S16384 .i32) (harg7 : arg7.IsWhole) (arg8 : Memref sig .tc .vmem S1x2x128 .f32) (harg8 : arg8.IsWhole) (arg9 : Memref sig .tc .vmem S1x2x128 .f32) (harg9 : arg9.IsWhole) (arg10 : Memref sig .tc .vmem S1x2x128 .f32) (harg10 : arg10.IsWhole) (arg11 : Memref sig .tc .vmem S1x2x128 .f32) (harg11 : arg11.IsWhole) (arg12 : Memref sig .tc .vmem S1x2x128 .f32) (harg12 : arg12.IsWhole) (arg13 : Memref sig .tc .vmem S1x2x128 .f32) (harg13 : arg13.IsWhole) (arg14 : Memref sig .tc .vmem S1x2x128 .f32) (harg14 : arg14.IsWhole) (arg15 : Memref sig .tc .vmem S1x2x128 .f32) (harg15 : arg15.IsWhole) (arg16 : Memref sig .tc .vmem S1x2x128 .f32) (harg16 : arg16.IsWhole) (arg17 : Memref sig .tc .vmem S1x2x128 .f32) (harg17 : arg17.IsWhole) (arg18 : Memref sig .tc .vmem S1x2x128 .f32) (harg18 : arg18.IsWhole) (arg19 : Memref sig .tc .vmem S1x2x128 .f32) (harg19 : arg19.IsWhole) (arg20 : Memref sig .tc .vmem S1x1x1 .f32) (harg20 : arg20.IsWhole) (hc0 : condReset i)
    (x0 x1 x2 x3 x4 x5 x6 x7 x8 x9 x10 x11 : Vec F S1x2x128 .f32) :
    { L : List (View.Piece (Elt F) S1x1x1 .f32) //
      ∀ (E : Set ℕ) (K : PUnit → sProp 𝕄),
        iprop(owns (c : Thread nD τ) arg8 fullShare x0 ∗ owns (c : Thread nD τ) arg9 fullShare x1 ∗ owns (c : Thread nD τ) arg10 fullShare x2 ∗ owns (c : Thread nD τ) arg11 fullShare x3 ∗ owns (c : Thread nD τ) arg12 fullShare x4 ∗ owns (c : Thread nD τ) arg13 fullShare x5 ∗ owns (c : Thread nD τ) arg14 fullShare x6 ∗ owns (c : Thread nD τ) arg15 fullShare x7 ∗ owns (c : Thread nD τ) arg16 fullShare x8 ∗ owns (c : Thread nD τ) arg17 fullShare x9 ∗ owns (c : Thread nD τ) arg18 fullShare x10 ∗ owns (c : Thread nD τ) arg19 fullShare x11 ∗ (∃ d, owns (c : Thread nD τ) arg20 fullShare d)
            ∗ (iprop(owns (c : Thread nD τ) arg8 fullShare x0 ∗ owns (c : Thread nD τ) arg9 fullShare x1 ∗ owns (c : Thread nD τ) arg10 fullShare x2 ∗ owns (c : Thread nD τ) arg11 fullShare x3 ∗ owns (c : Thread nD τ) arg12 fullShare x4 ∗ owns (c : Thread nD τ) arg13 fullShare x5 ∗ owns (c : Thread nD τ) arg14 fullShare x6 ∗ owns (c : Thread nD τ) arg15 fullShare x7 ∗ owns (c : Thread nD τ) arg16 fullShare x8 ∗ owns (c : Thread nD τ) arg17 fullShare x9 ∗ owns (c : Thread nD τ) arg18 fullShare x10 ∗ owns (c : Thread nD τ) arg19 fullShare x11 ∗ (∃ f, arg20.view.loc (c : Thread nD τ) ↦[arg20.view.set]{fullShare} arg20.view.writes (Elt F) f L)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
    obtain rfl := harg8.eq_unread hf0; obtain rfl := harg9.eq_unread hf1; obtain rfl := harg10.eq_unread hf2; obtain rfl := harg11.eq_unread hf3; obtain rfl := harg12.eq_unread hf4; obtain rfl := harg13.eq_unread hf5; obtain rfl := harg14.eq_unread hf6; obtain rfl := harg15.eq_unread hf7; obtain rfl := harg16.eq_unread hf8; obtain rfl := harg17.eq_unread hf9; obtain rfl := harg18.eq_unread hf10; obtain rfl := harg19.eq_unread hf11
    sl_exec (disch := first | exact hc0)
    sl_step
    iapply Hk
    isplitl [H0]
    · iexists _; isplitr; · ipureintro; exact harg8.read_unread _
      iexact H0
    isplitl [H1]
    · iexists _; isplitr; · ipureintro; exact harg9.read_unread _
      iexact H1
    isplitl [H2]
    · iexists _; isplitr; · ipureintro; exact harg10.read_unread _
      iexact H2
    isplitl [H3]
    · iexists _; isplitr; · ipureintro; exact harg11.read_unread _
      iexact H3
    isplitl [H4]
    · iexists _; isplitr; · ipureintro; exact harg12.read_unread _
      iexact H4
    isplitl [H5]
    · iexists _; isplitr; · ipureintro; exact harg13.read_unread _
      iexact H5
    isplitl [H6]
    · iexists _; isplitr; · ipureintro; exact harg14.read_unread _
      iexact H6
    isplitl [H7]
    · iexists _; isplitr; · ipureintro; exact harg15.read_unread _
      iexact H7
    isplitl [H8]
    · iexists _; isplitr; · ipureintro; exact harg16.read_unread _
      iexact H8
    isplitl [H9]
    · iexists _; isplitr; · ipureintro; exact harg17.read_unread _
      iexact H9
    isplitl [H10]
    · iexists _; isplitr; · ipureintro; exact harg18.read_unread _
      iexact H10
    isplitl [H11]
    · iexists _; isplitr; · ipureintro; exact harg19.read_unread _
      iexact H11
    iexists _; iexact H12

set_option maxHeartbeats 4000000 in
/-- The body where the cell is not reset: the cell, at its running contents `xo`, ends with the run's pieces. -/
noncomputable def runAdd (c : Dev nD) (i : grid0.Coords) (arg2 : Memref sig .tc .smem S16384 .i32) (harg2 : arg2.IsWhole) (arg3 : Memref sig .tc .smem S16384 .i32) (harg3 : arg3.IsWhole) (arg4 : Memref sig .tc .smem S16384 .i32) (harg4 : arg4.IsWhole) (arg5 : Memref sig .tc .smem S16384 .i32) (harg5 : arg5.IsWhole) (arg6 : Memref sig .tc .smem S16384 .i32) (harg6 : arg6.IsWhole) (arg7 : Memref sig .tc .smem S16384 .i32) (harg7 : arg7.IsWhole) (arg8 : Memref sig .tc .vmem S1x2x128 .f32) (harg8 : arg8.IsWhole) (arg9 : Memref sig .tc .vmem S1x2x128 .f32) (harg9 : arg9.IsWhole) (arg10 : Memref sig .tc .vmem S1x2x128 .f32) (harg10 : arg10.IsWhole) (arg11 : Memref sig .tc .vmem S1x2x128 .f32) (harg11 : arg11.IsWhole) (arg12 : Memref sig .tc .vmem S1x2x128 .f32) (harg12 : arg12.IsWhole) (arg13 : Memref sig .tc .vmem S1x2x128 .f32) (harg13 : arg13.IsWhole) (arg14 : Memref sig .tc .vmem S1x2x128 .f32) (harg14 : arg14.IsWhole) (arg15 : Memref sig .tc .vmem S1x2x128 .f32) (harg15 : arg15.IsWhole) (arg16 : Memref sig .tc .vmem S1x2x128 .f32) (harg16 : arg16.IsWhole) (arg17 : Memref sig .tc .vmem S1x2x128 .f32) (harg17 : arg17.IsWhole) (arg18 : Memref sig .tc .vmem S1x2x128 .f32) (harg18 : arg18.IsWhole) (arg19 : Memref sig .tc .vmem S1x2x128 .f32) (harg19 : arg19.IsWhole) (arg20 : Memref sig .tc .vmem S1x1x1 .f32) (harg20 : arg20.IsWhole) (hc0 : ¬condReset i)
    (x0 x1 x2 x3 x4 x5 x6 x7 x8 x9 x10 x11 : Vec F S1x2x128 .f32) (xo : Vec F S1x1x1 .f32) :
    { L : List (View.Piece (Elt F) S1x1x1 .f32) //
      ∀ (E : Set ℕ) (K : PUnit → sProp 𝕄),
        iprop(owns (c : Thread nD τ) arg8 fullShare x0 ∗ owns (c : Thread nD τ) arg9 fullShare x1 ∗ owns (c : Thread nD τ) arg10 fullShare x2 ∗ owns (c : Thread nD τ) arg11 fullShare x3 ∗ owns (c : Thread nD τ) arg12 fullShare x4 ∗ owns (c : Thread nD τ) arg13 fullShare x5 ∗ owns (c : Thread nD τ) arg14 fullShare x6 ∗ owns (c : Thread nD τ) arg15 fullShare x7 ∗ owns (c : Thread nD τ) arg16 fullShare x8 ∗ owns (c : Thread nD τ) arg17 fullShare x9 ∗ owns (c : Thread nD τ) arg18 fullShare x10 ∗ owns (c : Thread nD τ) arg19 fullShare x11 ∗ owns (c : Thread nD τ) arg20 fullShare xo
            ∗ (iprop(owns (c : Thread nD τ) arg8 fullShare x0 ∗ owns (c : Thread nD τ) arg9 fullShare x1 ∗ owns (c : Thread nD τ) arg10 fullShare x2 ∗ owns (c : Thread nD τ) arg11 fullShare x3 ∗ owns (c : Thread nD τ) arg12 fullShare x4 ∗ owns (c : Thread nD τ) arg13 fullShare x5 ∗ owns (c : Thread nD τ) arg14 fullShare x6 ∗ owns (c : Thread nD τ) arg15 fullShare x7 ∗ owns (c : Thread nD τ) arg16 fullShare x8 ∗ owns (c : Thread nD τ) arg17 fullShare x9 ∗ owns (c : Thread nD τ) arg18 fullShare x10 ∗ owns (c : Thread nD τ) arg19 fullShare x11 ∗ (∃ f, arg20.view.loc (c : Thread nD τ) ↦[arg20.view.set]{fullShare} arg20.view.writes (Elt F) f L)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg8.eq_unread hf0; obtain rfl := harg9.eq_unread hf1; obtain rfl := harg10.eq_unread hf2; obtain rfl := harg11.eq_unread hf3; obtain rfl := harg12.eq_unread hf4; obtain rfl := harg13.eq_unread hf5; obtain rfl := harg14.eq_unread hf6; obtain rfl := harg15.eq_unread hf7; obtain rfl := harg16.eq_unread hf8; obtain rfl := harg17.eq_unread hf9; obtain rfl := harg18.eq_unread hf10; obtain rfl := harg19.eq_unread hf11; obtain rfl := harg20.eq_unread hf12
    sl_exec (disch := first | exact hc0)
    sl_step
    iapply Hk
    isplitl [H0]
    · iexists _; isplitr; · ipureintro; exact harg8.read_unread _
      iexact H0
    isplitl [H1]
    · iexists _; isplitr; · ipureintro; exact harg9.read_unread _
      iexact H1
    isplitl [H2]
    · iexists _; isplitr; · ipureintro; exact harg10.read_unread _
      iexact H2
    isplitl [H3]
    · iexists _; isplitr; · ipureintro; exact harg11.read_unread _
      iexact H3
    isplitl [H4]
    · iexists _; isplitr; · ipureintro; exact harg12.read_unread _
      iexact H4
    isplitl [H5]
    · iexists _; isplitr; · ipureintro; exact harg13.read_unread _
      iexact H5
    isplitl [H6]
    · iexists _; isplitr; · ipureintro; exact harg14.read_unread _
      iexact H6
    isplitl [H7]
    · iexists _; isplitr; · ipureintro; exact harg15.read_unread _
      iexact H7
    isplitl [H8]
    · iexists _; isplitr; · ipureintro; exact harg16.read_unread _
      iexact H8
    isplitl [H9]
    · iexists _; isplitr; · ipureintro; exact harg17.read_unread _
      iexact H9
    isplitl [H10]
    · iexists _; isplitr; · ipureintro; exact harg18.read_unread _
      iexact H10
    isplitl [H11]
    · iexists _; isplitr; · ipureintro; exact harg19.read_unread _
      iexact H11
    iexists _; iexact H12

end Cert.KernelIdeal.Hand

end
-- ==== Proof.KI.Sched.lean ====
/-
  Where, over the 16384 grid points, the body resets its cell and where the pipeline writes the cell back.

  The grid is two halves of 8192 samples. The body's one branch is taken at the first sample of each half; the output
  window's block index is the half's number, so the pipeline writes the cell back after the last sample of each half.
  Both are decided over the grid.
-/
import proofs.«412037_j48361331753003_2_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch is taken at the first sample of each half of the batch. -/
theorem hcond : ∀ t : Fin grid0.N, condReset (grid0.coords t) ↔ t.val % 8192 = 0 := by decide +kernel

/-- The output window is written back after the last sample of each half, whatever the tables hold (its index map reads
    none). -/
theorem flush12 (a : (pcfg0 (F := F)).Adm) : ∀ t : Fin (cfg0 a).N, ((cfg0 a).win 12).flush t = true ↔ t.val % 8192 = 8191 :=
  (by decide +kernel : ∀ t : Fin grid0.N, Pipeline.Window.flushOf grid0 true cc0_transform_12 t = true ↔ t.val % 8192 = 8191)

end Cert.KernelIdeal.Hand

end
-- ==== Proof.KI.Data.lean ====
/-
  The pipeline's proof data: what every staging buffer holds at every grid point.

  Each of the twelve gathered windows holds, at sample `t`, its table's row named by the sample's index word — whether
  the pipeline fetched it at `t` or found it in place because the word did not change —, and the body leaves it there.
  The output window is one cell per core's half of the batch: at the first sample of a half the body resets it, at every
  later sample it finds what the sample before left (the cell is written back only after a half's last sample) and adds
  the sample's hinge. So the cell after sample `t` is a recursion on `t`, and the body's run at `t` is one of two cases.
-/
import proofs.«412037_j48361331753003_2_alg».proof.Proof.KI.Tables
import proofs.«412037_j48361331753003_2_alg».proof.Proof.KI.Body
import proofs.«412037_j48361331753003_2_alg».proof.Proof.KI.Sched
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The cell after one sample -/

/-- The cell after one sample: the cell before it plus the sample's hinge, as the body's payloads compute it from the
    twelve rows (the positive triple's six, then the negative triple's). -/
def cellAfter (x0 x1 x2 x3 x4 x5 x6 x7 x8 x9 x10 x11 : Vec F S1x2x128 .f32) (acc : Vec F S1x1x1 .f32) : Vec F S1x1x1 .f32 :=
  k0_pay1 (k0_pay4 (k0_pay3 x0 x1 x2 x3 x4 x5)) (k0_pay5 x8) (k0_pay6 x10) (k0_pay8 x6 x7 x11) (k0_pay9 x8 x9 x11) acc

theorem hz3 : (![0, 0, 0] : Fin S1x1x1.rank → Nat) = fun _ => 0 := by funext a; fin_cases a <;> rfl
theorem hz3b : (![0, 0, 0] : Fin S1x2x128.rank → Nat) = fun _ => 0 := by funext a; fin_cases a <;> rfl

/-- Where the cell is reset first, the run's pieces read back as the sample's hinge added to the zero it was reset to. -/
theorem runReset_read (c : Dev nD) (i : grid0.Coords) (arg2 : Memref sig .tc .smem S16384 .i32) (harg2 : arg2.IsWhole) (arg3 : Memref sig .tc .smem S16384 .i32) (harg3 : arg3.IsWhole) (arg4 : Memref sig .tc .smem S16384 .i32) (harg4 : arg4.IsWhole) (arg5 : Memref sig .tc .smem S16384 .i32) (harg5 : arg5.IsWhole) (arg6 : Memref sig .tc .smem S16384 .i32) (harg6 : arg6.IsWhole) (arg7 : Memref sig .tc .smem S16384 .i32) (harg7 : arg7.IsWhole) (arg8 : Memref sig .tc .vmem S1x2x128 .f32) (harg8 : arg8.IsWhole) (arg9 : Memref sig .tc .vmem S1x2x128 .f32) (harg9 : arg9.IsWhole) (arg10 : Memref sig .tc .vmem S1x2x128 .f32) (harg10 : arg10.IsWhole) (arg11 : Memref sig .tc .vmem S1x2x128 .f32) (harg11 : arg11.IsWhole) (arg12 : Memref sig .tc .vmem S1x2x128 .f32) (harg12 : arg12.IsWhole) (arg13 : Memref sig .tc .vmem S1x2x128 .f32) (harg13 : arg13.IsWhole) (arg14 : Memref sig .tc .vmem S1x2x128 .f32) (harg14 : arg14.IsWhole) (arg15 : Memref sig .tc .vmem S1x2x128 .f32) (harg15 : arg15.IsWhole) (arg16 : Memref sig .tc .vmem S1x2x128 .f32) (harg16 : arg16.IsWhole) (arg17 : Memref sig .tc .vmem S1x2x128 .f32) (harg17 : arg17.IsWhole) (arg18 : Memref sig .tc .vmem S1x2x128 .f32) (harg18 : arg18.IsWhole) (arg19 : Memref sig .tc .vmem S1x2x128 .f32) (harg19 : arg19.IsWhole) (arg20 : Memref sig .tc .vmem S1x1x1 .f32) (harg20 : arg20.IsWhole) (hc0 : condReset i) (x0 x1 x2 x3 x4 x5 x6 x7 x8 x9 x10 x11 : Vec F S1x2x128 .f32) (v : View sig .tc .vmem S1x1x1 .f32) (f : v.ty.Contents (Elt F)) :
    v.read (Elt F) (v.writes (Elt F) f (runReset c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11).1) = cellAfter x0 x1 x2 x3 x4 x5 x6 x7 x8 x9 x10 x11 (k0_pay2 (F := F)) := by
  unfold runReset
  dsimp only
  sl_unfold_words
  rw [View.read_writes_eq_canon _ _ _ (fun y => ⟨_, List.mem_cons_self, View.mem_set_unit_zero hz3 inb_S1x1x1_S1x1x1_0_0_0 y⟩),
    View.canon_cons_unit_zero (S := S1x1x1) hz3]
  simp only [View.readAt_eq_ld, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1x2x128) hz3b,
    View.ld_unit_zero (S := S1x1x1) hz3, View.readCov_unit_zero (S := S1x1x1) _ hz3]
  rfl

/-- Where it is not, they read back as the hinge added to the cell's running contents. -/
theorem runAdd_read (c : Dev nD) (i : grid0.Coords) (arg2 : Memref sig .tc .smem S16384 .i32) (harg2 : arg2.IsWhole) (arg3 : Memref sig .tc .smem S16384 .i32) (harg3 : arg3.IsWhole) (arg4 : Memref sig .tc .smem S16384 .i32) (harg4 : arg4.IsWhole) (arg5 : Memref sig .tc .smem S16384 .i32) (harg5 : arg5.IsWhole) (arg6 : Memref sig .tc .smem S16384 .i32) (harg6 : arg6.IsWhole) (arg7 : Memref sig .tc .smem S16384 .i32) (harg7 : arg7.IsWhole) (arg8 : Memref sig .tc .vmem S1x2x128 .f32) (harg8 : arg8.IsWhole) (arg9 : Memref sig .tc .vmem S1x2x128 .f32) (harg9 : arg9.IsWhole) (arg10 : Memref sig .tc .vmem S1x2x128 .f32) (harg10 : arg10.IsWhole) (arg11 : Memref sig .tc .vmem S1x2x128 .f32) (harg11 : arg11.IsWhole) (arg12 : Memref sig .tc .vmem S1x2x128 .f32) (harg12 : arg12.IsWhole) (arg13 : Memref sig .tc .vmem S1x2x128 .f32) (harg13 : arg13.IsWhole) (arg14 : Memref sig .tc .vmem S1x2x128 .f32) (harg14 : arg14.IsWhole) (arg15 : Memref sig .tc .vmem S1x2x128 .f32) (harg15 : arg15.IsWhole) (arg16 : Memref sig .tc .vmem S1x2x128 .f32) (harg16 : arg16.IsWhole) (arg17 : Memref sig .tc .vmem S1x2x128 .f32) (harg17 : arg17.IsWhole) (arg18 : Memref sig .tc .vmem S1x2x128 .f32) (harg18 : arg18.IsWhole) (arg19 : Memref sig .tc .vmem S1x2x128 .f32) (harg19 : arg19.IsWhole) (arg20 : Memref sig .tc .vmem S1x1x1 .f32) (harg20 : arg20.IsWhole) (hc0 : ¬condReset i) (x0 x1 x2 x3 x4 x5 x6 x7 x8 x9 x10 x11 : Vec F S1x2x128 .f32) (xo : Vec F S1x1x1 .f32) (v : View sig .tc .vmem S1x1x1 .f32) (f : v.ty.Contents (Elt F)) :
    v.read (Elt F) (v.writes (Elt F) f (runAdd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 xo).1) = cellAfter x0 x1 x2 x3 x4 x5 x6 x7 x8 x9 x10 x11 xo := by
  unfold runAdd
  dsimp only
  sl_unfold_words
  rw [View.read_writes_eq_canon _ _ _ (fun y => ⟨_, List.mem_cons_self, View.mem_set_unit_zero hz3 inb_S1x1x1_S1x1x1_0_0_0 y⟩),
    View.canon_cons_unit_zero (S := S1x1x1) hz3]
  simp only [View.readAt_eq_ld, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1x2x128) hz3b,
    View.ld_unit_zero (S := S1x1x1) hz3, View.readCov_unit_zero (S := S1x1x1) _ hz3]
  rfl

/-- The body at point `t`, on what the pipeline calls it with. -/
abbrev bodyAt (a : (pcfg0 (F := F)).Adm) (t : Fin (cfg0 a).N) : Prog (TpuEff nD τ sig (Elt F) Λ₀ .tc) PUnit :=
  cc0__kernel (grid0.coords t) (Memref.whole main_v1) (Memref.isWhole_whole _) (Memref.whole main_v5) (Memref.isWhole_whole _) (Memref.whole main_v3) (Memref.isWhole_whole _) (Memref.whole main_v7) (Memref.isWhole_whole _) (Memref.whole main_v11) (Memref.isWhole_whole _) (Memref.whole main_v9) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12))

/-! ## The windows' blocks and staging buffers -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

abbrev ms0 (hO : Ok m) (t : Fin (cfgM m hO).N) : Memref sig .tc .vmem S1x2x128 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x2x128 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x2x128 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x2x128 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x2x128 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S1x2x128 .f32 := spec0_5.stage ((cfgM m hO).slots t 5)
abbrev hs5 (hO : Ok m) (t : Fin (cfgM m hO).N) : (ms5 m hO t).IsWhole := hstage0_5 (((cfgM m hO).slots t 5).cast nbuf0_5)
abbrev ms6 (hO : Ok m) (t : Fin (cfgM m hO).N) : Memref sig .tc .vmem S1x2x128 .f32 := spec0_6.stage ((cfgM m hO).slots t 6)
abbrev hs6 (hO : Ok m) (t : Fin (cfgM m hO).N) : (ms6 m hO t).IsWhole := hstage0_6 (((cfgM m hO).slots t 6).cast nbuf0_6)
abbrev ms7 (hO : Ok m) (t : Fin (cfgM m hO).N) : Memref sig .tc .vmem S1x2x128 .f32 := spec0_7.stage ((cfgM m hO).slots t 7)
abbrev hs7 (hO : Ok m) (t : Fin (cfgM m hO).N) : (ms7 m hO t).IsWhole := hstage0_7 (((cfgM m hO).slots t 7).cast nbuf0_7)
abbrev ms8 (hO : Ok m) (t : Fin (cfgM m hO).N) : Memref sig .tc .vmem S1x2x128 .f32 := spec0_8.stage ((cfgM m hO).slots t 8)
abbrev hs8 (hO : Ok m) (t : Fin (cfgM m hO).N) : (ms8 m hO t).IsWhole := hstage0_8 (((cfgM m hO).slots t 8).cast nbuf0_8)
abbrev ms9 (hO : Ok m) (t : Fin (cfgM m hO).N) : Memref sig .tc .vmem S1x2x128 .f32 := spec0_9.stage ((cfgM m hO).slots t 9)
abbrev hs9 (hO : Ok m) (t : Fin (cfgM m hO).N) : (ms9 m hO t).IsWhole := hstage0_9 (((cfgM m hO).slots t 9).cast nbuf0_9)
abbrev ms10 (hO : Ok m) (t : Fin (cfgM m hO).N) : Memref sig .tc .vmem S1x2x128 .f32 := spec0_10.stage ((cfgM m hO).slots t 10)
abbrev hs10 (hO : Ok m) (t : Fin (cfgM m hO).N) : (ms10 m hO t).IsWhole := hstage0_10 (((cfgM m hO).slots t 10).cast nbuf0_10)
abbrev ms11 (hO : Ok m) (t : Fin (cfgM m hO).N) : Memref sig .tc .vmem S1x2x128 .f32 := spec0_11.stage ((cfgM m hO).slots t 11)
abbrev hs11 (hO : Ok m) (t : Fin (cfgM m hO).N) : (ms11 m hO t).IsWhole := hstage0_11 (((cfgM m hO).slots t 11).cast nbuf0_11)
abbrev ms12 (hO : Ok m) (t : Fin (cfgM m hO).N) : Memref sig .tc .vmem S1x1x1 .f32 := spec0_12.stage ((cfgM m hO).slots t 12)
abbrev hs12 (hO : Ok m) (t : Fin (cfgM m hO).N) : (ms12 m hO t).IsWhole := hstage0_12 (((cfgM m hO).slots t 12).cast nbuf0_12)

theorem before0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before11_of (hO : Ok m) {c : Dev nD} (dat : Dat τ (Elt F) Unit ℕ (UR sig nD τ) ℕ (cfgM m hO) c) (hA : dat.A 11 = V m c (Pipeline.arrRef spec0 11))
    (hafter : ∀ t, dat.after 11 t = iblk m hO c 11 t) (t : Fin (cfgM m hO).N) (d) : dat.before 11 t d = iblk m hO c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The cell, point by point -/

/-- The cell after sample `n`: the sample's hinge added to zero at the first sample of a half, to the cell after the
    sample before otherwise. -/
def cellAt (hO : Ok m) (c : Dev nD) : (n : ℕ) → n < (cfgM m hO).N → Vec F S1x1x1 .f32
  | 0, hn => cellAfter (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (iblk m hO c 8 ⟨0, hn⟩) (iblk m hO c 9 ⟨0, hn⟩) (iblk m hO c 10 ⟨0, hn⟩) (iblk m hO c 11 ⟨0, hn⟩) (k0_pay2 (F := F))
  | n + 1, hn => cellAfter (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩)
      (if (n + 1) % 8192 = 0 then k0_pay2 (F := F) else cellAt hO c n (Nat.lt_of_succ_lt hn))

theorem cellAt_reset (hO : Ok m) (c : Dev nD) (t : Fin (cfgM m hO).N) (h0 : t.val % 8192 = 0) :
    cellAt m hO c t.val t.isLt = cellAfter (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (k0_pay2 (F := F)) := by
  obtain ⟨n, hn⟩ := t
  cases n with
  | zero => rfl
  | succ n =>
    dsimp only at h0
    conv_lhs => unfold cellAt
    rw [if_pos h0]

theorem cellAt_add (hO : Ok m) (c : Dev nD) (t : Fin (cfgM m hO).N) (h0 : ¬t.val % 8192 = 0) :
    cellAt m hO c t.val t.isLt = cellAfter (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (cellAt m hO c (t.val - 1) (Nat.lt_of_le_of_lt (Nat.sub_le _ _) t.isLt)) := by
  obtain ⟨n, hn⟩ := t
  cases n with
  | zero => exact absurd (Nat.zero_mod _) h0
  | succ n =>
    dsimp only at h0
    conv_lhs => unfold cellAt
    rw [if_neg h0]
    rfl

/-! ## The proof data -/

/-- Each window's share of its array: the entity table and its projection table are each read through four windows,
    the relation table and its projection table through two, and the output is the kernel's alone. -/
def qOf : Fin 13 → PosShare TreeShare := fun
  | 0 => fullShare.left.left | 2 => fullShare.left.right | 6 => fullShare.right.left | 8 => fullShare.right.right
  | 1 => fullShare.left.left | 3 => fullShare.left.right | 7 => fullShare.right.left | 9 => fullShare.right.right
  | 4 => fullShare.left | 10 => fullShare.right
  | 5 => fullShare.left | 11 => fullShare.right
  | 12 => fullShare
  | ⟨_ + 13, h⟩ => absurd h (Nat.not_lt.2 (Nat.le_add_left _ _))

/-- The proof data on core `c`: the arrays as the region finds them; after the body each gathered window at its block
    and the cell at `cellAt`; the invariant the scoped rest, the generator register and the tables' halves; nothing owed. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => cellAt m hO c t.val t.isLt
  Φ _ := iprop(Pipeline.ΦA spec0 c ∗ Pipeline.ΦT pre0 (tbl m) c)
  q := qOf
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = iblk m hO c 4 t := by dsimp only [dats]; try rfl
theorem after5 (hO : Ok m) (c : Dev nD) (t : Fin (cfgM m hO).N) : (dats m hO 0 c).after 5 t = iblk m hO c 5 t := by dsimp only [dats]; try rfl
theorem after6 (hO : Ok m) (c : Dev nD) (t : Fin (cfgM m hO).N) : (dats m hO 0 c).after 6 t = iblk m hO c 6 t := by dsimp only [dats]; try rfl
theorem after7 (hO : Ok m) (c : Dev nD) (t : Fin (cfgM m hO).N) : (dats m hO 0 c).after 7 t = iblk m hO c 7 t := by dsimp only [dats]; try rfl
theorem after8 (hO : Ok m) (c : Dev nD) (t : Fin (cfgM m hO).N) : (dats m hO 0 c).after 8 t = iblk m hO c 8 t := by dsimp only [dats]; try rfl
theorem after9 (hO : Ok m) (c : Dev nD) (t : Fin (cfgM m hO).N) : (dats m hO 0 c).after 9 t = iblk m hO c 9 t := by dsimp only [dats]; try rfl
theorem after10 (hO : Ok m) (c : Dev nD) (t : Fin (cfgM m hO).N) : (dats m hO 0 c).after 10 t = iblk m hO c 10 t := by dsimp only [dats]; try rfl
theorem after11 (hO : Ok m) (c : Dev nD) (t : Fin (cfgM m hO).N) : (dats m hO 0 c).after 11 t = iblk m hO c 11 t := by dsimp only [dats]; try rfl
theorem after12 (hO : Ok m) (c : Dev nD) (t : Fin (cfgM m hO).N) : (dats m hO 0 c).after 12 t = cellAt m hO c t.val t.isLt := by dsimp only [dats]; try rfl

theorem before0 (hO : Ok m) (c : Dev nD) (t : Fin (cfgM m hO).N) (d) : (dats m hO 0 c).before 0 t d = iblk m hO c 0 t :=
  before0_of m hO (dats m hO 0 c) (A_eq m hO c 0) (after0 m hO c) t d
theorem before1 (hO : Ok m) (c : Dev nD) (t : Fin (cfgM m hO).N) (d) : (dats m hO 0 c).before 1 t d = iblk m hO c 1 t :=
  before1_of m hO (dats m hO 0 c) (A_eq m hO c 1) (after1 m hO c) t d
theorem before2 (hO : Ok m) (c : Dev nD) (t : Fin (cfgM m hO).N) (d) : (dats m hO 0 c).before 2 t d = iblk m hO c 2 t :=
  before2_of m hO (dats m hO 0 c) (A_eq m hO c 2) (after2 m hO c) t d
theorem before3 (hO : Ok m) (c : Dev nD) (t : Fin (cfgM m hO).N) (d) : (dats m hO 0 c).before 3 t d = iblk m hO c 3 t :=
  before3_of m hO (dats m hO 0 c) (A_eq m hO c 3) (after3 m hO c) t d
theorem before4 (hO : Ok m) (c : Dev nD) (t : Fin (cfgM m hO).N) (d) : (dats m hO 0 c).before 4 t d = iblk m hO c 4 t :=
  before4_of m hO (dats m hO 0 c) (A_eq m hO c 4) (after4 m hO c) t d
theorem before5 (hO : Ok m) (c : Dev nD) (t : Fin (cfgM m hO).N) (d) : (dats m hO 0 c).before 5 t d = iblk m hO c 5 t :=
  before5_of m hO (dats m hO 0 c) (A_eq m hO c 5) (after5 m hO c) t d
theorem before6 (hO : Ok m) (c : Dev nD) (t : Fin (cfgM m hO).N) (d) : (dats m hO 0 c).before 6 t d = iblk m hO c 6 t :=
  before6_of m hO (dats m hO 0 c) (A_eq m hO c 6) (after6 m hO c) t d
theorem before7 (hO : Ok m) (c : Dev nD) (t : Fin (cfgM m hO).N) (d) : (dats m hO 0 c).before 7 t d = iblk m hO c 7 t :=
  before7_of m hO (dats m hO 0 c) (A_eq m hO c 7) (after7 m hO c) t d
theorem before8 (hO : Ok m) (c : Dev nD) (t : Fin (cfgM m hO).N) (d) : (dats m hO 0 c).before 8 t d = iblk m hO c 8 t :=
  before8_of m hO (dats m hO 0 c) (A_eq m hO c 8) (after8 m hO c) t d
theorem before9 (hO : Ok m) (c : Dev nD) (t : Fin (cfgM m hO).N) (d) : (dats m hO 0 c).before 9 t d = iblk m hO c 9 t :=
  before9_of m hO (dats m hO 0 c) (A_eq m hO c 9) (after9 m hO c) t d
theorem before10 (hO : Ok m) (c : Dev nD) (t : Fin (cfgM m hO).N) (d) : (dats m hO 0 c).before 10 t d = iblk m hO c 10 t :=
  before10_of m hO (dats m hO 0 c) (A_eq m hO c 10) (after10 m hO c) t d
theorem before11 (hO : Ok m) (c : Dev nD) (t : Fin (cfgM m hO).N) (d) : (dats m hO 0 c).before 11 t d = iblk m hO c 11 t :=
  before11_of m hO (dats m hO 0 c) (A_eq m hO c 11) (after11 m hO c) t d

/-- At a sample that is not the first of its half the cell's buffer holds what the sample before left: the buffer was not
    written back between. -/
theorem before12_add (hO : Ok m) (c : Dev nD) (t : Fin (cfgM m hO).N) (h0 : ¬t.val % 8192 = 0) (d) :
    (dats m hO 0 c).before 12 t d = cellAt m hO c (t.val - 1) (Nat.lt_of_le_of_lt (Nat.sub_le _ _) t.isLt) := by
  have hN : t.val < 16384 := lt_of_lt_of_eq t.isLt (show (cfgM m hO).N = 16384 from N_0)
  rw [Dat.before_out_kept _ 12 rfl t (by omega) (Bool.eq_false_iff.mpr fun h => by have := (flush12 _ _).mp h; dsimp only at this; omega)
    (fun _ => rfl) (fun _ _ => rfl)]
  dsimp only [dats]
  rfl

/-! ## The body obligation -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d))
    ∗ (∃ d, owns (c : Thread nD τ) (ms6 m hO t) fullShare ((dats m hO 0 c).before 6 t d))
    ∗ (∃ d, owns (c : Thread nD τ) (ms7 m hO t) fullShare ((dats m hO 0 c).before 7 t d))
    ∗ (∃ d, owns (c : Thread nD τ) (ms8 m hO t) fullShare ((dats m hO 0 c).before 8 t d))
    ∗ (∃ d, owns (c : Thread nD τ) (ms9 m hO t) fullShare ((dats m hO 0 c).before 9 t d))
    ∗ (∃ d, owns (c : Thread nD τ) (ms10 m hO t) fullShare ((dats m hO 0 c).before 10 t d))
    ∗ (∃ d, owns (c : Thread nD τ) (ms11 m hO t) fullShare ((dats m hO 0 c).before 11 t d))
    ∗ (∃ d, owns (c : Thread nD τ) (ms12 m hO t) fullShare ((dats m hO 0 c).before 12 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t)
    ∗ owns (c : Thread nD τ) (ms6 m hO t) fullShare ((dats m hO 0 c).after 6 t)
    ∗ owns (c : Thread nD τ) (ms7 m hO t) fullShare ((dats m hO 0 c).after 7 t)
    ∗ owns (c : Thread nD τ) (ms8 m hO t) fullShare ((dats m hO 0 c).after 8 t)
    ∗ owns (c : Thread nD τ) (ms9 m hO t) fullShare ((dats m hO 0 c).after 9 t)
    ∗ owns (c : Thread nD τ) (ms10 m hO t) fullShare ((dats m hO 0 c).after 10 t)
    ∗ owns (c : Thread nD τ) (ms11 m hO t) fullShare ((dats m hO 0 c).after 11 t)
    ∗ owns (c : Thread nD τ) (ms12 m hO t) fullShare ((dats m hO 0 c).after 12 t))

set_option maxHeartbeats 4000000 in
/-- The body at any sample: the gathered windows hold their blocks; the sample is the first of its half or not; the run
    of that case applies, the tables and the scoped rest passing through unread. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0, before1, before2, before3, before4, before5, before6, before7, before8, before9, before10, before11]
  rw [show (dats m hO 0 c).Φ t.succ = (dats m hO 0 c).Φ t.castSucc from rfl,
    show (dats m hO 0 c).owesAt () t.succ = (dats m hO 0 c).owesAt () t.castSucc from rfl,
    after0, after1, after2, after3, after4, after5, after6, after7, after8, after9, after10, after11, after12]
  rw [show (dats m hO 0 c).Φ t.castSucc = iprop(Pipeline.ΦA spec0 c ∗ Pipeline.ΦT pre0 (tbl m) c) from rfl]
  by_cases h0 : t.val % 8192 = 0
  · rw [cellAt_reset m hO c t h0]
    iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runReset c (grid0.coords t) _ _ _ _ _ _ _ _ _ _ _ _ _ _ _ _ _ _ _ _ _ _ _ _ _ _ _ _ _ _ _ _ _ _ _ _ _ _ ((hcond t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    iintro ⟨H0, H1, H2, H3, H4, H5, H6, H7, H8, H9, H10, H11, ⟨%e12, H12⟩⟩
    isplitl [HΦ HT]
    · isplitl [HΦ]; · iexact HΦ
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr
    swap; · iexact H12
    ipureintro; exact runReset_read _ _ _ _ _ _ _ _ _ _ _ _ _ _ _ _ _ _ _ _ _ _ _ _ _ _ _ _ _ _ _ _ _ _ _ _ _ _ _ _ _ _ _ _ _ _ _ _ _ _ _ _ _ _ _
  · rw [cellAt_add m hO c t h0]
    simp only [before12_add m hO c t h0]
    iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runAdd c (grid0.coords t) _ _ _ _ _ _ _ _ _ _ _ _ _ _ _ _ _ _ _ _ _ _ _ _ _ _ _ _ _ _ _ _ _ _ _ _ _ _ (fun h => h0 ((hcond t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H0, H1, H2, H3, H4, H5, H6, H7, H8, H9, H10, H11, ⟨%e12, H12⟩⟩
    isplitl [HΦ HT]
    · isplitl [HΦ]; · iexact HΦ
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr
    swap; · iexact H12
    ipureintro; exact runAdd_read _ _ _ _ _ _ _ _ _ _ _ _ _ _ _ _ _ _ _ _ _ _ _ _ _ _ _ _ _ _ _ _ _ _ _ _ _ _ _ _ _ _ _ _ _ _ _ _ _ _ _ _ _ _ _ _

/-- The library's body obligation, at every point. -/
theorem body_obligation (hO : Ok m) (c : Dev nD) : BodyObligation (dats (F := F) m hO 0 c) (defs₀ (F := F)) Variants.none () Set.univ := fun t => by
  rw [bigSep_W0, bigSep_W0]
  exact sound_body m hO c t

end Cert.KernelIdeal.Hand

end
-- ==== Proof.KI.EndVal.lean ====
/-
  What the core's buffers hold when the region is left and at the end of @main.

  The region writes one array, the output's two cells; every other unscoped buffer is as the region found it. The seven
  operations after the region then compute the result from the two cells.
-/
import proofs.«412037_j48361331753003_2_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The output array after the region: its two cells as the proof data's write-backs leave them. -/
abbrev outArr (hO : Ok m) (c : Dev nD) : Buf (Elt F) ((c : Thread nD τ).loc main_v16) := (dats m hO 0 c).arrAt 12 (cfgM m hO).N

/-- The core's buffers when the region is left: the output array at `outArr`, every other buffer as the region found it. -/
def exitVal (hO : Ok m) (c : Dev nD) : Valuation τ sig (Elt F) := fun b =>
  if h : b = Proc.devRef .tc main_v16 then cast (congrArg (fun b' : DevRef τ sig => b'.ty.Contents (Elt F)) h.symm) (outArr m hO c)
  else StableHlo.after ([hostOps0] : List (List (HloOp τ sig (Elt F)))).flatten (V₀ m c) b

/-- And at the end: the seven operations have run. -/
abbrev endVal (hO : Ok m) (c : Dev nD) (b : Ref sig .tc) : Buf (Elt F) ((c : Thread nD τ).loc b) :=
  StableHlo.after hostOps1 (exitVal m hO c) b

/-- When the region is left the output array's buffer holds `outArr`, -/
theorem exitVal_out (hO : Ok m) (c : Dev nD) : exitVal m hO c (Proc.devRef .tc main_v16) = outArr m hO c := by
  unfold exitVal; rw [dif_pos rfl]; exact cast_eq _ _

/-- and any other buffer what the region found in it. -/
theorem exitVal_of_ne (hO : Ok m) (c : Dev nD) (b : Ref sig .tc) (hb : b ≠ main_v16) :
    exitVal m hO c (Proc.devRef .tc b) = V m c b := by
  unfold exitVal; rw [dif_neg fun h => hb (Proc.devRef_injective _ h)]

end Cert.KernelIdeal.Hand

end
-- ==== Proof.KI.Launch.lean ====
/-
  The launch: @main is sixteen host operations, the kernel region, seven host operations.

  The region is entered with the core's unscoped buffers at what the first sixteen operations left. The four reshaped
  tables are each handed to several gathered windows, which only read them: each window takes its share of its table
  (quarters of the entity tables, halves of the relation tables), the output array is the kernel's alone, the six index
  tables go to the pipeline and the body at half shares, and every other buffer bypasses the region. After the region the
  seven operations read the output array's two cells, add them and divide by the batch size; the arguments are as they
  were at launch throughout.
-/
import proofs.«412037_j48361331753003_2_alg».proof.Proof.KI.EndVal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
variable (ρ : Dev nD → PrngReg)

/-! ## @main around the region -/

theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl⟩
theorem hostOps1_fresh : (hostOps1 : List (HloOp τ sig (Elt F))).Forall fun op => op.fresh = ∅ :=
  ⟨rfl, rfl, rfl, rfl, rfl, rfl, rfl⟩

/-- @main reduces to the region continued by the seven later operations, at the contents after the first sixteen. -/
theorem hmain : Pipeline.HMainPK (Ix := Unit) (Name := ℕ) (U := UR sig nD τ) (Lvl := ℕ) pcfgs 0 defs₀ Variants.none m (main (F := F)) (V m)
      (fun _ => Pipeline.chain ([hostOps1].map StableHlo.seq)) :=
  Pipeline.hmainP_around pcfgs 0 defs₀ Variants.none m main [hostOps0] [hostOps1] (by simp only [List.Forall]; exact hostOps0_sub)
    (by simp only [List.Forall]; exact hostOps0_fresh) (fun c => (main_chain c).trans rfl)

/-! ## The region's entry and exit -/

/-! ## Shares of a table several windows read -/

/-- A buffer held whole splits into its two halves, -/
theorem split2 {ℓ : Loc nD τ sig} (f : Buf (Elt F) ℓ) :
    (ℓ ↦{fullShare} f : sProp 𝕄) ⊢ iprop((ℓ ↦{fullShare.left} f) ∗ (ℓ ↦{fullShare.right} f)) :=
  (pointsTo_share (PosShare.mem_left_op_right fullShare)).1

/-- and into its four quarters. -/
theorem split4 {ℓ : Loc nD τ sig} (f : Buf (Elt F) ℓ) :
    (ℓ ↦{fullShare} f : sProp 𝕄) ⊢ iprop((ℓ ↦{fullShare.left.left} f) ∗ (ℓ ↦{fullShare.left.right} f)
      ∗ (ℓ ↦{fullShare.right.left} f) ∗ (ℓ ↦{fullShare.right.right} f)) := by
  iintro H
  ihave H := (split2 f) $$ H
  icases H with ⟨HL, HR⟩
  ihave HL := ((pointsTo_share (PosShare.mem_left_op_right fullShare.left)).1) $$ HL
  ihave HR := ((pointsTo_share (PosShare.mem_left_op_right fullShare.right)).1) $$ HR
  icases HL with ⟨H1, H2⟩
  icases HR with ⟨H3, H4⟩
  isplitl [H1]; · iexact H1
  isplitl [H2]; · iexact H2
  isplitl [H3]; · iexact H3
  iexact H4

/-- The distinct buffers behind the thirteen windows' arrays: the four reshaped tables and the output. -/
theorem arrBufs_list (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v12) ↦{fullShare} W main_v12) ∗ (((c : Thread nD τ).loc main_v13) ↦{fullShare} W main_v13)
          ∗ (((c : Thread nD τ).loc main_v14) ↦{fullShare} W main_v14) ∗ (((c : Thread nD τ).loc main_v15) ↦{fullShare} W main_v15)
          ∗ (((c : Thread nD τ).loc main_v16) ↦{fullShare} W main_v16)) := by
  unfold Pipeline.arrBufs
  exact bigSep_eq_bigSepL_of_eq [main_v12, main_v13, main_v14, main_v15, main_v16] (by decide) (by decide) _

/-- Each window's array at its share and at its entry contents, spelt by the buffer it is. -/
theorem arrPt0 (hO : Ok m) (c : Dev nD) :
    ((View.whole main_v12).loc (c : Thread nD τ) ↦[(View.whole main_v12).set]{(dats m hO 0 c).share 0} (dats m hO 0 c).arrAt 0 0 : sProp 𝕄)
      = (((c : Thread nD τ).loc main_v12) ↦{fullShare.left.left} V m c main_v12) := by
  have hs : (dats m hO 0 c).share 0 = fullShare.left.left := by
    unfold Dat.share
    rw [if_neg (show ¬ ((cfgM m hO).win 0).isOut = true from Bool.false_ne_true)]
    rfl
  rw [hs, show (dats m hO 0 c).arrAt 0 0 = V m c main_v12 from A_eq m hO c 0, (Memref.isWhole_whole main_v12).set_eq_univ]
theorem arrPt1 (hO : Ok m) (c : Dev nD) :
    ((View.whole main_v13).loc (c : Thread nD τ) ↦[(View.whole main_v13).set]{(dats m hO 0 c).share 1} (dats m hO 0 c).arrAt 1 0 : sProp 𝕄)
      = (((c : Thread nD τ).loc main_v13) ↦{fullShare.left.left} V m c main_v13) := by
  have hs : (dats m hO 0 c).share 1 = fullShare.left.left := by
    unfold Dat.share
    rw [if_neg (show ¬ ((cfgM m hO).win 1).isOut = true from Bool.false_ne_true)]
    rfl
  rw [hs, show (dats m hO 0 c).arrAt 1 0 = V m c main_v13 from A_eq m hO c 1, (Memref.isWhole_whole main_v13).set_eq_univ]
theorem arrPt2 (hO : Ok m) (c : Dev nD) :
    ((View.whole main_v12).loc (c : Thread nD τ) ↦[(View.whole main_v12).set]{(dats m hO 0 c).share 2} (dats m hO 0 c).arrAt 2 0 : sProp 𝕄)
      = (((c : Thread nD τ).loc main_v12) ↦{fullShare.left.right} V m c main_v12) := by
  have hs : (dats m hO 0 c).share 2 = fullShare.left.right := by
    unfold Dat.share
    rw [if_neg (show ¬ ((cfgM m hO).win 2).isOut = true from Bool.false_ne_true)]
    rfl
  rw [hs, show (dats m hO 0 c).arrAt 2 0 = V m c main_v12 from A_eq m hO c 2, (Memref.isWhole_whole main_v12).set_eq_univ]
theorem arrPt3 (hO : Ok m) (c : Dev nD) :
    ((View.whole main_v13).loc (c : Thread nD τ) ↦[(View.whole main_v13).set]{(dats m hO 0 c).share 3} (dats m hO 0 c).arrAt 3 0 : sProp 𝕄)
      = (((c : Thread nD τ).loc main_v13) ↦{fullShare.left.right} V m c main_v13) := by
  have hs : (dats m hO 0 c).share 3 = fullShare.left.right := by
    unfold Dat.share
    rw [if_neg (show ¬ ((cfgM m hO).win 3).isOut = true from Bool.false_ne_true)]
    rfl
  rw [hs, show (dats m hO 0 c).arrAt 3 0 = V m c main_v13 from A_eq m hO c 3, (Memref.isWhole_whole main_v13).set_eq_univ]
theorem arrPt4 (hO : Ok m) (c : Dev nD) :
    ((View.whole main_v14).loc (c : Thread nD τ) ↦[(View.whole main_v14).set]{(dats m hO 0 c).share 4} (dats m hO 0 c).arrAt 4 0 : sProp 𝕄)
      = (((c : Thread nD τ).loc main_v14) ↦{fullShare.left} V m c main_v14) := by
  have hs : (dats m hO 0 c).share 4 = fullShare.left := by
    unfold Dat.share
    rw [if_neg (show ¬ ((cfgM m hO).win 4).isOut = true from Bool.false_ne_true)]
    rfl
  rw [hs, show (dats m hO 0 c).arrAt 4 0 = V m c main_v14 from A_eq m hO c 4, (Memref.isWhole_whole main_v14).set_eq_univ]
theorem arrPt5 (hO : Ok m) (c : Dev nD) :
    ((View.whole main_v15).loc (c : Thread nD τ) ↦[(View.whole main_v15).set]{(dats m hO 0 c).share 5} (dats m hO 0 c).arrAt 5 0 : sProp 𝕄)
      = (((c : Thread nD τ).loc main_v15) ↦{fullShare.left} V m c main_v15) := by
  have hs : (dats m hO 0 c).share 5 = fullShare.left := by
    unfold Dat.share
    rw [if_neg (show ¬ ((cfgM m hO).win 5).isOut = true from Bool.false_ne_true)]
    rfl
  rw [hs, show (dats m hO 0 c).arrAt 5 0 = V m c main_v15 from A_eq m hO c 5, (Memref.isWhole_whole main_v15).set_eq_univ]
theorem arrPt6 (hO : Ok m) (c : Dev nD) :
    ((View.whole main_v12).loc (c : Thread nD τ) ↦[(View.whole main_v12).set]{(dats m hO 0 c).share 6} (dats m hO 0 c).arrAt 6 0 : sProp 𝕄)
      = (((c : Thread nD τ).loc main_v12) ↦{fullShare.right.left} V m c main_v12) := by
  have hs : (dats m hO 0 c).share 6 = fullShare.right.left := by
    unfold Dat.share
    rw [if_neg (show ¬ ((cfgM m hO).win 6).isOut = true from Bool.false_ne_true)]
    rfl
  rw [hs, show (dats m hO 0 c).arrAt 6 0 = V m c main_v12 from A_eq m hO c 6, (Memref.isWhole_whole main_v12).set_eq_univ]
theorem arrPt7 (hO : Ok m) (c : Dev nD) :
    ((View.whole main_v13).loc (c : Thread nD τ) ↦[(View.whole main_v13).set]{(dats m hO 0 c).share 7} (dats m hO 0 c).arrAt 7 0 : sProp 𝕄)
      = (((c : Thread nD τ).loc main_v13) ↦{fullShare.right.left} V m c main_v13) := by
  have hs : (dats m hO 0 c).share 7 = fullShare.right.left := by
    unfold Dat.share
    rw [if_neg (show ¬ ((cfgM m hO).win 7).isOut = true from Bool.false_ne_true)]
    rfl
  rw [hs, show (dats m hO 0 c).arrAt 7 0 = V m c main_v13 from A_eq m hO c 7, (Memref.isWhole_whole main_v13).set_eq_univ]
theorem arrPt8 (hO : Ok m) (c : Dev nD) :
    ((View.whole main_v12).loc (c : Thread nD τ) ↦[(View.whole main_v12).set]{(dats m hO 0 c).share 8} (dats m hO 0 c).arrAt 8 0 : sProp 𝕄)
      = (((c : Thread nD τ).loc main_v12) ↦{fullShare.right.right} V m c main_v12) := by
  have hs : (dats m hO 0 c).share 8 = fullShare.right.right := by
    unfold Dat.share
    rw [if_neg (show ¬ ((cfgM m hO).win 8).isOut = true from Bool.false_ne_true)]
    rfl
  rw [hs, show (dats m hO 0 c).arrAt 8 0 = V m c main_v12 from A_eq m hO c 8, (Memref.isWhole_whole main_v12).set_eq_univ]
theorem arrPt9 (hO : Ok m) (c : Dev nD) :
    ((View.whole main_v13).loc (c : Thread nD τ) ↦[(View.whole main_v13).set]{(dats m hO 0 c).share 9} (dats m hO 0 c).arrAt 9 0 : sProp 𝕄)
      = (((c : Thread nD τ).loc main_v13) ↦{fullShare.right.right} V m c main_v13) := by
  have hs : (dats m hO 0 c).share 9 = fullShare.right.right := by
    unfold Dat.share
    rw [if_neg (show ¬ ((cfgM m hO).win 9).isOut = true from Bool.false_ne_true)]
    rfl
  rw [hs, show (dats m hO 0 c).arrAt 9 0 = V m c main_v13 from A_eq m hO c 9, (Memref.isWhole_whole main_v13).set_eq_univ]
theorem arrPt10 (hO : Ok m) (c : Dev nD) :
    ((View.whole main_v14).loc (c : Thread nD τ) ↦[(View.whole main_v14).set]{(dats m hO 0 c).share 10} (dats m hO 0 c).arrAt 10 0 : sProp 𝕄)
      = (((c : Thread nD τ).loc main_v14) ↦{fullShare.right} V m c main_v14) := by
  have hs : (dats m hO 0 c).share 10 = fullShare.right := by
    unfold Dat.share
    rw [if_neg (show ¬ ((cfgM m hO).win 10).isOut = true from Bool.false_ne_true)]
    rfl
  rw [hs, show (dats m hO 0 c).arrAt 10 0 = V m c main_v14 from A_eq m hO c 10, (Memref.isWhole_whole main_v14).set_eq_univ]
theorem arrPt11 (hO : Ok m) (c : Dev nD) :
    ((View.whole main_v15).loc (c : Thread nD τ) ↦[(View.whole main_v15).set]{(dats m hO 0 c).share 11} (dats m hO 0 c).arrAt 11 0 : sProp 𝕄)
      = (((c : Thread nD τ).loc main_v15) ↦{fullShare.right} V m c main_v15) := by
  have hs : (dats m hO 0 c).share 11 = fullShare.right := by
    unfold Dat.share
    rw [if_neg (show ¬ ((cfgM m hO).win 11).isOut = true from Bool.false_ne_true)]
    rfl
  rw [hs, show (dats m hO 0 c).arrAt 11 0 = V m c main_v15 from A_eq m hO c 11, (Memref.isWhole_whole main_v15).set_eq_univ]
theorem arrPt12 (hO : Ok m) (c : Dev nD) :
    ((View.whole main_v16).loc (c : Thread nD τ) ↦[(View.whole main_v16).set]{(dats m hO 0 c).share 12} (dats m hO 0 c).arrAt 12 0 : sProp 𝕄)
      = (((c : Thread nD τ).loc main_v16) ↦{fullShare} V m c main_v16) := by
  have hs : (dats m hO 0 c).share 12 = fullShare := by
    unfold Dat.share
    rw [if_pos (show ((cfgM m hO).win 12).isOut = true from rfl)]
  rw [hs, show (dats m hO 0 c).arrAt 12 0 = V m c main_v16 from A_eq m hO c 12, (Memref.isWhole_whole main_v16).set_eq_univ]

/-- ENTRY: the buffers behind the windows' arrays, whole at the full share, make the windows' arrays at their shares. -/
theorem hsplit (hO : Ok m) (c : Dev nD) :
    (Pipeline.arrBufs (Ix := Unit) (Name := ℕ) (U := UR sig nD τ) (Lvl := ℕ) (cfgM m hO).spec c (V m c) : sProp 𝕄)
      ⊢ (dats m hO 0 c).arrays ((dats m hO 0 c).arrAt · 0) := by
  show (Pipeline.arrBufs (Ix := Unit) (Name := ℕ) (U := UR sig nD τ) (Lvl := ℕ) spec0 c (V m c) : sProp 𝕄) ⊢ _
  rw [arrBufs_list c (V m c)]
  unfold Dat.arrays
  rw [bigSep_W0]
  simp only [arrPt0 m hO c, arrPt1 m hO c, arrPt2 m hO c, arrPt3 m hO c, arrPt4 m hO c, arrPt5 m hO c, arrPt6 m hO c, arrPt7 m hO c, arrPt8 m hO c, arrPt9 m hO c, arrPt10 m hO c, arrPt11 m hO c, arrPt12 m hO c]
  iintro ⟨H12, H13, H14, H15, H16⟩
  ihave H12 := (split4 _) $$ H12
  ihave H13 := (split4 _) $$ H13
  ihave H14 := (split2 _) $$ H14
  ihave H15 := (split2 _) $$ H15
  icases H12 with ⟨Ha0, Ha2, Ha6, Ha8⟩
  icases H13 with ⟨Ha1, Ha3, Ha7, Ha9⟩
  icases H14 with ⟨Ha4, Ha10⟩
  icases H15 with ⟨Ha5, Ha11⟩
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitl [Ha7]; · iexact Ha7
  isplitl [Ha8]; · iexact Ha8
  isplitl [Ha9]; · iexact Ha9
  isplitl [Ha10]; · iexact Ha10
  isplitl [Ha11]; · iexact Ha11
  iexact H16

/-! ## The seven operations after the region -/

/-- The buffers the later operations run within: the output array's and the ones that bypass the region. -/
def tailS : Finset (DevRef τ sig) :=
  (insert main_v16 (Pipeline.restRefsP sig pre0 spec0)).map ⟨Proc.devRef (sig := sig) .tc, Proc.devRef_injective _⟩

theorem v16_not_rest : main_v16 ∉ Pipeline.restRefsP sig pre0 spec0 := by decide

/-- Held at a valuation, they are the output array's buffer and the bypassing buffers at it. -/
theorem held_tailS (c : Dev nD) (Wv : Valuation τ sig (Elt F)) :
    (StableHlo.held (c : Thread nD τ) tailS Wv : sProp 𝕄)
      = iprop((((c : Thread nD τ).loc main_v16) ↦{fullShare} Wv (Proc.devRef .tc main_v16))
          ∗ Pipeline.unscopedRestP (Ix := Unit) (Name := ℕ) (U := UR sig nD τ) (Lvl := ℕ) pre0 spec0 c (fun b => Wv (Proc.devRef .tc b))) := by
  classical
  unfold StableHlo.held tailS Pipeline.unscopedRestP
  rw [bigSep_map, bigSep_insert v16_not_rest]
  rfl

/-- Each later operation touches only such buffers, -/
theorem hostOps1_tailS : ∀ ops ∈ ([hostOps1] : List (List (HloOp τ sig (Elt F)))), ∀ op ∈ ops, op.bufs ⊆ tailS := by
  intro ops hops op hop
  simp only [List.mem_cons, List.mem_nil_iff, or_false] at hops
  subst hops
  simp only [hostOps1, List.mem_cons, List.mem_nil_iff, or_false] at hop
  rcases hop with rfl | rfl | rfl | rfl | rfl | rfl | rfl <;>
    simp only [StableHlo.unary_bufs, StableHlo.reshape_bufs, StableHlo.binary_bufs, StableHlo.nullary_bufs] <;> decide

/-- allocates nothing, -/
theorem hostOps1_nofresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- and leaves the output array as the region left it. -/
theorem tail_keeps_out : ∀ op ∈ (hostOps1 : List (HloOp τ sig (Elt F))), Proc.devRef .tc main_v16 ∉ op.writes := by
  intro op hop
  simp only [hostOps1, List.mem_cons, List.mem_nil_iff, or_false] at hop
  rcases hop with rfl | rfl | rfl | rfl | rfl | rfl | rfl <;>
    simp only [StableHlo.unary_writes, StableHlo.reshape_writes, StableHlo.binary_writes, StableHlo.nullary_writes, Finset.mem_singleton] <;>
    exact StableHlo.devRef_ne_of_ne (by decide)

/-- The bypassing buffers at the exit contents are those at the entry contents: the region writes none of them. -/
theorem rest_exit (hO : Ok m) (c : Dev nD) :
    (Pipeline.unscopedRestP (Ix := Unit) (Name := ℕ) (U := UR sig nD τ) (Lvl := ℕ) pre0 spec0 c (fun b => exitVal m hO c (Proc.devRef .tc b)) : sProp 𝕄)
      = Pipeline.unscopedRestP pre0 spec0 c (V m c) := by
  unfold Pipeline.unscopedRestP
  exact bigSep_congr fun b hb => by
    show (((c : Thread nD τ).loc b) ↦{fullShare} exitVal m hO c (Proc.devRef .tc b) : sProp 𝕄) = _
    rw [exitVal_of_ne m hO c b fun h => v16_not_rest (h ▸ hb)]

set_option backward.isDefEq.respectTransparency.types false in
/-- EXIT: from the arrays as the region left them and the bypassing buffers as it found them, the seven operations run
    and hand back the arrays and the bypassing buffers at the end contents. -/
theorem htail (hO : Ok m) (c : Dev nD) (Q' : PUnit → sProp 𝕄) :
    iprop((iprop((dats m hO 0 c).arrays ((dats m hO 0 c).arrAt · (cfgM m hO).N)
              ∗ Pipeline.unscopedRestP (Ix := Unit) (Name := ℕ) (U := UR sig nD τ) (Lvl := ℕ) pre0 (cfgM m hO).spec c (endVal m hO c)) -∗ Q' ⟨⟩)
        ∗ boundary (c : Thread nD τ) ∗ (dats m hO 0 c).arrays ((dats m hO 0 c).arrAt · (cfgM m hO).N)
        ∗ Pipeline.unscopedRestP (Ix := Unit) (Name := ℕ) (U := UR sig nD τ) (Lvl := ℕ) pre0 (cfgM m hO).spec c (V m c))
      ⊢ wp frame (wpE (Pipeline.defs pcfgs (defs₀ (F := F))) (Variants.lift Variants.none) (c : Thread nD τ) none) Set.univ
          (Pipeline.chain ([hostOps1].map StableHlo.seq)) Q' := by
  classical
  have hw : ∀ w : Fin 13, ((cfgM m hO).win w).arr.view.set = Finset.univ := fun w => (arr_whole0 w).set_eq_univ
  have hfl : ([hostOps1] : List (List (HloOp τ sig (Elt F)))).flatten = hostOps1 := by
    simp only [List.flatten_cons, List.flatten_nil, List.append_nil]
  have hpre : (StableHlo.held (c : Thread nD τ) tailS (exitVal m hO c) : sProp 𝕄)
      = iprop((((c : Thread nD τ).loc main_v16) ↦{fullShare} outArr m hO c) ∗ Pipeline.unscopedRestP pre0 spec0 c (V m c)) := by
    rw [held_tailS, exitVal_out, rest_exit]
  have hpost : (StableHlo.held (c : Thread nD τ) tailS (StableHlo.after ([hostOps1] : List (List (HloOp τ sig (Elt F)))).flatten (exitVal m hO c)) : sProp 𝕄)
      = iprop((((c : Thread nD τ).loc main_v16) ↦{fullShare} outArr m hO c) ∗ Pipeline.unscopedRestP pre0 spec0 c (endVal m hO c)) := by
    rw [held_tailS, hfl, StableHlo.after_of_forall_not_mem _ _ tail_keeps_out, exitVal_out]
  unfold Dat.arrays
  rw [bigSep_W0]
  simp only [hw]
  iintro ⟨Hk, Hbd, ⟨Ha0, Ha1, Ha2, Ha3, Ha4, Ha5, Ha6, Ha7, Ha8, Ha9, Ha10, Ha11, Ha12⟩, HZ⟩
  rw [← List.append_nil (([hostOps1] : List (List (HloOp τ sig (Elt F)))).map StableHlo.seq)]
  iapply (Pipeline.wp_seqs_then pcfgs defs₀ Variants.none c tailS [] [hostOps1] hostOps1_tailS hostOps1_nofresh (exitVal m hO c)) $$ [Hbd Ha12 HZ]
  · rw [hpre]
    isplitl [Hbd]; · iexact Hbd
    isplitl [Ha12]; · iexact Ha12
    iexact HZ
  iintro Hb
  rw [Pipeline.chain_nil, wp_pure, hpost]
  imodintro
  iapply Hk
  icases Hb with ⟨-, Hb12, HZ⟩
  isplitr [HZ]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [Ha10]; · iexact Ha10
    isplitl [Ha11]; · iexact Ha11
    iexact Hb12
  · iexact HZ

/-! ## The run -/

set_option backward.isDefEq.respectTransparency.types false in
/-- At the compiled mesh, from any memory with zero counters whose tables are in range: every weakly fair execution of
    @main terminates, nothing faulting, and every buffer that bypasses the region — the arguments and the result among
    them — ends at the end contents. -/
theorem run_main (hO : Ok m) : θ_run defs (onTc (τ := τ) (main (F := F))) ⟨m, fun _ => 0, ρ⟩ (fun r => ∀ c : Dev nD,
      ∀ b ∈ Pipeline.restRefsP sig pre0 spec0, r.2.mem ((c : Thread nD τ).loc b) = endVal m hO c b) := by
  classical
  exact Pipeline.θ_run_region_pf_tail pcfgs (fun _ => adm m hO) (dats m hO) () (cellOf_inj fun _ => adm m hO) (0 : Fin 1) winFacts₀0
    (Pipeline.OwnSemFacts.none spec0) preFacts0 emb₁ defs₀ Variants.none m ρ main
    (fun _ => Pipeline.chain ([hostOps1].map StableHlo.seq)) (fun c => (body_obligation m hO c).loose)
    block_pos0 arr_whole0 stage_whole0 (fun _ _ => rfl)
    (G := fun _ => iprop(emp)) (u₀ := initOf (Pipeline.cells (Pipeline.pin pcfgs fun _ => adm m hO) (cellOf_inj fun _ => adm m hO)) (Pipeline.launchToks (Pipeline.pin pcfgs fun _ => adm m hO) (cellOf_inj fun _ => adm m hO)))
    (hu₀ := by
      iintro Hu; imodintro
      isplitl [Hu]; · iapply (show (ownU _ : sProp 𝕄) ⊢ BI.own (emb₁ (initOf (Pipeline.cells (Pipeline.pin pcfgs fun _ => adm m hO) (cellOf_inj fun _ => adm m hO)) (Pipeline.launchToks (Pipeline.pin pcfgs fun _ => adm m hO) (cellOf_inj fun _ => adm m hO)))) from .rfl); iexact Hu
      iapply (show (BI.emp : sProp 𝕄) ⊢ bigSep Finset.univ (fun _ : Dev nD => (BI.emp : sProp 𝕄)) from by rw [BI.bigSep_emp_const])
      iempintro)
    (V := V m) (hmain := hmain m)
    (hsplit := hsplit m hO)
    (hpf := V_pre m)
    (X := fun c => iprop(∃ r, prngReg c r)) (Y := fun c => iprop(∃ r, prngReg c r))
    (Z := fun c => Pipeline.unscopedRestP (Ix := Unit) (Name := ℕ) (U := UR sig nD τ) (Lvl := ℕ) pre0 (cfgM m hO).spec c (V m c))
    (Z' := fun c => Pipeline.unscopedRestP (Ix := Unit) (Name := ℕ) (U := UR sig nD τ) (Lvl := ℕ) pre0 (cfgM m hO).spec c (endVal m hO c))
    (hX := fun c => by
      iintro ⟨HU, -, -, -, Hp, -⟩; imodintro
      isplitl [Hp]; · iexists _; iexact Hp
      iexact HU)
    (hin := fun c => by
      rw [show (dats m hO 0 c).Φ 0 = iprop(Pipeline.ΦA spec0 c ∗ Pipeline.ΦT pre0 (tbl m) c) from rfl]
      unfold Pipeline.ΦA Pipeline.ΦT; iintro ⟨Hp, Ht, Hr⟩
      isplitr [Ht]
      · isplitl [Hr] <;> iassumption
      · iexact Ht)
    (hout := fun c => by
      rw [show (dats m hO 0 c).Φ (Fin.last (cfgM m hO).N) = iprop(Pipeline.ΦA spec0 c ∗ Pipeline.ΦT pre0 (tbl m) c) from rfl]
      rw [Pipeline.ownSems0_none]; unfold Pipeline.ΦA
      iintro ⟨⟨Hr, Hp⟩, -⟩
      isplitl [Hp]; · iexact Hp
      isplitr; · iempintro
      iexact Hr)
    (htail := fun c Q' => htail m hO c Q')
    (QY := fun c s => ∀ b ∈ Pipeline.restRefsP sig pre0 spec0, s.mem ((c : Thread nD τ).loc b) = endVal m hO c b)
    (hY := fun c s' => by
      iintro ⟨-, HU, HSI⟩
      unfold Pipeline.unscopedRestP
      imodintro
      iapply (pointsTo_read_all (Pipeline.restRefsP sig pre0 spec0) (fun b => (c : Thread nD τ).loc b) (endVal m hO c) s')
      isplitl [HU] <;> iassumption)
    (hQ := fun s h c => (h c).2.2)

end Cert.KernelIdeal.Hand

end
-- ==== Proof.KI.OutValue.lean ====
/-
  The output array's two cells after the region.

  The output is an array of two cells, one per half of the batch, and the output window's block is one cell: at sample
  `t` the block index is (t / 8192, 0, 0), the first grid coordinate. A block's coordinate in the array is always
  index × size + the coordinate inside the block, so the block of sample `t` is the array's cell t / 8192. The window
  is written back exactly after the last sample of each half (t % 8192 = 8191), and there 8192 · (t / 8192) + 8191 = t:
  what is written into cell h is the running cell after sample 8192·h + 8191. The two write-backs cover the array, so
  after the region cell h of the array is the running cell after the last sample of half h, for h = 0, 1. All of it is
  arithmetic on the sample number; nothing is enumerated and the tables' contents are never read.
-/
import proofs.«412037_j48361331753003_2_alg».proof.Proof.KI.EndVal
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx (ix1 ix2 ix3 eq_ix3)

variable {F : FTy → Type} [FloatOps F]

/-! ## The output window's block index and blocks -/

/-- Each value of the grid's first coordinate spans 8192 consecutive samples. -/
theorem stride0 : grid0.stride 0 = 8192 := by decide

/-- The output window's block index at sample `t` is (t / 8192, 0, 0): the sample's half, whatever the tables hold. -/
theorem index12 (a : (pcfg0 (F := F)).Adm) (t : Fin (cfg0 a).N) :
    ((cfg0 a).win 12).index t = ![t.val / 8192, 0, 0] := by
  have hN : t.val < 16384 := lt_of_lt_of_eq t.isLt (show (cfg0 a).N = 16384 from N_0)
  show cc0_transform_12 (grid0.coords t) = _
  unfold cc0_transform_12
  funext b
  match b with
  | ⟨0, _⟩ =>
    show (BitVec.ofNat 32 (t.val / grid0.stride 0 % 2)).toNat = t.val / 8192
    rw [stride0, BitVec.toNat_ofNat]
    omega
  | ⟨1, _⟩ => rfl
  | ⟨2, _⟩ => rfl

/-- A [1,1,1] block has one index. -/
theorem idx111_eq (x x' : S1x1x1.Idx) : x = x' := by
  funext b
  apply Fin.ext
  match b with
  | ⟨0, _⟩ => have h : (x 0).val < 1 := (x 0).isLt; have h' : (x' 0).val < 1 := (x' 0).isLt; show (x 0).val = (x' 0).val; omega
  | ⟨1, _⟩ => have h : (x 1).val < 1 := (x 1).isLt; have h' : (x' 1).val < 1 := (x' 1).isLt; show (x 1).val = (x' 1).val; omega
  | ⟨2, _⟩ => have h : (x 2).val < 1 := (x 2).isLt; have h' : (x' 2).val < 1 := (x' 2).isLt; show (x 2).val = (x' 2).val; omega

/-! ## The array after all write-backs, for any cell function

Stated over any admissible tables `a`, any proof data `dat` of the pipeline there whose output window holds
`cell t` after sample `t`: the array ends holding, at (h, 0, 0), the cell after the last sample of half `h`. -/

section Generic

variable (a : (pcfg0 (F := F)).Adm) {c : Dev nD} (dat : Dat τ (Elt F) Unit ℕ (UR sig nD τ) ℕ (cfg0 a) c)
  (cell : (n : ℕ) → n < (cfg0 a).N → Vec F S1x1x1 .f32)

/-- The cell function read at equal sample numbers and at the block's one index. -/
theorem cell_congr {n n' : ℕ} (e : n = n') (h : n < (cfg0 a).N) (h' : n' < (cfg0 a).N) (x x' : S1x1x1.Idx) :
    cell n h x = cell n' h' x' := by
  subst e
  exact congrArg _ (idx111_eq x x')

/-- The last sample of half `k` is a sample. -/
theorem last_lt (k : ℕ) (hk : k < 2) : 8192 * k + 8191 < (cfg0 a).N := by
  have e : (cfg0 a).N = 16384 := N_0
  omega

/-- What the array ends holding: at (h, 0, 0) the cell after sample 8192·h + 8191. -/
abbrev G12 : S2x1x1.Idx → Elt F .f32 := fun i =>
  cell (8192 * (i 0).val + 8191) (last_lt a (i 0).val (i 0).isLt) (ix3 (0 : Fin 1) (0 : Fin 1) (0 : Fin 1))

/-- What a write-back writes is its block of `G12`: it happens after the last sample of a half, where the block is
    the half's cell of the array and 8192 · (t / 8192) + 8191 = t. -/
theorem flushed12_eq (hafter : ∀ t, dat.after 12 t = cell t.val t.isLt) (t : Fin (cfg0 a).N)
    (hf : ((cfg0 a).win 12).flush t = true) :
    dat.flushed 12 t = (((cfg0 a).win 12).blk t).view.read (Elt F) (G12 a cell) := by
  have h1 : t.val % 8192 = 8191 := (flush12 a t).mp hf
  show ((cfg0 a).win 12).cut (grid0.coords t) (dat.after 12 t) = _
  rw [hafter]
  funext j
  show cell t.val t.isLt _ = G12 a cell ((((cfg0 a).win 12).blk t).view.emb j)
  have he : ((((cfg0 a).win 12).blk t).view.emb j (0 : Fin 3)).val = t.val / 8192 := by
    have hj : (j (0 : Fin 3)).val < 1 := (j (0 : Fin 3)).isLt
    show ((cfg0 a).win 12).index t (0 : Fin 3) * 1 + 1 * (j (0 : Fin 3)).val = t.val / 8192
    rw [index12]
    show t.val / 8192 * 1 + 1 * (j (0 : Fin 3)).val = t.val / 8192
    omega
  exact cell_congr a cell (by rw [he]; omega) _ _ _ _

/-- The block of sample `t` holds the cell of the array numbered by the sample's half. -/
theorem mem_blk12 (t : Fin (cfg0 a).N) (i : S2x1x1.Idx) (h0 : (i 0).val = t.val / 8192) :
    i ∈ (((cfg0 a).win 12).blk t).view.set := by
  have hi1 : (i 1).val < 1 := (i 1).isLt
  have hi2 : (i 2).val < 1 := (i 2).isLt
  have e := index12 a t
  have hs : ((View.whole main_v16).slice (((cfg0 a).win 12).rect t)).set = (((cfg0 a).win 12).rect t).set :=
    View.set_slice_whole main_v16 _
  refine (Finset.ext_iff.mp hs i).mpr (Rect.mem_set_unit.mpr fun b => ?_)
  match b with
  | ⟨0, _⟩ =>
    show ((cfg0 a).win 12).index t (0 : Fin 3) * 1 ≤ (i 0).val ∧ (i 0).val < ((cfg0 a).win 12).index t (0 : Fin 3) * 1 + 1
    rw [e]
    show t.val / 8192 * 1 ≤ (i 0).val ∧ (i 0).val < t.val / 8192 * 1 + 1
    omega
  | ⟨1, _⟩ =>
    show ((cfg0 a).win 12).index t (1 : Fin 3) * 1 ≤ (i 1).val ∧ (i 1).val < ((cfg0 a).win 12).index t (1 : Fin 3) * 1 + 1
    rw [e]
    show 0 * 1 ≤ (i 1).val ∧ (i 1).val < 0 * 1 + 1
    omega
  | ⟨2, _⟩ =>
    show ((cfg0 a).win 12).index t (2 : Fin 3) * 1 ≤ (i 2).val ∧ (i 2).val < ((cfg0 a).win 12).index t (2 : Fin 3) * 1 + 1
    rw [e]
    show 0 * 1 ≤ (i 2).val ∧ (i 2).val < 0 * 1 + 1
    omega

/-- Every cell of the array is in the block of the last sample of its half, which is written back. -/
theorem cover12 (i : S2x1x1.Idx) :
    ∃ t : Fin (cfg0 a).N, ((cfg0 a).win 12).flush t = true ∧ i ∈ (((cfg0 a).win 12).blk t).view.set := by
  have hi0 : (i 0).val < 2 := (i 0).isLt
  exact ⟨⟨8192 * (i 0).val + 8191, last_lt a _ hi0⟩,
    (flush12 a _).mpr (by show (8192 * (i 0).val + 8191) % 8192 = 8191; omega),
    mem_blk12 a _ i (by show (i 0).val = (8192 * (i 0).val + 8191) / 8192; omega)⟩

/-- So the array after the run holds `G12`. -/
theorem arrAt12_eq (hafter : ∀ t, dat.after 12 t = cell t.val t.isLt) : dat.arrAt 12 (cfg0 a).N = G12 a cell :=
  dat.arrAt_eq_of_cover 12 (G12 a cell) (flushed12_eq a dat cell hafter) (cover12 a)

end Generic

/-! ## The output array after the region -/

variable (m : (ℓ : Loc nD τ sig) → Buf (Elt F) ℓ)

/-- The output array's cell `h` after the region is the running cell after the last sample of half `h`. -/
theorem outArr_apply (hO : Ok m) (c : Dev nD) (h : Fin 2) :
    outArr m hO c (ix3 h (0 : Fin 1) (0 : Fin 1))
      = cellAt m hO c (8192 * h.val + 8191) (by have := h.isLt; have e : (cfgM m hO).N = 16384 := N_0; omega)
          (ix3 (0 : Fin 1) (0 : Fin 1) (0 : Fin 1)) :=
  (congrFun (arrAt12_eq (adm m hO) (dats m hO 0 c) (cellAt m hO c) (after12 m hO c)) (ix3 h (0 : Fin 1) (0 : Fin 1))).trans
    (cell_congr (adm m hO) (cellAt m hO c) rfl _ _ _ _)

end Cert.KernelIdeal.Hand

end
-- ==== Proof.KI.Rows.lean ====
/-
  The region's entry in terms of the argument arrays.

  Before the region @main runs sixteen layout operations. Twelve of them cut each of the two [16384 × 3] triple arrays
  into its three columns — a [16384 × 1] slice at column k reshaped to a vector — and hand the six columns to the region
  as its tables: entry i of a table is entry (i, k) of its triple array. So where every index of the two triple arrays
  names a row of its embedding table, every word of every table does. The other four reshape each [N × 256] embedding
  table to [N × 2 × 128]: row n keeps its 256 entries as two halves of 128, and entry (n, a, l) is the table's entry
  (n, 128 a + l), the two having the same row-major position 256 n + 128 a + l.
-/
import proofs.«412037_j48361331753003_2_alg».proof.Proof.KI.Tables
import proofs.«412037_j48361331753003_2_alg».proof.Proof.PreRange
import proofs.«412037_j48361331753003_2_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 eq_ix1)
open Idealize.ShloMosaic.StableHlo

variable {F : FTy → Type} [FloatOps F]
variable (m : (ℓ : Loc nD τ sig) → Buf (Elt F) ℓ)

/-! ## The host operations' results before the region -/

/-- A table is a column of a triple array: the [16384 × 1] slice at that column, reshaped to a vector. -/
theorem V_v1 (c : Dev nD) : (V m c main_v1 : S16384.Idx → BitVec 32)
    = shapeCast S16384 (extractStridedSlice S16384x1 ![0, 0] (m ((c : Thread nD τ).loc main_arg0) : S16384x3.Idx → BitVec 32) slices_S16384x3_S16384x1_0_0) shapeCasts_S16384x1_S16384 := by
  show StableHlo.after hostOps0 (V₀ m c) (Proc.devRef .tc main_v1) = _
  dsimp only [hostOps0]; after_results; rfl
theorem V_v5 (c : Dev nD) : (V m c main_v5 : S16384.Idx → BitVec 32)
    = shapeCast S16384 (extractStridedSlice S16384x1 ![0, 2] (m ((c : Thread nD τ).loc main_arg0) : S16384x3.Idx → BitVec 32) slices_S16384x3_S16384x1_0_2) shapeCasts_S16384x1_S16384 := by
  show StableHlo.after hostOps0 (V₀ m c) (Proc.devRef .tc main_v5) = _
  dsimp only [hostOps0]; after_results; rfl
theorem V_v3 (c : Dev nD) : (V m c main_v3 : S16384.Idx → BitVec 32)
    = shapeCast S16384 (extractStridedSlice S16384x1 ![0, 1] (m ((c : Thread nD τ).loc main_arg0) : S16384x3.Idx → BitVec 32) slices_S16384x3_S16384x1_0_1) shapeCasts_S16384x1_S16384 := by
  show StableHlo.after hostOps0 (V₀ m c) (Proc.devRef .tc main_v3) = _
  dsimp only [hostOps0]; after_results; rfl
theorem V_v7 (c : Dev nD) : (V m c main_v7 : S16384.Idx → BitVec 32)
    = shapeCast S16384 (extractStridedSlice S16384x1 ![0, 0] (m ((c : Thread nD τ).loc main_arg1) : S16384x3.Idx → BitVec 32) slices_S16384x3_S16384x1_0_0) shapeCasts_S16384x1_S16384 := by
  show StableHlo.after hostOps0 (V₀ m c) (Proc.devRef .tc main_v7) = _
  dsimp only [hostOps0]; after_results; rfl
theorem V_v11 (c : Dev nD) : (V m c main_v11 : S16384.Idx → BitVec 32)
    = shapeCast S16384 (extractStridedSlice S16384x1 ![0, 2] (m ((c : Thread nD τ).loc main_arg1) : S16384x3.Idx → BitVec 32) slices_S16384x3_S16384x1_0_2) shapeCasts_S16384x1_S16384 := by
  show StableHlo.after hostOps0 (V₀ m c) (Proc.devRef .tc main_v11) = _
  dsimp only [hostOps0]; after_results; rfl
theorem V_v9 (c : Dev nD) : (V m c main_v9 : S16384.Idx → BitVec 32)
    = shapeCast S16384 (extractStridedSlice S16384x1 ![0, 1] (m ((c : Thread nD τ).loc main_arg1) : S16384x3.Idx → BitVec 32) slices_S16384x3_S16384x1_0_1) shapeCasts_S16384x1_S16384 := by
  show StableHlo.after hostOps0 (V₀ m c) (Proc.devRef .tc main_v9) = _
  dsimp only [hostOps0]; after_results; rfl

/-! ## The tables as columns of the triple arrays -/

theorem tbl0_ix1 (i : Fin 16384) : tbl m 0 (ix1 i) = m (((0 : Dev nD) : Thread nD τ).loc main_arg0) (ix2 i 0) := by
  show (V m 0 main_v1 : S16384.Idx → BitVec 32) (ix1 i) = _
  rw [V_v1]
  exact Cert.Pre_finite_inputs.Range.column_apply 0 _ _ _ i 0 rfl

theorem tbl0_apply (x : S16384.Idx) : tbl m 0 x = m (((0 : Dev nD) : Thread nD τ).loc main_arg0) (ix2 (x 0) 0) :=
  (congrArg (tbl m 0) (eq_ix1 x)).trans (tbl0_ix1 m (x 0))

theorem tbl1_ix1 (i : Fin 16384) : tbl m 1 (ix1 i) = m (((0 : Dev nD) : Thread nD τ).loc main_arg0) (ix2 i 2) := by
  show (V m 0 main_v5 : S16384.Idx → BitVec 32) (ix1 i) = _
  rw [V_v5]
  exact Cert.Pre_finite_inputs.Range.column_apply 2 _ _ _ i 2 rfl
theorem tbl2_ix1 (i : Fin 16384) : tbl m 2 (ix1 i) = m (((0 : Dev nD) : Thread nD τ).loc main_arg0) (ix2 i 1) := by
  show (V m 0 main_v3 : S16384.Idx → BitVec 32) (ix1 i) = _
  rw [V_v3]
  exact Cert.Pre_finite_inputs.Range.column_apply 1 _ _ _ i 1 rfl
theorem tbl3_ix1 (i : Fin 16384) : tbl m 3 (ix1 i) = m (((0 : Dev nD) : Thread nD τ).loc main_arg1) (ix2 i 0) := by
  show (V m 0 main_v7 : S16384.Idx → BitVec 32) (ix1 i) = _
  rw [V_v7]
  exact Cert.Pre_finite_inputs.Range.column_apply 0 _ _ _ i 0 rfl
theorem tbl4_ix1 (i : Fin 16384) : tbl m 4 (ix1 i) = m (((0 : Dev nD) : Thread nD τ).loc main_arg1) (ix2 i 2) := by
  show (V m 0 main_v11 : S16384.Idx → BitVec 32) (ix1 i) = _
  rw [V_v11]
  exact Cert.Pre_finite_inputs.Range.column_apply 2 _ _ _ i 2 rfl
theorem tbl5_ix1 (i : Fin 16384) : tbl m 5 (ix1 i) = m (((0 : Dev nD) : Thread nD τ).loc main_arg1) (ix2 i 1) := by
  show (V m 0 main_v9 : S16384.Idx → BitVec 32) (ix1 i) = _
  rw [V_v9]
  exact Cert.Pre_finite_inputs.Range.column_apply 1 _ _ _ i 1 rfl

/-- Positive tails: column 2 of the positive triples. -/
theorem tbl1_apply (x : S16384.Idx) : tbl m 1 x = m (((0 : Dev nD) : Thread nD τ).loc main_arg0) (ix2 (x 0) 2) :=
  (congrArg (tbl m 1) (eq_ix1 x)).trans (tbl1_ix1 m (x 0))
/-- Positive relations: column 1 of the positive triples. -/
theorem tbl2_apply (x : S16384.Idx) : tbl m 2 x = m (((0 : Dev nD) : Thread nD τ).loc main_arg0) (ix2 (x 0) 1) :=
  (congrArg (tbl m 2) (eq_ix1 x)).trans (tbl2_ix1 m (x 0))
/-- Negative heads: column 0 of the negative triples. -/
theorem tbl3_apply (x : S16384.Idx) : tbl m 3 x = m (((0 : Dev nD) : Thread nD τ).loc main_arg1) (ix2 (x 0) 0) :=
  (congrArg (tbl m 3) (eq_ix1 x)).trans (tbl3_ix1 m (x 0))
/-- Negative tails: column 2 of the negative triples. -/
theorem tbl4_apply (x : S16384.Idx) : tbl m 4 x = m (((0 : Dev nD) : Thread nD τ).loc main_arg1) (ix2 (x 0) 2) :=
  (congrArg (tbl m 4) (eq_ix1 x)).trans (tbl4_ix1 m (x 0))
/-- Negative relations: column 1 of the negative triples. -/
theorem tbl5_apply (x : S16384.Idx) : tbl m 5 x = m (((0 : Dev nD) : Thread nD τ).loc main_arg1) (ix2 (x 0) 1) :=
  (congrArg (tbl m 5) (eq_ix1 x)).trans (tbl5_ix1 m (x 0))

/-- Triple arrays whose every index names a row of its table give tables in range. -/
theorem tblRange_of_inRange (h0 : Cert.Loss.InRange (m (((0 : Dev nD) : Thread nD τ).loc main_arg0)))
    (h1 : Cert.Loss.InRange (m (((0 : Dev nD) : Thread nD τ).loc main_arg1))) : TblRange m where
  hpos := fun (x : S16384.Idx) => lt_of_eq_of_lt (congrArg BitVec.toNat (tbl0_apply m x)) (h0 (x 0)).1
  tpos := fun (x : S16384.Idx) => lt_of_eq_of_lt (congrArg BitVec.toNat (tbl1_apply m x)) (h0 (x 0)).2.2
  rpos := fun (x : S16384.Idx) => lt_of_eq_of_lt (congrArg BitVec.toNat (tbl2_apply m x)) (h0 (x 0)).2.1
  hneg := fun (x : S16384.Idx) => lt_of_eq_of_lt (congrArg BitVec.toNat (tbl3_apply m x)) (h1 (x 0)).1
  tneg := fun (x : S16384.Idx) => lt_of_eq_of_lt (congrArg BitVec.toNat (tbl4_apply m x)) (h1 (x 0)).2.2
  rneg := fun (x : S16384.Idx) => lt_of_eq_of_lt (congrArg BitVec.toNat (tbl5_apply m x)) (h1 (x 0)).2.1

/-! ## The embedding tables as the region sees them: each 256-wide row as two 128-wide halves -/

/-- An [N × 256] array reshaped to [N × 2 × 128] reads, at (n, a, l), the array's entry (n, 128 a + l): both lie at row-major
    position 256 n + 128 a + l. -/
theorem halves_apply {α : Type} {N : Nat} (X : (⟨2, ![N, 256]⟩ : Shape).Idx → α)
    (h : (⟨2, ![N, 256]⟩ : Shape).ShapeCasts ⟨3, ![N, 2, 128]⟩) (n : Fin N) (a : Fin 2) (l : Fin 128) :
    shapeCast ⟨3, ![N, 2, 128]⟩ X h (ix3 n a l) = X (ix2 n (⟨128 * a.val + l.val, by omega⟩ : Fin 256)) :=
  shapeCast_apply X h _ _ (by
    rw [Shape.rowMajor_val_two, Shape.rowMajor_val_three]
    show n.val * 256 + (128 * a.val + l.val) = (n.val * 2 + a.val) * 128 + l.val
    omega)

theorem V_v12 (c : Dev nD) : (V m c main_v12 : S500000x2x128.Idx → F .f32)
    = shapeCast S500000x2x128 (m ((c : Thread nD τ).loc main_arg2) : S500000x256.Idx → F .f32) shapeCasts_S500000x256_S500000x2x128 := by
  show StableHlo.after hostOps0 (V₀ m c) (Proc.devRef .tc main_v12) = _
  dsimp only [hostOps0]; after_results; rfl
theorem V_v13 (c : Dev nD) : (V m c main_v13 : S500000x2x128.Idx → F .f32)
    = shapeCast S500000x2x128 (m ((c : Thread nD τ).loc main_arg3) : S500000x256.Idx → F .f32) shapeCasts_S500000x256_S500000x2x128 := by
  show StableHlo.after hostOps0 (V₀ m c) (Proc.devRef .tc main_v13) = _
  dsimp only [hostOps0]; after_results; rfl
theorem V_v14 (c : Dev nD) : (V m c main_v14 : S1000x2x128.Idx → F .f32)
    = shapeCast S1000x2x128 (m ((c : Thread nD τ).loc main_arg4) : S1000x256.Idx → F .f32) shapeCasts_S1000x256_S1000x2x128 := by
  show StableHlo.after hostOps0 (V₀ m c) (Proc.devRef .tc main_v14) = _
  dsimp only [hostOps0]; after_results; rfl
theorem V_v15 (c : Dev nD) : (V m c main_v15 : S1000x2x128.Idx → F .f32)
    = shapeCast S1000x2x128 (m ((c : Thread nD τ).loc main_arg5) : S1000x256.Idx → F .f32) shapeCasts_S1000x256_S1000x2x128 := by
  show StableHlo.after hostOps0 (V₀ m c) (Proc.devRef .tc main_v15) = _
  dsimp only [hostOps0]; after_results; rfl

/-- The entity table as the region sees it. -/
theorem V_v12_apply (c : Dev nD) (n : Fin 500000) (a : Fin 2) (l : Fin 128) :
    V m c main_v12 (ix3 n a l) = m ((c : Thread nD τ).loc main_arg2) (ix2 n (⟨128 * a.val + l.val, by omega⟩ : Fin 256)) := by
  show (V m c main_v12 : S500000x2x128.Idx → F .f32) (ix3 n a l) = _
  rw [V_v12]
  exact halves_apply _ _ n a l
/-- The entity projection table as the region sees it. -/
theorem V_v13_apply (c : Dev nD) (n : Fin 500000) (a : Fin 2) (l : Fin 128) :
    V m c main_v13 (ix3 n a l) = m ((c : Thread nD τ).loc main_arg3) (ix2 n (⟨128 * a.val + l.val, by omega⟩ : Fin 256)) := by
  show (V m c main_v13 : S500000x2x128.Idx → F .f32) (ix3 n a l) = _
  rw [V_v13]
  exact halves_apply _ _ n a l
/-- The relation table as the region sees it. -/
theorem V_v14_apply (c : Dev nD) (n : Fin 1000) (a : Fin 2) (l : Fin 128) :
    V m c main_v14 (ix3 n a l) = m ((c : Thread nD τ).loc main_arg4) (ix2 n (⟨128 * a.val + l.val, by omega⟩ : Fin 256)) := by
  show (V m c main_v14 : S1000x2x128.Idx → F .f32) (ix3 n a l) = _
  rw [V_v14]
  exact halves_apply _ _ n a l
/-- The relation projection table as the region sees it. -/
theorem V_v15_apply (c : Dev nD) (n : Fin 1000) (a : Fin 2) (l : Fin 128) :
    V m c main_v15 (ix3 n a l) = m ((c : Thread nD τ).loc main_arg5) (ix2 n (⟨128 * a.val + l.val, by omega⟩ : Fin 256)) := by
  show (V m c main_v15 : S1000x2x128.Idx → F .f32) (ix3 n a l) = _
  rw [V_v15]
  exact halves_apply _ _ n a l

end Cert.KernelIdeal.Hand

end
-- ==== Proof.KI.PayValue.lean ====
/-
  The kernel body's arithmetic, read at the extended reals.

  Each load of the body returns a [1,2,128] block: one table row of 256 entries laid out as 2 halves of 128 lanes,
  entry (0, a, l) being column 128·a + l (`rowOf`). The body sums a row in two stages — over the 128 lanes, then over
  the 2 halves, keeping unit axes in between — and broadcasts the one cell it gets back over the block; the
  specification sums the 256 columns at once. Addition on the extended reals is a commutative monoid, so
      Σ_{a < 2} Σ_{l < 128} f (a, l) = Σ_{d < 256} f (d / 128, d % 128)
  through the bijection (a, l) ↦ 128·a + l, with no finiteness assumed of any entry. With that, entry by entry:
    • the row sum of a product of two blocks is the inner product of their rows (`rowSum_mulf`);
    • the positive triple's block is ((rp · (hp·h) + h) + r) − (rp · (tp·t) + t) column by column (`pay3_apply`), and
      with the offset added it is the specification's projected difference (`pos_diff`); the negative triple's, which
      the body assembles from two projections and two loaded rows, likewise (`neg_diff`);
    • a score is the square root of the row sum of the squared difference (`norm_apply`);
    • the cell's new value is the old cell plus max ((positive score − negative score) + 1, 0) (`cell_eq`), and the
      value the cell is reset to is 0 (`reset_eq`).
-/
import proofs.«412037_j48361331753003_2_alg».proof.Proof.Gen.KernelIdeal.Skeleton
import proofs.«412037_j48361331753003_2_alg».proof.Proof.Spec
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Group.Finset.Defs
import Mathlib.Data.Fintype.BigOperators
import Mathlib.Logic.Equiv.Fin.Basic

noncomputable section

open scoped BigOperators

namespace Cert.KernelIdeal.PayValue

open Cert.KernelIdeal Cert.KernelIdeal.Gen Idealize.ShloMosaic Idealize.ShloMosaic.ValueIdx

/-! ## The non-pointwise operations of the body, read at coordinates -/

/-- The sum over the 128 lanes: at (p, a) it is the sum over l of the block at (p, a, l). -/
theorem lane_sum (v : FVec Ideal S1x2x128 .f32) (p : Fin 1) (a : Fin 2) :
    multiReduction (F := Ideal) .add [2] S1x2 v 0x00000000#32 reduces_S1x2x128_S1x2 (.inl rfl) rfl (ix2 p a)
      = ∑ l : Fin 128, v (ix3 p a l) := by
  refine (Ideal.multiReduction_add_single v _ reduces_S1x2x128_S1x2 (.inl rfl) rfl (ix2 p a)).trans ?_
  refine Finset.sum_congr rfl fun l _ => congrArg v ?_
  funext c
  match c with
  | ⟨0, _⟩ => rfl
  | ⟨1, _⟩ => rfl
  | ⟨2, _⟩ => rfl

/-- The sum over the 2 halves: at (p, q) it is the sum over a of the operand at (p, a, q). -/
theorem half_sum (w : FVec Ideal S1x2x1 .f32) (p q : Fin 1) :
    multiReduction (F := Ideal) .add [1] S1x1 w 0x00000000#32 reduces_S1x2x1_S1x1 (.inl rfl) rfl (ix2 p q)
      = ∑ a : Fin 2, w (ix3 p a q) := by
  refine (Ideal.multiReduction_add_single w _ reduces_S1x2x1_S1x1 (.inl rfl) rfl (ix2 p q)).trans ?_
  refine Finset.sum_congr rfl fun a _ => congrArg w ?_
  funext c
  match c with
  | ⟨0, _⟩ => rfl
  | ⟨1, _⟩ => rfl
  | ⟨2, _⟩ => rfl

/-- A trailing unit axis added to a [1,2] array: (p, a, q) reads (p, a). -/
theorem cast_12_121 {α : Type} (u : S1x2.Idx → α) (p : Fin 1) (a : Fin 2) (q : Fin 1) :
    shapeCast S1x2x1 u shapeCasts_S1x2_S1x2x1 (ix3 p a q) = u (ix2 p a) :=
  shapeCast_apply u _ _ _ (by
    have hq : q.val = 0 := by omega
    rw [Shape.rowMajor_val_three, Shape.rowMajor_val_two]
    show p.val * 2 + a.val = (p.val * 2 + a.val) * 1 + q.val
    omega)

/-- A trailing unit axis added to a [1,1] array: (p, q, r) reads (p, q). -/
theorem cast_11_111 {α : Type} (u : S1x1.Idx → α) (p q r : Fin 1) :
    shapeCast S1x1x1 u shapeCasts_S1x1_S1x1x1 (ix3 p q r) = u (ix2 p q) :=
  shapeCast_apply u _ _ _ (by
    have hr : r.val = 0 := by omega
    rw [Shape.rowMajor_val_three, Shape.rowMajor_val_two]
    show p.val * 1 + q.val = (p.val * 1 + q.val) * 1 + r.val
    omega)

/-- The one cell broadcast over the block: every entry reads the cell. -/
theorem bcast_cell {α : Type} (w : S1x1x1.Idx → α) (p : Fin 1) (a : Fin 2) (l : Fin 128) :
    broadcastTo S1x2x128 w broadcasts_S1x1x1_S1x2x128 (ix3 p a l) = w (ix3 (0 : Fin 1) (0 : Fin 1) (0 : Fin 1)) :=
  broadcastTo_apply w _ _ _ fun c => by
    match c with
    | ⟨0, _⟩ => rfl
    | ⟨1, _⟩ => rfl
    | ⟨2, _⟩ => rfl

/-! ## The two-stage sum of a block is the sum over the row's 256 columns -/

/-- The body's row sum — lanes, then halves, keeping unit axes — at the one cell: the double sum. -/
theorem two_stage (v : FVec Ideal S1x2x128 .f32) (y : S1x1x1.Idx) :
    shapeCast S1x1x1
        (multiReduction (F := Ideal) .add [1] S1x1
          (shapeCast S1x2x1 (multiReduction (F := Ideal) .add [2] S1x2 v 0x00000000#32 reduces_S1x2x128_S1x2 (.inl rfl) rfl)
            shapeCasts_S1x2_S1x2x1)
          0x00000000#32 reduces_S1x2x1_S1x1 (.inl rfl) rfl)
        shapeCasts_S1x1_S1x1x1 y
      = ∑ a : Fin 2, ∑ l : Fin 128, v (ix3 (0 : Fin 1) a l) := by
  obtain ⟨p, q, r, rfl⟩ : ∃ p q r, y = ix3 p q r := ⟨y 0, y 1, y 2, eq_ix3 y⟩
  obtain rfl : p = 0 := Subsingleton.elim _ _
  refine (cast_11_111 _ 0 q r).trans ?_
  refine (half_sum _ 0 q).trans ?_
  refine Finset.sum_congr rfl fun a _ => ?_
  refine (cast_12_121 _ 0 a q).trans ?_
  exact lane_sum v 0 a

/-- Two halves of 128 lanes are the 256 columns: column d is lane d % 128 of half d / 128. -/
theorem sum_halves_lanes (f : Fin 2 → Fin 128 → EReal) :
    ∑ a : Fin 2, ∑ l : Fin 128, f a l
      = ∑ d : Fin 256, f ⟨d.val / 128, by omega⟩ ⟨d.val % 128, by omega⟩ := by
  rw [← Fintype.sum_prod_type' f]
  exact (Fintype.sum_equiv (finProdFinEquiv (m := 2) (n := 128)).symm _ _ fun d => rfl).symm

/-! ## Blocks as rows -/

/-- A [1,2,128] block as the table row it holds: column d is entry (0, d / 128, d % 128). -/
def rowOf (b : S1x2x128.Idx → EReal) : Cert.Loss.Row :=
  fun d => b (ix3 (0 : Fin 1) (⟨d.val / 128, by omega⟩ : Fin 2) (⟨d.val % 128, by omega⟩ : Fin 128))

/-- The body's row sum of a block, as its payloads spell it. -/
abbrev rowSum (v : FVec Ideal S1x2x128 .f32) : FVec Ideal S1x1x1 .f32 :=
  shapeCast S1x1x1
    (multiReduction (F := Ideal) .add [1] S1x1
      (shapeCast S1x2x1 (multiReduction (F := Ideal) .add [2] S1x2 v 0x00000000#32 reduces_S1x2x128_S1x2 (.inl rfl) rfl)
        shapeCasts_S1x2_S1x2x1)
      0x00000000#32 reduces_S1x2x1_S1x1 (.inl rfl) rfl)
    shapeCasts_S1x1_S1x1x1

/-- The row sum is the sum over the row's 256 columns. -/
theorem rowSum_eq (v : FVec Ideal S1x2x128 .f32) (y : S1x1x1.Idx) : rowSum v y = ∑ d : Fin 256, rowOf v d :=
  (two_stage v y).trans (sum_halves_lanes fun a l => v (ix3 (0 : Fin 1) a l))

/-- The row sum of a product of blocks is the rows' inner product. -/
theorem rowSum_mulf (x y : FVec Ideal S1x2x128 .f32) (c : S1x1x1.Idx) :
    rowSum (mulf x y) c = Cert.Loss.dot (rowOf x) (rowOf y) :=
  rowSum_eq (mulf x y) c

/-- A block times a broadcast inner product, at an entry. -/
theorem proj_apply (x hp h : FVec Ideal S1x2x128 .f32) (p : Fin 1) (a : Fin 2) (l : Fin 128) :
    mulf x (broadcastTo S1x2x128 (rowSum (mulf hp h)) broadcasts_S1x1x1_S1x2x128) (ix3 p a l)
      = x (ix3 p a l) * Cert.Loss.dot (rowOf hp) (rowOf h) :=
  congrArg (x (ix3 p a l) * ·) ((bcast_cell _ p a l).trans (rowSum_mulf hp h _))

/-! ## The payloads at an entry -/

/-- The positive triple's projected difference before the offset, at an entry. -/
theorem pay3_apply (b0 b1 b2 b3 b4 b5 : Vec Ideal S1x2x128 .f32) (p : Fin 1) (a : Fin 2) (l : Fin 128) :
    k0_pay3 (F := Ideal) b0 b1 b2 b3 b4 b5 (ix3 p a l)
      = ((b5 (ix3 p a l) * Cert.Loss.dot (rowOf b1) (rowOf b0) + b0 (ix3 p a l)) + b4 (ix3 p a l))
        - (b5 (ix3 p a l) * Cert.Loss.dot (rowOf b3) (rowOf b2) + b2 (ix3 p a l)) := by
  unfold k0_pay3
  simp only [shapeCast_self]
  have e1 := proj_apply b5 b1 b0 p a l
  have e2 := proj_apply b5 b3 b2 p a l
  show ((mulf (F := Ideal) (φ := .f32) b5 _ (ix3 p a l) : EReal) + b0 (ix3 p a l) + b4 (ix3 p a l))
      - ((mulf (F := Ideal) (φ := .f32) b5 _ (ix3 p a l) : EReal) + b2 (ix3 p a l)) = _
  rw [e1, e2]

/-- The norm of a block shifted by the offset: the body's score of a projected difference. -/
theorem norm_apply (v : FVec Ideal S1x2x128 .f32) (y : S1x1x1.Idx) :
    sqrt (rowSum (mulf (addf v (broadcast S1x2x128 (Scalar.ofBits (F := Ideal) .f32 0x358637BD#32)))
        (addf v (broadcast S1x2x128 (Scalar.ofBits (F := Ideal) .f32 0x358637BD#32))))) y
      = Ideal.sqrt (∑ d : Fin 256, (rowOf v d + Cert.Loss.eps) * (rowOf v d + Cert.Loss.eps)) :=
  congrArg Ideal.sqrt ((rowSum_eq _ y).trans rfl)

/-- The positive triple's score. -/
theorem pay4_apply (v : FVec Ideal S1x2x128 .f32) (y : S1x1x1.Idx) :
    k0_pay4 (F := Ideal) v y = Ideal.sqrt (∑ d : Fin 256, (rowOf v d + Cert.Loss.eps) * (rowOf v d + Cert.Loss.eps)) := by
  unfold k0_pay4
  exact norm_apply v y

/-- The cell's new value, over whatever the five blocks and the positive score are: the old cell plus the hinge of
    the positive score against the norm of the negative triple's difference. -/
theorem pay1_apply (v40 : FVec Ideal S1x1x1 .f32) (v46 v50 v65 v67 : FVec Ideal S1x2x128 .f32)
    (acc : Vec Ideal S1x1x1 .f32) (y : S1x1x1.Idx) :
    k0_pay1 (F := Ideal) v40 v46 v50 v65 v67 acc y
      = acc y + Cert.Loss.hinge (v40 y)
          (Ideal.sqrt (∑ d : Fin 256, (rowOf (subf (addf v65 v50) (addf v67 v46)) d + Cert.Loss.eps)
            * (rowOf (subf (addf v65 v50) (addf v67 v46)) d + Cert.Loss.eps))) := by
  unfold k0_pay1
  simp only [shapeCast_self]
  have e := norm_apply (subf (addf v65 v50) (addf v67 v46)) y
  show (acc y : EReal) + max (((v40 y : EReal) - sqrt (F := Ideal) (φ := .f32) _ y) + Ideal.ofBits .f32 0x3F800000#32)
      (Ideal.ofBits .f32 0x00000000#32) = _
  rw [e, Ideal.ofBits_zero_f32]
  rfl

/-- The negative triple's head projection, at an entry. -/
theorem pay8_apply (b6 b7 b11 : Vec Ideal S1x2x128 .f32) (p : Fin 1) (a : Fin 2) (l : Fin 128) :
    k0_pay8 (F := Ideal) b6 b7 b11 (ix3 p a l)
      = b11 (ix3 p a l) * Cert.Loss.dot (rowOf b7) (rowOf b6) + b6 (ix3 p a l) := by
  unfold k0_pay8 k0_pay7
  simp only [shapeCast_self]
  have e := proj_apply b11 b7 b6 p a l
  show (mulf (F := Ideal) (φ := .f32) b11 _ (ix3 p a l) : EReal) + b6 (ix3 p a l) = _
  rw [e]

/-- The negative triple's tail projection, at an entry. -/
theorem pay9_apply (b8 b9 b11 : Vec Ideal S1x2x128 .f32) (p : Fin 1) (a : Fin 2) (l : Fin 128) :
    k0_pay9 (F := Ideal) b8 b9 b11 (ix3 p a l) = b11 (ix3 p a l) * Cert.Loss.dot (rowOf b9) (rowOf b8) := by
  unfold k0_pay9 k0_pay7 k0_pay5
  simp only [shapeCast_self]
  exact proj_apply b11 b9 b8 p a l

/-- The two reshapes to the same shape are the identity. -/
theorem pay5_eq (b : Vec Ideal S1x2x128 .f32) : k0_pay5 (F := Ideal) b = b := by
  unfold k0_pay5; exact shapeCast_self _ _
theorem pay6_eq (b : Vec Ideal S1x2x128 .f32) : k0_pay6 (F := Ideal) b = b := by
  unfold k0_pay6; exact shapeCast_self _ _

/-! ## The projected differences, column by column -/

/-- The positive triple's block, shifted by the offset, is the specification's difference of its rows. -/
theorem pos_diff (b0 b1 b2 b3 b4 b5 : Vec Ideal S1x2x128 .f32) (d : Fin 256) :
    rowOf (k0_pay3 (F := Ideal) b0 b1 b2 b3 b4 b5) d + Cert.Loss.eps
      = Cert.Loss.diff (rowOf b0) (rowOf b1) (rowOf b2) (rowOf b3) (rowOf b4) (rowOf b5) d := by
  show k0_pay3 (F := Ideal) b0 b1 b2 b3 b4 b5 (ix3 (0 : Fin 1) ⟨d.val / 128, _⟩ ⟨d.val % 128, _⟩) + Cert.Loss.eps = _
  rw [pay3_apply]
  rfl

/-- The negative triple's block, as the cell's payload assembles it, likewise. -/
theorem neg_diff (b6 b7 b8 b9 b10 b11 : Vec Ideal S1x2x128 .f32) (d : Fin 256) :
    rowOf (subf (addf (k0_pay8 (F := Ideal) b6 b7 b11) (k0_pay6 b10)) (addf (k0_pay9 b8 b9 b11) (k0_pay5 b8))) d
        + Cert.Loss.eps
      = Cert.Loss.diff (rowOf b6) (rowOf b7) (rowOf b8) (rowOf b9) (rowOf b10) (rowOf b11) d := by
  rw [pay5_eq, pay6_eq]
  show ((k0_pay8 (F := Ideal) b6 b7 b11 (ix3 (0 : Fin 1) ⟨d.val / 128, _⟩ ⟨d.val % 128, _⟩)
        + b10 (ix3 (0 : Fin 1) ⟨d.val / 128, _⟩ ⟨d.val % 128, _⟩))
      - (k0_pay9 (F := Ideal) b8 b9 b11 (ix3 (0 : Fin 1) ⟨d.val / 128, _⟩ ⟨d.val % 128, _⟩)
        + b8 (ix3 (0 : Fin 1) ⟨d.val / 128, _⟩ ⟨d.val % 128, _⟩))) + Cert.Loss.eps = _
  rw [pay8_apply, pay9_apply]
  rfl

/-! ## The two stores' payloads -/

/-- The accumulating store's payload: the old cell plus the hinge of the positive triple's score (rows b0 … b5: h, hp,
    t, tp, r, rp) against the negative triple's (rows b6 … b11, in the same order). -/
theorem cell_eq (b0 b1 b2 b3 b4 b5 b6 b7 b8 b9 b10 b11 : Vec Ideal S1x2x128 .f32) (acc : Vec Ideal S1x1x1 .f32)
    (y : S1x1x1.Idx) :
    k0_pay1 (F := Ideal) (k0_pay4 (k0_pay3 b0 b1 b2 b3 b4 b5)) (k0_pay5 b8) (k0_pay6 b10) (k0_pay8 b6 b7 b11)
        (k0_pay9 b8 b9 b11) acc y
      = acc y + Cert.Loss.hinge
          (Cert.Loss.score (rowOf b0) (rowOf b1) (rowOf b2) (rowOf b3) (rowOf b4) (rowOf b5))
          (Cert.Loss.score (rowOf b6) (rowOf b7) (rowOf b8) (rowOf b9) (rowOf b10) (rowOf b11)) := by
  refine (pay1_apply _ _ _ _ _ acc y).trans ?_
  rw [pay4_apply]
  unfold Cert.Loss.score
  simp only [pos_diff, neg_diff]

/-- The resetting store's payload is zero. -/
theorem reset_eq (y : S1x1x1.Idx) : k0_pay2 (F := Ideal) y = 0 := by
  unfold k0_pay2
  exact Ideal.ofBits_zero_f32

end Cert.KernelIdeal.PayValue

end
-- ==== Proof.KI.BlockRows.lean ====
/-
  Each gathered window's block at a sample is the table row the sample's index word names.

  The region runs over 16384 grid points, two halves of 8192, in order: grid point t is sample t. Window w's index map
  reads one word of its table — the table's entry at the sample — and returns the block index (word, 0, 0). A block
  is [1 × 2 × 128] and its array [N × 2 × 128], so the block at index (n, 0, 0) is the array's row n: its entry (p, h, l)
  sits at (n · 1 + p, 0 · 2 + h, 0 · 128 + l) = (n, h, l). The array is the [N × 256] embedding table with each row kept as
  two halves of 128, and the table's word is a word of a triple array's column; so, read as a row of 256 columns
  (column d is lane d % 128 of half d / 128), the block is the embedding table's row at the triple's index. Where the
  tables are in range that index names a row, and the row the specification reads at it — the last row past the end —
  is the row itself.
-/
import proofs.«412037_j48361331753003_2_alg».proof.Proof.KI.Data
import proofs.«412037_j48361331753003_2_alg».proof.Proof.KI.Rows
import proofs.«412037_j48361331753003_2_alg».proof.Proof.KI.PayValue
import proofs.«412037_j48361331753003_2_alg».proof.Proof.Spec
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 eq_ix1 eq_ix3)

variable {F : FTy → Type} [FloatOps F]

/-! ## Grid points are samples, and the word a window's index map reads -/

/-- Grid point t is sample t: the grid is two halves of 8192 samples, run in order, and the index maps read their tables
    at 8192 · (half) + (position in the half). -/
theorem off_point (t : Fin grid0.N) : k0_off1 (grid0.coords t) 0 = t.val := by
  have hN : t.val < 16384 := lt_of_lt_of_eq t.isLt N_0
  have h0 : (grid0.coords t 0).val = t.val / 8192 % 2 := rfl
  have h1 : (grid0.coords t 1).val = t.val / 1 % 8192 := rfl
  unfold k0_off1
  dsimp only
  rw [h0, h1]
  show ((BitVec.ofNat 32 (t.val / 8192 % 2) * 8192#32 + BitVec.ofNat 32 (t.val / 1 % 8192) : BitVec 32)).toNat = t.val
  rw [BitVec.toNat_add, BitVec.toNat_mul, BitVec.toNat_ofNat, BitVec.toNat_ofNat, BitVec.toNat_ofNat]
  omega

/-- The one index of a one-entry rectangle of a table is the rectangle's offset. -/
theorem unit_emb_first (off : Fin 1 → Nat) (inb : ∀ a, off a + S1.size a ≤ S16384.size a) (h1 : 0 < S1.numel)
    (j : Fin 16384) (hj : off 0 = j.val) :
    (Rect.unit (s := S16384) off S1.size inb).emb (Shape.Idx.first h1) = ix1 j := by
  funext a
  match a with
  | ⟨0, _⟩ =>
    apply Fin.ext
    show off 0 + 1 * 0 = j.val
    omega

/-- Entry (n, a, l) of an [N × 2 × 128] table is entry (min n (N − 1), 128 a + l) of the [N × 256] table when n names a row,
    and a column d is lane d % 128 of half d / 128. -/
theorem row_index {N : Nat} (n : Nat) (hn : n < N) (d : Fin 256) :
    (ix2 (⟨n, hn⟩ : Fin N) (⟨128 * (d.val / 128) + d.val % 128, by omega⟩ : Fin 256) : (⟨2, ![N, 256]⟩ : Shape).Idx)
      = ix2 (⟨min n (N - 1), by omega⟩ : Fin N) d := by
  funext a
  match a with
  | ⟨0, _⟩ => apply Fin.ext; show n = min n (N - 1); omega
  | ⟨1, _⟩ => apply Fin.ext; show 128 * (d.val / 128) + d.val % 128 = d.val; omega

/-- A [1 × 2 × 128] block at block index (n, 0, 0) of an [N × 2 × 128] array lies on row n: its entry (p, h, l) sits at
    (n · 1 + p, 0 · 2 + h, 0 · 128 + l) = (n, h, l). -/
theorem block_emb {N : Nat} (idx : Fin 3 → Nat) (n : Nat) (hidx : idx = ![n, 0, 0]) (hn : n < N)
    (inb : ∀ a, idx a * S1x2x128.size a + S1x2x128.size a ≤ (⟨3, ![N, 2, 128]⟩ : Shape).size a)
    (p : Fin 1) (h : Fin 2) (l : Fin 128) :
    (Rect.unit (s := (⟨3, ![N, 2, 128]⟩ : Shape)) (fun a => idx a * S1x2x128.size a) S1x2x128.size inb).emb (ix3 p h l)
      = ix3 (⟨n, hn⟩ : Fin N) h l := by
  subst hidx
  have hp : p.val = 0 := by omega
  funext ax
  match ax with
  | ⟨0, _⟩ => apply Fin.ext; show n * 1 + 1 * p.val = n; omega
  | ⟨1, _⟩ => apply Fin.ext; show 0 * 2 + 1 * h.val = h.val; omega
  | ⟨2, _⟩ => apply Fin.ext; show 0 * 128 + 1 * l.val = l.val; omega

/-- A block that holds row n of the [N × 2 × 128] form Y of an [N × 256] table X, n naming a row, is row n of X. -/
theorem rowOf_block {N : Nat} (hN : 0 < N) (X : (⟨2, ![N, 256]⟩ : Shape).Idx → EReal) (Y : (⟨3, ![N, 2, 128]⟩ : Shape).Idx → EReal)
    (hY : ∀ (n : Fin N) (a : Fin 2) (l : Fin 128), Y (ix3 n a l) = X (ix2 n (⟨128 * a.val + l.val, by omega⟩ : Fin 256)))
    (b : S1x2x128.Idx → EReal) (n : Nat) (hn : n < N)
    (hb : ∀ (p : Fin 1) (h : Fin 2) (l : Fin 128), b (ix3 p h l) = Y (ix3 (⟨n, hn⟩ : Fin N) h l)) :
    Cert.KernelIdeal.PayValue.rowOf b = Cert.Loss.rowAt hN X n := by
  funext d
  show b (ix3 (0 : Fin 1) (⟨d.val / 128, by omega⟩ : Fin 2) (⟨d.val % 128, by omega⟩ : Fin 128)) = X (ix2 (⟨min n (N - 1), by omega⟩ : Fin N) d)
  rw [hb, hY]
  exact congrArg X (row_index n hn d)

/-! ## The tables' words through the index maps' one-entry rectangles

An index map reads its table through the one-entry rectangle at the sample's offset: the word is the table's entry at
the sample. -/

theorem at0 (pf : pre0.Contents (Elt F)) (t : Fin grid0.N) :
    pf.at 0 (Rect.unit (s := S16384) (k0_off1 (grid0.coords t)) S1.size (k0_off1_inb (grid0.coords t))) numel1_S1
      = (pf 0 : S16384.Idx → BitVec 32) (ix1 ⟨t.val, lt_of_lt_of_eq t.isLt N_0⟩) :=
  congrArg (pf 0 : S16384.Idx → BitVec 32) (unit_emb_first _ _ _ _ (off_point t))
theorem at1 (pf : pre0.Contents (Elt F)) (t : Fin grid0.N) :
    pf.at 1 (Rect.unit (s := S16384) (k0_off1 (grid0.coords t)) S1.size (k0_off1_inb (grid0.coords t))) numel1_S1
      = (pf 1 : S16384.Idx → BitVec 32) (ix1 ⟨t.val, lt_of_lt_of_eq t.isLt N_0⟩) :=
  congrArg (pf 1 : S16384.Idx → BitVec 32) (unit_emb_first _ _ _ _ (off_point t))
theorem at2 (pf : pre0.Contents (Elt F)) (t : Fin grid0.N) :
    pf.at 2 (Rect.unit (s := S16384) (k0_off1 (grid0.coords t)) S1.size (k0_off1_inb (grid0.coords t))) numel1_S1
      = (pf 2 : S16384.Idx → BitVec 32) (ix1 ⟨t.val, lt_of_lt_of_eq t.isLt N_0⟩) :=
  congrArg (pf 2 : S16384.Idx → BitVec 32) (unit_emb_first _ _ _ _ (off_point t))
theorem at3 (pf : pre0.Contents (Elt F)) (t : Fin grid0.N) :
    pf.at 3 (Rect.unit (s := S16384) (k0_off1 (grid0.coords t)) S1.size (k0_off1_inb (grid0.coords t))) numel1_S1
      = (pf 3 : S16384.Idx → BitVec 32) (ix1 ⟨t.val, lt_of_lt_of_eq t.isLt N_0⟩) :=
  congrArg (pf 3 : S16384.Idx → BitVec 32) (unit_emb_first _ _ _ _ (off_point t))
theorem at4 (pf : pre0.Contents (Elt F)) (t : Fin grid0.N) :
    pf.at 4 (Rect.unit (s := S16384) (k0_off1 (grid0.coords t)) S1.size (k0_off1_inb (grid0.coords t))) numel1_S1
      = (pf 4 : S16384.Idx → BitVec 32) (ix1 ⟨t.val, lt_of_lt_of_eq t.isLt N_0⟩) :=
  congrArg (pf 4 : S16384.Idx → BitVec 32) (unit_emb_first _ _ _ _ (off_point t))
theorem at5 (pf : pre0.Contents (Elt F)) (t : Fin grid0.N) :
    pf.at 5 (Rect.unit (s := S16384) (k0_off1 (grid0.coords t)) S1.size (k0_off1_inb (grid0.coords t))) numel1_S1
      = (pf 5 : S16384.Idx → BitVec 32) (ix1 ⟨t.val, lt_of_lt_of_eq t.isLt N_0⟩) :=
  congrArg (pf 5 : S16384.Idx → BitVec 32) (unit_emb_first _ _ _ _ (off_point t))

/-! ## The windows' block indices: the sample's word of the window's table, then 0, 0 -/

theorem index0 (a : (pcfg0 (F := F)).Adm) (t : Fin (cfg0 a).N) :
    ((cfg0 a).win 0).index t = ![((a.1 0 : S16384.Idx → BitVec 32) (ix1 ⟨t.val, lt_of_lt_of_eq t.isLt N_0⟩)).toNat, 0, 0] :=
  congrArg (fun x : BitVec 32 => (![x.toNat, 0, 0] : Fin 3 → Nat)) (at0 a.1 t)
theorem index1 (a : (pcfg0 (F := F)).Adm) (t : Fin (cfg0 a).N) :
    ((cfg0 a).win 1).index t = ![((a.1 0 : S16384.Idx → BitVec 32) (ix1 ⟨t.val, lt_of_lt_of_eq t.isLt N_0⟩)).toNat, 0, 0] :=
  congrArg (fun x : BitVec 32 => (![x.toNat, 0, 0] : Fin 3 → Nat)) (at0 a.1 t)
theorem index2 (a : (pcfg0 (F := F)).Adm) (t : Fin (cfg0 a).N) :
    ((cfg0 a).win 2).index t = ![((a.1 1 : S16384.Idx → BitVec 32) (ix1 ⟨t.val, lt_of_lt_of_eq t.isLt N_0⟩)).toNat, 0, 0] :=
  congrArg (fun x : BitVec 32 => (![x.toNat, 0, 0] : Fin 3 → Nat)) (at1 a.1 t)
theorem index3 (a : (pcfg0 (F := F)).Adm) (t : Fin (cfg0 a).N) :
    ((cfg0 a).win 3).index t = ![((a.1 1 : S16384.Idx → BitVec 32) (ix1 ⟨t.val, lt_of_lt_of_eq t.isLt N_0⟩)).toNat, 0, 0] :=
  congrArg (fun x : BitVec 32 => (![x.toNat, 0, 0] : Fin 3 → Nat)) (at1 a.1 t)
theorem index4 (a : (pcfg0 (F := F)).Adm) (t : Fin (cfg0 a).N) :
    ((cfg0 a).win 4).index t = ![((a.1 2 : S16384.Idx → BitVec 32) (ix1 ⟨t.val, lt_of_lt_of_eq t.isLt N_0⟩)).toNat, 0, 0] :=
  congrArg (fun x : BitVec 32 => (![x.toNat, 0, 0] : Fin 3 → Nat)) (at2 a.1 t)
theorem index5 (a : (pcfg0 (F := F)).Adm) (t : Fin (cfg0 a).N) :
    ((cfg0 a).win 5).index t = ![((a.1 2 : S16384.Idx → BitVec 32) (ix1 ⟨t.val, lt_of_lt_of_eq t.isLt N_0⟩)).toNat, 0, 0] :=
  congrArg (fun x : BitVec 32 => (![x.toNat, 0, 0] : Fin 3 → Nat)) (at2 a.1 t)
theorem index6 (a : (pcfg0 (F := F)).Adm) (t : Fin (cfg0 a).N) :
    ((cfg0 a).win 6).index t = ![((a.1 3 : S16384.Idx → BitVec 32) (ix1 ⟨t.val, lt_of_lt_of_eq t.isLt N_0⟩)).toNat, 0, 0] :=
  congrArg (fun x : BitVec 32 => (![x.toNat, 0, 0] : Fin 3 → Nat)) (at3 a.1 t)
theorem index7 (a : (pcfg0 (F := F)).Adm) (t : Fin (cfg0 a).N) :
    ((cfg0 a).win 7).index t = ![((a.1 3 : S16384.Idx → BitVec 32) (ix1 ⟨t.val, lt_of_lt_of_eq t.isLt N_0⟩)).toNat, 0, 0] :=
  congrArg (fun x : BitVec 32 => (![x.toNat, 0, 0] : Fin 3 → Nat)) (at3 a.1 t)
theorem index8 (a : (pcfg0 (F := F)).Adm) (t : Fin (cfg0 a).N) :
    ((cfg0 a).win 8).index t = ![((a.1 4 : S16384.Idx → BitVec 32) (ix1 ⟨t.val, lt_of_lt_of_eq t.isLt N_0⟩)).toNat, 0, 0] :=
  congrArg (fun x : BitVec 32 => (![x.toNat, 0, 0] : Fin 3 → Nat)) (at4 a.1 t)
theorem index9 (a : (pcfg0 (F := F)).Adm) (t : Fin (cfg0 a).N) :
    ((cfg0 a).win 9).index t = ![((a.1 4 : S16384.Idx → BitVec 32) (ix1 ⟨t.val, lt_of_lt_of_eq t.isLt N_0⟩)).toNat, 0, 0] :=
  congrArg (fun x : BitVec 32 => (![x.toNat, 0, 0] : Fin 3 → Nat)) (at4 a.1 t)
theorem index10 (a : (pcfg0 (F := F)).Adm) (t : Fin (cfg0 a).N) :
    ((cfg0 a).win 10).index t = ![((a.1 5 : S16384.Idx → BitVec 32) (ix1 ⟨t.val, lt_of_lt_of_eq t.isLt N_0⟩)).toNat, 0, 0] :=
  congrArg (fun x : BitVec 32 => (![x.toNat, 0, 0] : Fin 3 → Nat)) (at5 a.1 t)
theorem index11 (a : (pcfg0 (F := F)).Adm) (t : Fin (cfg0 a).N) :
    ((cfg0 a).win 11).index t = ![((a.1 5 : S16384.Idx → BitVec 32) (ix1 ⟨t.val, lt_of_lt_of_eq t.isLt N_0⟩)).toNat, 0, 0] :=
  congrArg (fun x : BitVec 32 => (![x.toNat, 0, 0] : Fin 3 → Nat)) (at5 a.1 t)

/-! ## The windows' blocks: at block index (n, 0, 0), row n of the window's array -/

theorem blk0_read (a : (pcfg0 (F := F)).Adm) (t : Fin (cfg0 a).N) (f : S500000x2x128.Idx → F .f32) (n : Nat)
    (hidx : ((cfg0 a).win 0).index t = ![n, 0, 0]) (hn : n < 500000) (p : Fin 1) (h : Fin 2) (l : Fin 128) :
    (((cfg0 a).win 0).blk t).view.read (Elt F) f (ix3 p h l) = f (ix3 (⟨n, hn⟩ : Fin 500000) h l) :=
  congrArg f (block_emb (((cfg0 a).win 0).index t) n hidx hn _ p h l)
theorem blk1_read (a : (pcfg0 (F := F)).Adm) (t : Fin (cfg0 a).N) (f : S500000x2x128.Idx → F .f32) (n : Nat)
    (hidx : ((cfg0 a).win 1).index t = ![n, 0, 0]) (hn : n < 500000) (p : Fin 1) (h : Fin 2) (l : Fin 128) :
    (((cfg0 a).win 1).blk t).view.read (Elt F) f (ix3 p h l) = f (ix3 (⟨n, hn⟩ : Fin 500000) h l) :=
  congrArg f (block_emb (((cfg0 a).win 1).index t) n hidx hn _ p h l)
theorem blk2_read (a : (pcfg0 (F := F)).Adm) (t : Fin (cfg0 a).N) (f : S500000x2x128.Idx → F .f32) (n : Nat)
    (hidx : ((cfg0 a).win 2).index t = ![n, 0, 0]) (hn : n < 500000) (p : Fin 1) (h : Fin 2) (l : Fin 128) :
    (((cfg0 a).win 2).blk t).view.read (Elt F) f (ix3 p h l) = f (ix3 (⟨n, hn⟩ : Fin 500000) h l) :=
  congrArg f (block_emb (((cfg0 a).win 2).index t) n hidx hn _ p h l)
theorem blk3_read (a : (pcfg0 (F := F)).Adm) (t : Fin (cfg0 a).N) (f : S500000x2x128.Idx → F .f32) (n : Nat)
    (hidx : ((cfg0 a).win 3).index t = ![n, 0, 0]) (hn : n < 500000) (p : Fin 1) (h : Fin 2) (l : Fin 128) :
    (((cfg0 a).win 3).blk t).view.read (Elt F) f (ix3 p h l) = f (ix3 (⟨n, hn⟩ : Fin 500000) h l) :=
  congrArg f (block_emb (((cfg0 a).win 3).index t) n hidx hn _ p h l)
theorem blk4_read (a : (pcfg0 (F := F)).Adm) (t : Fin (cfg0 a).N) (f : S1000x2x128.Idx → F .f32) (n : Nat)
    (hidx : ((cfg0 a).win 4).index t = ![n, 0, 0]) (hn : n < 1000) (p : Fin 1) (h : Fin 2) (l : Fin 128) :
    (((cfg0 a).win 4).blk t).view.read (Elt F) f (ix3 p h l) = f (ix3 (⟨n, hn⟩ : Fin 1000) h l) :=
  congrArg f (block_emb (((cfg0 a).win 4).index t) n hidx hn _ p h l)
theorem blk5_read (a : (pcfg0 (F := F)).Adm) (t : Fin (cfg0 a).N) (f : S1000x2x128.Idx → F .f32) (n : Nat)
    (hidx : ((cfg0 a).win 5).index t = ![n, 0, 0]) (hn : n < 1000) (p : Fin 1) (h : Fin 2) (l : Fin 128) :
    (((cfg0 a).win 5).blk t).view.read (Elt F) f (ix3 p h l) = f (ix3 (⟨n, hn⟩ : Fin 1000) h l) :=
  congrArg f (block_emb (((cfg0 a).win 5).index t) n hidx hn _ p h l)
theorem blk6_read (a : (pcfg0 (F := F)).Adm) (t : Fin (cfg0 a).N) (f : S500000x2x128.Idx → F .f32) (n : Nat)
    (hidx : ((cfg0 a).win 6).index t = ![n, 0, 0]) (hn : n < 500000) (p : Fin 1) (h : Fin 2) (l : Fin 128) :
    (((cfg0 a).win 6).blk t).view.read (Elt F) f (ix3 p h l) = f (ix3 (⟨n, hn⟩ : Fin 500000) h l) :=
  congrArg f (block_emb (((cfg0 a).win 6).index t) n hidx hn _ p h l)
theorem blk7_read (a : (pcfg0 (F := F)).Adm) (t : Fin (cfg0 a).N) (f : S500000x2x128.Idx → F .f32) (n : Nat)
    (hidx : ((cfg0 a).win 7).index t = ![n, 0, 0]) (hn : n < 500000) (p : Fin 1) (h : Fin 2) (l : Fin 128) :
    (((cfg0 a).win 7).blk t).view.read (Elt F) f (ix3 p h l) = f (ix3 (⟨n, hn⟩ : Fin 500000) h l) :=
  congrArg f (block_emb (((cfg0 a).win 7).index t) n hidx hn _ p h l)
theorem blk8_read (a : (pcfg0 (F := F)).Adm) (t : Fin (cfg0 a).N) (f : S500000x2x128.Idx → F .f32) (n : Nat)
    (hidx : ((cfg0 a).win 8).index t = ![n, 0, 0]) (hn : n < 500000) (p : Fin 1) (h : Fin 2) (l : Fin 128) :
    (((cfg0 a).win 8).blk t).view.read (Elt F) f (ix3 p h l) = f (ix3 (⟨n, hn⟩ : Fin 500000) h l) :=
  congrArg f (block_emb (((cfg0 a).win 8).index t) n hidx hn _ p h l)
theorem blk9_read (a : (pcfg0 (F := F)).Adm) (t : Fin (cfg0 a).N) (f : S500000x2x128.Idx → F .f32) (n : Nat)
    (hidx : ((cfg0 a).win 9).index t = ![n, 0, 0]) (hn : n < 500000) (p : Fin 1) (h : Fin 2) (l : Fin 128) :
    (((cfg0 a).win 9).blk t).view.read (Elt F) f (ix3 p h l) = f (ix3 (⟨n, hn⟩ : Fin 500000) h l) :=
  congrArg f (block_emb (((cfg0 a).win 9).index t) n hidx hn _ p h l)
theorem blk10_read (a : (pcfg0 (F := F)).Adm) (t : Fin (cfg0 a).N) (f : S1000x2x128.Idx → F .f32) (n : Nat)
    (hidx : ((cfg0 a).win 10).index t = ![n, 0, 0]) (hn : n < 1000) (p : Fin 1) (h : Fin 2) (l : Fin 128) :
    (((cfg0 a).win 10).blk t).view.read (Elt F) f (ix3 p h l) = f (ix3 (⟨n, hn⟩ : Fin 1000) h l) :=
  congrArg f (block_emb (((cfg0 a).win 10).index t) n hidx hn _ p h l)
theorem blk11_read (a : (pcfg0 (F := F)).Adm) (t : Fin (cfg0 a).N) (f : S1000x2x128.Idx → F .f32) (n : Nat)
    (hidx : ((cfg0 a).win 11).index t = ![n, 0, 0]) (hn : n < 1000) (p : Fin 1) (h : Fin 2) (l : Fin 128) :
    (((cfg0 a).win 11).blk t).view.read (Elt F) f (ix3 p h l) = f (ix3 (⟨n, hn⟩ : Fin 1000) h l) :=
  congrArg f (block_emb (((cfg0 a).win 11).index t) n hidx hn _ p h l)

/-! ## Each gathered window's block at a sample is the table row the sample's index word names

At the extended reals. The word is in range, so the row the specification reads at it (the last row past the end) is the
row itself. -/

section AtIdeal

variable (m : (ℓ : Loc nD τ sig) → Buf (Elt Ideal) ℓ)

/-- Window 0: the entity table's row at the positive triple's head. -/
theorem rowOf_iblk0 (hO : Ok m) (hR : TblRange m) (c : Dev nD) (t : Fin (cfgM m hO).N) :
    Cert.KernelIdeal.PayValue.rowOf (iblk m hO c 0 t)
      = Cert.Loss.rowAt (by norm_num) (m ((c : Thread nD τ).loc main_arg2))
          (Cert.Loss.word (m (((0 : Dev nD) : Thread nD τ).loc main_arg0)) ⟨t.val, lt_of_lt_of_eq t.isLt N_0⟩ 0) := by
  have hw : Cert.Loss.word (m (((0 : Dev nD) : Thread nD τ).loc main_arg0)) ⟨t.val, lt_of_lt_of_eq t.isLt N_0⟩ 0
      = (tbl m 0 (ix1 ⟨t.val, lt_of_lt_of_eq t.isLt N_0⟩)).toNat :=
    (congrArg BitVec.toNat (tbl0_ix1 m ⟨t.val, lt_of_lt_of_eq t.isLt N_0⟩)).symm
  rw [hw]
  exact rowOf_block _ _ (V m c main_v12) (V_v12_apply m c) _ _ (hR.hpos _)
    (fun p h l => blk0_read (adm m hO) t (V m c main_v12) _ (index0 (adm m hO) t) (hR.hpos _) p h l)

/-- Window 1: the entity projection table's row at the positive triple's head. -/
theorem rowOf_iblk1 (hO : Ok m) (hR : TblRange m) (c : Dev nD) (t : Fin (cfgM m hO).N) :
    Cert.KernelIdeal.PayValue.rowOf (iblk m hO c 1 t)
      = Cert.Loss.rowAt (by norm_num) (m ((c : Thread nD τ).loc main_arg3))
          (Cert.Loss.word (m (((0 : Dev nD) : Thread nD τ).loc main_arg0)) ⟨t.val, lt_of_lt_of_eq t.isLt N_0⟩ 0) := by
  have hw : Cert.Loss.word (m (((0 : Dev nD) : Thread nD τ).loc main_arg0)) ⟨t.val, lt_of_lt_of_eq t.isLt N_0⟩ 0
      = (tbl m 0 (ix1 ⟨t.val, lt_of_lt_of_eq t.isLt N_0⟩)).toNat :=
    (congrArg BitVec.toNat (tbl0_ix1 m ⟨t.val, lt_of_lt_of_eq t.isLt N_0⟩)).symm
  rw [hw]
  exact rowOf_block _ _ (V m c main_v13) (V_v13_apply m c) _ _ (hR.hpos _)
    (fun p h l => blk1_read (adm m hO) t (V m c main_v13) _ (index1 (adm m hO) t) (hR.hpos _) p h l)

/-- Window 2: the entity table's row at the positive triple's tail. -/
theorem rowOf_iblk2 (hO : Ok m) (hR : TblRange m) (c : Dev nD) (t : Fin (cfgM m hO).N) :
    Cert.KernelIdeal.PayValue.rowOf (iblk m hO c 2 t)
      = Cert.Loss.rowAt (by norm_num) (m ((c : Thread nD τ).loc main_arg2))
          (Cert.Loss.word (m (((0 : Dev nD) : Thread nD τ).loc main_arg0)) ⟨t.val, lt_of_lt_of_eq t.isLt N_0⟩ 2) := by
  have hw : Cert.Loss.word (m (((0 : Dev nD) : Thread nD τ).loc main_arg0)) ⟨t.val, lt_of_lt_of_eq t.isLt N_0⟩ 2
      = (tbl m 1 (ix1 ⟨t.val, lt_of_lt_of_eq t.isLt N_0⟩)).toNat :=
    (congrArg BitVec.toNat (tbl1_ix1 m ⟨t.val, lt_of_lt_of_eq t.isLt N_0⟩)).symm
  rw [hw]
  exact rowOf_block _ _ (V m c main_v12) (V_v12_apply m c) _ _ (hR.tpos _)
    (fun p h l => blk2_read (adm m hO) t (V m c main_v12) _ (index2 (adm m hO) t) (hR.tpos _) p h l)

/-- Window 3: the entity projection table's row at the positive triple's tail. -/
theorem rowOf_iblk3 (hO : Ok m) (hR : TblRange m) (c : Dev nD) (t : Fin (cfgM m hO).N) :
    Cert.KernelIdeal.PayValue.rowOf (iblk m hO c 3 t)
      = Cert.Loss.rowAt (by norm_num) (m ((c : Thread nD τ).loc main_arg3))
          (Cert.Loss.word (m (((0 : Dev nD) : Thread nD τ).loc main_arg0)) ⟨t.val, lt_of_lt_of_eq t.isLt N_0⟩ 2) := by
  have hw : Cert.Loss.word (m (((0 : Dev nD) : Thread nD τ).loc main_arg0)) ⟨t.val, lt_of_lt_of_eq t.isLt N_0⟩ 2
      = (tbl m 1 (ix1 ⟨t.val, lt_of_lt_of_eq t.isLt N_0⟩)).toNat :=
    (congrArg BitVec.toNat (tbl1_ix1 m ⟨t.val, lt_of_lt_of_eq t.isLt N_0⟩)).symm
  rw [hw]
  exact rowOf_block _ _ (V m c main_v13) (V_v13_apply m c) _ _ (hR.tpos _)
    (fun p h l => blk3_read (adm m hO) t (V m c main_v13) _ (index3 (adm m hO) t) (hR.tpos _) p h l)

/-- Window 4: the relation table's row at the positive triple's relation. -/
theorem rowOf_iblk4 (hO : Ok m) (hR : TblRange m) (c : Dev nD) (t : Fin (cfgM m hO).N) :
    Cert.KernelIdeal.PayValue.rowOf (iblk m hO c 4 t)
      = Cert.Loss.rowAt (by norm_num) (m ((c : Thread nD τ).loc main_arg4))
          (Cert.Loss.word (m (((0 : Dev nD) : Thread nD τ).loc main_arg0)) ⟨t.val, lt_of_lt_of_eq t.isLt N_0⟩ 1) := by
  have hw : Cert.Loss.word (m (((0 : Dev nD) : Thread nD τ).loc main_arg0)) ⟨t.val, lt_of_lt_of_eq t.isLt N_0⟩ 1
      = (tbl m 2 (ix1 ⟨t.val, lt_of_lt_of_eq t.isLt N_0⟩)).toNat :=
    (congrArg BitVec.toNat (tbl2_ix1 m ⟨t.val, lt_of_lt_of_eq t.isLt N_0⟩)).symm
  rw [hw]
  exact rowOf_block _ _ (V m c main_v14) (V_v14_apply m c) _ _ (hR.rpos _)
    (fun p h l => blk4_read (adm m hO) t (V m c main_v14) _ (index4 (adm m hO) t) (hR.rpos _) p h l)

/-- Window 5: the relation projection table's row at the positive triple's relation. -/
theorem rowOf_iblk5 (hO : Ok m) (hR : TblRange m) (c : Dev nD) (t : Fin (cfgM m hO).N) :
    Cert.KernelIdeal.PayValue.rowOf (iblk m hO c 5 t)
      = Cert.Loss.rowAt (by norm_num) (m ((c : Thread nD τ).loc main_arg5))
          (Cert.Loss.word (m (((0 : Dev nD) : Thread nD τ).loc main_arg0)) ⟨t.val, lt_of_lt_of_eq t.isLt N_0⟩ 1) := by
  have hw : Cert.Loss.word (m (((0 : Dev nD) : Thread nD τ).loc main_arg0)) ⟨t.val, lt_of_lt_of_eq t.isLt N_0⟩ 1
      = (tbl m 2 (ix1 ⟨t.val, lt_of_lt_of_eq t.isLt N_0⟩)).toNat :=
    (congrArg BitVec.toNat (tbl2_ix1 m ⟨t.val, lt_of_lt_of_eq t.isLt N_0⟩)).symm
  rw [hw]
  exact rowOf_block _ _ (V m c main_v15) (V_v15_apply m c) _ _ (hR.rpos _)
    (fun p h l => blk5_read (adm m hO) t (V m c main_v15) _ (index5 (adm m hO) t) (hR.rpos _) p h l)

/-- Window 6: the entity table's row at the negative triple's head. -/
theorem rowOf_iblk6 (hO : Ok m) (hR : TblRange m) (c : Dev nD) (t : Fin (cfgM m hO).N) :
    Cert.KernelIdeal.PayValue.rowOf (iblk m hO c 6 t)
      = Cert.Loss.rowAt (by norm_num) (m ((c : Thread nD τ).loc main_arg2))
          (Cert.Loss.word (m (((0 : Dev nD) : Thread nD τ).loc main_arg1)) ⟨t.val, lt_of_lt_of_eq t.isLt N_0⟩ 0) := by
  have hw : Cert.Loss.word (m (((0 : Dev nD) : Thread nD τ).loc main_arg1)) ⟨t.val, lt_of_lt_of_eq t.isLt N_0⟩ 0
      = (tbl m 3 (ix1 ⟨t.val, lt_of_lt_of_eq t.isLt N_0⟩)).toNat :=
    (congrArg BitVec.toNat (tbl3_ix1 m ⟨t.val, lt_of_lt_of_eq t.isLt N_0⟩)).symm
  rw [hw]
  exact rowOf_block _ _ (V m c main_v12) (V_v12_apply m c) _ _ (hR.hneg _)
    (fun p h l => blk6_read (adm m hO) t (V m c main_v12) _ (index6 (adm m hO) t) (hR.hneg _) p h l)

/-- Window 7: the entity projection table's row at the negative triple's head. -/
theorem rowOf_iblk7 (hO : Ok m) (hR : TblRange m) (c : Dev nD) (t : Fin (cfgM m hO).N) :
    Cert.KernelIdeal.PayValue.rowOf (iblk m hO c 7 t)
      = Cert.Loss.rowAt (by norm_num) (m ((c : Thread nD τ).loc main_arg3))
          (Cert.Loss.word (m (((0 : Dev nD) : Thread nD τ).loc main_arg1)) ⟨t.val, lt_of_lt_of_eq t.isLt N_0⟩ 0) := by
  have hw : Cert.Loss.word (m (((0 : Dev nD) : Thread nD τ).loc main_arg1)) ⟨t.val, lt_of_lt_of_eq t.isLt N_0⟩ 0
      = (tbl m 3 (ix1 ⟨t.val, lt_of_lt_of_eq t.isLt N_0⟩)).toNat :=
    (congrArg BitVec.toNat (tbl3_ix1 m ⟨t.val, lt_of_lt_of_eq t.isLt N_0⟩)).symm
  rw [hw]
  exact rowOf_block _ _ (V m c main_v13) (V_v13_apply m c) _ _ (hR.hneg _)
    (fun p h l => blk7_read (adm m hO) t (V m c main_v13) _ (index7 (adm m hO) t) (hR.hneg _) p h l)

/-- Window 8: the entity table's row at the negative triple's tail. -/
theorem rowOf_iblk8 (hO : Ok m) (hR : TblRange m) (c : Dev nD) (t : Fin (cfgM m hO).N) :
    Cert.KernelIdeal.PayValue.rowOf (iblk m hO c 8 t)
      = Cert.Loss.rowAt (by norm_num) (m ((c : Thread nD τ).loc main_arg2))
          (Cert.Loss.word (m (((0 : Dev nD) : Thread nD τ).loc main_arg1)) ⟨t.val, lt_of_lt_of_eq t.isLt N_0⟩ 2) := by
  have hw : Cert.Loss.word (m (((0 : Dev nD) : Thread nD τ).loc main_arg1)) ⟨t.val, lt_of_lt_of_eq t.isLt N_0⟩ 2
      = (tbl m 4 (ix1 ⟨t.val, lt_of_lt_of_eq t.isLt N_0⟩)).toNat :=
    (congrArg BitVec.toNat (tbl4_ix1 m ⟨t.val, lt_of_lt_of_eq t.isLt N_0⟩)).symm
  rw [hw]
  exact rowOf_block _ _ (V m c main_v12) (V_v12_apply m c) _ _ (hR.tneg _)
    (fun p h l => blk8_read (adm m hO) t (V m c main_v12) _ (index8 (adm m hO) t) (hR.tneg _) p h l)

/-- Window 9: the entity projection table's row at the negative triple's tail. -/
theorem rowOf_iblk9 (hO : Ok m) (hR : TblRange m) (c : Dev nD) (t : Fin (cfgM m hO).N) :
    Cert.KernelIdeal.PayValue.rowOf (iblk m hO c 9 t)
      = Cert.Loss.rowAt (by norm_num) (m ((c : Thread nD τ).loc main_arg3))
          (Cert.Loss.word (m (((0 : Dev nD) : Thread nD τ).loc main_arg1)) ⟨t.val, lt_of_lt_of_eq t.isLt N_0⟩ 2) := by
  have hw : Cert.Loss.word (m (((0 : Dev nD) : Thread nD τ).loc main_arg1)) ⟨t.val, lt_of_lt_of_eq t.isLt N_0⟩ 2
      = (tbl m 4 (ix1 ⟨t.val, lt_of_lt_of_eq t.isLt N_0⟩)).toNat :=
    (congrArg BitVec.toNat (tbl4_ix1 m ⟨t.val, lt_of_lt_of_eq t.isLt N_0⟩)).symm
  rw [hw]
  exact rowOf_block _ _ (V m c main_v13) (V_v13_apply m c) _ _ (hR.tneg _)
    (fun p h l => blk9_read (adm m hO) t (V m c main_v13) _ (index9 (adm m hO) t) (hR.tneg _) p h l)

/-- Window 10: the relation table's row at the negative triple's relation. -/
theorem rowOf_iblk10 (hO : Ok m) (hR : TblRange m) (c : Dev nD) (t : Fin (cfgM m hO).N) :
    Cert.KernelIdeal.PayValue.rowOf (iblk m hO c 10 t)
      = Cert.Loss.rowAt (by norm_num) (m ((c : Thread nD τ).loc main_arg4))
          (Cert.Loss.word (m (((0 : Dev nD) : Thread nD τ).loc main_arg1)) ⟨t.val, lt_of_lt_of_eq t.isLt N_0⟩ 1) := by
  have hw : Cert.Loss.word (m (((0 : Dev nD) : Thread nD τ).loc main_arg1)) ⟨t.val, lt_of_lt_of_eq t.isLt N_0⟩ 1
      = (tbl m 5 (ix1 ⟨t.val, lt_of_lt_of_eq t.isLt N_0⟩)).toNat :=
    (congrArg BitVec.toNat (tbl5_ix1 m ⟨t.val, lt_of_lt_of_eq t.isLt N_0⟩)).symm
  rw [hw]
  exact rowOf_block _ _ (V m c main_v14) (V_v14_apply m c) _ _ (hR.rneg _)
    (fun p h l => blk10_read (adm m hO) t (V m c main_v14) _ (index10 (adm m hO) t) (hR.rneg _) p h l)

/-- Window 11: the relation projection table's row at the negative triple's relation. -/
theorem rowOf_iblk11 (hO : Ok m) (hR : TblRange m) (c : Dev nD) (t : Fin (cfgM m hO).N) :
    Cert.KernelIdeal.PayValue.rowOf (iblk m hO c 11 t)
      = Cert.Loss.rowAt (by norm_num) (m ((c : Thread nD τ).loc main_arg5))
          (Cert.Loss.word (m (((0 : Dev nD) : Thread nD τ).loc main_arg1)) ⟨t.val, lt_of_lt_of_eq t.isLt N_0⟩ 1) := by
  have hw : Cert.Loss.word (m (((0 : Dev nD) : Thread nD τ).loc main_arg1)) ⟨t.val, lt_of_lt_of_eq t.isLt N_0⟩ 1
      = (tbl m 5 (ix1 ⟨t.val, lt_of_lt_of_eq t.isLt N_0⟩)).toNat :=
    (congrArg BitVec.toNat (tbl5_ix1 m ⟨t.val, lt_of_lt_of_eq t.isLt N_0⟩)).symm
  rw [hw]
  exact rowOf_block _ _ (V m c main_v15) (V_v15_apply m c) _ _ (hR.rneg _)
    (fun p h l => blk11_read (adm m hO) t (V m c main_v15) _ (index11 (adm m hO) t) (hR.rneg _) p h l)

end AtIdeal

end Cert.KernelIdeal.Hand

end
-- ==== Proof.KI.EndRead.lean ====
/-
  What the core's buffers hold at the end of @main, read at the result and at the six arguments.

  No host operation writes an argument and the region writes none, so each argument ends as launched. The result is the
  quotient by the batch size of the sum of the output array's two cells: each cell is sliced out of the array and
  reshaped to a scalar, the two scalars are added, and the sum is divided by the constant 16384.
-/
import proofs.«412037_j48361331753003_2_alg».proof.Proof.KI.EndVal
import proofs.«412037_j48361331753003_2_alg».proof.Proof.Spec
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.ValueIdx (ix1 ix2 ix3 eq_ix3)

variable {F : FTy → Type} [FloatOps F]

variable (m : (ℓ : Loc nD τ sig) → Buf (Elt F) ℓ)

/-! ## The arguments -/

/-- The buffers the sixteen operations before the region write, -/
abbrev written0 : List (Ref sig .tc) :=
  [main_v0, main_v1, main_v2, main_v3, main_v4, main_v5, main_v6, main_v7, main_v8, main_v9, main_v10, main_v11, main_v12,
    main_v13, main_v14, main_v15]
/-- and those the seven after it write. -/
abbrev written1 : List (Ref sig .tc) := [main_v17, main_v18, main_v19, main_v20, main_v21, main_cst, main_v22]

/-- A reference of a list is, as a device buffer, in the list's set of device buffers. -/
theorem single_sub {W : List (Ref sig .tc)} {y : Ref sig .tc} (hy : y ∈ W) :
    ({Proc.devRef .tc y} : Finset (DevRef τ sig)) ⊆ (W.map (Proc.devRef (τ := τ) .tc)).toFinset :=
  Finset.singleton_subset_iff.mpr (List.mem_toFinset.mpr (List.mem_map_of_mem hy))

/-- Each operation before the region writes one buffer of the first list, -/
theorem writes0_sub :
    (hostOps0 (F := F)).Forall fun op => op.writes ⊆ (written0.map (Proc.devRef (τ := τ) .tc)).toFinset :=
  ⟨single_sub (by decide), single_sub (by decide), single_sub (by decide), single_sub (by decide), single_sub (by decide),
    single_sub (by decide), single_sub (by decide), single_sub (by decide), single_sub (by decide), single_sub (by decide),
    single_sub (by decide), single_sub (by decide), single_sub (by decide), single_sub (by decide), single_sub (by decide),
    single_sub (by decide)⟩
/-- and each operation after it one of the second. -/
theorem writes1_sub :
    (hostOps1 (F := F)).Forall fun op => op.writes ⊆ (written1.map (Proc.devRef (τ := τ) .tc)).toFinset :=
  ⟨single_sub (by decide), single_sub (by decide), single_sub (by decide), single_sub (by decide), single_sub (by decide),
    single_sub (by decide), single_sub (by decide)⟩

/-- A buffer that neither stretch of operations writes, and that is not the region's output array, ends as launched. -/
theorem endVal_of_not_written (hO : Ok m) (c : Dev nD) (b : Ref sig .tc) (h0 : b ∉ written0) (h1 : b ∉ written1)
    (hb : b ≠ main_v16) : endVal m hO c b = m ((c : Thread nD τ).loc b) :=
  (StableHlo.after_of_writes_sub (r := b) hostOps1 (exitVal m hO c) writes1_sub h1).trans
    ((exitVal_of_ne m hO c b hb).trans
      (StableHlo.after_of_writes_sub (r := b) hostOps0 (V₀ m c) writes0_sub h0))

theorem endVal_arg0 (hO : Ok m) (c : Dev nD) : endVal m hO c main_arg0 = m ((c : Thread nD τ).loc main_arg0) :=
  endVal_of_not_written m hO c main_arg0 (by decide) (by decide) (by decide)
theorem endVal_arg1 (hO : Ok m) (c : Dev nD) : endVal m hO c main_arg1 = m ((c : Thread nD τ).loc main_arg1) :=
  endVal_of_not_written m hO c main_arg1 (by decide) (by decide) (by decide)
theorem endVal_arg2 (hO : Ok m) (c : Dev nD) : endVal m hO c main_arg2 = m ((c : Thread nD τ).loc main_arg2) :=
  endVal_of_not_written m hO c main_arg2 (by decide) (by decide) (by decide)
theorem endVal_arg3 (hO : Ok m) (c : Dev nD) : endVal m hO c main_arg3 = m ((c : Thread nD τ).loc main_arg3) :=
  endVal_of_not_written m hO c main_arg3 (by decide) (by decide) (by decide)
theorem endVal_arg4 (hO : Ok m) (c : Dev nD) : endVal m hO c main_arg4 = m ((c : Thread nD τ).loc main_arg4) :=
  endVal_of_not_written m hO c main_arg4 (by decide) (by decide) (by decide)
theorem endVal_arg5 (hO : Ok m) (c : Dev nD) : endVal m hO c main_arg5 = m ((c : Thread nD τ).loc main_arg5) :=
  endVal_of_not_written m hO c main_arg5 (by decide) (by decide) (by decide)

/-! ## The buffers that bypass the region -/

/-- The result's buffer and the six arguments are unscoped, no window's array and no prefetched table. -/
theorem mem_rest : main_v22 ∈ Pipeline.restRefsP sig pre0 spec0 ∧ main_arg0 ∈ Pipeline.restRefsP sig pre0 spec0
    ∧ main_arg1 ∈ Pipeline.restRefsP sig pre0 spec0 ∧ main_arg2 ∈ Pipeline.restRefsP sig pre0 spec0
    ∧ main_arg3 ∈ Pipeline.restRefsP sig pre0 spec0 ∧ main_arg4 ∈ Pipeline.restRefsP sig pre0 spec0
    ∧ main_arg5 ∈ Pipeline.restRefsP sig pre0 spec0 :=
  ⟨Finset.mem_sdiff.mpr ⟨Pipeline.mem_restRefs_of _ rfl (by decide), by decide⟩,
    Finset.mem_sdiff.mpr ⟨Pipeline.mem_restRefs_of _ rfl (by decide), by decide⟩,
    Finset.mem_sdiff.mpr ⟨Pipeline.mem_restRefs_of _ rfl (by decide), by decide⟩,
    Finset.mem_sdiff.mpr ⟨Pipeline.mem_restRefs_of _ rfl (by decide), by decide⟩,
    Finset.mem_sdiff.mpr ⟨Pipeline.mem_restRefs_of _ rfl (by decide), by decide⟩,
    Finset.mem_sdiff.mpr ⟨Pipeline.mem_restRefs_of _ rfl (by decide), by decide⟩,
    Finset.mem_sdiff.mpr ⟨Pipeline.mem_restRefs_of _ rfl (by decide), by decide⟩⟩

/-! ## The result -/

/-- The result at the end: the two cells of the output array, each sliced out and reshaped to a scalar, added, and the
    sum divided by the constant 16384. -/
theorem endVal_result (hO : Ok m) (c : Dev nD) :
    (endVal m hO c main_v22 : S_.Idx → F .f32)
      = Host.divf (addf (shapeCast S_ (extractStridedSlice S1x1x1 ![0, 0, 0] (outArr m hO c : S2x1x1.Idx → F .f32) slices_S2x1x1_S1x1x1_0_0_0) shapeCasts_S1x1x1_S_)
          (shapeCast S_ (extractStridedSlice S1x1x1 ![1, 0, 0] (outArr m hO c : S2x1x1.Idx → F .f32) slices_S2x1x1_S1x1x1_1_0_0) shapeCasts_S1x1x1_S_))
        (constant S_ .f32 0x46800000#32) := by
  show StableHlo.after hostOps1 (exitVal m hO c) (Proc.devRef .tc main_v22) = _
  dsimp only [hostOps1]
  after_results
  rw [exitVal_out]
  generalize outArr m hO c = A
  rfl

/-! ## The result on the extended reals -/

/-- The scalar shape and the one-cell shape have one index each: any two of them are at the same place in row-major
    order. -/
theorem rowMajor_cell (k : S1x1x1.Idx) (j : S_.Idx) : (S1x1x1.rowMajor k).val = (S_.rowMajor j).val := by
  have h1 : (S1x1x1.rowMajor k).val < 1 := (S1x1x1.rowMajor k).isLt
  have h2 : (S_.rowMajor j).val < 1 := (S_.rowMajor j).isLt
  omega

/-- Cell 0 of a two-cell array, sliced out and reshaped to a scalar, is the array at cell 0, -/
theorem cell0_apply {α : Type} (A : S2x1x1.Idx → α) (j : S_.Idx) :
    shapeCast S_ (extractStridedSlice S1x1x1 ![0, 0, 0] A slices_S2x1x1_S1x1x1_0_0_0) shapeCasts_S1x1x1_S_ j
      = A (ix3 (0 : Fin 2) (0 : Fin 1) (0 : Fin 1)) := by
  rw [shapeCast_apply _ shapeCasts_S1x1x1_S_ j (ix3 (0 : Fin 1) (0 : Fin 1) (0 : Fin 1)) (rowMajor_cell _ j)]
  exact extractStridedSlice_apply _ A _ _ _ (fun a => by match a with | ⟨0, _⟩ => rfl | ⟨1, _⟩ => rfl | ⟨2, _⟩ => rfl)
/-- and cell 1 likewise the array at cell 1. -/
theorem cell1_apply {α : Type} (A : S2x1x1.Idx → α) (j : S_.Idx) :
    shapeCast S_ (extractStridedSlice S1x1x1 ![1, 0, 0] A slices_S2x1x1_S1x1x1_1_0_0) shapeCasts_S1x1x1_S_ j
      = A (ix3 (1 : Fin 2) (0 : Fin 1) (0 : Fin 1)) := by
  rw [shapeCast_apply _ shapeCasts_S1x1x1_S_ j (ix3 (0 : Fin 1) (0 : Fin 1) (0 : Fin 1)) (rowMajor_cell _ j)]
  exact extractStridedSlice_apply _ A _ _ _ (fun a => by match a with | ⟨0, _⟩ => rfl | ⟨1, _⟩ => rfl | ⟨2, _⟩ => rfl)

/-- On the extended reals a host quotient of a sum of two scalars by a constant scalar is the quotient of the sum. -/
theorem div_add_const_apply (x y : FVec Ideal S_ .f32) (w : BitVec 32) (j : S_.Idx) :
    Host.divf (addf x y) (constant S_ .f32 w) j = Ideal.div (x j + y j) (Ideal.ofBits .f32 w) := rfl

/-- On the extended reals the result is the sum of the output array's two cells divided by the batch size. -/
theorem endVal_result_ideal (m : (ℓ : Loc nD τ sig) → Buf (Elt Ideal) ℓ) (hO : Ok m) (c : Dev nD) (j : S_.Idx) :
    (endVal m hO c main_v22 : S_.Idx → EReal) j
      = Ideal.div (HAdd.hAdd (α := EReal) (β := EReal) (γ := EReal)
          ((outArr m hO c : S2x1x1.Idx → EReal) (ix3 (0 : Fin 2) (0 : Fin 1) (0 : Fin 1)))
          ((outArr m hO c : S2x1x1.Idx → EReal) (ix3 (1 : Fin 2) (0 : Fin 1) (0 : Fin 1)))) Cert.Loss.batch := by
  rw [endVal_result]
  generalize outArr m hO c = A
  rw [div_add_const_apply, cell0_apply, cell1_apply]
  unfold Cert.Loss.batch
  exact Eq.refl _

end Cert.KernelIdeal.Hand

end
-- ==== Proof.FoldSum.lean ====
/-
  The batch sum as the kernel accumulates it: one cell per half of the batch.

  Sample n (0 ≤ n < 16384) adds its value v n to the cell of half n / 8192; the first sample of a half
  (n % 8192 = 0) finds the cell reset to zero. Writing cell n for what the cell of sample n's half holds after
  sample n, inside half h the cell after its k-th sample is the partial sum
      cell (8192·h + k) = Σ_{j ≤ k} v (8192·h + j)
  (induction on k: the reset gives 0 + v, each later sample adds its value). At the last sample of each half the
  two cells hold the sums over 0 … 8191 and over 8192 … 16383, and these two add up to the sum over all 16384
  samples. Addition on the extended reals is a commutative monoid and 0 + x = x; nothing is assumed finite and
  nothing is subtracted.
-/
import Mathlib.Data.EReal.Basic
import Mathlib.Algebra.BigOperators.Group.Finset.Basic
import Mathlib.Algebra.BigOperators.Fin

open scoped BigOperators

namespace Cert.Loss.Fold

/-- Inside half `h`, after its sample number `k` the cell holds the sum of the half's first `k + 1` values. -/
theorem half_prefix (v cell : ℕ → EReal)
    (hreset : ∀ n, n < 16384 → n % 8192 = 0 → cell n = 0 + v n)
    (hadd : ∀ n, n < 16384 → n % 8192 ≠ 0 → cell n = cell (n - 1) + v n) (h : ℕ) (hh : h < 2) :
    ∀ k, k < 8192 → cell (8192 * h + k) = ∑ j ∈ Finset.range (k + 1), v (8192 * h + j)
  | 0, _ => by
    rw [hreset (8192 * h + 0) (by omega) (by omega), zero_add, Finset.sum_range_one]
  | k + 1, hk => by
    rw [hadd (8192 * h + (k + 1)) (by omega) (by omega), show 8192 * h + (k + 1) - 1 = 8192 * h + k by omega,
      half_prefix v cell hreset hadd h hh k (by omega), Finset.sum_range_succ _ (k + 1)]

/-- The two cells, read after the last sample of each half, add up to the sum over the whole batch. -/
theorem halves_sum (v cell : ℕ → EReal)
    (hreset : ∀ n, n < 16384 → n % 8192 = 0 → cell n = 0 + v n)
    (hadd : ∀ n, n < 16384 → n % 8192 ≠ 0 → cell n = cell (n - 1) + v n) :
    cell 8191 + cell 16383 = ∑ i : Fin 16384, v i.val := by
  have h0 : cell 8191 = ∑ j ∈ Finset.range 8192, v (8192 * 0 + j) :=
    half_prefix v cell hreset hadd 0 (by omega) 8191 (by omega)
  have h1 : cell 16383 = ∑ j ∈ Finset.range 8192, v (8192 * 1 + j) :=
    half_prefix v cell hreset hadd 1 (by omega) 8191 (by omega)
  have hs : ∑ i : Fin 16384, v i.val = ∑ j ∈ Finset.range (8192 + 8192), v j :=
    Fin.sum_univ_eq_sum_range (fun i => v i) 16384
  rw [h0, h1, hs, Finset.sum_range_add]
  simp only [Nat.mul_zero, Nat.zero_add, Nat.mul_one]

end Cert.Loss.Fold
-- ==== Proof.KI.KernelValue.lean ====
/-
  The kernel's result at the end of @main is the specification's loss.

  One sample's step: the body's payloads, run on the twelve blocks of sample `t`, add to the cell the hinge of the two
  scores of the rows those blocks hold; the blocks are the rows of the four tables that the sample's positive and
  negative triples name (heads in column 0 of a triple array, relations in column 1, tails in column 2), so the step
  adds the specification's loss of sample `t` (`cell_step`).

  The running cell: at the first sample of a half of the batch the cell is reset to zero first, at every later
  sample it holds what the sample before left. Hence, with v n the loss of sample n, the cell after sample n satisfies
  cell n = 0 + v n where n % 8192 = 0 and cell n = cell (n − 1) + v n elsewhere, and the cells after the last samples
  of the two halves add up to the sum of all 16384 losses. After the region the output array's two cells are exactly
  those two; the operations after the region add them and divide by the batch size: the specification's mean
  (`endVal_total`). Sums are on the extended reals; nothing is assumed finite.
-/
import proofs.«412037_j48361331753003_2_alg».proof.Proof.KI.OutValue
import proofs.«412037_j48361331753003_2_alg».proof.Proof.KI.BlockRows
import proofs.«412037_j48361331753003_2_alg».proof.Proof.KI.EndRead
import proofs.«412037_j48361331753003_2_alg».proof.Proof.KI.PayValue
import proofs.«412037_j48361331753003_2_alg».proof.Proof.FoldSum
import proofs.«412037_j48361331753003_2_alg».proof.Proof.Spec
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx (ix1 ix2 ix3 eq_ix3)

variable (m : (ℓ : Loc nD τ sig) → Buf (Elt Ideal) ℓ)

/-! ## One sample's step of the cell -/

/-- The cell after sample `t`, from any cell before it: the sample's loss added. The twelve blocks are the rows the
    sample's two triples name, and the body's payloads on rows are the specification's hinge of the two scores. -/
theorem cell_step (hO : Ok m) (hR : TblRange m) (c : Dev nD) (t : Fin (cfgM m hO).N) (acc : Vec Ideal S1x1x1 .f32)
    (y : S1x1x1.Idx) :
    cellAfter (iblk m hO c 0 t) (iblk m hO c 1 t) (iblk m hO c 2 t) (iblk m hO c 3 t) (iblk m hO c 4 t)
        (iblk m hO c 5 t) (iblk m hO c 6 t) (iblk m hO c 7 t) (iblk m hO c 8 t) (iblk m hO c 9 t)
        (iblk m hO c 10 t) (iblk m hO c 11 t) acc y
      = acc y + Cert.Loss.sampleLoss (m (((0 : Dev nD) : Thread nD τ).loc main_arg0))
          (m (((0 : Dev nD) : Thread nD τ).loc main_arg1)) (m ((c : Thread nD τ).loc main_arg2))
          (m ((c : Thread nD τ).loc main_arg3)) (m ((c : Thread nD τ).loc main_arg4))
          (m ((c : Thread nD τ).loc main_arg5)) ⟨t.val, lt_of_lt_of_eq t.isLt N_0⟩ := by
  refine (Cert.KernelIdeal.PayValue.cell_eq (iblk m hO c 0 t) (iblk m hO c 1 t) (iblk m hO c 2 t) (iblk m hO c 3 t)
    (iblk m hO c 4 t) (iblk m hO c 5 t) (iblk m hO c 6 t) (iblk m hO c 7 t) (iblk m hO c 8 t) (iblk m hO c 9 t)
    (iblk m hO c 10 t) (iblk m hO c 11 t) acc y).trans ?_
  rw [rowOf_iblk0 m hO hR c t, rowOf_iblk1 m hO hR c t, rowOf_iblk2 m hO hR c t, rowOf_iblk3 m hO hR c t,
    rowOf_iblk4 m hO hR c t, rowOf_iblk5 m hO hR c t, rowOf_iblk6 m hO hR c t, rowOf_iblk7 m hO hR c t,
    rowOf_iblk8 m hO hR c t, rowOf_iblk9 m hO hR c t, rowOf_iblk10 m hO hR c t, rowOf_iblk11 m hO hR c t]
  unfold Cert.Loss.sampleLoss Cert.Loss.tripleScore
  rfl

/-! ## The two halves' cells are the batch's sum -/

/-- Sample `n`'s loss, as a function of the sample number (zero past the batch). -/
def sampleV (n : ℕ) : EReal :=
  if h : n < 16384 then
    Cert.Loss.sampleLoss (m (((0 : Dev nD) : Thread nD τ).loc main_arg0)) (m (((0 : Dev nD) : Thread nD τ).loc main_arg1))
      (m (((0 : Dev nD) : Thread nD τ).loc main_arg2)) (m (((0 : Dev nD) : Thread nD τ).loc main_arg3))
      (m (((0 : Dev nD) : Thread nD τ).loc main_arg4)) (m (((0 : Dev nD) : Thread nD τ).loc main_arg5)) ⟨n, h⟩
  else 0

theorem sampleV_of_lt (n : ℕ) (h : n < 16384) :
    sampleV m n = Cert.Loss.sampleLoss (m (((0 : Dev nD) : Thread nD τ).loc main_arg0))
      (m (((0 : Dev nD) : Thread nD τ).loc main_arg1)) (m (((0 : Dev nD) : Thread nD τ).loc main_arg2))
      (m (((0 : Dev nD) : Thread nD τ).loc main_arg3)) (m (((0 : Dev nD) : Thread nD τ).loc main_arg4))
      (m (((0 : Dev nD) : Thread nD τ).loc main_arg5)) ⟨n, h⟩ := by
  unfold sampleV; rw [dif_pos h]

/-- The running cell after sample `n`, read at its one index, as a function of the sample number. -/
def cellV (hO : Ok m) (n : ℕ) : EReal :=
  if h : n < 16384 then
    cellAt m hO (0 : Dev nD) n (lt_of_lt_of_eq h (show 16384 = (cfgM m hO).N from N_0.symm))
      (ix3 (0 : Fin 1) (0 : Fin 1) (0 : Fin 1))
  else 0

theorem cellV_of_lt (hO : Ok m) (n : ℕ) (h : n < 16384) :
    cellV m hO n = cellAt m hO (0 : Dev nD) n (lt_of_lt_of_eq h (show 16384 = (cfgM m hO).N from N_0.symm))
      (ix3 (0 : Fin 1) (0 : Fin 1) (0 : Fin 1)) := by
  unfold cellV; rw [dif_pos h]

/-- The first sample of a half finds the cell reset to zero and adds its loss; -/
theorem cellV_reset (hO : Ok m) (hR : TblRange m) (n : ℕ) (hn : n < 16384) (h0 : n % 8192 = 0) :
    cellV m hO n = 0 + sampleV m n := by
  rw [cellV_of_lt m hO n hn, sampleV_of_lt m n hn]
  have hN : n < (cfgM m hO).N := lt_of_lt_of_eq hn (show 16384 = (cfgM m hO).N from N_0.symm)
  refine (congrFun (cellAt_reset m hO (0 : Dev nD) ⟨n, hN⟩ h0) (ix3 (0 : Fin 1) (0 : Fin 1) (0 : Fin 1))).trans ?_
  refine (cell_step m hO hR (0 : Dev nD) ⟨n, hN⟩ (k0_pay2 (F := Ideal)) (ix3 (0 : Fin 1) (0 : Fin 1) (0 : Fin 1))).trans ?_
  rw [Cert.KernelIdeal.PayValue.reset_eq]

/-- every later sample adds its loss to what the sample before left. -/
theorem cellV_add (hO : Ok m) (hR : TblRange m) (n : ℕ) (hn : n < 16384) (h0 : n % 8192 ≠ 0) :
    cellV m hO n = cellV m hO (n - 1) + sampleV m n := by
  rw [cellV_of_lt m hO n hn, cellV_of_lt m hO (n - 1) (by omega), sampleV_of_lt m n hn]
  have hN : n < (cfgM m hO).N := lt_of_lt_of_eq hn (show 16384 = (cfgM m hO).N from N_0.symm)
  refine (congrFun (cellAt_add m hO (0 : Dev nD) ⟨n, hN⟩ h0) (ix3 (0 : Fin 1) (0 : Fin 1) (0 : Fin 1))).trans ?_
  exact cell_step m hO hR (0 : Dev nD) ⟨n, hN⟩ _ (ix3 (0 : Fin 1) (0 : Fin 1) (0 : Fin 1))

/-! ## The result -/

/-- The kernel's result at the end is the specification's loss: the two halves' cells, each the sum of its half's
    sample losses, added and divided by the batch size. -/
theorem endVal_total (hO : Ok m) (hR : TblRange m) (c : Dev nD) :
    (endVal m hO c main_v22 : S_.Idx → EReal)
      = fun _ => Cert.Loss.total (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  obtain rfl : c = 0 := Subsingleton.elim _ _
  funext j
  refine (endVal_result_ideal m hO (0 : Dev nD) j).trans ?_
  rw [outArr_apply m hO (0 : Dev nD) (0 : Fin 2), outArr_apply m hO (0 : Dev nD) (1 : Fin 2)]
  unfold Cert.Loss.total
  refine congrArg (Ideal.div · Cert.Loss.batch) ?_
  have hs := Cert.Loss.Fold.halves_sum (sampleV m) (cellV m hO) (cellV_reset m hO hR) (cellV_add m hO hR)
  rw [cellV_of_lt m hO 8191 (by omega), cellV_of_lt m hO 16383 (by omega)] at hs
  refine (congr (congrArg HAdd.hAdd (cell_congr (adm m hO) (cellAt m hO (0 : Dev nD)) rfl _ _ _ _))
    (cell_congr (adm m hO) (cellAt m hO (0 : Dev nD)) rfl _ _ _ _)).trans (hs.trans ?_)
  exact Finset.sum_congr rfl fun i _ => sampleV_of_lt m i.val i.isLt

end Cert.KernelIdeal.Hand

end
-- ==== Proof.LibScatterRead.lean ====
/-
  Host scatters and gathers read at an index, at the extended reals: what `x.at[idx].add(u)` and `x[idx]` over
  rows hold at one element, as a sum over the updates that land there / as the operand's row at the clamped index.
  General lemmas over any sizes; they import no program.
-/
import Idealize.ShloMosaic.Lib.ValueIdx
import Idealize.ShloMosaic.PureOps.Ideal.Laws

noncomputable section

open scoped BigOperators

namespace Idealize.ShloMosaic.ScatterRead

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) :=
  (Equiv.sum_comp (idxEquiv1 (n := n)).symm f).symm

/-- An update lands at operand index `i` exactly when, on every operand axis, its window's start plus its window
    coordinate is `i`'s coordinate there (the start read signed: a sum that is negative or past the axis's end is no
    coordinate of any `i`, and the update is dropped). -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · next h =>
    rw [Option.some.injEq]
    constructor
    · rintro rfl a
      have := h a
      show d.start j idx a + (d.window j a : ℤ) = ((d.start j idx a + (d.window j a : ℤ)).toNat : ℤ)
      omega
    · intro hi
      funext a
      apply Fin.ext
      show (d.start j idx a + (d.window j a : ℤ)).toNat = (i a).val
      have := hi a
      omega
  · next h =>
    constructor
    · intro h'
      cases h'
    · intro hi
      exfalso
      apply h
      intro a
      have := hi a
      have := (i a).isLt
      omega

/-- The dimension numbers of a row scatter: the updates' axis 1 is the window, going to the operand's axis 1; the
    operand's axis 0 is inserted and is the one the scatter index names; the index vector is the column's axis 1. -/
abbrev rowsDims (N M D : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Where update `(v, k')` of a row scatter lands: at `(g, k)` exactly when `v`'s index, read signed, is `g` and
    `k' = k` (the window starts at row = the index, column 0, and the window coordinate is `k'` on the column axis). -/
theorem rows_resultIdx?_iff {N M D w : Nat} (wf : ScatterDims.WF ⟨2, ![N, D]⟩ ⟨2, ![M, 1]⟩ ⟨2, ![M, D]⟩ [1] [0] [0] 1)
    (idx : IVec ⟨2, ![M, 1]⟩ w) (v : Fin M) (k' : Fin D) (g : Fin N) (k : Fin D) :
    (rowsDims N M D wf).resultIdx? (ix2 v k') idx = some (ix2 g k)
      ↔ (idx (ix2 v (0 : Fin 1))).toInt = (g.val : ℤ) ∧ k' = k := by
  rw [resultIdx?_eq_some_iff]
  -- the scatter index of update `(v, k')` is read at `(v, 0)`
  have hsi : (rowsDims N M D wf).siIdx (ix2 v k') ⟨0, Nat.one_pos⟩ = ix2 v (0 : Fin 1) := by
    funext b
    match b with
    | ⟨0, _⟩ => rfl
    | ⟨1, _⟩ => rfl
  -- starts and window coordinates on the two operand axes
  have e0 : (rowsDims N M D wf).start (ix2 v k') idx 0 = (idx (ix2 v (0 : Fin 1))).toInt := by rw [← hsi]; rfl
  have e1 : (rowsDims N M D wf).start (ix2 v k') idx 1 = 0 := rfl
  have w0 : (rowsDims N M D wf).window (ix2 v k') 0 = 0 := rfl
  have w1 : (rowsDims N M D wf).window (ix2 v k') 1 = k'.val := rfl
  constructor
  · intro h
    have h0 : (rowsDims N M D wf).start (ix2 v k') idx 0 + ((rowsDims N M D wf).window (ix2 v k') 0 : ℤ) = (g.val : ℤ) := h 0
    have h1 : (rowsDims N M D wf).start (ix2 v k') idx 1 + ((rowsDims N M D wf).window (ix2 v k') 1 : ℤ) = (k.val : ℤ) := h 1
    rw [e0, w0] at h0
    rw [e1, w1] at h1
    refine ⟨by simpa using h0, Fin.ext ?_⟩
    omega
  · rintro ⟨hg, rfl⟩
    have t0 : (rowsDims N M D wf).start (ix2 v k') idx 0 + ((rowsDims N M D wf).window (ix2 v k') 0 : ℤ) = (g.val : ℤ) := by
      rw [e0, w0, hg]; simp
    have t1 : (rowsDims N M D wf).start (ix2 v k') idx 1 + ((rowsDims N M D wf).window (ix2 v k') 1 : ℤ) = (k'.val : ℤ) := by
      rw [e1, w1]; simp
    intro a
    match a with
    | ⟨0, _⟩ => exact t0
    | ⟨1, _⟩ => exact t1

/-- A row scatter-add (`x.at[idx].add(u)` over the first axis of a matrix, the indices an [M × 1] column): element
    `(g, k)` of the result is the operand's plus the sum of the updates' column-`k` entries of the rows `v` whose
    index, read signed, is `g`; a row whose index is outside `[0, N)` lands nowhere. -/
theorem scatterAdd_rows_apply {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0])
    (hiv : d.indexVectorDim = 1)
    (x : (⟨2, ![N, D]⟩ : Shape).Idx → EReal) (idx : IVec ⟨2, ![M, 1]⟩ w) (upd : (⟨2, ![M, D]⟩ : Shape).Idx → EReal)
    (g : Fin N) (k : Fin D) :
    Ideal.hostScatterAdd d x idx upd (ix2 g k)
      = x (ix2 g k) + ∑ v ∈ Finset.univ.filter (fun v : Fin M => (idx (ix2 v (0 : Fin 1))).toInt = (g.val : ℤ)), upd (ix2 v k) := by
  obtain ⟨uw, iw, sd, iv, wf⟩ := d
  dsimp only at huw hiw hsd hiv
  subst huw hiw hsd hiv
  show x (ix2 g k) + ∑ j ∈ Finset.univ.filter (fun j => (rowsDims N M D wf).resultIdx? j idx = some (ix2 g k)), upd j = _
  congr 1
  -- the sum over the updates `(v, k')` that land at `(g, k)`, as a double sum over rows and columns
  rw [Finset.sum_filter, Finset.sum_filter, sum_idx2]
  refine Finset.sum_congr rfl fun v _ => ?_
  simp only [rows_resultIdx?_iff]
  by_cases hv : (idx (ix2 v (0 : Fin 1))).toInt = (g.val : ℤ)
  · simp [hv]
  · simp [hv]

/-- The dimension numbers of a flat scatter: the updates have no window axis; the operand's one axis is inserted and
    is the one the scatter index names; the index vector is the column's axis 1. -/
abbrev flatDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Where update `v` of a flat scatter lands: at `g` exactly when `v`'s index, read signed, is `g` (the window is
    the one element at the index). -/
theorem flat_resultIdx?_iff {N M w : Nat} (wf : ScatterDims.WF ⟨1, ![N]⟩ ⟨2, ![M, 1]⟩ ⟨1, ![M]⟩ [] [0] [0] 1)
    (idx : IVec ⟨2, ![M, 1]⟩ w) (v : Fin M) (g : Fin N) :
    (flatDims N M wf).resultIdx? (ix1 v) idx = some (ix1 g) ↔ (idx (ix2 v (0 : Fin 1))).toInt = (g.val : ℤ) := by
  rw [resultIdx?_eq_some_iff]
  -- the scatter index of update `v` is read at `(v, 0)`
  have hsi : (flatDims N M wf).siIdx (ix1 v) ⟨0, Nat.one_pos⟩ = ix2 v (0 : Fin 1) := by
    funext b
    match b with
    | ⟨0, _⟩ => rfl
    | ⟨1, _⟩ => rfl
  have e0 : (flatDims N M wf).start (ix1 v) idx 0 = (idx (ix2 v (0 : Fin 1))).toInt := by rw [← hsi]; rfl
  have w0 : (flatDims N M wf).window (ix1 v) 0 = 0 := rfl
  constructor
  · intro h
    have h0 : (flatDims N M wf).start (ix1 v) idx 0 + ((flatDims N M wf).window (ix1 v) 0 : ℤ) = (g.val : ℤ) := h 0
    rw [e0, w0] at h0
    simpa using h0
  · intro hg
    have t0 : (flatDims N M wf).start (ix1 v) idx 0 + ((flatDims N M wf).window (ix1 v) 0 : ℤ) = (g.val : ℤ) := by
      rw [e0, w0, hg]; simp
    intro a
    match a with
    | ⟨0, _⟩ => exact t0

/-- A flat scatter-add (`x.at[idx].add(u)` over a vector): element `g` is the operand's plus the sum of the updates
    whose index, read signed, is `g`. -/
theorem scatterAdd_flat_apply {N M w : Nat} (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![M, 1]⟩ w) (upd : (⟨1, ![M]⟩ : Shape).Idx → EReal)
    (g : Fin N) :
    Ideal.hostScatterAdd d x idx upd (ix1 g)
      = x (ix1 g) + ∑ v ∈ Finset.univ.filter (fun v : Fin M => (idx (ix2 v (0 : Fin 1))).toInt = (g.val : ℤ)), upd (ix1 v) := by
  obtain ⟨uw, iw, sd, iv, wf⟩ := d
  dsimp only at huw hiw hsd hiv
  subst huw hiw hsd hiv
  show x (ix1 g) + ∑ j ∈ Finset.univ.filter (fun j => (flatDims N M wf).resultIdx? j idx = some (ix1 g)), upd j = _
  congr 1
  -- the updates' index set is its one coordinate's range
  rw [Finset.sum_filter, Finset.sum_filter, sum_idx1]
  refine Finset.sum_congr rfl fun v _ => ?_
  simp only [flat_resultIdx?_iff]

/-- A row gather (`x[idx]` over the first axis of a matrix, the indices an [M × 1] column): row `e` of the result
    is the operand's row at `e`'s index read signed and clamped into `[0, N − 1]`. -/
theorem gather_rows_apply {α : Type} {N M D w : Nat} (hN : 0 < N) (d : GatherDims ⟨2, ![N, D]⟩ ⟨2, ![M, 1]⟩ ⟨2, ![M, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![M, 1]⟩ w) (e : Fin M) (k : Fin D) :
    Host.gather d x idx (ix2 e k) = x (ix2 (⟨min (idx (ix2 e (0 : Fin 1))).toInt.toNat (N - 1), by omega⟩ : Fin N) k) := by
  obtain ⟨od, cd, ob, sb, sm, iv, ss, wf⟩ := d
  dsimp only at hoff hcoll hob hsb hsim hivd hss
  subst hoff hcoll hob hsb hsim hivd hss
  unfold Host.gather
  congr 1
  funext a
  apply Fin.ext
  match a with
  | ⟨0, _⟩ =>
    -- the row axis: collapsed, start-indexed; the start index of result `(e, k)` is read at `(e, 0)`
    have hsi : (GatherDims.mk (s := ⟨2, ![N, D]⟩) (si := ⟨2, ![M, 1]⟩) (t := ⟨2, ![M, D]⟩) [1] [0] [] [] [0] 1 ![1, D] wf).siIdx
        (ix2 e k) ⟨0, Nat.one_pos⟩ = ix2 e (0 : Fin 1) := by
      funext b
      match b with
      | ⟨0, _⟩ => rfl
      | ⟨1, _⟩ => rfl
    show min (idx _).toInt.toNat (N - 1) + 0 + 0 = min (idx (ix2 e (0 : Fin 1))).toInt.toNat (N - 1)
    rw [← hsi]; rfl
  | ⟨1, _⟩ =>
    -- the column axis: kept, not start-indexed: start 0, offset coordinate `k`
    show 0 + 0 + k.val = k.val
    omega

end Idealize.ShloMosaic.ScatterRead

end
-- ==== Proof.RefValue.lean ====
/-
  The reference's result, read off its run, is the loss `Cert.Loss.total` of the argument arrays.

  Sample by sample: each of the six gathers reads a row of its table at a word of the sample's triple (an index in
  range is neither wrapped nor clamped), the two inner products are the sums over the 256 columns, the projected
  difference is the specification's column by column, the score is the square root of the sum of its squares; the
  hinge is the maximum with zero of the difference of the two scores plus the margin, and the loss is the sum over the
  samples divided by the batch size.
-/
import proofs.«412037_j48361331753003_2_alg».proof.Proof.Gen.ReferenceIdeal.Read
import proofs.«412037_j48361331753003_2_alg».proof.Proof.Spec
import proofs.«412037_j48361331753003_2_alg».proof.Proof.LibScatterRead

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx

/-! ## Words and rows -/

/-- A 32-bit word below 2^31 is not negative when read signed, so the wrap-around of a negative index (compare with
    zero, add the table's height, select) leaves it as it is. -/
theorem wrap_id (w c : BitVec 32) (hw : w.toNat < 2 ^ 31) :
    Scalar.select (IntOp.cmpi .slt w 0#32) (IntOp.addi w c) w = w := by
  have h : IntOp.cmpi .slt w 0#32 = 0#1 := by
    have hs : w.slt 0#32 = false := by
      rw [BitVec.slt_eq_decide, BitVec.toInt_eq_toNat_of_lt (by omega)]
      simp
    show BitVec.ofBool (w.slt 0#32) = 0#1
    rw [hs]; rfl
  rw [h, select_zero]

/-- Read signed, such a word is its natural value. -/
theorem toInt_toNat_of_lt (w : BitVec 32) (hw : w.toNat < 2 ^ 31) : w.toInt.toNat = w.toNat := by
  rw [BitVec.toInt_eq_toNat_of_lt (by omega)]; rfl

/-- A row gather at an index column whose entry for sample `e` is a word `w` below 2^31 reads row `w` of the
    table (the last row past the table's end): the clamp of the gather is the clamp of `rowAt`. -/
theorem gather_row {N : Nat} (hN : 0 < N) (d : GatherDims ⟨2, ![N, 256]⟩ ⟨2, ![16384, 1]⟩ ⟨2, ![16384, 256]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, 256])
    (X : (⟨2, ![N, 256]⟩ : Shape).Idx → EReal) (idx : IVec ⟨2, ![16384, 1]⟩ 32) (e : Fin 16384) (k : Fin 256)
    (w : BitVec 32) (hidx : idx (ix2 e (0 : Fin 1)) = w) (hw : w.toNat < 2 ^ 31) :
    Host.gather d X idx (ix2 e k) = Cert.Loss.rowAt hN X w.toNat k := by
  subst hidx
  rw [ScatterRead.gather_rows_apply hN d hoff hcoll hob hsb hsim hivd hss]
  unfold Cert.Loss.rowAt
  congr 2
  exact Fin.ext (by
    show min (idx (ix2 e (0 : Fin 1))).toInt.toNat (N - 1) = min (idx (ix2 e (0 : Fin 1))).toNat (N - 1)
    rw [toInt_toNat_of_lt _ hw])

/-- An index in range is below 2^31. -/
theorem InRange.lt (tri : IVec (⟨2, ![16384, 3]⟩ : Shape) 32) (h : Cert.Loss.InRange tri) (e : Fin 16384) (k : Fin 3) :
    (tri (ix2 e k)).toNat < 2 ^ 31 := by
  have := h e
  match k with
  | ⟨0, _⟩ => exact lt_trans this.1 (by norm_num)
  | ⟨1, _⟩ => exact lt_trans this.2.1 (by norm_num)
  | ⟨2, _⟩ => exact lt_trans this.2.2 (by norm_num)

/-- The index equations: the composed index functions of the layout operations, at coordinates. -/
theorem slice0 (e : Fin 16384) : idx_main_v0 (idx_main_v1 (ix1 e)) = ix2 e (0 : Fin 3) :=
  funext fun a => Fin.ext (by match a with | ⟨0, _⟩ => exact Nat.div_one _ | ⟨1, _⟩ => rfl)
theorem slice1 (e : Fin 16384) : idx_main_v2 (idx_main_v3 (ix1 e)) = ix2 e (1 : Fin 3) :=
  funext fun a => Fin.ext (by match a with | ⟨0, _⟩ => exact Nat.div_one _ | ⟨1, _⟩ => rfl)
theorem slice2 (e : Fin 16384) : idx_main_v4 (idx_main_v5 (ix1 e)) = ix2 e (2 : Fin 3) :=
  funext fun a => Fin.ext (by match a with | ⟨0, _⟩ => exact Nat.div_one _ | ⟨1, _⟩ => rfl)
theorem col_v11 (e : Fin 16384) : idx_main_v11 (ix2 e (0 : Fin 1)) = ix1 e :=
  funext fun a => Fin.ext (by match a with | ⟨0, _⟩ => rfl)
theorem col_v18 (e : Fin 16384) : idx_main_v18 (ix2 e (0 : Fin 1)) = ix1 e := col_v11 e
theorem col_v25 (e : Fin 16384) : idx_main_v25 (ix2 e (0 : Fin 1)) = ix1 e := col_v11 e
theorem col_v32 (e : Fin 16384) : idx_main_v32 (ix2 e (0 : Fin 1)) = ix1 e := col_v11 e
theorem col_v39 (e : Fin 16384) : idx_main_v39 (ix2 e (0 : Fin 1)) = ix1 e := col_v11 e
theorem col_v46 (e : Fin 16384) : idx_main_v46 (ix2 e (0 : Fin 1)) = ix1 e := col_v11 e
theorem colk_v49 (e : Fin 16384) (k : Fin 256) : idx_main_v49 (ix1 e) k = ix2 e k :=
  funext fun a => Fin.ext (by match a with | ⟨0, _⟩ => rfl | ⟨1, _⟩ => rfl)
theorem colk_v55 (e : Fin 16384) (k : Fin 256) : idx_main_v55 (ix1 e) k = ix2 e k := colk_v49 e k
theorem colk_v65 (e : Fin 16384) (k : Fin 256) : idx_main_v65 (ix1 e) k = ix2 e k := colk_v49 e k
theorem bck_v51 (e : Fin 16384) (k : Fin 256) : idx_main_v50 (idx_main_v51 (ix2 e k)) = ix1 e :=
  funext fun a => Fin.ext (by match a with | ⟨0, _⟩ => rfl)
theorem bck_v57 (e : Fin 16384) (k : Fin 256) : idx_main_v56 (idx_main_v57 (ix2 e k)) = ix1 e := bck_v51 e k
theorem nslice0 (e : Fin 16384) : idx_main_v67 (idx_main_v68 (ix1 e)) = ix2 e (0 : Fin 3) := slice0 e
theorem nslice1 (e : Fin 16384) : idx_main_v69 (idx_main_v70 (ix1 e)) = ix2 e (1 : Fin 3) := slice1 e
theorem nslice2 (e : Fin 16384) : idx_main_v71 (idx_main_v72 (ix1 e)) = ix2 e (2 : Fin 3) := slice2 e
theorem col_v78 (e : Fin 16384) : idx_main_v78 (ix2 e (0 : Fin 1)) = ix1 e := col_v11 e
theorem col_v85 (e : Fin 16384) : idx_main_v85 (ix2 e (0 : Fin 1)) = ix1 e := col_v11 e
theorem col_v92 (e : Fin 16384) : idx_main_v92 (ix2 e (0 : Fin 1)) = ix1 e := col_v11 e
theorem col_v99 (e : Fin 16384) : idx_main_v99 (ix2 e (0 : Fin 1)) = ix1 e := col_v11 e
theorem col_v106 (e : Fin 16384) : idx_main_v106 (ix2 e (0 : Fin 1)) = ix1 e := col_v11 e
theorem col_v113 (e : Fin 16384) : idx_main_v113 (ix2 e (0 : Fin 1)) = ix1 e := col_v11 e
theorem colk_v116 (e : Fin 16384) (k : Fin 256) : idx_main_v116 (ix1 e) k = ix2 e k := colk_v49 e k
theorem colk_v122 (e : Fin 16384) (k : Fin 256) : idx_main_v122 (ix1 e) k = ix2 e k := colk_v49 e k
theorem colk_v132 (e : Fin 16384) (k : Fin 256) : idx_main_v132 (ix1 e) k = ix2 e k := colk_v49 e k
theorem bck_v118 (e : Fin 16384) (k : Fin 256) : idx_main_v117 (idx_main_v118 (ix2 e k)) = ix1 e := bck_v51 e k
theorem bck_v124 (e : Fin 16384) (k : Fin 256) : idx_main_v123 (idx_main_v124 (ix2 e k)) = ix1 e := bck_v51 e k

section Positive

variable (x0 : (⟨S16384x3, .i32⟩ : BufTy).Contents (Elt Ideal)) (x2 x3 : (⟨S500000x256, .f32⟩ : BufTy).Contents (Elt Ideal))
  (x4 x5 : (⟨S1000x256, .f32⟩ : BufTy).Contents (Elt Ideal))

/-- The three words of sample `e`'s positive triple. -/
theorem pos_w0 (e : Fin 16384) : val_main_v1 (F := Ideal) x0 (ix1 e) = x0 (ix2 e 0) := by
  rw [val_main_v1_apply, val_main_v0_apply, slice0]
theorem pos_w1 (e : Fin 16384) : val_main_v3 (F := Ideal) x0 (ix1 e) = x0 (ix2 e 1) := by
  rw [val_main_v3_apply, val_main_v2_apply, slice1]
theorem pos_w2 (e : Fin 16384) : val_main_v5 (F := Ideal) x0 (ix1 e) = x0 (ix2 e 2) := by
  rw [val_main_v5_apply, val_main_v4_apply, slice2]

/-- The index columns of the six gathers: the wrap-around leaves a word in range as it is. -/
theorem pos_i11 (h0 : Cert.Loss.InRange x0) (e : Fin 16384) : val_main_v11 (F := Ideal) x0 (ix2 e (0 : Fin 1)) = x0 (ix2 e 0) := by
  rw [val_main_v11_apply, val_main_v10_apply, val_main_v7_apply, val_main_v9_apply, val_main_v6_apply, val_main_c_apply,
    col_v11, pos_w0]
  exact wrap_id _ _ (InRange.lt x0 h0 e 0)
theorem pos_i18 (h0 : Cert.Loss.InRange x0) (e : Fin 16384) : val_main_v18 (F := Ideal) x0 (ix2 e (0 : Fin 1)) = x0 (ix2 e 0) := by
  rw [val_main_v18_apply, val_main_v17_apply, val_main_v14_apply, val_main_v16_apply, val_main_v13_apply, val_main_c_1_apply,
    col_v18, pos_w0]
  exact wrap_id _ _ (InRange.lt x0 h0 e 0)
theorem pos_i25 (h0 : Cert.Loss.InRange x0) (e : Fin 16384) : val_main_v25 (F := Ideal) x0 (ix2 e (0 : Fin 1)) = x0 (ix2 e 2) := by
  rw [val_main_v25_apply, val_main_v24_apply, val_main_v21_apply, val_main_v23_apply, val_main_v20_apply, val_main_c_3_apply,
    col_v25, pos_w2]
  exact wrap_id _ _ (InRange.lt x0 h0 e 2)
theorem pos_i32 (h0 : Cert.Loss.InRange x0) (e : Fin 16384) : val_main_v32 (F := Ideal) x0 (ix2 e (0 : Fin 1)) = x0 (ix2 e 2) := by
  rw [val_main_v32_apply, val_main_v31_apply, val_main_v28_apply, val_main_v30_apply, val_main_v27_apply, val_main_c_5_apply,
    col_v32, pos_w2]
  exact wrap_id _ _ (InRange.lt x0 h0 e 2)
theorem pos_i39 (h0 : Cert.Loss.InRange x0) (e : Fin 16384) : val_main_v39 (F := Ideal) x0 (ix2 e (0 : Fin 1)) = x0 (ix2 e 1) := by
  rw [val_main_v39_apply, val_main_v38_apply, val_main_v35_apply, val_main_v37_apply, val_main_v34_apply, val_main_c_7_apply,
    col_v39, pos_w1]
  exact wrap_id _ _ (InRange.lt x0 h0 e 1)
theorem pos_i46 (h0 : Cert.Loss.InRange x0) (e : Fin 16384) : val_main_v46 (F := Ideal) x0 (ix2 e (0 : Fin 1)) = x0 (ix2 e 1) := by
  rw [val_main_v46_apply, val_main_v45_apply, val_main_v42_apply, val_main_v44_apply, val_main_v41_apply, val_main_c_9_apply,
    col_v46, pos_w1]
  exact wrap_id _ _ (InRange.lt x0 h0 e 1)

/-- The six gathered rows of sample `e`: head and tail rows of the entity table and of its projection table, the
    relation's row of the relation table and of its projection table. -/
theorem pos_r12 (h0 : Cert.Loss.InRange x0) (e : Fin 16384) (k : Fin 256) :
    val_main_v12 (F := Ideal) x0 x2 (ix2 e k) = Cert.Loss.rowAt (by norm_num) x2 (Cert.Loss.word x0 e 0) k :=
  gather_row _ _ rfl rfl rfl rfl rfl rfl rfl x2 _ e k _ (pos_i11 x0 h0 e) (InRange.lt x0 h0 e 0)
theorem pos_r19 (h0 : Cert.Loss.InRange x0) (e : Fin 16384) (k : Fin 256) :
    val_main_v19 (F := Ideal) x0 x3 (ix2 e k) = Cert.Loss.rowAt (by norm_num) x3 (Cert.Loss.word x0 e 0) k :=
  gather_row _ _ rfl rfl rfl rfl rfl rfl rfl x3 _ e k _ (pos_i18 x0 h0 e) (InRange.lt x0 h0 e 0)
theorem pos_r26 (h0 : Cert.Loss.InRange x0) (e : Fin 16384) (k : Fin 256) :
    val_main_v26 (F := Ideal) x0 x2 (ix2 e k) = Cert.Loss.rowAt (by norm_num) x2 (Cert.Loss.word x0 e 2) k :=
  gather_row _ _ rfl rfl rfl rfl rfl rfl rfl x2 _ e k _ (pos_i25 x0 h0 e) (InRange.lt x0 h0 e 2)
theorem pos_r33 (h0 : Cert.Loss.InRange x0) (e : Fin 16384) (k : Fin 256) :
    val_main_v33 (F := Ideal) x0 x3 (ix2 e k) = Cert.Loss.rowAt (by norm_num) x3 (Cert.Loss.word x0 e 2) k :=
  gather_row _ _ rfl rfl rfl rfl rfl rfl rfl x3 _ e k _ (pos_i32 x0 h0 e) (InRange.lt x0 h0 e 2)
theorem pos_r40 (h0 : Cert.Loss.InRange x0) (e : Fin 16384) (k : Fin 256) :
    val_main_v40 (F := Ideal) x0 x4 (ix2 e k) = Cert.Loss.rowAt (by norm_num) x4 (Cert.Loss.word x0 e 1) k :=
  gather_row _ _ rfl rfl rfl rfl rfl rfl rfl x4 _ e k _ (pos_i39 x0 h0 e) (InRange.lt x0 h0 e 1)
theorem pos_r47 (h0 : Cert.Loss.InRange x0) (e : Fin 16384) (k : Fin 256) :
    val_main_v47 (F := Ideal) x0 x5 (ix2 e k) = Cert.Loss.rowAt (by norm_num) x5 (Cert.Loss.word x0 e 1) k :=
  gather_row _ _ rfl rfl rfl rfl rfl rfl rfl x5 _ e k _ (pos_i46 x0 h0 e) (InRange.lt x0 h0 e 1)

/-- The two inner products of sample `e`: the head's projection row with its row, the tail's likewise (a host sum
    from the zero literal is the plain sum). -/
theorem pos_dot_h (h0 : Cert.Loss.InRange x0) (e : Fin 16384) :
    val_main_v49 (F := Ideal) x0 x2 x3 (ix1 e)
      = Cert.Loss.dot (Cert.Loss.rowAt (by norm_num) x3 (Cert.Loss.word x0 e 0)) (Cert.Loss.rowAt (by norm_num) x2 (Cert.Loss.word x0 e 0)) := by
  rw [val_main_v49_apply, val_main_cst_apply, Ideal.ofBits_def, Ideal.ofBits_zero_f32, zero_add]
  unfold Cert.Loss.dot
  refine Finset.sum_congr rfl fun k _ => ?_
  rw [colk_v49, val_main_v48_apply, pos_r19 x0 x3 h0, pos_r12 x0 x2 h0]
  rfl
theorem pos_dot_t (h0 : Cert.Loss.InRange x0) (e : Fin 16384) :
    val_main_v55 (F := Ideal) x0 x2 x3 (ix1 e)
      = Cert.Loss.dot (Cert.Loss.rowAt (by norm_num) x3 (Cert.Loss.word x0 e 2)) (Cert.Loss.rowAt (by norm_num) x2 (Cert.Loss.word x0 e 2)) := by
  rw [val_main_v55_apply, val_main_cst_11_apply, Ideal.ofBits_def, Ideal.ofBits_zero_f32, zero_add]
  unfold Cert.Loss.dot
  refine Finset.sum_congr rfl fun k _ => ?_
  rw [colk_v55, val_main_v54_apply, pos_r33 x0 x3 h0, pos_r26 x0 x2 h0]
  rfl

/-- The projected difference of sample `e` at column `k`. -/
theorem pos_diff (h0 : Cert.Loss.InRange x0) (e : Fin 16384) (k : Fin 256) :
    val_main_v63 (F := Ideal) x0 x2 x3 x4 x5 (ix2 e k)
      = Cert.Loss.diff (Cert.Loss.rowAt (by norm_num) x2 (Cert.Loss.word x0 e 0)) (Cert.Loss.rowAt (by norm_num) x3 (Cert.Loss.word x0 e 0))
          (Cert.Loss.rowAt (by norm_num) x2 (Cert.Loss.word x0 e 2)) (Cert.Loss.rowAt (by norm_num) x3 (Cert.Loss.word x0 e 2))
          (Cert.Loss.rowAt (by norm_num) x4 (Cert.Loss.word x0 e 1)) (Cert.Loss.rowAt (by norm_num) x5 (Cert.Loss.word x0 e 1)) k := by
  rw [val_main_v63_apply, val_main_v61_apply, val_main_v60_apply, val_main_v59_apply, val_main_v58_apply, val_main_v57_apply,
    val_main_v56_apply, val_main_v53_apply, val_main_v52_apply, val_main_v51_apply, val_main_v50_apply, val_main_v62_apply,
    val_main_cst_12_apply, bck_v51, bck_v57, pos_dot_h x0 x2 x3 h0, pos_dot_t x0 x2 x3 h0, pos_r47 x0 x5 h0, pos_r12 x0 x2 h0,
    pos_r40 x0 x4 h0, pos_r26 x0 x2 h0]
  rfl

/-- The score of sample `e`'s positive triple. -/
theorem pos_score (h0 : Cert.Loss.InRange x0) (e : Fin 16384) :
    val_main_v66 (F := Ideal) x0 x2 x3 x4 x5 (ix1 e)
      = Cert.Loss.tripleScore x2 x3 x4 x5 (Cert.Loss.word x0 e 0) (Cert.Loss.word x0 e 1) (Cert.Loss.word x0 e 2) := by
  rw [val_main_v66_apply, val_main_v65_apply, val_main_cst_13_apply, Ideal.ofBits_def, Ideal.ofBits_zero_f32, zero_add,
    Ideal.hostUnary_sqrt_def]
  unfold Cert.Loss.tripleScore Cert.Loss.score
  refine congrArg Ideal.sqrt (Finset.sum_congr rfl fun k _ => ?_)
  rw [colk_v65, val_main_v64_apply, pos_diff x0 x2 x3 x4 x5 h0]
  rfl

end Positive

/-! ## The negative triple: the same operations over the second triple array -/

section Negative

variable (x1 : (⟨S16384x3, .i32⟩ : BufTy).Contents (Elt Ideal)) (x2 x3 : (⟨S500000x256, .f32⟩ : BufTy).Contents (Elt Ideal))
  (x4 x5 : (⟨S1000x256, .f32⟩ : BufTy).Contents (Elt Ideal))

/-- The three words of sample `e`'s negative triple. -/
theorem neg_w0 (e : Fin 16384) : val_main_v68 (F := Ideal) x1 (ix1 e) = x1 (ix2 e 0) := by
  rw [val_main_v68_apply, val_main_v67_apply, nslice0]
theorem neg_w1 (e : Fin 16384) : val_main_v70 (F := Ideal) x1 (ix1 e) = x1 (ix2 e 1) := by
  rw [val_main_v70_apply, val_main_v69_apply, nslice1]
theorem neg_w2 (e : Fin 16384) : val_main_v72 (F := Ideal) x1 (ix1 e) = x1 (ix2 e 2) := by
  rw [val_main_v72_apply, val_main_v71_apply, nslice2]

/-- The index columns of its six gathers. -/
theorem neg_i78 (h1 : Cert.Loss.InRange x1) (e : Fin 16384) : val_main_v78 (F := Ideal) x1 (ix2 e (0 : Fin 1)) = x1 (ix2 e 0) := by
  rw [val_main_v78_apply, val_main_v77_apply, val_main_v74_apply, val_main_v76_apply, val_main_v73_apply, val_main_c_14_apply,
    col_v78, neg_w0]
  exact wrap_id _ _ (InRange.lt x1 h1 e 0)
theorem neg_i85 (h1 : Cert.Loss.InRange x1) (e : Fin 16384) : val_main_v85 (F := Ideal) x1 (ix2 e (0 : Fin 1)) = x1 (ix2 e 0) := by
  rw [val_main_v85_apply, val_main_v84_apply, val_main_v81_apply, val_main_v83_apply, val_main_v80_apply, val_main_c_16_apply,
    col_v85, neg_w0]
  exact wrap_id _ _ (InRange.lt x1 h1 e 0)
theorem neg_i92 (h1 : Cert.Loss.InRange x1) (e : Fin 16384) : val_main_v92 (F := Ideal) x1 (ix2 e (0 : Fin 1)) = x1 (ix2 e 2) := by
  rw [val_main_v92_apply, val_main_v91_apply, val_main_v88_apply, val_main_v90_apply, val_main_v87_apply, val_main_c_18_apply,
    col_v92, neg_w2]
  exact wrap_id _ _ (InRange.lt x1 h1 e 2)
theorem neg_i99 (h1 : Cert.Loss.InRange x1) (e : Fin 16384) : val_main_v99 (F := Ideal) x1 (ix2 e (0 : Fin 1)) = x1 (ix2 e 2) := by
  rw [val_main_v99_apply, val_main_v98_apply, val_main_v95_apply, val_main_v97_apply, val_main_v94_apply, val_main_c_20_apply,
    col_v99, neg_w2]
  exact wrap_id _ _ (InRange.lt x1 h1 e 2)
theorem neg_i106 (h1 : Cert.Loss.InRange x1) (e : Fin 16384) : val_main_v106 (F := Ideal) x1 (ix2 e (0 : Fin 1)) = x1 (ix2 e 1) := by
  rw [val_main_v106_apply, val_main_v105_apply, val_main_v102_apply, val_main_v104_apply, val_main_v101_apply, val_main_c_22_apply,
    col_v106, neg_w1]
  exact wrap_id _ _ (InRange.lt x1 h1 e 1)
theorem neg_i113 (h1 : Cert.Loss.InRange x1) (e : Fin 16384) : val_main_v113 (F := Ideal) x1 (ix2 e (0 : Fin 1)) = x1 (ix2 e 1) := by
  rw [val_main_v113_apply, val_main_v112_apply, val_main_v109_apply, val_main_v111_apply, val_main_v108_apply, val_main_c_24_apply,
    col_v113, neg_w1]
  exact wrap_id _ _ (InRange.lt x1 h1 e 1)

/-- Its six gathered rows. -/
theorem neg_r79 (h1 : Cert.Loss.InRange x1) (e : Fin 16384) (k : Fin 256) :
    val_main_v79 (F := Ideal) x1 x2 (ix2 e k) = Cert.Loss.rowAt (by norm_num) x2 (Cert.Loss.word x1 e 0) k :=
  gather_row _ _ rfl rfl rfl rfl rfl rfl rfl x2 _ e k _ (neg_i78 x1 h1 e) (InRange.lt x1 h1 e 0)
theorem neg_r86 (h1 : Cert.Loss.InRange x1) (e : Fin 16384) (k : Fin 256) :
    val_main_v86 (F := Ideal) x1 x3 (ix2 e k) = Cert.Loss.rowAt (by norm_num) x3 (Cert.Loss.word x1 e 0) k :=
  gather_row _ _ rfl rfl rfl rfl rfl rfl rfl x3 _ e k _ (neg_i85 x1 h1 e) (InRange.lt x1 h1 e 0)
theorem neg_r93 (h1 : Cert.Loss.InRange x1) (e : Fin 16384) (k : Fin 256) :
    val_main_v93 (F := Ideal) x1 x2 (ix2 e k) = Cert.Loss.rowAt (by norm_num) x2 (Cert.Loss.word x1 e 2) k :=
  gather_row _ _ rfl rfl rfl rfl rfl rfl rfl x2 _ e k _ (neg_i92 x1 h1 e) (InRange.lt x1 h1 e 2)
theorem neg_r100 (h1 : Cert.Loss.InRange x1) (e : Fin 16384) (k : Fin 256) :
    val_main_v100 (F := Ideal) x1 x3 (ix2 e k) = Cert.Loss.rowAt (by norm_num) x3 (Cert.Loss.word x1 e 2) k :=
  gather_row _ _ rfl rfl rfl rfl rfl rfl rfl x3 _ e k _ (neg_i99 x1 h1 e) (InRange.lt x1 h1 e 2)
theorem neg_r107 (h1 : Cert.Loss.InRange x1) (e : Fin 16384) (k : Fin 256) :
    val_main_v107 (F := Ideal) x1 x4 (ix2 e k) = Cert.Loss.rowAt (by norm_num) x4 (Cert.Loss.word x1 e 1) k :=
  gather_row _ _ rfl rfl rfl rfl rfl rfl rfl x4 _ e k _ (neg_i106 x1 h1 e) (InRange.lt x1 h1 e 1)
theorem neg_r114 (h1 : Cert.Loss.InRange x1) (e : Fin 16384) (k : Fin 256) :
    val_main_v114 (F := Ideal) x1 x5 (ix2 e k) = Cert.Loss.rowAt (by norm_num) x5 (Cert.Loss.word x1 e 1) k :=
  gather_row _ _ rfl rfl rfl rfl rfl rfl rfl x5 _ e k _ (neg_i113 x1 h1 e) (InRange.lt x1 h1 e 1)

/-- Its two inner products. -/
theorem neg_dot_h (h1 : Cert.Loss.InRange x1) (e : Fin 16384) :
    val_main_v116 (F := Ideal) x1 x2 x3 (ix1 e)
      = Cert.Loss.dot (Cert.Loss.rowAt (by norm_num) x3 (Cert.Loss.word x1 e 0)) (Cert.Loss.rowAt (by norm_num) x2 (Cert.Loss.word x1 e 0)) := by
  rw [val_main_v116_apply, val_main_cst_26_apply, Ideal.ofBits_def, Ideal.ofBits_zero_f32, zero_add]
  unfold Cert.Loss.dot
  refine Finset.sum_congr rfl fun k _ => ?_
  rw [colk_v116, val_main_v115_apply, neg_r86 x1 x3 h1, neg_r79 x1 x2 h1]
  rfl
theorem neg_dot_t (h1 : Cert.Loss.InRange x1) (e : Fin 16384) :
    val_main_v122 (F := Ideal) x1 x2 x3 (ix1 e)
      = Cert.Loss.dot (Cert.Loss.rowAt (by norm_num) x3 (Cert.Loss.word x1 e 2)) (Cert.Loss.rowAt (by norm_num) x2 (Cert.Loss.word x1 e 2)) := by
  rw [val_main_v122_apply, val_main_cst_27_apply, Ideal.ofBits_def, Ideal.ofBits_zero_f32, zero_add]
  unfold Cert.Loss.dot
  refine Finset.sum_congr rfl fun k _ => ?_
  rw [colk_v122, val_main_v121_apply, neg_r100 x1 x3 h1, neg_r93 x1 x2 h1]
  rfl

/-- Its projected difference at column `k`. -/
theorem neg_diff (h1 : Cert.Loss.InRange x1) (e : Fin 16384) (k : Fin 256) :
    val_main_v130 (F := Ideal) x1 x2 x3 x4 x5 (ix2 e k)
      = Cert.Loss.diff (Cert.Loss.rowAt (by norm_num) x2 (Cert.Loss.word x1 e 0)) (Cert.Loss.rowAt (by norm_num) x3 (Cert.Loss.word x1 e 0))
          (Cert.Loss.rowAt (by norm_num) x2 (Cert.Loss.word x1 e 2)) (Cert.Loss.rowAt (by norm_num) x3 (Cert.Loss.word x1 e 2))
          (Cert.Loss.rowAt (by norm_num) x4 (Cert.Loss.word x1 e 1)) (Cert.Loss.rowAt (by norm_num) x5 (Cert.Loss.word x1 e 1)) k := by
  rw [val_main_v130_apply, val_main_v128_apply, val_main_v127_apply, val_main_v126_apply, val_main_v125_apply, val_main_v124_apply,
    val_main_v123_apply, val_main_v120_apply, val_main_v119_apply, val_main_v118_apply, val_main_v117_apply, val_main_v129_apply,
    val_main_cst_28_apply, bck_v118, bck_v124, neg_dot_h x1 x2 x3 h1, neg_dot_t x1 x2 x3 h1, neg_r114 x1 x5 h1, neg_r79 x1 x2 h1,
    neg_r107 x1 x4 h1, neg_r93 x1 x2 h1]
  rfl

/-- The score of sample `e`'s negative triple. -/
theorem neg_score (h1 : Cert.Loss.InRange x1) (e : Fin 16384) :
    val_main_v133 (F := Ideal) x1 x2 x3 x4 x5 (ix1 e)
      = Cert.Loss.tripleScore x2 x3 x4 x5 (Cert.Loss.word x1 e 0) (Cert.Loss.word x1 e 1) (Cert.Loss.word x1 e 2) := by
  rw [val_main_v133_apply, val_main_v132_apply, val_main_cst_29_apply, Ideal.ofBits_def, Ideal.ofBits_zero_f32, zero_add,
    Ideal.hostUnary_sqrt_def]
  unfold Cert.Loss.tripleScore Cert.Loss.score
  refine congrArg Ideal.sqrt (Finset.sum_congr rfl fun k _ => ?_)
  rw [colk_v132, val_main_v131_apply, neg_diff x1 x2 x3 x4 x5 h1]
  rfl

end Negative

/-! ## The samples' mean -/

section Total

variable (x0 x1 : (⟨S16384x3, .i32⟩ : BufTy).Contents (Elt Ideal)) (x2 x3 : (⟨S500000x256, .f32⟩ : BufTy).Contents (Elt Ideal))
  (x4 x5 : (⟨S1000x256, .f32⟩ : BufTy).Contents (Elt Ideal))

/-- Sample `e`'s hinge: the maximum with zero of the two scores' difference plus the margin. -/
theorem sample (h0 : Cert.Loss.InRange x0) (h1 : Cert.Loss.InRange x1) (e : Fin 16384) :
    val_main_v137 (F := Ideal) x0 x1 x2 x3 x4 x5 (ix1 e) = Cert.Loss.sampleLoss x0 x1 x2 x3 x4 x5 e := by
  rw [val_main_v137_apply, val_main_v136_apply, val_main_v134_apply, val_main_v135_apply, val_main_cst_30_apply,
    val_main_call0_v0_apply, val_main_call0_cst_apply, pos_score x0 x2 x3 x4 x5 h0, neg_score x1 x2 x3 x4 x5 h1]
  simp only [Ideal.ofBits_def, Ideal.ofBits_zero_f32, Ideal.maximumf_def, Ideal.addf_def, Ideal.subf_def]
  rfl

/-- The reference's result: the sum of the samples' hinges (a host sum from the zero literal) divided by the batch
    size. -/
theorem result_eq (h0 : Cert.Loss.InRange x0) (h1 : Cert.Loss.InRange x1) :
    val_main_v139 (F := Ideal) x0 x1 x2 x3 x4 x5 = fun _ => Cert.Loss.total x0 x1 x2 x3 x4 x5 := by
  funext i
  rw [val_main_v139_apply, val_main_v138_apply, val_main_cst_31_apply, val_main_cst_32_apply, Ideal.hostDivf_def]
  simp only [Ideal.ofBits_def, Ideal.ofBits_zero_f32, zero_add]
  have hs : (∑ j : S16384.Idx, val_main_v137 (F := Ideal) x0 x1 x2 x3 x4 x5 j)
      = ∑ e : Fin 16384, Cert.Loss.sampleLoss x0 x1 x2 x3 x4 x5 e :=
    (ScatterRead.sum_idx1 _).trans (Finset.sum_congr rfl fun e _ => sample x0 x1 x2 x3 x4 x5 h0 h1 e)
  rw [hs]
  rfl

end Total

/-! ## The run -/

/-- Every weakly fair execution of the reference from a memory whose two triple arrays are in range ends with its
    result at the loss of the six argument arrays, the arguments unchanged. -/
theorem run_total (m' : (ℓ : Loc Cert.ReferenceIdeal.nD Cert.ReferenceIdeal.τ Cert.ReferenceIdeal.sig) → Buf (Elt Ideal) ℓ)
    (ρ' : Dev Cert.ReferenceIdeal.nD → PrngReg)
    (h0 : ∀ c : Dev Cert.ReferenceIdeal.nD, Cert.Loss.InRange (m' ((c.tc : Thread Cert.ReferenceIdeal.nD Cert.ReferenceIdeal.τ).loc Cert.ReferenceIdeal.main_arg0)))
    (h1 : ∀ c : Dev Cert.ReferenceIdeal.nD, Cert.Loss.InRange (m' ((c.tc : Thread Cert.ReferenceIdeal.nD Cert.ReferenceIdeal.τ).loc Cert.ReferenceIdeal.main_arg1))) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v139)
        = (fun _ => Cert.Loss.total
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
            (m' ((c.tc : Thread Cert.ReferenceIdeal.nD Cert.ReferenceIdeal.τ).loc Cert.ReferenceIdeal.main_arg5)))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  (θ_run Cert.ReferenceIdeal.defs _ _).mono
    (fun _ h c => ⟨(h c).1.trans ((val_main_v139_eq m' c).trans (result_eq _ _ _ _ _ _ (h0 c) (h1 c))), (h c).2⟩)
    (Cert.ReferenceIdeal.Value.run (F := Ideal) m' ρ')

end Cert.ReferenceIdeal.RefValue

end
-- ==== Proof.lean ====
/-
  The certificate of the translation-with-projection margin loss: the Pallas kernel that gathers, per sample, the six
  rows of a positive and of a negative triple through index tables, scores both and accumulates the hinge in one cell
  per half of the batch, against the jnp reference that gathers all rows at once.

  Both programs compute `Cert.Loss.total` of the six argument arrays on the extended reals wherever every index of a
  triple names a row of its table — the domain the precondition states beside finiteness, outside which the reference
  itself indexes out of range. The sums differ only in grouping (the kernel sums a row as 2 × 128 and the batch as
  2 × 8192), which the extended reals' addition, a commutative monoid, does not see; no finiteness is used.

  * the kernel's run (its frame, and its result as the fold of the samples' hinges): Proof/KI (idealized) and Proof/K
    (word level), from the body's run at one grid point, the pipeline's proof data and the region launched between the
    host operations around it, the four tables shared read-only among the gathered windows;
  * the reference's run read back as the specification: Proof/RefValue over the reference's run;
  * the precondition decoded to the index ranges: Proof/PreRange.
-/
import proofs.«412037_j48361331753003_2_alg».proof.Defs
import proofs.«412037_j48361331753003_2_alg».proof.Proof.Gen.Kernel
import proofs.«412037_j48361331753003_2_alg».proof.Proof.Gen.KernelIdeal
import proofs.«412037_j48361331753003_2_alg».proof.Proof.Gen.ReferenceIdeal
import proofs.«412037_j48361331753003_2_alg».proof.Proof.Gen.Pre_finite_inputs
import proofs.«412037_j48361331753003_2_alg».proof.Proof.K.Launch
import proofs.«412037_j48361331753003_2_alg».proof.Proof.K.Rows
import proofs.«412037_j48361331753003_2_alg».proof.Proof.K.EndRead
import proofs.«412037_j48361331753003_2_alg».proof.Proof.KI.Launch
import proofs.«412037_j48361331753003_2_alg».proof.Proof.KI.KernelValue
import proofs.«412037_j48361331753003_2_alg».proof.Proof.PreRange
import proofs.«412037_j48361331753003_2_alg».proof.Proof.RefValue

noncomputable section

namespace Cert.Proof

open Idealize.ShloMosaic Idealize.ShloMosaic.TcCoe Idealize.SL.Sem

/-- The word-level kernel runs and leaves its arguments as they were: under the precondition the tables are in range,
    so the region's side condition holds, and the run ends with every bypassing buffer — the arguments among them — at
    the end contents, which at an argument are the launch contents. -/
theorem frame_k : Cert.frame_Kernel := by
  intro m ρ hpre
  have hIn := Cert.Pre_finite_inputs.Range.inRange_of_pre (F := Bits) _ _ _ _ _ _ (hpre 0)
  have hR := Cert.Kernel.Hand.tblRange_of_inRange m hIn.1 hIn.2
  have hO := Cert.Kernel.Hand.ok_of_range m hR
  obtain ⟨-, h0, h1, h2, h3, h4, h5⟩ := Cert.Kernel.Hand.mem_rest
  refine (θ_run (Cert.Kernel.defs (F := Bits)) _ _).mono (fun r h c => ?_) (Cert.Kernel.Hand.run_main m ρ hO)
  exact ⟨(h c _ h0).trans (Cert.Kernel.Hand.endVal_arg0 m hO c),
      (h c _ h1).trans (Cert.Kernel.Hand.endVal_arg1 m hO c),
      (h c _ h2).trans (Cert.Kernel.Hand.endVal_arg2 m hO c),
      (h c _ h3).trans (Cert.Kernel.Hand.endVal_arg3 m hO c),
      (h c _ h4).trans (Cert.Kernel.Hand.endVal_arg4 m hO c),
      (h c _ h5).trans (Cert.Kernel.Hand.endVal_arg5 m hO c)⟩

/-- The idealized kernel likewise. -/
theorem frame_ki : Cert.frame_KernelIdeal := by
  intro m ρ hpre
  have hIn := Cert.Pre_finite_inputs.Range.inRange_of_pre (F := Ideal) _ _ _ _ _ _ (hpre 0)
  have hR := Cert.KernelIdeal.Hand.tblRange_of_inRange m hIn.1 hIn.2
  have hO := Cert.KernelIdeal.Hand.ok_of_range m hR
  obtain ⟨-, h0, h1, h2, h3, h4, h5⟩ := Cert.KernelIdeal.Hand.mem_rest
  refine (θ_run (Cert.KernelIdeal.defs (F := Ideal)) _ _).mono (fun r h c => ?_) (Cert.KernelIdeal.Hand.run_main m ρ hO)
  exact ⟨(h c _ h0).trans (Cert.KernelIdeal.Hand.endVal_arg0 m hO c),
      (h c _ h1).trans (Cert.KernelIdeal.Hand.endVal_arg1 m hO c),
      (h c _ h2).trans (Cert.KernelIdeal.Hand.endVal_arg2 m hO c),
      (h c _ h3).trans (Cert.KernelIdeal.Hand.endVal_arg3 m hO c),
      (h c _ h4).trans (Cert.KernelIdeal.Hand.endVal_arg4 m hO c),
      (h c _ h5).trans (Cert.KernelIdeal.Hand.endVal_arg5 m hO c)⟩

/-- The reference runs and leaves its arguments as they were: its run read back, the result dropped. -/
theorem frame_ri : Cert.frame_ReferenceIdeal := by
  intro m ρ hpre
  have hIn := Cert.Pre_finite_inputs.Range.inRange_of_pre (F := Ideal) _ _ _ _ _ _ (hpre 0)
  refine (θ_run (Cert.ReferenceIdeal.defs (F := Ideal)) _ _).mono (fun r h c => (h c).2)
    (Cert.ReferenceIdeal.RefValue.run_total m ρ (fun c => by obtain rfl : c = 0 := Subsingleton.elim _ _; exact hIn.1)
      (fun c => by obtain rfl : c = 0 := Subsingleton.elim _ _; exact hIn.2))

/-- The ideal pass rewrote nothing: the idealized kernel is the kernel's own text read at the extended reals. -/
theorem preserves : Cert.preserves_Kernel_KernelIdeal := trivial

/-- Both idealized programs end with the loss of the argument arrays: the kernel's result is the two cells' sum over
    the batch size, each cell the fold of its half's hinges, and the reference's run reads back as the same function. -/
theorem algebraic : Cert.algebraic_KernelIdeal_ReferenceIdeal := by
  intro m ρ m' ρ' hpre hagree
  have hIn := Cert.Pre_finite_inputs.Range.inRange_of_pre (F := Ideal) _ _ _ _ _ _ (hpre 0)
  have hR := Cert.KernelIdeal.Hand.tblRange_of_inRange m hIn.1 hIn.2
  have hO := Cert.KernelIdeal.Hand.ok_of_range m hR
  obtain ⟨hv, h0, h1, h2, h3, h4, h5⟩ := Cert.KernelIdeal.Hand.mem_rest
  refine ⟨fun c => fun _ => Cert.Loss.total
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run (Cert.KernelIdeal.defs (F := Ideal)) _ _).mono (fun r h c => ?_) (Cert.KernelIdeal.Hand.run_main m ρ hO)
    exact ⟨(h c _ hv).trans (Cert.KernelIdeal.Hand.endVal_total m hO hR c),
      (h c _ h0).trans (Cert.KernelIdeal.Hand.endVal_arg0 m hO c),
      (h c _ h1).trans (Cert.KernelIdeal.Hand.endVal_arg1 m hO c),
      (h c _ h2).trans (Cert.KernelIdeal.Hand.endVal_arg2 m hO c),
      (h c _ h3).trans (Cert.KernelIdeal.Hand.endVal_arg3 m hO c),
      (h c _ h4).trans (Cert.KernelIdeal.Hand.endVal_arg4 m hO c),
      (h c _ h5).trans (Cert.KernelIdeal.Hand.endVal_arg5 m hO c)⟩
  · have hr0 : ∀ c : Dev Cert.ReferenceIdeal.nD, Cert.Loss.InRange (m' ((c.tc : Thread _ Cert.ReferenceIdeal.τ).loc Cert.ReferenceIdeal.main_arg0)) := fun c => by
      obtain rfl : c = 0 := Subsingleton.elim _ _
      rw [(hagree 0).1]; exact hIn.1
    have hr1 : ∀ c : Dev Cert.ReferenceIdeal.nD, Cert.Loss.InRange (m' ((c.tc : Thread _ Cert.ReferenceIdeal.τ).loc Cert.ReferenceIdeal.main_arg1)) := fun c => by
      obtain rfl : c = 0 := Subsingleton.elim _ _
      rw [(hagree 0).2.1]; exact hIn.2
    refine (θ_run (Cert.ReferenceIdeal.defs (F := Ideal)) _ _).mono (fun r h c => ⟨?_, (h c).2⟩)
      (Cert.ReferenceIdeal.RefValue.run_total m' ρ' hr0 hr1)
    rw [(h c).1, (hagree c).1, (hagree c).2.1, (hagree c).2.2.1, (hagree c).2.2.2.1, (hagree c).2.2.2.2.1, (hagree c).2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
